-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v215) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x1200000 : Shape := ⟨2, ![2, 1200000]⟩
abbrev S1200000 : Shape := ⟨1, ![1200000]⟩
abbrev S100000 : Shape := ⟨1, ![100000]⟩
abbrev S16x8 : Shape := ⟨2, ![16, 8]⟩
abbrev S16x32 : Shape := ⟨2, ![16, 32]⟩
abbrev S32 : Shape := ⟨1, ![32]⟩
abbrev S3x32x64 : Shape := ⟨3, ![3, 32, 64]⟩
abbrev S32x64 : Shape := ⟨2, ![32, 64]⟩
abbrev S64 : Shape := ⟨1, ![64]⟩
abbrev S3x64x64 : Shape := ⟨3, ![3, 64, 64]⟩
abbrev S64x64 : Shape := ⟨2, ![64, 64]⟩
abbrev S64x10 : Shape := ⟨2, ![64, 10]⟩
abbrev S10 : Shape := ⟨1, ![10]⟩
abbrev S_ : Shape := ⟨0, ![]⟩
abbrev S1x1200000 : Shape := ⟨2, ![1, 1200000]⟩

class Facts : Prop where
  bcast_S_S16x8 : S_.BroadcastsInDim S16x8 (![] : Fin 0 → Fin S16x8.rank)
  reducesTo_S16x8_S_d0_1 : S16x8.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S3x32x64 : S_.BroadcastsInDim S3x32x64 (![] : Fin 0 → Fin S3x32x64.rank)
  reducesTo_S3x32x64_S_d0_1_2 : S3x32x64.ReducesTo [0, 1, 2] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_
  bcast_S_S100000x2 : S_.BroadcastsInDim S100000x2 (![] : Fin 0 → Fin S100000x2.rank)
  reducesTo_S100000x2_S_d0_1 : S100000x2.ReducesTo [0, 1] S_
  slices_S2x1200000_S1x1200000_1_0 : S2x1200000.Slices ![1, 0] S1x1200000
  shapeCasts_S1x1200000_S1200000 : S1x1200000.ShapeCasts S1200000
  bcast_S_S1200000 : S_.BroadcastsInDim S1200000 (![] : Fin 0 → Fin S1200000.rank)
  reducesTo_S1200000_S_d0 : S1200000.ReducesTo [0] S_

variable [Facts]

def fn_part4 {F : FTy → Type} [FloatOps F] (main_arg1 : IVec S2x1200000 32) (main_arg2 : IVec S1200000 32) (main_v65 : IVec S_ 1) (main_v67 : IVec S1200000 32) (main_c_25 : IVec S_ 32) : IVec S_ 1 :=
  let main_v68 : IVec S1200000 32 := broadcastInDim S1200000 ![] bcast_S_S1200000 main_c_25
  let main_v69 : IVec S1200000 1 := cmpi .sge main_v67 main_v68
  let main_v70 : IVec S1x1200000 32 := (extractStridedSlice S1x1200000 ![1, 0] · slices_S2x1200000_S1x1200000_1_0) main_arg1
  let main_v71 : IVec S1200000 32 := shapeCast S1200000 main_v70 shapeCasts_S1x1200000_S1200000
  let main_c_26 : IVec S_ 32 := constantI S_ 32 100000#32
  let main_v72 : IVec S1200000 32 := broadcastInDim S1200000 ![] bcast_S_S1200000 main_c_26
  let main_v73 : IVec S1200000 1 := cmpi .slt main_v71 main_v72
  let main_v74 : IVec S1200000 1 := andi main_v69 main_v73
  let main_c_27 : IVec S_ 1 := constantI S_ 1 1#1
  let main_v75 : IVec S_ 1 := (fun x v => Host.reduce IntOp.andi x v reducesTo_S1200000_S_d0 h_S_) main_v74 main_c_27
  let main_v76 : IVec S_ 1 := andi main_v65 main_v75
  let main_c_28 : IVec S_ 32 := constantI S_ 32 0#32
  let main_v77 : IVec S1200000 32 := broadcastInDim S1200000 ![] bcast_S_S1200000 main_c_28
  let main_v78 : IVec S1200000 1 := cmpi .sge main_arg2 main_v77
  let main_c_29 : IVec S_ 32 := constantI S_ 32 3#32
  let main_v79 : IVec S1200000 32 := broadcastInDim S1200000 ![] bcast_S_S1200000 main_c_29
  let main_v80 : IVec S1200000 1 := cmpi .slt main_arg2 main_v79
  let main_v81 : IVec S1200000 1 := andi main_v78 main_v80
  let main_c_30 : IVec S_ 1 := constantI S_ 1 1#1
  let main_v82 : IVec S_ 1 := (fun x v => Host.reduce IntOp.andi x v reducesTo_S1200000_S_d0 h_S_) main_v81 main_c_30
  let main_v83 : IVec S_ 1 := andi main_v76 main_v82
  main_v83

def fn_part3 {F : FTy → Type} [FloatOps F] (main_arg0 : IVec S100000x2 32) (main_arg1 : IVec S2x1200000 32) (main_arg2 : IVec S1200000 32) (main_arg15 : FVec F S10 .f32) (main_v48 : IVec S_ 1) (main_v49 : FVec F S64x10 .f32) (main_v50 : FVec F S64x10 .f32) : IVec S_ 1 :=
  let main_v51 : IVec S64x10 1 := cmpf .olt main_v49 main_v50
  let main_c_19 : IVec S_ 1 := constantI S_ 1 1#1
  let main_v52 : IVec S_ 1 := (fun x v => Host.reduce IntOp.andi x v reducesTo_S64x10_S_d0_1 h_S_) main_v51 main_c_19
  let main_v53 : IVec S_ 1 := andi main_v48 main_v52
  let main_v54 : FVec F S10 .f32 := Host.absf main_arg15
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  let main_c_22 : IVec S_ 32 := constantI S_ 32 0#32
  let main_v59 : IVec S100000x2 32 := broadcastInDim S100000x2 ![] bcast_S_S100000x2 main_c_22
  let main_v60 : IVec S100000x2 1 := cmpi .sge main_arg0 main_v59
  let main_c_23 : IVec S_ 32 := constantI S_ 32 16#32
  let main_v61 : IVec S100000x2 32 := broadcastInDim S100000x2 ![] bcast_S_S100000x2 main_c_23
  let main_v62 : IVec S100000x2 1 := cmpi .slt main_arg0 main_v61
  let main_v63 : IVec S100000x2 1 := andi main_v60 main_v62
  let main_c_24 : IVec S_ 1 := constantI S_ 1 1#1
  let main_v64 : IVec S_ 1 := (fun x v => Host.reduce IntOp.andi x v reducesTo_S100000x2_S_d0_1 h_S_) main_v63 main_c_24
  let main_v65 : IVec S_ 1 := andi main_v58 main_v64
  let main_v66 : IVec S1x1200000 32 := (extractStridedSlice S1x1200000 ![1, 0] · slices_S2x1200000_S1x1200000_1_0) main_arg1
  let main_v67 : IVec S1200000 32 := shapeCast S1200000 main_v66 shapeCasts_S1x1200000_S1200000
  let main_c_25 : IVec S_ 32 := constantI S_ 32 0#32
  fn_part4 (F := F) main_arg1 main_arg2 main_v65 main_v67 main_c_25

def fn_part2 {F : FTy → Type} [FloatOps F] (main_arg0 : IVec S100000x2 32) (main_arg1 : IVec S2x1200000 32) (main_arg2 : IVec S1200000 32) (main_arg11 : FVec F S3x64x64 .f32) (main_arg12 : FVec F S64x64 .f32) (main_arg13 : FVec F S64 .f32) (main_arg14 : FVec F S64x10 .f32) (main_arg15 : FVec F S10 .f32) (main_v33 : IVec S_ 1) : IVec S_ 1 :=
  let main_v34 : FVec F S3x64x64 .f32 := Host.absf main_arg11
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S64x64 .f32 := Host.absf main_arg12
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg13
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x10 .f32 := Host.absf main_arg14
  let main_cst_18 : FVec F S_ .f32 := constant S_ .f32 0x7F800000#32
  let main_v50 : FVec F S64x10 .f32 := broadcastInDim S64x10 ![] bcast_S_S64x10 main_cst_18
  fn_part3 (F := F) main_arg0 main_arg1 main_arg2 main_arg15 main_v48 main_v49 main_v50

def fn_part1 {F : FTy → Type} [FloatOps F] (main_arg0 : IVec S100000x2 32) (main_arg1 : IVec S2x1200000 32) (main_arg2 : IVec S1200000 32) (main_arg8 : FVec F S3x32x64 .f32) (main_arg9 : FVec F S32x64 .f32) (main_arg10 : FVec F S64 .f32) (main_arg11 : FVec F S3x64x64 .f32) (main_arg12 : FVec F S64x64 .f32) (main_arg13 : FVec F S64 .f32) (main_arg14 : FVec F S64x10 .f32) (main_arg15 : FVec F S10 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S3x32x64 .f32 := Host.absf main_arg8
  let main_cst_6 : FVec F S_ .f32 := constant S_ .f32 0x7F800000#32
  let main_v20 : FVec F S3x32x64 .f32 := broadcastInDim S3x32x64 ![] bcast_S_S3x32x64 main_cst_6
  let main_v21 : IVec S3x32x64 1 := cmpf .olt main_v19 main_v20
  let main_c_7 : IVec S_ 1 := constantI S_ 1 1#1
  let main_v22 : IVec S_ 1 := (fun x v => Host.reduce IntOp.andi x v reducesTo_S3x32x64_S_d0_1_2 h_S_) main_v21 main_c_7
  let main_v23 : IVec S_ 1 := andi main_v18 main_v22
  let main_v24 : FVec F S32x64 .f32 := Host.absf main_arg9
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg0 main_arg1 main_arg2 main_arg11 main_arg12 main_arg13 main_arg14 main_arg15 main_v33

def fn {F : FTy → Type} [FloatOps F] (main_arg0 : IVec S100000x2 32) (main_arg1 : IVec S2x1200000 32) (main_arg2 : IVec S1200000 32) (main_arg3 : IVec S100000 32) (main_arg4 : FVec F S16x8 .f32) (main_arg5 : FVec F S16x8 .f32) (main_arg6 : FVec F S16x32 .f32) (main_arg7 : FVec F S32 .f32) (main_arg8 : FVec F S3x32x64 .f32) (main_arg9 : FVec F S32x64 .f32) (main_arg10 : FVec F S64 .f32) (main_arg11 : FVec F S3x64x64 .f32) (main_arg12 : FVec F S64x64 .f32) (main_arg13 : FVec F S64 .f32) (main_arg14 : FVec F S64x10 .f32) (main_arg15 : FVec F S10 .f32) : IVec S_ 1 :=
  let main_v0 : FVec F S16x8 .f32 := Host.absf main_arg4
  let main_cst : FVec F S_ .f32 := constant S_ .f32 0x7F800000#32
  let main_v1 : FVec F S16x8 .f32 := broadcastInDim S16x8 ![] bcast_S_S16x8 main_cst
  let main_v2 : IVec S16x8 1 := cmpf .olt main_v0 main_v1
  let main_c : IVec S_ 1 := constantI S_ 1 1#1
  let main_v3 : IVec S_ 1 := (fun x v => Host.reduce IntOp.andi x v reducesTo_S16x8_S_d0_1 h_S_) main_v2 main_c
  let main_v4 : FVec F S16x8 .f32 := Host.absf main_arg5
  let main_cst_0 : FVec F S_ .f32 := constant S_ .f32 0x7F800000#32
  let main_v5 : FVec F S16x8 .f32 := broadcastInDim S16x8 ![] bcast_S_S16x8 main_cst_0
  let main_v6 : IVec S16x8 1 := cmpf .olt main_v4 main_v5
  let main_c_1 : IVec S_ 1 := constantI S_ 1 1#1
  let main_v7 : IVec S_ 1 := (fun x v => Host.reduce IntOp.andi x v reducesTo_S16x8_S_d0_1 h_S_) main_v6 main_c_1
  let main_v8 : IVec S_ 1 := andi main_v3 main_v7
  let main_v9 : FVec F S16x32 .f32 := Host.absf main_arg6
  let main_cst_2 : FVec F S_ .f32 := constant S_ .f32 0x7F800000#32
  let main_v10 : FVec F S16x32 .f32 := broadcastInDim S16x32 ![] bcast_S_S16x32 main_cst_2
  let main_v11 : IVec S16x32 1 := cmpf .olt main_v9 main_v10
  let main_c_3 : IVec S_ 1 := constantI S_ 1 1#1
  let main_v12 : IVec S_ 1 := (fun x v => Host.reduce IntOp.andi x v reducesTo_S16x32_S_d0_1 h_S_) main_v11 main_c_3
  let main_v13 : IVec S_ 1 := andi main_v8 main_v12
  let main_v14 : FVec F S32 .f32 := Host.absf main_arg7
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg0 main_arg1 main_arg2 main_arg8 main_arg9 main_arg10 main_arg11 main_arg12 main_arg13 main_arg14 main_arg15 main_v13 main_v16
-- ==== Kernel.lean ====
abbrev S100000x2 : Shape := ⟨2, ![100000, 2]⟩
abbrev S2x1200000 : Shape := ⟨2, ![2, 1200000]⟩
abbrev S1200000 : Shape := ⟨1, ![1200000]⟩
abbrev S100000 : Shape := ⟨1, ![100000]⟩
abbrev S16x8 : Shape := ⟨2, ![16, 8]⟩
abbrev S16x32 : Shape := ⟨2, ![16, 32]⟩
abbrev S32 : Shape := ⟨1, ![32]⟩
abbrev S3x32x64 : Shape := ⟨3, ![3, 32, 64]⟩
abbrev S32x64 : Shape := ⟨2, ![32, 64]⟩
abbrev S64 : Shape := ⟨1, ![64]⟩
abbrev S3x64x64 : Shape := ⟨3, ![3, 64, 64]⟩
abbrev S64x64 : Shape := ⟨2, ![64, 64]⟩
abbrev S64x10 : Shape := ⟨2, ![64, 10]⟩
abbrev S10 : Shape := ⟨1, ![10]⟩
abbrev S1x1200000 : Shape := ⟨2, ![1, 1200000]⟩
abbrev S100000x32 : Shape := ⟨2, ![100000, 32]⟩
abbrev S_ : Shape := ⟨0, ![]⟩
abbrev S1200000x1 : Shape := ⟨2, ![1200000, 1]⟩
abbrev S1200000x32 : Shape := ⟨2, ![1200000, 32]⟩
abbrev S300000x32 : Shape := ⟨2, ![300000, 32]⟩
abbrev S300000 : Shape := ⟨1, ![300000]⟩
abbrev S100000x3x32 : Shape := ⟨3, ![100000, 3, 32]⟩
abbrev S100000x3x1 : Shape := ⟨3, ![100000, 3, 1]⟩
abbrev S100000x96 : Shape := ⟨2, ![100000, 96]⟩
abbrev S100000x128 : Shape := ⟨2, ![100000, 128]⟩
abbrev S96x64 : Shape := ⟨2, ![96, 64]⟩
abbrev S128x64 : Shape := ⟨2, ![128, 64]⟩
abbrev S100000x64 : Shape := ⟨2, ![100000, 64]⟩
abbrev S1200000x64 : Shape := ⟨2, ![1200000, 64]⟩
abbrev S300000x64 : Shape := ⟨2, ![300000, 64]⟩
abbrev S100000x3x64 : Shape := ⟨3, ![100000, 3, 64]⟩
abbrev S100000x192 : Shape := ⟨2, ![100000, 192]⟩
abbrev S100000x256 : Shape := ⟨2, ![100000, 256]⟩
abbrev S192x64 : Shape := ⟨2, ![192, 64]⟩
abbrev S256x64 : Shape := ⟨2, ![256, 64]⟩
abbrev S100000x1 : Shape := ⟨2, ![100000, 1]⟩
abbrev S512x64 : Shape := ⟨2, ![512, 64]⟩
abbrev S512 : Shape := ⟨1, ![512]⟩
abbrev S512x1 : Shape := ⟨2, ![512, 1]⟩
abbrev S512x10 : Shape := ⟨2, ![512, 10]⟩
abbrev S10000x2 : Shape := ⟨2, ![10000, 2]⟩
abbrev S10000x32 : Shape := ⟨2, ![10000, 32]⟩
abbrev S10000x1 : Shape := ⟨2, ![10000, 1]⟩
abbrev S10000x16 : Shape := ⟨2, ![10000, 16]⟩
abbrev S10000x8 : Shape := ⟨2, ![10000, 8]⟩
abbrev S1x32 : Shape := ⟨2, ![1, 32]⟩
abbrev S10000x128 : Shape := ⟨2, ![10000, 128]⟩
abbrev S10000x64 : Shape := ⟨2, ![10000, 64]⟩
abbrev S1x64 : Shape := ⟨2, ![1, 64]⟩
abbrev S5000x256 : Shape := ⟨2, ![5000, 256]⟩
abbrev S5000x64 : Shape := ⟨2, ![5000, 64]⟩
abbrev S2000x64 : Shape := ⟨2, ![2000, 64]⟩
abbrev S2000x1 : Shape := ⟨2, ![2000, 1]⟩
abbrev S2000x512 : Shape := ⟨2, ![2000, 512]⟩
abbrev S1x10 : Shape := ⟨2, ![1, 10]⟩

abbrev nBuf : Space → Nat
  | .hbm => 101
  | .vmem => 30
  | .smem => 0
  | _ => 0

abbrev bufTy : (tb : Table) → Fin (tcTables nBuf tb) → BufTy
  | .hbm, ⟨0, _⟩ => ⟨S100000x2, .i32⟩
  | .hbm, ⟨1, _⟩ => ⟨S2x1200000, .i32⟩
  | .hbm, ⟨2, _⟩ => ⟨S1200000, .i32⟩
  | .hbm, ⟨3, _⟩ => ⟨S100000, .i32⟩
  | .hbm, ⟨4, _⟩ => ⟨S16x8, .f32⟩
  | .hbm, ⟨5, _⟩ => ⟨S16x8, .f32⟩
  | .hbm, ⟨6, _⟩ => ⟨S16x32, .f32⟩
  | .hbm, ⟨7, _⟩ => ⟨S32, .f32⟩
  | .hbm, ⟨8, _⟩ => ⟨S3x32x64, .f32⟩
  | .hbm, ⟨9, _⟩ => ⟨S32x64, .f32⟩
  | .hbm, ⟨10, _⟩ => ⟨S64, .f32⟩
  | .hbm, ⟨11, _⟩ => ⟨S3x64x64, .f32⟩
  | .hbm, ⟨12, _⟩ => ⟨S64x64, .f32⟩
  | .hbm, ⟨13, _⟩ => ⟨S64, .f32⟩
  | .hbm, ⟨14, _⟩ => ⟨S64x10, .f32⟩
  | .hbm, ⟨15, _⟩ => ⟨S10, .f32⟩
  | .hbm, ⟨16, _⟩ => ⟨S1x1200000, .i32⟩
  | .hbm, ⟨17, _⟩ => ⟨S1200000, .i32⟩
  | .hbm, ⟨18, _⟩ => ⟨S1x1200000, .i32⟩
  | .hbm, ⟨19, _⟩ => ⟨S1200000, .i32⟩
  | .hbm, ⟨20, _⟩ => ⟨S100000x32, .f32⟩
  | .hbm, ⟨21, _⟩ => ⟨S_, .i32⟩
  | .hbm, ⟨22, _⟩ => ⟨S1200000, .i32⟩
  | .hbm, ⟨23, _⟩ => ⟨S1200000, .i1⟩
  | .hbm, ⟨24, _⟩ => ⟨S_, .i32⟩
  | .hbm, ⟨25, _⟩ => ⟨S1200000, .i32⟩
  | .hbm, ⟨26, _⟩ => ⟨S1200000, .i32⟩
  | .hbm, ⟨27, _⟩ => ⟨S1200000, .i32⟩
  | .hbm, ⟨28, _⟩ => ⟨S1200000x1, .i32⟩
  | .hbm, ⟨29, _⟩ => ⟨S1200000x32, .f32⟩
  | .hbm, ⟨30, _⟩ => ⟨S_, .i32⟩
  | .hbm, ⟨31, _⟩ => ⟨S1200000, .i32⟩
  | .hbm, ⟨32, _⟩ => ⟨S1200000, .i32⟩
  | .hbm, ⟨33, _⟩ => ⟨S1200000, .i32⟩
  | .hbm, ⟨34, _⟩ => ⟨S_, .f32⟩
  | .hbm, ⟨35, _⟩ => ⟨S300000x32, .f32⟩
  | .hbm, ⟨36, _⟩ => ⟨S1200000x1, .i32⟩
  | .hbm, ⟨37, _⟩ => ⟨S300000x32, .f32⟩
  | .hbm, ⟨38, _⟩ => ⟨S_, .f32⟩
  | .hbm, ⟨39, _⟩ => ⟨S1200000, .f32⟩
  | .hbm, ⟨40, _⟩ => ⟨S_, .f32⟩
  | .hbm, ⟨41, _⟩ => ⟨S300000, .f32⟩
  | .hbm, ⟨42, _⟩ => ⟨S1200000x1, .i32⟩
  | .hbm, ⟨43, _⟩ => ⟨S300000, .f32⟩
  | .hbm, ⟨44, _⟩ => ⟨S100000x3x32, .f32⟩
  | .hbm, ⟨45, _⟩ => ⟨S100000x3x1, .f32⟩
  | .hbm, ⟨46, _⟩ => ⟨S_, .f32⟩
  | .hbm, ⟨47, _⟩ => ⟨S100000x3x1, .f32⟩
  | .hbm, ⟨48, _⟩ => ⟨S100000x3x1, .f32⟩
  | .hbm, ⟨49, _⟩ => ⟨S100000x3x32, .f32⟩
  | .hbm, ⟨50, _⟩ => ⟨S100000x3x32, .f32⟩
  | .hbm, ⟨51, _⟩ => ⟨S100000x96, .f32⟩
  | .hbm, ⟨52, _⟩ => ⟨S100000x128, .f32⟩
  | .hbm, ⟨53, _⟩ => ⟨S96x64, .f32⟩
  | .hbm, ⟨54, _⟩ => ⟨S128x64, .f32⟩
  | .hbm, ⟨55, _⟩ => ⟨S100000x64, .f32⟩
  | .hbm, ⟨56, _⟩ => ⟨S_, .i32⟩
  | .hbm, ⟨57, _⟩ => ⟨S1200000, .i32⟩
  | .hbm, ⟨58, _⟩ => ⟨S1200000, .i1⟩
  | .hbm, ⟨59, _⟩ => ⟨S_, .i32⟩
  | .hbm, ⟨60, _⟩ => ⟨S1200000, .i32⟩
  | .hbm, ⟨61, _⟩ => ⟨S1200000, .i32⟩
  | .hbm, ⟨62, _⟩ => ⟨S1200000, .i32⟩
  | .hbm, ⟨63, _⟩ => ⟨S1200000x1, .i32⟩
  | .hbm, ⟨64, _⟩ => ⟨S1200000x64, .f32⟩
  | .hbm, ⟨65, _⟩ => ⟨S_, .i32⟩
  | .hbm, ⟨66, _⟩ => ⟨S1200000, .i32⟩
  | .hbm, ⟨67, _⟩ => ⟨S1200000, .i32⟩
  | .hbm, ⟨68, _⟩ => ⟨S1200000, .i32⟩
  | .hbm, ⟨69, _⟩ => ⟨S_, .f32⟩
  | .hbm, ⟨70, _⟩ => ⟨S300000x64, .f32⟩
  | .hbm, ⟨71, _⟩ => ⟨S1200000x1, .i32⟩
  | .hbm, ⟨72, _⟩ => ⟨S300000x64, .f32⟩
  | .hbm, ⟨73, _⟩ => ⟨S_, .f32⟩
  | .hbm, ⟨74, _⟩ => ⟨S1200000, .f32⟩
  | .hbm, ⟨75, _⟩ => ⟨S_, .f32⟩
  | .hbm, ⟨76, _⟩ => ⟨S300000, .f32⟩
  | .hbm, ⟨77, _⟩ => ⟨S1200000x1, .i32⟩
  | .hbm, ⟨78, _⟩ => ⟨S300000, .f32⟩
  | .hbm, ⟨79, _⟩ => ⟨S100000x3x64, .f32⟩
  | .hbm, ⟨80, _⟩ => ⟨S100000x3x1, .f32⟩
  | .hbm, ⟨81, _⟩ => ⟨S_, .f32⟩
  | .hbm, ⟨82, _⟩ => ⟨S100000x3x1, .f32⟩
  | .hbm, ⟨83, _⟩ => ⟨S100000x3x1, .f32⟩
  | .hbm, ⟨84, _⟩ => ⟨S100000x3x64, .f32⟩
  | .hbm, ⟨85, _⟩ => ⟨S100000x3x64, .f32⟩
  | .hbm, ⟨86, _⟩ => ⟨S100000x192, .f32⟩
  | .hbm, ⟨87, _⟩ => ⟨S100000x256, .f32⟩
  | .hbm, ⟨88, _⟩ => ⟨S192x64, .f32⟩
  | .hbm, ⟨89, _⟩ => ⟨S256x64, .f32⟩
  | .hbm, ⟨90, _⟩ => ⟨S100000x64, .f32⟩
  | .hbm, ⟨91, _⟩ => ⟨S100000x1, .i32⟩
  | .hbm, ⟨92, _⟩ => ⟨S512x64, .f32⟩
  | .hbm, ⟨93, _⟩ => ⟨S_, .f32⟩
  | .hbm, ⟨94, _⟩ => ⟨S100000, .f32⟩
  | .hbm, ⟨95, _⟩ => ⟨S_, .f32⟩
  | .hbm, ⟨96, _⟩ => ⟨S512, .f32⟩
  | .hbm, ⟨97, _⟩ => ⟨S100000x1, .i32⟩
  | .hbm, ⟨98, _⟩ => ⟨S512, .f32⟩
  | .hbm, ⟨99, _⟩ => ⟨S512x1, .f32⟩
  | .hbm, ⟨100, _⟩ => ⟨S512x10, .f32⟩
  | .local _ .vmem, ⟨0, _⟩ => ⟨S10000x2, .i32⟩
  | .local _ .vmem, ⟨1, _⟩ => ⟨S10000x2, .i32⟩
  | .local _ .vmem, ⟨2, _⟩ => ⟨S16x8, .f32⟩
  | .local _ .vmem, ⟨3, _⟩ => ⟨S16x8, .f32⟩
  | .local _ .vmem, ⟨4, _⟩ => ⟨S16x32, .f32⟩
  | .local _ .vmem, ⟨5, _⟩ => ⟨S32, .f32⟩
  | .local _ .vmem, ⟨6, _⟩ => ⟨S10000x32, .f32⟩
  | .local _ .vmem, ⟨7, _⟩ => ⟨S10000x32, .f32⟩
  | .local _ .vmem, ⟨8, _⟩ => ⟨S10000x128, .f32⟩
  | .local _ .vmem, ⟨9, _⟩ => ⟨S10000x128, .f32⟩
  | .local _ .vmem, ⟨10, _⟩ => ⟨S128x64, .f32⟩
  | .local _ .vmem, ⟨11, _⟩ => ⟨S64, .f32⟩
  | .local _ .vmem, ⟨12, _⟩ => ⟨S10000x64, .f32⟩
  | .local _ .vmem, ⟨13, _⟩ => ⟨S10000x64, .f32⟩
  | .local _ .vmem, ⟨14, _⟩ => ⟨S5000x256, .f32⟩
  | .local _ .vmem, ⟨15, _⟩ => ⟨S5000x256, .f32⟩
  | .local _ .vmem, ⟨16, _⟩ => ⟨S256x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | .local _ .vmem, ⟨20, _⟩ => ⟨S2000x64, .f32⟩
  | .local _ .vmem, ⟨21, _⟩ => ⟨S2000x64, .f32⟩
  | .local _ .vmem, ⟨22, _⟩ => ⟨S2000x1, .i32⟩
  | .local _ .vmem, ⟨23, _⟩ => ⟨S2000x1, .i32⟩
  | .local _ .vmem, ⟨24, _⟩ => ⟨S512x64, .f32⟩
  | .local _ .vmem, ⟨25, _⟩ => ⟨S512x64, .f32⟩
  | .local _ .vmem, ⟨26, _⟩ => ⟨S512x1, .f32⟩
  | .local _ .vmem, ⟨27, _⟩ => ⟨S64x10, .f32⟩
  | .local _ .vmem, ⟨28, _⟩ => ⟨S10, .f32⟩
  | .local _ .vmem, ⟨29, _⟩ => ⟨S512x10, .f32⟩
  | _, _ => ⟨S100000x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c : Ref sig .tc := ⟨.hbm, 21, rfl⟩
abbrev main_call0_v5 : Ref sig .tc := ⟨.hbm, 22, rfl⟩
abbrev main_call0_v6 : Ref sig .tc := ⟨.hbm, 23, rfl⟩
abbrev main_call0_c_0 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_1 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_call0_v16 : Ref sig .tc := ⟨.hbm, 36, rfl⟩
abbrev main_call0_v17 : Ref sig .tc := ⟨.hbm, 37, rfl⟩
abbrev main_call0_cst_2 : Ref sig .tc := ⟨.hbm, 38, rfl⟩
abbrev main_call0_v18 : Ref sig .tc := ⟨.hbm, 39, rfl⟩
abbrev main_call0_cst_3 : Ref sig .tc := ⟨.hbm, 40, rfl⟩
abbrev main_call0_v19 : Ref sig .tc := ⟨.hbm, 41, rfl⟩
abbrev main_call0_v20 : Ref sig .tc := ⟨.hbm, 42, rfl⟩
abbrev main_call0_v21 : Ref sig .tc := ⟨.hbm, 43, rfl⟩
abbrev main_call0_v22 : Ref sig .tc := ⟨.hbm, 44, rfl⟩
abbrev main_call0_v23 : Ref sig .tc := ⟨.hbm, 45, rfl⟩
abbrev main_call0_cst_4 : Ref sig .tc := ⟨.hbm, 46, rfl⟩
abbrev main_call0_v24 : Ref sig .tc := ⟨.hbm, 47, rfl⟩
abbrev main_call0_v25 : Ref sig .tc := ⟨.hbm, 48, rfl⟩
abbrev main_call0_v26 : Ref sig .tc := ⟨.hbm, 49, rfl⟩
abbrev main_call0_v27 : Ref sig .tc := ⟨.hbm, 50, rfl⟩
abbrev main_call0_v28 : Ref sig .tc := ⟨.hbm, 51, rfl⟩
abbrev main_call0_v29 : Ref sig .tc := ⟨.hbm, 52, rfl⟩
abbrev main_call0_v30 : Ref sig .tc := ⟨.hbm, 53, rfl⟩
abbrev main_call0_v31 : Ref sig .tc := ⟨.hbm, 54, rfl⟩
abbrev main_call0_v32 : Ref sig .tc := ⟨.hbm, 55, rfl⟩
abbrev main_call0_c_5 : Ref sig .tc := ⟨.hbm, 56, rfl⟩
abbrev main_call0_v33 : Ref sig .tc := ⟨.hbm, 57, rfl⟩
abbrev main_call0_v34 : Ref sig .tc := ⟨.hbm, 58, rfl⟩
abbrev main_call0_c_6 : Ref sig .tc := ⟨.hbm, 59, rfl⟩
abbrev main_call0_v35 : Ref sig .tc := ⟨.hbm, 60, rfl⟩
abbrev main_call0_v36 : Ref sig .tc := ⟨.hbm, 61, rfl⟩
abbrev main_call0_v37 : Ref sig .tc := ⟨.hbm, 62, rfl⟩
abbrev main_call0_v38 : Ref sig .tc := ⟨.hbm, 63, rfl⟩
abbrev main_call0_v39 : Ref sig .tc := ⟨.hbm, 64, rfl⟩
abbrev main_call0_c_7 : Ref sig .tc := ⟨.hbm, 65, rfl⟩
abbrev main_call0_v40 : Ref sig .tc := ⟨.hbm, 66, rfl⟩
abbrev main_call0_v41 : Ref sig .tc := ⟨.hbm, 67, rfl⟩
abbrev main_call0_v42 : Ref sig .tc := ⟨.hbm, 68, rfl⟩
abbrev main_call0_cst_8 : Ref sig .tc := ⟨.hbm, 69, rfl⟩
abbrev main_call0_v43 : Ref sig .tc := ⟨.hbm, 70, rfl⟩
abbrev main_call0_v44 : Ref sig .tc := ⟨.hbm, 71, rfl⟩
abbrev main_call0_v45 : Ref sig .tc := ⟨.hbm, 72, rfl⟩
abbrev main_call0_cst_9 : Ref sig .tc := ⟨.hbm, 73, rfl⟩
abbrev main_call0_v46 : Ref sig .tc := ⟨.hbm, 74, rfl⟩
abbrev main_call0_cst_10 : Ref sig .tc := ⟨.hbm, 75, rfl⟩
abbrev main_call0_v47 : Ref sig .tc := ⟨.hbm, 76, rfl⟩
abbrev main_call0_v48 : Ref sig .tc := ⟨.hbm, 77, rfl⟩
abbrev main_call0_v49 : Ref sig .tc := ⟨.hbm, 78, rfl⟩
abbrev main_call0_v50 : Ref sig .tc := ⟨.hbm, 79, rfl⟩
abbrev main_call0_v51 : Ref sig .tc := ⟨.hbm, 80, rfl⟩
abbrev main_call0_cst_11 : Ref sig .tc := ⟨.hbm, 81, rfl⟩
abbrev main_call0_v52 : Ref sig .tc := ⟨.hbm, 82, rfl⟩
abbrev main_call0_v53 : Ref sig .tc := ⟨.hbm, 83, rfl⟩
abbrev main_call0_v54 : Ref sig .tc := ⟨.hbm, 84, rfl⟩
abbrev main_call0_v55 : Ref sig .tc := ⟨.hbm, 85, rfl⟩
abbrev main_call0_v56 : Ref sig .tc := ⟨.hbm, 86, rfl⟩
abbrev main_call0_v57 : Ref sig .tc := ⟨.hbm, 87, rfl⟩
abbrev main_call0_v58 : Ref sig .tc := ⟨.hbm, 88, rfl⟩
abbrev main_call0_v59 : Ref sig .tc := ⟨.hbm, 89, rfl⟩
abbrev main_call0_v60 : Ref sig .tc := ⟨.hbm, 90, rfl⟩
abbrev main_call0_v61 : Ref sig .tc := ⟨.hbm, 91, rfl⟩
abbrev main_call0_v62 : Ref sig .tc := ⟨.hbm, 92, rfl⟩
abbrev main_call0_cst_12 : Ref sig .tc := ⟨.hbm, 93, rfl⟩
abbrev main_call0_v63 : Ref sig .tc := ⟨.hbm, 94, rfl⟩
abbrev main_call0_cst_13 : Ref sig .tc := ⟨.hbm, 95, rfl⟩
abbrev main_call0_v64 : Ref sig .tc := ⟨.hbm, 96, rfl⟩
abbrev main_call0_v65 : Ref sig .tc := ⟨.hbm, 97, rfl⟩
abbrev main_call0_v66 : Ref sig .tc := ⟨.hbm, 98, rfl⟩
abbrev main_call0_v67 : Ref sig .tc := ⟨.hbm, 99, rfl⟩
abbrev main_v0 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc4_stg0_0 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg4_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc4_sem0_0 : DmaSem sig := 25
abbrev cc4_sem1_0 : DmaSem sig := 26
abbrev cc4_sem2_0 : DmaSem sig := 27
abbrev cc4_sem3_0 : DmaSem sig := 28
abbrev cc4_sem4_0 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S512x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S512x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S300000x32 : S_.BroadcastsInDim S300000x32 (![] : Fin 0 → Fin S300000x32.rank)
  bcast_S_S300000 : S_.BroadcastsInDim S300000 (![] : Fin 0 → Fin S300000.rank)
  shapeCasts_S300000x32_S100000x3x32 : S300000x32.ShapeCasts S100000x3x32
  shapeCasts_S300000_S100000x3x1 : S300000.ShapeCasts S100000x3x1
  bcast_S_S100000x3x1 : S_.BroadcastsInDim S100000x3x1 (![] : Fin 0 → Fin S100000x3x1.rank)
  bcast_S100000x3x1_S100000x3x32_0_1_2 : S100000x3x1.BroadcastsInDim S100000x3x32 (![0, 1, 2] : Fin 3 → Fin S100000x3x32.rank)
  shapeCasts_S100000x3x32_S100000x96 : S100000x3x32.ShapeCasts S100000x96
  concatenates_S100000x32_S100000x96_S100000x128_d1 : Shape.Concatenates [S100000x32, S100000x96] S100000x128 1
  shapeCasts_S3x32x64_S96x64 : S3x32x64.ShapeCasts S96x64
  concatenates_S32x64_S96x64_S128x64_d0 : Shape.Concatenates [S32x64, S96x64] S128x64 0
  bcast_S_S300000x64 : S_.BroadcastsInDim S300000x64 (![] : Fin 0 → Fin S300000x64.rank)
  shapeCasts_S300000x64_S100000x3x64 : S300000x64.ShapeCasts S100000x3x64
  bcast_S100000x3x1_S100000x3x64_0_1_2 : S100000x3x1.BroadcastsInDim S100000x3x64 (![0, 1, 2] : Fin 3 → Fin S100000x3x64.rank)
  shapeCasts_S100000x3x64_S100000x192 : S100000x3x64.ShapeCasts S100000x192
  concatenates_S100000x64_S100000x192_S100000x256_d1 : Shape.Concatenates [S100000x64, S100000x192] S100000x256 1
  shapeCasts_S3x64x64_S192x64 : S3x64x64.ShapeCasts S192x64
  concatenates_S64x64_S192x64_S256x64_d0 : Shape.Concatenates [S64x64, S192x64] S256x64 0
  shapeCasts_S100000_S100000x1 : S100000.ShapeCasts S100000x1
  bcast_S_S100000 : S_.BroadcastsInDim S100000 (![] : Fin 0 → Fin S100000.rank)
  bcast_S_S512 : S_.BroadcastsInDim S512 (![] : Fin 0 → Fin S512.rank)
  bcast_S100000_S100000x1_0 : S100000.BroadcastsInDim S100000x1 (![0] : Fin 1 → Fin S100000x1.rank)
  shapeCasts_S512_S512x1 : S512.ShapeCasts S512x1
  inb_S10000x2_S10000x1_0_0 : ∀ a, (![0, 0] : Fin 2 → Nat) a + S10000x1.size a ≤ S10000x2.size a
  h_S10000x1 : 0 < S10000x1.numel
  inb_S10000x2_S10000x1_0_1 : ∀ a, (![0, 1] : Fin 2 → Nat) a + S10000x1.size a ≤ S10000x2.size a
  iota_S10000x16_d1_w32 : S10000x16.Iotas .tc 32 [1]
  broadcasts_S10000x1_S10000x16 : S10000x1.Broadcasts S10000x16
  natLt_1_32 : 1 < 32
  bitsLt_bf16_f32 : FTy.bits .bf16 < FTy.bits .f32
  inb_S16x8_S16x8_0_0 : ∀ a, (![0, 0] : Fin 2 → Nat) a + S16x8.size a ≤ S16x8.size a
  h_S16x8 : 0 < S16x8.numel
  concatenates_S10000x8_S10000x8_S10000x16_d1 : Shape.Concatenates [S10000x8, S10000x8] S10000x16 1
  inb_S16x32_S16x32_0_0 : ∀ a, (![0, 0] : Fin 2 → Nat) a + S16x32.size a ≤ S16x32.size a
  h_S16x32 : 0 < S16x32.numel
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  inb_S512x64_S512x64_0_0 : ∀ a, (![0, 0] : Fin 2 → Nat) a + S512x64.size a ≤ S512x64.size a
  h_S512x64 : 0 < S512x64.numel
  iota_S2000x512_d1_w32 : S2000x512.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x512 : S2000x1.Broadcasts S2000x512
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  shapeCasts_S512x64_S512x64 : S512x64.ShapeCasts S512x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x64 : S512x1.Broadcasts S512x64
  inb_S64x10_S64x10_0_0 : ∀ a, (![0, 0] : Fin 2 → Nat) a + S64x10.size a ≤ S64x10.size a
  h_S64x10 : 0 < S64x10.numel
  inb_S10_S10_0 : ∀ a, (![0] : Fin 1 → Nat) a + S10.size a ≤ S10.size a
  h_S10 : 0 < S10.numel
  shapeCasts_S10_S1x10 : S10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  gather_S100000x32_S1200000x1_S1200000x32_1_0_n_n_0_1_132_wf : GatherDims.WF S100000x32 S1200000x1 S1200000x32 [1] [0] [] [0] [] 1 ![1, 32]
  scatter_S300000x32_S1200000x1_S1200000x32_1_0_0_1_wf : ScatterDims.WF S300000x32 S1200000x1 S1200000x32 [1] [0] [0] 1
  scatter_S300000_S1200000x1_S1200000_n_0_0_1_wf : ScatterDims.WF S300000 S1200000x1 S1200000 [] [0] [0] 1
  gather_S100000x64_S1200000x1_S1200000x64_1_0_n_n_0_1_164_wf : GatherDims.WF S100000x64 S1200000x1 S1200000x64 [1] [0] [] [0] [] 1 ![1, 64]
  scatter_S300000x64_S1200000x1_S1200000x64_1_0_0_1_wf : ScatterDims.WF S300000x64 S1200000x1 S1200000x64 [1] [0] [0] 1
  scatter_S512_S100000x1_S100000_n_0_0_1_wf : ScatterDims.WF S512 S100000x1 S100000 [] [0] [0] 1
  dot_S10000x16_S16x8_S10000x8_1_0_0_1_n_n_wf : DotDims.WF S10000x16 S16x8 S10000x8 [1] [0] [0] [1] [] []
  dot_S10000x16_S16x32_S10000x32_1_0_0_1_n_n_wf : DotDims.WF S10000x16 S16x32 S10000x32 [1] [0] [0] [1] [] []
  dot_S10000x128_S128x64_S10000x64_1_0_0_1_n_n_wf : DotDims.WF S10000x128 S128x64 S10000x64 [1] [0] [0] [1] [] []
  dot_S5000x256_S256x64_S5000x64_1_0_0_1_n_n_wf : DotDims.WF S5000x256 S256x64 S5000x64 [1] [0] [0] [1] [] []
  dot_S2000x512_S2000x64_S512x64_0_0_1_1_n_n_wf : DotDims.WF S2000x512 S2000x64 S512x64 [0] [0] [1] [1] [] []
  dot_S512x64_S64x10_S512x10_1_0_0_1_n_n_wf : DotDims.WF S512x64 S64x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S100000x2.size a
  hwx0_0 : ∀ i : grid0.Coords, EltTy.bits .i32 = 32 ∨ (Rect.block (s := S100000x2) S10000x2.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x8.size a ≤ S16x8.size a
  hwx0_1 : ∀ i : grid0.Coords, EltTy.bits .f32 = 32 ∨ (Rect.block (s := S16x8) S16x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x8.size a ≤ S16x8.size a
  hwx0_2 : ∀ i : grid0.Coords, EltTy.bits .f32 = 32 ∨ (Rect.block (s := S16x8) S16x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x32.size a ≤ S16x32.size a
  hwx0_3 : ∀ i : grid0.Coords, EltTy.bits .f32 = 32 ∨ (Rect.block (s := S16x32) S16x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x32.size a ≤ S100000x32.size a
  hwx0_5 : ∀ i : grid0.Coords, EltTy.bits .f32 = 32 ∨ (Rect.block (s := S100000x32) S10000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S100000x256.size a
  hwx2_0 : ∀ i : grid2.Coords, EltTy.bits .f32 = 32 ∨ (Rect.block (s := S100000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S256x64.size a
  hwx2_1 : ∀ i : grid2.Coords, EltTy.bits .f32 = 32 ∨ (Rect.block (s := S256x64) S256x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .i32 = 32 ∨ (Rect.block (s := S100000x1) S2000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x64.size a ≤ S512x64.size a
  hwx3_2 : ∀ i : grid3.Coords, EltTy.bits .f32 = 32 ∨ (Rect.block (s := S512x64) S512x64.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x64.size a ≤ S512x64.size a
  hwx4_0 : ∀ i : grid4.Coords, EltTy.bits .f32 = 32 ∨ (Rect.block (s := S512x64) S512x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x1.size a ≤ S512x1.size a
  hwx4_1 : ∀ i : grid4.Coords, EltTy.bits .f32 = 32 ∨ (Rect.block (s := S512x1) S512x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x10.size a ≤ S64x10.size a
  hwx4_2 : ∀ i : grid4.Coords, EltTy.bits .f32 = 32 ∨ (Rect.block (s := S64x10) S64x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S10.size a ≤ S10.size a
  hwx4_3 : ∀ i : grid4.Coords, EltTy.bits .f32 = 32 ∨ (Rect.block (s := S10) S10.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S512x10.size a ≤ S512x10.size a
  hwx4_4 : ∀ i : grid4.Coords, EltTy.bits .f32 = 32 ∨ (Rect.block (s := S512x10) S512x10.size (cc4_transform_4 i) (hinb4_4 i)).WholeWords (EltTy.packing .f32)

variable [Facts₀]

def gather_S100000x32_S1200000x1_S1200000x32_1_0_n_n_0_1_132 : GatherDims S100000x32 S1200000x1 S1200000x32 where
  offsetDims := [1]
  collapsedSliceDims := [0]
  operandBatchingDims := []
  startIndicesBatchingDims := []
  startIndexMap := [0]
  indexVectorDim := 1
  sliceSizes := ![1, 32]
  wf := gather_S100000x32_S1200000x1_S1200000x32_1_0_n_n_0_1_132_wf
def scatter_S300000x32_S1200000x1_S1200000x32_1_0_0_1 : ScatterDims S300000x32 S1200000x1 S1200000x32 where
  updateWindowDims := [1]
  insertedWindowDims := [0]
  scatterDimsToOperandDims := [0]
  indexVectorDim := 1
  wf := scatter_S300000x32_S1200000x1_S1200000x32_1_0_0_1_wf
def scatter_S300000_S1200000x1_S1200000_n_0_0_1 : ScatterDims S300000 S1200000x1 S1200000 where
  updateWindowDims := []
  insertedWindowDims := [0]
  scatterDimsToOperandDims := [0]
  indexVectorDim := 1
  wf := scatter_S300000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S300000x64_S1200000x1_S1200000x64_1_0_0_1 : ScatterDims S300000x64 S1200000x1 S1200000x64 where
  updateWindowDims := [1]
  insertedWindowDims := [0]
  scatterDimsToOperandDims := [0]
  indexVectorDim := 1
  wf := scatter_S300000x64_S1200000x1_S1200000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def dot_S2000x512_S2000x64_S512x64_0_0_1_1_n_n : DotDims S2000x512 S2000x64 S512x64 where
  lhsContracting := [0]
  rhsContracting := [0]
  lhsNonContracting := [1]
  rhsNonContracting := [1]
  lhsBatch := []
  rhsBatch := []
  wf := dot_S2000x512_S2000x64_S512x64_0_0_1_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

abbrev win0_0 : Pipeline.Window sig grid0 :=
  Pipeline.Window.ofSpec (Memref.whole main_arg0) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S16x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S16x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S16x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4) S10000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v29) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v31) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v32) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_call0_v57) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v59) S256x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v60) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_call0_v60) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v61) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v62) S512x64.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_call0_v62) S512x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_call0_v67) S512x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg14) S64x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg15) S10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v0) S512x10.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S100000x2 : Shape := ⟨2, ![100000, 2]⟩
abbrev S2x1200000 : Shape := ⟨2, ![2, 1200000]⟩
abbrev S1200000 : Shape := ⟨1, ![1200000]⟩
abbrev S100000 : Shape := ⟨1, ![100000]⟩
abbrev S16x8 : Shape := ⟨2, ![16, 8]⟩
abbrev S16x32 : Shape := ⟨2, ![16, 32]⟩
abbrev S32 : Shape := ⟨1, ![32]⟩
abbrev S3x32x64 : Shape := ⟨3, ![3, 32, 64]⟩
abbrev S32x64 : Shape := ⟨2, ![32, 64]⟩
abbrev S64 : Shape := ⟨1, ![64]⟩
abbrev S3x64x64 : Shape := ⟨3, ![3, 64, 64]⟩
abbrev S64x64 : Shape := ⟨2, ![64, 64]⟩
abbrev S64x10 : Shape := ⟨2, ![64, 10]⟩
abbrev S10 : Shape := ⟨1, ![10]⟩
abbrev S100000x1 : Shape := ⟨2, ![100000, 1]⟩
abbrev S_ : Shape := ⟨0, ![]⟩
abbrev S100000x8 : Shape := ⟨2, ![100000, 8]⟩
abbrev S100000x16 : Shape := ⟨2, ![100000, 16]⟩
abbrev S100000x32 : Shape := ⟨2, ![100000, 32]⟩
abbrev S1x32 : Shape := ⟨2, ![1, 32]⟩
abbrev S1x1200000 : Shape := ⟨2, ![1, 1200000]⟩
abbrev S100000x64 : Shape := ⟨2, ![100000, 64]⟩
abbrev S1x64 : Shape := ⟨2, ![1, 64]⟩
abbrev S1x32x64 : Shape := ⟨3, ![1, 32, 64]⟩
abbrev S1200000x1 : Shape := ⟨2, ![1200000, 1]⟩
abbrev S1200000x64 : Shape := ⟨2, ![1200000, 64]⟩
abbrev S1x64x64 : Shape := ⟨3, ![1, 64, 64]⟩
abbrev S512x64 : Shape := ⟨2, ![512, 64]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 306
  | .vmem => 0
  | .smem => 0
  | _ => 0

abbrev hbmTy0_0 (i : Nat) : BufTy := match i % 128 with
  | 0 => ⟨S100000x2, .i32⟩
  | 1 => ⟨S2x1200000, .i32⟩
  | 2 => ⟨S1200000, .i32⟩
  | 3 => ⟨S100000, .i32⟩
  | 4 => ⟨S16x8, .f32⟩
  | 5 => ⟨S16x8, .f32⟩
  | 6 => ⟨S16x32, .f32⟩
  | 7 => ⟨S32, .f32⟩
  | 8 => ⟨S3x32x64, .f32⟩
  | 9 => ⟨S32x64, .f32⟩
  | 10 => ⟨S64, .f32⟩
  | 11 => ⟨S3x64x64, .f32⟩
  | 12 => ⟨S64x64, .f32⟩
  | 13 => ⟨S64, .f32⟩
  | 14 => ⟨S64x10, .f32⟩
  | 15 => ⟨S10, .f32⟩
  | 16 => ⟨S100000x1, .i32⟩
  | 17 => ⟨S100000, .i32⟩
  | 18 => ⟨S_, .i32⟩
  | 19 => ⟨S100000, .i32⟩
  | 20 => ⟨S100000, .i1⟩
  | 21 => ⟨S_, .i32⟩
  | 22 => ⟨S100000, .i32⟩
  | 23 => ⟨S100000, .i32⟩
  | 24 => ⟨S100000, .i32⟩
  | 25 => ⟨S100000x1, .i32⟩
  | 26 => ⟨S100000x8, .f32⟩
  | 27 => ⟨S100000x1, .i32⟩
  | 28 => ⟨S100000, .i32⟩
  | 29 => ⟨S_, .i32⟩
  | 30 => ⟨S100000, .i32⟩
  | 31 => ⟨S100000, .i1⟩
  | 32 => ⟨S_, .i32⟩
  | 33 => ⟨S100000, .i32⟩
  | 34 => ⟨S100000, .i32⟩
  | 35 => ⟨S100000, .i32⟩
  | 36 => ⟨S100000x1, .i32⟩
  | 37 => ⟨S100000x8, .f32⟩
  | 38 => ⟨S100000x16, .f32⟩
  | 39 => ⟨S100000x32, .f32⟩
  | 40 => ⟨S1x32, .f32⟩
  | 41 => ⟨S100000x32, .f32⟩
  | 42 => ⟨S100000x32, .f32⟩
  | 43 => ⟨S_, .f32⟩
  | 44 => ⟨S100000x32, .f32⟩
  | 45 => ⟨S100000x32, .f32⟩
  | 46 => ⟨S1x1200000, .i32⟩
  | 47 => ⟨S1200000, .i32⟩
  | 48 => ⟨S1x1200000, .i32⟩
  | 49 => ⟨S1200000, .i32⟩
  | 50 => ⟨S100000x64, .f32⟩
  | 51 => ⟨S1x64, .f32⟩
  | 52 => ⟨S100000x64, .f32⟩
  | 53 => ⟨S100000x64, .f32⟩
  | 54 => ⟨S_, .i32⟩
  | 55 => ⟨S1200000, .i32⟩
  | 56 => ⟨S1200000, .i1⟩
  | 57 => ⟨S1x32x64, .f32⟩
  | 58 => ⟨S32x64, .f32⟩
  | 59 => ⟨S100000x64, .f32⟩
  | 60 => ⟨S1200000x1, .i1⟩
  | 61 => ⟨S_, .i32⟩
  | 62 => ⟨S1200000, .i32⟩
  | 63 => ⟨S1200000, .i1⟩
  | 64 => ⟨S_, .i32⟩
  | 65 => ⟨S1200000, .i32⟩
  | 66 => ⟨S1200000, .i32⟩
  | 67 => ⟨S1200000, .i32⟩
  | 68 => ⟨S1200000x1, .i32⟩
  | 69 => ⟨S1200000x64, .f32⟩
  | 70 => ⟨S_, .f32⟩
  | 71 => ⟨S_, .f32⟩
  | 72 => ⟨S1200000x64, .i1⟩
  | 73 => ⟨S1200000x64, .f32⟩
  | 74 => ⟨S1200000x64, .f32⟩
  | 75 => ⟨S_, .f32⟩
  | 76 => ⟨S100000x64, .f32⟩
  | 77 => ⟨S1200000x1, .i32⟩
  | 78 => ⟨S100000x64, .f32⟩
  | 79 => ⟨S1200000, .f32⟩
  | 80 => ⟨S_, .f32⟩
  | 81 => ⟨S100000, .f32⟩
  | 82 => ⟨S1200000x1, .i32⟩
  | 83 => ⟨S100000, .f32⟩
  | 84 => ⟨S_, .f32⟩
  | 85 => ⟨S100000, .f32⟩
  | 86 => ⟨S100000, .f32⟩
  | 87 => ⟨S100000x1, .f32⟩
  | 88 => ⟨S100000x64, .f32⟩
  | 89 => ⟨S100000x64, .f32⟩
  | 90 => ⟨S100000x64, .f32⟩
  | 91 => ⟨S_, .i32⟩
  | 92 => ⟨S1200000, .i32⟩
  | 93 => ⟨S1200000, .i1⟩
  | 94 => ⟨S1x32x64, .f32⟩
  | 95 => ⟨S32x64, .f32⟩
  | 96 => ⟨S100000x64, .f32⟩
  | 97 => ⟨S1200000x1, .i1⟩
  | 98 => ⟨S_, .i32⟩
  | 99 => ⟨S1200000, .i32⟩
  | 100 => ⟨S1200000, .i1⟩
  | 101 => ⟨S_, .i32⟩
  | 102 => ⟨S1200000, .i32⟩
  | 103 => ⟨S1200000, .i32⟩
  | 104 => ⟨S1200000, .i32⟩
  | 105 => ⟨S1200000x1, .i32⟩
  | 106 => ⟨S1200000x64, .f32⟩
  | 107 => ⟨S_, .f32⟩
  | 108 => ⟨S_, .f32⟩
  | 109 => ⟨S1200000x64, .i1⟩
  | 110 => ⟨S1200000x64, .f32⟩
  | 111 => ⟨S1200000x64, .f32⟩
  | 112 => ⟨S_, .f32⟩
  | 113 => ⟨S100000x64, .f32⟩
  | 114 => ⟨S1200000x1, .i32⟩
  | 115 => ⟨S100000x64, .f32⟩
  | 116 => ⟨S1200000, .f32⟩
  | 117 => ⟨S_, .f32⟩
  | 118 => ⟨S100000, .f32⟩
  | 119 => ⟨S1200000x1, .i32⟩
  | 120 => ⟨S100000, .f32⟩
  | 121 => ⟨S_, .f32⟩
  | 122 => ⟨S100000, .f32⟩
  | 123 => ⟨S100000, .f32⟩
  | 124 => ⟨S100000x1, .f32⟩
  | 125 => ⟨S100000x64, .f32⟩
  | 126 => ⟨S100000x64, .f32⟩
  | 127 => ⟨S100000x64, .f32⟩
  | _ => ⟨S100000x2, .i32⟩

abbrev hbmTy0_1 (i : Nat) : BufTy := match i % 128 with
  | 0 => ⟨S_, .i32⟩
  | 1 => ⟨S1200000, .i32⟩
  | 2 => ⟨S1200000, .i1⟩
  | 3 => ⟨S1x32x64, .f32⟩
  | 4 => ⟨S32x64, .f32⟩
  | 5 => ⟨S100000x64, .f32⟩
  | 6 => ⟨S1200000x1, .i1⟩
  | 7 => ⟨S_, .i32⟩
  | 8 => ⟨S1200000, .i32⟩
  | 9 => ⟨S1200000, .i1⟩
  | 10 => ⟨S_, .i32⟩
  | 11 => ⟨S1200000, .i32⟩
  | 12 => ⟨S1200000, .i32⟩
  | 13 => ⟨S1200000, .i32⟩
  | 14 => ⟨S1200000x1, .i32⟩
  | 15 => ⟨S1200000x64, .f32⟩
  | 16 => ⟨S_, .f32⟩
  | 17 => ⟨S_, .f32⟩
  | 18 => ⟨S1200000x64, .i1⟩
  | 19 => ⟨S1200000x64, .f32⟩
  | 20 => ⟨S1200000x64, .f32⟩
  | 21 => ⟨S_, .f32⟩
  | 22 => ⟨S100000x64, .f32⟩
  | 23 => ⟨S1200000x1, .i32⟩
  | 24 => ⟨S100000x64, .f32⟩
  | 25 => ⟨S1200000, .f32⟩
  | 26 => ⟨S_, .f32⟩
  | 27 => ⟨S100000, .f32⟩
  | 28 => ⟨S1200000x1, .i32⟩
  | 29 => ⟨S100000, .f32⟩
  | 30 => ⟨S_, .f32⟩
  | 31 => ⟨S100000, .f32⟩
  | 32 => ⟨S100000, .f32⟩
  | 33 => ⟨S100000x1, .f32⟩
  | 34 => ⟨S100000x64, .f32⟩
  | 35 => ⟨S100000x64, .f32⟩
  | 36 => ⟨S100000x64, .f32⟩
  | 37 => ⟨S_, .f32⟩
  | 38 => ⟨S100000x64, .f32⟩
  | 39 => ⟨S100000x64, .f32⟩
  | 40 => ⟨S100000x64, .f32⟩
  | 41 => ⟨S1x64, .f32⟩
  | 42 => ⟨S100000x64, .f32⟩
  | 43 => ⟨S100000x64, .f32⟩
  | 44 => ⟨S_, .i32⟩
  | 45 => ⟨S1200000, .i32⟩
  | 46 => ⟨S1200000, .i1⟩
  | 47 => ⟨S1x64x64, .f32⟩
  | 48 => ⟨S64x64, .f32⟩
  | 49 => ⟨S100000x64, .f32⟩
  | 50 => ⟨S1200000x1, .i1⟩
  | 51 => ⟨S_, .i32⟩
  | 52 => ⟨S1200000, .i32⟩
  | 53 => ⟨S1200000, .i1⟩
  | 54 => ⟨S_, .i32⟩
  | 55 => ⟨S1200000, .i32⟩
  | 56 => ⟨S1200000, .i32⟩
  | 57 => ⟨S1200000, .i32⟩
  | 58 => ⟨S1200000x1, .i32⟩
  | 59 => ⟨S1200000x64, .f32⟩
  | 60 => ⟨S_, .f32⟩
  | 61 => ⟨S_, .f32⟩
  | 62 => ⟨S1200000x64, .i1⟩
  | 63 => ⟨S1200000x64, .f32⟩
  | 64 => ⟨S1200000x64, .f32⟩
  | 65 => ⟨S_, .f32⟩
  | 66 => ⟨S100000x64, .f32⟩
  | 67 => ⟨S1200000x1, .i32⟩
  | 68 => ⟨S100000x64, .f32⟩
  | 69 => ⟨S1200000, .f32⟩
  | 70 => ⟨S_, .f32⟩
  | 71 => ⟨S100000, .f32⟩
  | 72 => ⟨S1200000x1, .i32⟩
  | 73 => ⟨S100000, .f32⟩
  | 74 => ⟨S_, .f32⟩
  | 75 => ⟨S100000, .f32⟩
  | 76 => ⟨S100000, .f32⟩
  | 77 => ⟨S100000x1, .f32⟩
  | 78 => ⟨S100000x64, .f32⟩
  | 79 => ⟨S100000x64, .f32⟩
  | 80 => ⟨S100000x64, .f32⟩
  | 81 => ⟨S_, .i32⟩
  | 82 => ⟨S1200000, .i32⟩
  | 83 => ⟨S1200000, .i1⟩
  | 84 => ⟨S1x64x64, .f32⟩
  | 85 => ⟨S64x64, .f32⟩
  | 86 => ⟨S100000x64, .f32⟩
  | 87 => ⟨S1200000x1, .i1⟩
  | 88 => ⟨S_, .i32⟩
  | 89 => ⟨S1200000, .i32⟩
  | 90 => ⟨S1200000, .i1⟩
  | 91 => ⟨S_, .i32⟩
  | 92 => ⟨S1200000, .i32⟩
  | 93 => ⟨S1200000, .i32⟩
  | 94 => ⟨S1200000, .i32⟩
  | 95 => ⟨S1200000x1, .i32⟩
  | 96 => ⟨S1200000x64, .f32⟩
  | 97 => ⟨S_, .f32⟩
  | 98 => ⟨S_, .f32⟩
  | 99 => ⟨S1200000x64, .i1⟩
  | 100 => ⟨S1200000x64, .f32⟩
  | 101 => ⟨S1200000x64, .f32⟩
  | 102 => ⟨S_, .f32⟩
  | 103 => ⟨S100000x64, .f32⟩
  | 104 => ⟨S1200000x1, .i32⟩
  | 105 => ⟨S100000x64, .f32⟩
  | 106 => ⟨S1200000, .f32⟩
  | 107 => ⟨S_, .f32⟩
  | 108 => ⟨S100000, .f32⟩
  | 109 => ⟨S1200000x1, .i32⟩
  | 110 => ⟨S100000, .f32⟩
  | 111 => ⟨S_, .f32⟩
  | 112 => ⟨S100000, .f32⟩
  | 113 => ⟨S100000, .f32⟩
  | 114 => ⟨S100000x1, .f32⟩
  | 115 => ⟨S100000x64, .f32⟩
  | 116 => ⟨S100000x64, .f32⟩
  | 117 => ⟨S100000x64, .f32⟩
  | 118 => ⟨S_, .i32⟩
  | 119 => ⟨S1200000, .i32⟩
  | 120 => ⟨S1200000, .i1⟩
  | 121 => ⟨S1x64x64, .f32⟩
  | 122 => ⟨S64x64, .f32⟩
  | 123 => ⟨S100000x64, .f32⟩
  | 124 => ⟨S1200000x1, .i1⟩
  | 125 => ⟨S_, .i32⟩
  | 126 => ⟨S1200000, .i32⟩
  | 127 => ⟨S1200000, .i1⟩
  | _ => ⟨S100000x2, .i32⟩

abbrev hbmTy0_2 (i : Nat) : BufTy := match i % 128 with
  | 0 => ⟨S_, .i32⟩
  | 1 => ⟨S1200000, .i32⟩
  | 2 => ⟨S1200000, .i32⟩
  | 3 => ⟨S1200000, .i32⟩
  | 4 => ⟨S1200000x1, .i32⟩
  | 5 => ⟨S1200000x64, .f32⟩
  | 6 => ⟨S_, .f32⟩
  | 7 => ⟨S_, .f32⟩
  | 8 => ⟨S1200000x64, .i1⟩
  | 9 => ⟨S1200000x64, .f32⟩
  | 10 => ⟨S1200000x64, .f32⟩
  | 11 => ⟨S_, .f32⟩
  | 12 => ⟨S100000x64, .f32⟩
  | 13 => ⟨S1200000x1, .i32⟩
  | 14 => ⟨S100000x64, .f32⟩
  | 15 => ⟨S1200000, .f32⟩
  | 16 => ⟨S_, .f32⟩
  | 17 => ⟨S100000, .f32⟩
  | 18 => ⟨S1200000x1, .i32⟩
  | 19 => ⟨S100000, .f32⟩
  | 20 => ⟨S_, .f32⟩
  | 21 => ⟨S100000, .f32⟩
  | 22 => ⟨S100000, .f32⟩
  | 23 => ⟨S100000x1, .f32⟩
  | 24 => ⟨S100000x64, .f32⟩
  | 25 => ⟨S100000x64, .f32⟩
  | 26 => ⟨S100000x64, .f32⟩
  | 27 => ⟨S_, .f32⟩
  | 28 => ⟨S100000x64, .f32⟩
  | 29 => ⟨S100000x64, .f32⟩
  | 30 => ⟨S_, .f32⟩
  | 31 => ⟨S512x64, .f32⟩
  | 32 => ⟨S100000x1, .i32⟩
  | 33 => ⟨S512x64, .f32⟩
  | 34 => ⟨S_, .f32⟩
  | 35 => ⟨S100000, .f32⟩
  | 36 => ⟨S_, .f32⟩
  | 37 => ⟨S512, .f32⟩
  | 38 => ⟨S100000x1, .i32⟩
  | 39 => ⟨S512, .f32⟩
  | 40 => ⟨S_, .f32⟩
  | 41 => ⟨S512, .f32⟩
  | 42 => ⟨S512, .f32⟩
  | 43 => ⟨S512x1, .f32⟩
  | 44 => ⟨S512x64, .f32⟩
  | 45 => ⟨S512x64, .f32⟩
  | 46 => ⟨S512x10, .f32⟩
  | 47 => ⟨S1x10, .f32⟩
  | 48 => ⟨S512x10, .f32⟩
  | 49 => ⟨S512x10, .f32⟩
  | _ => ⟨S100000x2, .i32⟩

abbrev hbmTy (i : Nat) : BufTy := match i / 128 with
  | 0 => hbmTy0_0 i
  | 1 => hbmTy0_1 i
  | 2 => hbmTy0_2 i
  | _ => ⟨S100000x2, .i32⟩

abbrev bufTy : (tb : Table) → Fin (tcTables nBuf tb) → BufTy
  | .hbm, ⟨i, _⟩ => hbmTy i
  | _, _ => ⟨S100000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call0_cst : Ref sig .tc := ⟨.hbm, 43, rfl⟩
abbrev main_call0_v0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_3 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_4 : Ref sig .tc := ⟨.hbm, 61, rfl⟩
abbrev main_v38 : Ref sig .tc := ⟨.hbm, 62, rfl⟩
abbrev main_v39 : Ref sig .tc := ⟨.hbm, 63, rfl⟩
abbrev main_c_5 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v45 : Ref sig .tc := ⟨.hbm, 74, rfl⟩
abbrev main_cst_6 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_7 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_8 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_9 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_10 : Ref sig .tc := ⟨.hbm, 98, rfl⟩
abbrev main_v65 : Ref sig .tc := ⟨.hbm, 99, rfl⟩
abbrev main_v66 : Ref sig .tc := ⟨.hbm, 100, rfl⟩
abbrev main_c_11 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_12 : Ref sig .tc := ⟨.hbm, 107, rfl⟩
abbrev main_call2_v0 : Ref sig .tc := ⟨.hbm, 108, rfl⟩
abbrev main_call2_v1 : Ref sig .tc := ⟨.hbm, 109, rfl⟩
abbrev main_call2_v2 : Ref sig .tc := ⟨.hbm, 110, rfl⟩
abbrev main_v72 : Ref sig .tc := ⟨.hbm, 111, rfl⟩
abbrev main_cst_13 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_14 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_15 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_c_16 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_c_17 : Ref sig .tc := ⟨.hbm, 135, rfl⟩
abbrev main_v92 : Ref sig .tc := ⟨.hbm, 136, rfl⟩
abbrev main_v93 : Ref sig .tc := ⟨.hbm, 137, rfl⟩
abbrev main_c_18 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_19 : Ref sig .tc := ⟨.hbm, 144, rfl⟩
abbrev main_call3_v0 : Ref sig .tc := ⟨.hbm, 145, rfl⟩
abbrev main_call3_v1 : Ref sig .tc := ⟨.hbm, 146, rfl⟩
abbrev main_call3_v2 : Ref sig .tc := ⟨.hbm, 147, rfl⟩
abbrev main_v99 : Ref sig .tc := ⟨.hbm, 148, rfl⟩
abbrev main_cst_20 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_cst_21 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_cst_22 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_call4_cst : Ref sig .tc := ⟨.hbm, 165, rfl⟩
abbrev main_call4_v0 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_c_23 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_c_24 : Ref sig .tc := ⟨.hbm, 179, rfl⟩
abbrev main_v124 : Ref sig .tc := ⟨.hbm, 180, rfl⟩
abbrev main_v125 : Ref sig .tc := ⟨.hbm, 181, rfl⟩
abbrev main_c_25 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_cst_26 : Ref sig .tc := ⟨.hbm, 188, rfl⟩
abbrev main_call5_v0 : Ref sig .tc := ⟨.hbm, 189, rfl⟩
abbrev main_call5_v1 : Ref sig .tc := ⟨.hbm, 190, rfl⟩
abbrev main_call5_v2 : Ref sig .tc := ⟨.hbm, 191, rfl⟩
abbrev main_v131 : Ref sig .tc := ⟨.hbm, 192, rfl⟩
abbrev main_cst_27 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_cst_28 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_cst_29 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_c_30 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_c_31 : Ref sig .tc := ⟨.hbm, 216, rfl⟩
abbrev main_v151 : Ref sig .tc := ⟨.hbm, 217, rfl⟩
abbrev main_v152 : Ref sig .tc := ⟨.hbm, 218, rfl⟩
abbrev main_c_32 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_cst_33 : Ref sig .tc := ⟨.hbm, 225, rfl⟩
abbrev main_call6_v0 : Ref sig .tc := ⟨.hbm, 226, rfl⟩
abbrev main_call6_v1 : Ref sig .tc := ⟨.hbm, 227, rfl⟩
abbrev main_call6_v2 : Ref sig .tc := ⟨.hbm, 228, rfl⟩
abbrev main_v158 : Ref sig .tc := ⟨.hbm, 229, rfl⟩
abbrev main_cst_34 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_cst_35 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_cst_36 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_c_37 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_c_38 : Ref sig .tc := ⟨.hbm, 253, rfl⟩
abbrev main_v178 : Ref sig .tc := ⟨.hbm, 254, rfl⟩
abbrev main_v179 : Ref sig .tc := ⟨.hbm, 255, rfl⟩
abbrev main_c_39 : Ref sig .tc := ⟨.hbm, 256, rfl⟩
abbrev main_v180 : Ref sig .tc := ⟨.hbm, 257, rfl⟩
abbrev main_v181 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_cst_40 : Ref sig .tc := ⟨.hbm, 262, rfl⟩
abbrev main_call7_v0 : Ref sig .tc := ⟨.hbm, 263, rfl⟩
abbrev main_call7_v1 : Ref sig .tc := ⟨.hbm, 264, rfl⟩
abbrev main_call7_v2 : Ref sig .tc := ⟨.hbm, 265, rfl⟩
abbrev main_v185 : Ref sig .tc := ⟨.hbm, 266, rfl⟩
abbrev main_cst_41 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_cst_42 : Ref sig .tc := ⟨.hbm, 272, rfl⟩
abbrev main_v190 : Ref sig .tc := ⟨.hbm, 273, rfl⟩
abbrev main_v191 : Ref sig .tc := ⟨.hbm, 274, rfl⟩
abbrev main_v192 : Ref sig .tc := ⟨.hbm, 275, rfl⟩
abbrev main_cst_43 : Ref sig .tc := ⟨.hbm, 276, rfl⟩
abbrev main_v193 : Ref sig .tc := ⟨.hbm, 277, rfl⟩
abbrev main_v194 : Ref sig .tc := ⟨.hbm, 278, rfl⟩
abbrev main_v195 : Ref sig .tc := ⟨.hbm, 279, rfl⟩
abbrev main_v196 : Ref sig .tc := ⟨.hbm, 280, rfl⟩
abbrev main_v197 : Ref sig .tc := ⟨.hbm, 281, rfl⟩
abbrev main_v198 : Ref sig .tc := ⟨.hbm, 282, rfl⟩
abbrev main_call8_cst : Ref sig .tc := ⟨.hbm, 283, rfl⟩
abbrev main_call8_v0 : Ref sig .tc := ⟨.hbm, 284, rfl⟩
abbrev main_v199 : Ref sig .tc := ⟨.hbm, 285, rfl⟩
abbrev main_cst_44 : Ref sig .tc := ⟨.hbm, 286, rfl⟩
abbrev main_v200 : Ref sig .tc := ⟨.hbm, 287, rfl⟩
abbrev main_v201 : Ref sig .tc := ⟨.hbm, 288, rfl⟩
abbrev main_v202 : Ref sig .tc := ⟨.hbm, 289, rfl⟩
abbrev main_cst_45 : Ref sig .tc := ⟨.hbm, 290, rfl⟩
abbrev main_v203 : Ref sig .tc := ⟨.hbm, 291, rfl⟩
abbrev main_cst_46 : Ref sig .tc := ⟨.hbm, 292, rfl⟩
abbrev main_v204 : Ref sig .tc := ⟨.hbm, 293, rfl⟩
abbrev main_v205 : Ref sig .tc := ⟨.hbm, 294, rfl⟩
abbrev main_v206 : Ref sig .tc := ⟨.hbm, 295, rfl⟩
abbrev main_cst_47 : Ref sig .tc := ⟨.hbm, 296, rfl⟩
abbrev main_v207 : Ref sig .tc := ⟨.hbm, 297, rfl⟩
abbrev main_v208 : Ref sig .tc := ⟨.hbm, 298, rfl⟩
abbrev main_v209 : Ref sig .tc := ⟨.hbm, 299, rfl⟩
abbrev main_v210 : Ref sig .tc := ⟨.hbm, 300, rfl⟩
abbrev main_v211 : Ref sig .tc := ⟨.hbm, 301, rfl⟩
abbrev main_v212 : Ref sig .tc := ⟨.hbm, 302, rfl⟩
abbrev main_v213 : Ref sig .tc := ⟨.hbm, 303, rfl⟩
abbrev main_v214 : Ref sig .tc := ⟨.hbm, 304, rfl⟩
abbrev main_v215 : Ref sig .tc := ⟨.hbm, 305, rfl⟩

abbrev nD : Nat := 1
abbrev τ : Topo := Topo.v7x

variable {F : FTy → Type} [FloatOps F]

class Facts₀ : Prop where
  slices_S100000x2_S100000x1_0_0 : S100000x2.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S100000x2_S100000x1_0_1 : S100000x2.Slices ![0, 1] S100000x1
  concatenates_S100000x8_S100000x8_S100000x16_d1 : Shape.Concatenates [S100000x8, S100000x8] S100000x16 1
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1200000 : S_.BroadcastsInDim S1200000 (![] : Fin 0 → Fin S1200000.rank)
  slices_S3x32x64_S1x32x64_0_0_0 : S3x32x64.Slices ![0, 0, 0] S1x32x64
  shapeCasts_S1x32x64_S32x64 : S1x32x64.ShapeCasts S32x64
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S1200000x64 : S_.BroadcastsInDim S1200000x64 (![] : Fin 0 → Fin S1200000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S3x32x64_S1x32x64_1_0_0 : S3x32x64.Slices ![1, 0, 0] S1x32x64
  slices_S3x32x64_S1x32x64_2_0_0 : S3x32x64.Slices ![2, 0, 0] S1x32x64
  slices_S3x64x64_S1x64x64_0_0_0 : S3x64x64.Slices ![0, 0, 0] S1x64x64
  shapeCasts_S1x64x64_S64x64 : S1x64x64.ShapeCasts S64x64
  slices_S3x64x64_S1x64x64_1_0_0 : S3x64x64.Slices ![1, 0, 0] S1x64x64
  slices_S3x64x64_S1x64x64_2_0_0 : S3x64x64.Slices ![2, 0, 0] S1x64x64
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S16x8_S100000x1_S100000x8_1_0_n_n_0_1_18_wf : GatherDims.WF S16x8 S100000x1 S100000x8 [1] [0] [] [0] [] 1 ![1, 8]
  dot_S100000x16_S16x32_S100000x32_1_0_0_1_n_n_wf : DotDims.WF S100000x16 S16x32 S100000x32 [1] [0] [0] [1] [] []
  dot_S100000x32_S32x64_S100000x64_1_0_0_1_n_n_wf : DotDims.WF S100000x32 S32x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x10_S512x10_1_0_0_1_n_n_wf : DotDims.WF S512x64 S64x10 S512x10 [1] [0] [0] [1] [] []

variable [Facts₀]

def gather_S16x8_S100000x1_S100000x8_1_0_n_n_0_1_18 : GatherDims S16x8 S100000x1 S100000x8 where
  offsetDims := [1]
  collapsedSliceDims := [0]
  operandBatchingDims := []
  startIndicesBatchingDims := []
  startIndexMap := [0]
  indexVectorDim := 1
  sliceSizes := ![1, 8]
  wf := gather_S16x8_S100000x1_S100000x8_1_0_n_n_0_1_18_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

class Facts : Prop extends Facts₀ where

variable [Facts]
-- ==== Proof.KChain.lean ====
/-
  What each buffer holds at each boundary of the kernel program.

  The program is ten segments: a stretch of host operations, then a region, five times over. A buffer that a stretch
  does not write holds after the stretch what it held before; a buffer that is none of a region's arrays holds after
  the region what it held before; a region's input array is left as it was found. So every argument array holds its
  launch contents at every boundary, and every intermediate array holds, from the segment that wrote it on, what
  that segment left in it.
-/
import proofs.«428839_j88648124990070_3_alg».proof.Proof.Gen.KernelIdeal.Frame

set_option maxRecDepth 16384

noncomputable section

namespace Cert.KernelIdeal.Chain

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg) (c : Dev nD)

/-- No operation of the named stretch writes the buffer in the goal: decided operation by operation. -/
local macro "no_write" ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## Through one segment -/

theorem h0_keep (b : Ref sig .tc) (h : ∀ op ∈ (hostOps0 : List (HloOp τ sig (Elt F))), Proc.devRef .tc b ∉ op.writes) :
    W1 m ρ c (Proc.devRef .tc b) = W0 m ρ c (Proc.devRef .tc b) := StableHlo.after_of_forall_not_mem _ _ h
theorem h1_keep (b : Ref sig .tc) (h : ∀ op ∈ (hostOps1 : List (HloOp τ sig (Elt F))), Proc.devRef .tc b ∉ op.writes) :
    W3 m ρ c (Proc.devRef .tc b) = W2 m ρ c (Proc.devRef .tc b) := StableHlo.after_of_forall_not_mem _ _ h
theorem h2_keep (b : Ref sig .tc) (h : ∀ op ∈ (hostOps2 : List (HloOp τ sig (Elt F))), Proc.devRef .tc b ∉ op.writes) :
    W5 m ρ c (Proc.devRef .tc b) = W4 m ρ c (Proc.devRef .tc b) := StableHlo.after_of_forall_not_mem _ _ h
theorem h3_keep (b : Ref sig .tc) (h : ∀ op ∈ (hostOps3 : List (HloOp τ sig (Elt F))), Proc.devRef .tc b ∉ op.writes) :
    W7 m ρ c (Proc.devRef .tc b) = W6 m ρ c (Proc.devRef .tc b) := StableHlo.after_of_forall_not_mem _ _ h
theorem h4_keep (b : Ref sig .tc) (h : ∀ op ∈ (hostOps4 : List (HloOp τ sig (Elt F))), Proc.devRef .tc b ∉ op.writes) :
    W9 m ρ c (Proc.devRef .tc b) = W8 m ρ c (Proc.devRef .tc b) := StableHlo.after_of_forall_not_mem _ _ h

/-! ## A buffer no stretch writes and no region owns, from the launch to each boundary -/

section keep
variable (b : Ref sig .tc)

theorem keep1 (n0 : ∀ op ∈ (hostOps0 : List (HloOp τ sig (Elt F))), Proc.devRef .tc b ∉ op.writes) :
    W1 m ρ c (Proc.devRef .tc b) = W0 m ρ c (Proc.devRef .tc b) := h0_keep m ρ c b n0
theorem keep2 (n0 : ∀ op ∈ (hostOps0 : List (HloOp τ sig (Elt F))), Proc.devRef .tc b ∉ op.writes)
    (r0 : ∀ w, Pipeline.arrRef spec0 w ≠ b) :
    W2 m ρ c (Proc.devRef .tc b) = W0 m ρ c (Proc.devRef .tc b) := (W2_of_ne m ρ c b r0).trans (keep1 m ρ c b n0)
theorem keep3 (n0 : ∀ op ∈ (hostOps0 : List (HloOp τ sig (Elt F))), Proc.devRef .tc b ∉ op.writes)
    (r0 : ∀ w, Pipeline.arrRef spec0 w ≠ b)
    (n1 : ∀ op ∈ (hostOps1 : List (HloOp τ sig (Elt F))), Proc.devRef .tc b ∉ op.writes) :
    W3 m ρ c (Proc.devRef .tc b) = W0 m ρ c (Proc.devRef .tc b) := (h1_keep m ρ c b n1).trans (keep2 m ρ c b n0 r0)
theorem keep4 (n0 : ∀ op ∈ (hostOps0 : List (HloOp τ sig (Elt F))), Proc.devRef .tc b ∉ op.writes)
    (r0 : ∀ w, Pipeline.arrRef spec0 w ≠ b)
    (n1 : ∀ op ∈ (hostOps1 : List (HloOp τ sig (Elt F))), Proc.devRef .tc b ∉ op.writes)
    (r1 : ∀ w, Pipeline.arrRef spec1 w ≠ b) :
    W4 m ρ c (Proc.devRef .tc b) = W0 m ρ c (Proc.devRef .tc b) := (W4_of_ne m ρ c b r1).trans (keep3 m ρ c b n0 r0 n1)
theorem keep5 (n0 : ∀ op ∈ (hostOps0 : List (HloOp τ sig (Elt F))), Proc.devRef .tc b ∉ op.writes)
    (r0 : ∀ w, Pipeline.arrRef spec0 w ≠ b)
    (n1 : ∀ op ∈ (hostOps1 : List (HloOp τ sig (Elt F))), Proc.devRef .tc b ∉ op.writes)
    (r1 : ∀ w, Pipeline.arrRef spec1 w ≠ b)
    (n2 : ∀ op ∈ (hostOps2 : List (HloOp τ sig (Elt F))), Proc.devRef .tc b ∉ op.writes) :
    W5 m ρ c (Proc.devRef .tc b) = W0 m ρ c (Proc.devRef .tc b) := (h2_keep m ρ c b n2).trans (keep4 m ρ c b n0 r0 n1 r1)
theorem keep6 (n0 : ∀ op ∈ (hostOps0 : List (HloOp τ sig (Elt F))), Proc.devRef .tc b ∉ op.writes)
    (r0 : ∀ w, Pipeline.arrRef spec0 w ≠ b)
    (n1 : ∀ op ∈ (hostOps1 : List (HloOp τ sig (Elt F))), Proc.devRef .tc b ∉ op.writes)
    (r1 : ∀ w, Pipeline.arrRef spec1 w ≠ b)
    (n2 : ∀ op ∈ (hostOps2 : List (HloOp τ sig (Elt F))), Proc.devRef .tc b ∉ op.writes)
    (r2 : ∀ w, Pipeline.arrRef spec2 w ≠ b) :
    W6 m ρ c (Proc.devRef .tc b) = W0 m ρ c (Proc.devRef .tc b) := (W6_of_ne m ρ c b r2).trans (keep5 m ρ c b n0 r0 n1 r1 n2)
theorem keep7 (n0 : ∀ op ∈ (hostOps0 : List (HloOp τ sig (Elt F))), Proc.devRef .tc b ∉ op.writes)
    (r0 : ∀ w, Pipeline.arrRef spec0 w ≠ b)
    (n1 : ∀ op ∈ (hostOps1 : List (HloOp τ sig (Elt F))), Proc.devRef .tc b ∉ op.writes)
    (r1 : ∀ w, Pipeline.arrRef spec1 w ≠ b)
    (n2 : ∀ op ∈ (hostOps2 : List (HloOp τ sig (Elt F))), Proc.devRef .tc b ∉ op.writes)
    (r2 : ∀ w, Pipeline.arrRef spec2 w ≠ b)
    (n3 : ∀ op ∈ (hostOps3 : List (HloOp τ sig (Elt F))), Proc.devRef .tc b ∉ op.writes) :
    W7 m ρ c (Proc.devRef .tc b) = W0 m ρ c (Proc.devRef .tc b) := (h3_keep m ρ c b n3).trans (keep6 m ρ c b n0 r0 n1 r1 n2 r2)
theorem keep8 (n0 : ∀ op ∈ (hostOps0 : List (HloOp τ sig (Elt F))), Proc.devRef .tc b ∉ op.writes)
    (r0 : ∀ w, Pipeline.arrRef spec0 w ≠ b)
    (n1 : ∀ op ∈ (hostOps1 : List (HloOp τ sig (Elt F))), Proc.devRef .tc b ∉ op.writes)
    (r1 : ∀ w, Pipeline.arrRef spec1 w ≠ b)
    (n2 : ∀ op ∈ (hostOps2 : List (HloOp τ sig (Elt F))), Proc.devRef .tc b ∉ op.writes)
    (r2 : ∀ w, Pipeline.arrRef spec2 w ≠ b)
    (n3 : ∀ op ∈ (hostOps3 : List (HloOp τ sig (Elt F))), Proc.devRef .tc b ∉ op.writes)
    (r3 : ∀ w, Pipeline.arrRef spec3 w ≠ b) :
    W8 m ρ c (Proc.devRef .tc b) = W0 m ρ c (Proc.devRef .tc b) := (W8_of_ne m ρ c b r3).trans (keep7 m ρ c b n0 r0 n1 r1 n2 r2 n3)
theorem keep9 (n0 : ∀ op ∈ (hostOps0 : List (HloOp τ sig (Elt F))), Proc.devRef .tc b ∉ op.writes)
    (r0 : ∀ w, Pipeline.arrRef spec0 w ≠ b)
    (n1 : ∀ op ∈ (hostOps1 : List (HloOp τ sig (Elt F))), Proc.devRef .tc b ∉ op.writes)
    (r1 : ∀ w, Pipeline.arrRef spec1 w ≠ b)
    (n2 : ∀ op ∈ (hostOps2 : List (HloOp τ sig (Elt F))), Proc.devRef .tc b ∉ op.writes)
    (r2 : ∀ w, Pipeline.arrRef spec2 w ≠ b)
    (n3 : ∀ op ∈ (hostOps3 : List (HloOp τ sig (Elt F))), Proc.devRef .tc b ∉ op.writes)
    (r3 : ∀ w, Pipeline.arrRef spec3 w ≠ b)
    (n4 : ∀ op ∈ (hostOps4 : List (HloOp τ sig (Elt F))), Proc.devRef .tc b ∉ op.writes) :
    W9 m ρ c (Proc.devRef .tc b) = W0 m ρ c (Proc.devRef .tc b) := (h4_keep m ρ c b n4).trans (keep8 m ρ c b n0 r0 n1 r1 n2 r2 n3 r3)

end keep

/-- The launch contents are the launch memory. -/
theorem W0_eq (b : Ref sig .tc) : W0 m ρ c (Proc.devRef .tc b) = m ((c : Thread nD τ).loc b) := rfl

/-! ## The argument arrays at the boundaries where they are read -/

theorem W1_arg0 : W1 m ρ c (Proc.devRef .tc main_arg0) = m ((c : Thread nD τ).loc main_arg0) := keep1 m ρ c main_arg0 (by no_write hostOps0)
theorem W1_arg4 : W1 m ρ c (Proc.devRef .tc main_arg4) = m ((c : Thread nD τ).loc main_arg4) := keep1 m ρ c main_arg4 (by no_write hostOps0)
theorem W1_arg5 : W1 m ρ c (Proc.devRef .tc main_arg5) = m ((c : Thread nD τ).loc main_arg5) := keep1 m ρ c main_arg5 (by no_write hostOps0)
theorem W1_arg6 : W1 m ρ c (Proc.devRef .tc main_arg6) = m ((c : Thread nD τ).loc main_arg6) := keep1 m ρ c main_arg6 (by no_write hostOps0)
theorem W1_arg7 : W1 m ρ c (Proc.devRef .tc main_arg7) = m ((c : Thread nD τ).loc main_arg7) := keep1 m ρ c main_arg7 (by no_write hostOps0)
theorem W0_arg1 : W0 m ρ c (Proc.devRef .tc main_arg1) = m ((c : Thread nD τ).loc main_arg1) := rfl
theorem W2_arg2 : W2 m ρ c (Proc.devRef .tc main_arg2) = m ((c : Thread nD τ).loc main_arg2) := keep2 m ρ c main_arg2 (by no_write hostOps0) (by decide)
theorem W2_arg8 : W2 m ρ c (Proc.devRef .tc main_arg8) = m ((c : Thread nD τ).loc main_arg8) := keep2 m ρ c main_arg8 (by no_write hostOps0) (by decide)
theorem W2_arg9 : W2 m ρ c (Proc.devRef .tc main_arg9) = m ((c : Thread nD τ).loc main_arg9) := keep2 m ρ c main_arg9 (by no_write hostOps0) (by decide)
theorem W3_arg10 : W3 m ρ c (Proc.devRef .tc main_arg10) = m ((c : Thread nD τ).loc main_arg10) := keep3 m ρ c main_arg10 (by no_write hostOps0) (by decide) (by no_write hostOps1)
theorem W4_arg2 : W4 m ρ c (Proc.devRef .tc main_arg2) = m ((c : Thread nD τ).loc main_arg2) := keep4 m ρ c main_arg2 (by no_write hostOps0) (by decide) (by no_write hostOps1) (by decide)
theorem W4_arg11 : W4 m ρ c (Proc.devRef .tc main_arg11) = m ((c : Thread nD τ).loc main_arg11) := keep4 m ρ c main_arg11 (by no_write hostOps0) (by decide) (by no_write hostOps1) (by decide)
theorem W4_arg12 : W4 m ρ c (Proc.devRef .tc main_arg12) = m ((c : Thread nD τ).loc main_arg12) := keep4 m ρ c main_arg12 (by no_write hostOps0) (by decide) (by no_write hostOps1) (by decide)
theorem W5_arg13 : W5 m ρ c (Proc.devRef .tc main_arg13) = m ((c : Thread nD τ).loc main_arg13) := keep5 m ρ c main_arg13 (by no_write hostOps0) (by decide) (by no_write hostOps1) (by decide) (by no_write hostOps2)
theorem W6_arg3 : W6 m ρ c (Proc.devRef .tc main_arg3) = m ((c : Thread nD τ).loc main_arg3) := keep6 m ρ c main_arg3 (by no_write hostOps0) (by decide) (by no_write hostOps1) (by decide) (by no_write hostOps2) (by decide)
theorem W8_arg3 : W8 m ρ c (Proc.devRef .tc main_arg3) = m ((c : Thread nD τ).loc main_arg3) := keep8 m ρ c main_arg3 (by no_write hostOps0) (by decide) (by no_write hostOps1) (by decide) (by no_write hostOps2) (by decide) (by no_write hostOps3) (by decide)
theorem W9_arg14 : W9 m ρ c (Proc.devRef .tc main_arg14) = m ((c : Thread nD τ).loc main_arg14) := keep9 m ρ c main_arg14 (by no_write hostOps0) (by decide) (by no_write hostOps1) (by decide) (by no_write hostOps2) (by decide) (by no_write hostOps3) (by decide) (by no_write hostOps4)
theorem W9_arg15 : W9 m ρ c (Proc.devRef .tc main_arg15) = m ((c : Thread nD τ).loc main_arg15) := keep9 m ρ c main_arg15 (by no_write hostOps0) (by decide) (by no_write hostOps1) (by decide) (by no_write hostOps2) (by decide) (by no_write hostOps3) (by decide) (by no_write hostOps4)

/-! ## The edge list's two rows, written by the first stretch, where the later stretches read them -/

theorem W2_v1 : W2 m ρ c (Proc.devRef .tc main_call0_v1) = W1 m ρ c (Proc.devRef .tc main_call0_v1) := W2_of_ne m ρ c main_call0_v1 (by decide)
theorem W2_v3 : W2 m ρ c (Proc.devRef .tc main_call0_v3) = W1 m ρ c (Proc.devRef .tc main_call0_v3) := W2_of_ne m ρ c main_call0_v3 (by decide)
theorem W4_v1 : W4 m ρ c (Proc.devRef .tc main_call0_v1) = W1 m ρ c (Proc.devRef .tc main_call0_v1) :=
  (W4_of_ne m ρ c main_call0_v1 (by decide)).trans ((h1_keep m ρ c main_call0_v1 (by no_write hostOps1)).trans (W2_v1 m ρ c))
theorem W4_v3 : W4 m ρ c (Proc.devRef .tc main_call0_v3) = W1 m ρ c (Proc.devRef .tc main_call0_v3) :=
  (W4_of_ne m ρ c main_call0_v3 (by decide)).trans ((h1_keep m ρ c main_call0_v3 (by no_write hostOps1)).trans (W2_v3 m ρ c))

/-! ## A region's output where the next segments read it -/

theorem W7_v60 : W7 m ρ c (Proc.devRef .tc main_call0_v60) = W6 m ρ c (Proc.devRef .tc main_call0_v60) := h3_keep m ρ c main_call0_v60 (by no_write hostOps3)
theorem W9_v62 : W9 m ρ c (Proc.devRef .tc main_call0_v62) = W8 m ρ c (Proc.devRef .tc main_call0_v62) := h4_keep m ρ c main_call0_v62 (by no_write hostOps4)

end Cert.KernelIdeal.Chain

end
-- ==== Proof.Spec.lean ====
/-
  The network as plain real arithmetic.

  Two 16-row embedding tables looked up by the two columns of the node labels and laid side by side, a dense layer with
  a rectifier, two relational graph layers, a mean over the nodes of each graph, and a last dense layer:

    h0[n, j]  = max (∑ k, emb[n, k] · pre_w[k, j] + pre_b[j]) 0,   emb[n, ·] = se[x[n, 0], ·] ++ ce[x[n, 1], ·]
    h'[n, j]  = max (∑ k, h[n, k] · root[k, j] + b[j]
                      + ∑ r, (∑ e ∈ E(n, r), ∑ k, h[src e, k] · W[r, k, j]) / max |E(n, r)| 1) 0
    out[g, q] = ∑ j, (∑ n ∈ G(g), h2[n, j]) / max |G(g)| 1 · cls_w[j, q] + cls_b[q]

  where E(n, r) is the set of edges into node n of relation r and G(g) the set of nodes of graph g.

  The same layer in a second arrangement: the neighbours' features are averaged per relation FIRST and the averages
  are laid beside the node's own features (`comb`), the relation matrices stacked under the root matrix (`combW`), and
  one dense layer is applied to the pair. `dense_comb` says the two arrangements are one function: a mean commutes with
  a linear map.
-/
import Mathlib.Data.Real.Basic
import Mathlib.Algebra.BigOperators.Group.Finset.Basic
import Mathlib.Algebra.BigOperators.Ring.Finset
import Mathlib.Algebra.BigOperators.Field
import Mathlib.Algebra.Order.Field.Basic
import Mathlib.Data.Fintype.BigOperators
import Mathlib.Algebra.BigOperators.Fin

noncomputable section

namespace GnnSpec

open Finset

/-- Two tables' rows side by side: columns 0–7 from the first table's row `i0`, columns 8–15 from the second's row `i1`. -/
def emb (se ce : Fin 16 → Fin 8 → ℝ) (xi : Fin 100000 → Fin 2 → Fin 16) (n : Fin 100000) (k : Fin 16) : ℝ :=
  if h : k.val < 8 then se (xi n 0) ⟨k.val, h⟩ else ce (xi n 1) ⟨k.val - 8, by omega⟩

/-- A dense layer with a rectifier: max (∑ k, A[n,k] · W[k,j] + b[j]) 0. -/
def dense {N K J : Nat} (A : Fin N → Fin K → ℝ) (W : Fin K → Fin J → ℝ) (b : Fin J → ℝ) (n : Fin N) (j : Fin J) : ℝ :=
  max (∑ k, A n k * W k j + b j) 0

/-- The edges into node `n` of relation `r`. -/
def edges {N E : Nat} (dst : Fin E → Fin N) (et : Fin E → Fin 3) (n : Fin N) (r : Fin 3) : Finset (Fin E) :=
  univ.filter fun e => dst e = n ∧ et e = r

/-- The divisor of a mean: the number of summands, at least one. -/
def cnt1 {ι : Type} (s : Finset ι) : ℝ := max (s.card : ℝ) 1

theorem cnt1_pos {ι : Type} (s : Finset ι) : 0 < cnt1 s := lt_of_lt_of_le one_pos (le_max_right _ _)
theorem cnt1_ne {ι : Type} (s : Finset ι) : cnt1 s ≠ 0 := (cnt1_pos s).ne'

/-- A relational graph layer: the node's own features through `root`, plus, per relation, the mean over the edges of
    that relation into the node of the source's features through that relation's matrix; bias; rectifier. -/
def layer {N E D J : Nat} (src dst : Fin E → Fin N) (et : Fin E → Fin 3) (h : Fin N → Fin D → ℝ)
    (W : Fin 3 → Fin D → Fin J → ℝ) (root : Fin D → Fin J → ℝ) (b : Fin J → ℝ) (n : Fin N) (j : Fin J) : ℝ :=
  max (∑ k, h n k * root k j + b j
        + ∑ r, (∑ e ∈ edges dst et n r, ∑ k, h (src e) k * W r k j) / cnt1 (edges dst et n r)) 0

/-- The mean, per relation, of the sources' features over the edges into a node. -/
def nagg {N E D : Nat} (src dst : Fin E → Fin N) (et : Fin E → Fin 3) (h : Fin N → Fin D → ℝ)
    (n : Fin N) (r : Fin 3) (k : Fin D) : ℝ :=
  (∑ e ∈ edges dst et n r, h (src e) k) / cnt1 (edges dst et n r)

/-- The node's own features followed by the three relations' mean neighbour features: column `k < D` is h[n, k],
    column `D + r·D + k` is nagg[n, r, k]. -/
def comb {N E D : Nat} (src dst : Fin E → Fin N) (et : Fin E → Fin 3) (h : Fin N → Fin D → ℝ)
    (n : Fin N) (k : Fin (4 * D)) : ℝ :=
  if hk : k.val < D then h n ⟨k.val, hk⟩
  else nagg src dst et h n ⟨(k.val - D) / D, by
        have := k.isLt
        have hD : 0 < D := by omega
        exact (Nat.div_lt_iff_lt_mul hD).2 (by omega)⟩
      ⟨(k.val - D) % D, Nat.mod_lt _ (by have := k.isLt; omega)⟩

/-- The root matrix over the three relation matrices: row `k < D` is root[k, ·], row `D + r·D + k` is W[r, k, ·]. -/
def combW {D J : Nat} (W : Fin 3 → Fin D → Fin J → ℝ) (root : Fin D → Fin J → ℝ) (k : Fin (4 * D)) (j : Fin J) : ℝ :=
  if hk : k.val < D then root ⟨k.val, hk⟩ j
  else W ⟨(k.val - D) / D, by
        have := k.isLt
        have hD : 0 < D := by omega
        exact (Nat.div_lt_iff_lt_mul hD).2 (by omega)⟩
      ⟨(k.val - D) % D, Nat.mod_lt _ (by have := k.isLt; omega)⟩ j

/-- The nodes of graph `g`: those whose graph id, read as a signed number, is `g`. -/
def members {N G : Nat} (gid : Fin N → ℤ) (g : Fin G) : Finset (Fin N) := univ.filter fun n => gid n = (g.val : ℤ)

/-- The sum of the features over the nodes of a graph. -/
def pool {N G J : Nat} (gid : Fin N → ℤ) (h : Fin N → Fin J → ℝ) (g : Fin G) (j : Fin J) : ℝ :=
  ∑ n ∈ members gid g, h n j

/-- The number of nodes of a graph. -/
def gcount {N G : Nat} (gid : Fin N → ℤ) (g : Fin G) : ℝ := ((members gid g).card : ℝ)

/-- The mean over a graph's nodes through the last dense layer (no rectifier). -/
def classify {G J Q : Nat} (P : Fin G → Fin J → ℝ) (c : Fin G → ℝ) (cw : Fin J → Fin Q → ℝ) (cb : Fin Q → ℝ)
    (g : Fin G) (q : Fin Q) : ℝ :=
  ∑ j, P g j / max (c g) 1 * cw j q + cb q

end GnnSpec

end
-- ==== Proof.LibCoe.lean ====
/-
  Real numbers inside the extended reals: the arithmetic of finite values stays finite and is the reals' own.
  Sums, products, quotients by a nonzero real, and maxima of coerced reals are the coercions of the real results.
-/
import Idealize.ShloMosaic.PureOps.Ideal
import Mathlib.Algebra.BigOperators.Group.Finset.Basic

namespace CoeLib

open Idealize.ShloMosaic

/-- A finite sum of reals, coerced term by term, is the coerced sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The quotient of two reals, the divisor not zero, computed in the extended reals. -/
theorem div_coe_coe (a c : ℝ) (hc : c ≠ 0) : Ideal.div (a : EReal) (c : EReal) = ((a / c : ℝ) : EReal) := by
  rw [Ideal.div_coe hc, ← EReal.coe_mul]
  congr 1
  field_simp

/-- The larger of two reals, computed in the extended reals. -/
theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- A sum of products of coerced reals. -/
theorem coe_sum_mul {ι : Type} (s : Finset ι) (f g : ι → ℝ) :
    (∑ i ∈ s, ((f i : ℝ) : EReal) * ((g i : ℝ) : EReal)) = ((∑ i ∈ s, f i * g i : ℝ) : EReal) := by
  rw [← coe_sum]
  exact Finset.sum_congr rfl fun i _ => (EReal.coe_mul _ _).symm

end CoeLib
-- ==== Proof.KEmbed.lean ====
/-
  The embedding region, from blocks to the array.

  Each grid point takes 10000 rows of node labels (two columns, each label a number below 16), turns each column into a
  one-hot row of 16 entries (the label broadcast along the row, compared with the column number, the one-bit answer
  widened and converted exactly), multiplies the two one-hot blocks by their two [16,8] tables, lays the two products side
  by side, multiplies by the [16,32] weight, adds the bias row and takes the larger of that and zero.

  A one-hot row times a table of finite entries is the table's row at the label: every other term is zero times a finite
  number. So each element of a point's block is the dense layer, with its rectifier, of the two looked-up rows side by
  side, a real number; row `p` of point `t`'s block is row `10000 t + p` of the array, the ten blocks cover the array, and
  the array the region leaves is that function of the label, table, weight and bias arrays, element by element.
-/
import proofs.«428839_j88648124990070_3_alg».proof.Proof.Gen.KernelIdeal.Frame
import proofs.«428839_j88648124990070_3_alg».proof.Proof.Spec
import proofs.«428839_j88648124990070_3_alg».proof.Proof.LibCoe
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

/-! ## The one-hot row -/

/-- Two labels below 16 compared as 32-bit words, the one-bit answer widened and read as a signed integer: 1 where the
    labels agree, 0 where they differ. -/
theorem emb_onehot_int : ∀ a t : Fin 16,
    ((IntOp.cmpi .eq (BitVec.ofNat 32 a.val) (BitVec.ofNat 32 t.val)).setWidth 32).toInt = if a = t then 1 else 0 := by
  decide +kernel

/-- Column `t` of the one-hot row of a label column: the label broadcast along the row, compared with the column
    number, widened and converted exactly. -/
theorem emb_onehot_apply (v : IVec S10000x1 32) (p : Fin 10000) (a t : Fin 16) (h : v (ix2 p (0 : Fin 1)) = BitVec.ofNat 32 a.val) :
    (truncf .bf16 (sitofp .f32 (extui 32 (cmpi .eq (broadcastTo S10000x16 v broadcasts_S10000x1_S10000x16)
        (iota .tc S10000x16 32 [1] iota_S10000x16_d1_w32)) natLt_1_32) : FVec Ideal S10000x16 .f32) bitsLt_bf16_f32
        : FVec Ideal S10000x16 .bf16) (ix2 p t) = if a = t then (1 : EReal) else 0 := by
  rw [truncf_apply, sitofp_apply, extui_apply]
  show FloatOps.sitofp .f32 ((IntOp.cmpi .eq (broadcastTo S10000x16 v broadcasts_S10000x1_S10000x16 (ix2 p t))
      (iota .tc S10000x16 32 [1] iota_S10000x16_d1_w32 (ix2 p t))).setWidth 32) = _
  rw [broadcastTo_apply v broadcasts_S10000x1_S10000x16 (ix2 p t) (ix2 p (0 : Fin 1)) (fun ax => by
    match ax with
    | ⟨0, _⟩ => rfl
    | ⟨1, _⟩ => rfl), iota_single_apply, h]
  show (((((IntOp.cmpi .eq (BitVec.ofNat 32 a.val) (BitVec.ofNat 32 t.val)).setWidth 32).toInt : ℤ) : ℝ) : EReal) = _
  rw [emb_onehot_int]
  split <;> simp

/-! ## The contractions -/

theorem emb_lhs_tab_0 (i : S10000x8.Idx) (q : dot_S10000x16_S16x8_S10000x8_1_0_0_1_n_n.contr.Idx) :
    (dot_S10000x16_S16x8_S10000x8_1_0_0_1_n_n.lhsIdx i q 0).val = (i 0).val := by
  unfold DotDims.lhsIdx
  rw [dif_neg (show ¬(0 : Fin S10000x16.rank) ∈ dot_S10000x16_S16x8_S10000x8_1_0_0_1_n_n.lhsBatch by decide), dif_pos (show (0 : Fin S10000x16.rank) ∈ dot_S10000x16_S16x8_S10000x8_1_0_0_1_n_n.lhsNonContracting by decide)]
  rfl
theorem emb_lhs_tab_1 (i : S10000x8.Idx) (q : dot_S10000x16_S16x8_S10000x8_1_0_0_1_n_n.contr.Idx) :
    (dot_S10000x16_S16x8_S10000x8_1_0_0_1_n_n.lhsIdx i q 1).val = (q ⟨0, by decide⟩).val :=
  dot_S10000x16_S16x8_S10000x8_1_0_0_1_n_n.lhsIdx_val_of_single rfl i q
theorem emb_rhs_tab_0 (i : S10000x8.Idx) (q : dot_S10000x16_S16x8_S10000x8_1_0_0_1_n_n.contr.Idx) :
    (dot_S10000x16_S16x8_S10000x8_1_0_0_1_n_n.rhsIdx i q 0).val = (q ⟨0, by decide⟩).val :=
  dot_S10000x16_S16x8_S10000x8_1_0_0_1_n_n.rhsIdx_val_of_single rfl i q
theorem emb_rhs_tab_1 (i : S10000x8.Idx) (q : dot_S10000x16_S16x8_S10000x8_1_0_0_1_n_n.contr.Idx) :
    (dot_S10000x16_S16x8_S10000x8_1_0_0_1_n_n.rhsIdx i q 1).val = (i 1).val := by
  unfold DotDims.rhsIdx
  rw [dif_neg (show ¬(1 : Fin S16x8.rank) ∈ dot_S10000x16_S16x8_S10000x8_1_0_0_1_n_n.rhsBatch by decide), dif_pos (show (1 : Fin S16x8.rank) ∈ dot_S10000x16_S16x8_S10000x8_1_0_0_1_n_n.rhsNonContracting by decide)]
  rfl

/-- A [10000,16] block times a [16,8] table into zeros, at row `p` and column `k`: the sum over the 16 inner positions. -/
theorem emb_matmul_tab_apply (A : FVec Ideal S10000x16 .bf16) (B : FVec Ideal S16x8 .bf16) (p : Fin 10000) (k : Fin 8) :
    matmul dot_S10000x16_S16x8_S10000x8_1_0_0_1_n_n none A B (constant (F := Ideal) S10000x8 .f32 0x00000000#32) (ix2 p k)
      = ∑ t : Fin 16, A (ix2 p t) * B (ix2 t k) := by
  simp only [matmul]
  rw [Ideal.matmul_constant_zero_apply, ← Equiv.sum_comp (contrEquiv1 dot_S10000x16_S16x8_S10000x8_1_0_0_1_n_n 16 rfl rfl).symm]
  refine Finset.sum_congr rfl fun t _ => ?_
  have hk := contrEquiv1_symm_val dot_S10000x16_S16x8_S10000x8_1_0_0_1_n_n 16 rfl rfl t
  have el : dot_S10000x16_S16x8_S10000x8_1_0_0_1_n_n.lhsIdx (ix2 p k) ((contrEquiv1 dot_S10000x16_S16x8_S10000x8_1_0_0_1_n_n 16 rfl rfl).symm t) = ix2 p t := funext fun a => Fin.ext (by
    match a with
    | ⟨0, _⟩ => exact emb_lhs_tab_0 _ _
    | ⟨1, _⟩ => exact (emb_lhs_tab_1 _ _).trans hk)
  have er : dot_S10000x16_S16x8_S10000x8_1_0_0_1_n_n.rhsIdx (ix2 p k) ((contrEquiv1 dot_S10000x16_S16x8_S10000x8_1_0_0_1_n_n 16 rfl rfl).symm t) = ix2 t k := funext fun a => Fin.ext (by
    match a with
    | ⟨0, _⟩ => exact (emb_rhs_tab_0 _ _).trans hk
    | ⟨1, _⟩ => exact emb_rhs_tab_1 _ _)
  rw [el, er]

theorem emb_lhs_pre_0 (i : S10000x32.Idx) (q : dot_S10000x16_S16x32_S10000x32_1_0_0_1_n_n.contr.Idx) :
    (dot_S10000x16_S16x32_S10000x32_1_0_0_1_n_n.lhsIdx i q 0).val = (i 0).val := by
  unfold DotDims.lhsIdx
  rw [dif_neg (show ¬(0 : Fin S10000x16.rank) ∈ dot_S10000x16_S16x32_S10000x32_1_0_0_1_n_n.lhsBatch by decide), dif_pos (show (0 : Fin S10000x16.rank) ∈ dot_S10000x16_S16x32_S10000x32_1_0_0_1_n_n.lhsNonContracting by decide)]
  rfl
theorem emb_lhs_pre_1 (i : S10000x32.Idx) (q : dot_S10000x16_S16x32_S10000x32_1_0_0_1_n_n.contr.Idx) :
    (dot_S10000x16_S16x32_S10000x32_1_0_0_1_n_n.lhsIdx i q 1).val = (q ⟨0, by decide⟩).val :=
  dot_S10000x16_S16x32_S10000x32_1_0_0_1_n_n.lhsIdx_val_of_single rfl i q
theorem emb_rhs_pre_0 (i : S10000x32.Idx) (q : dot_S10000x16_S16x32_S10000x32_1_0_0_1_n_n.contr.Idx) :
    (dot_S10000x16_S16x32_S10000x32_1_0_0_1_n_n.rhsIdx i q 0).val = (q ⟨0, by decide⟩).val :=
  dot_S10000x16_S16x32_S10000x32_1_0_0_1_n_n.rhsIdx_val_of_single rfl i q
theorem emb_rhs_pre_1 (i : S10000x32.Idx) (q : dot_S10000x16_S16x32_S10000x32_1_0_0_1_n_n.contr.Idx) :
    (dot_S10000x16_S16x32_S10000x32_1_0_0_1_n_n.rhsIdx i q 1).val = (i 1).val := by
  unfold DotDims.rhsIdx
  rw [dif_neg (show ¬(1 : Fin S16x32.rank) ∈ dot_S10000x16_S16x32_S10000x32_1_0_0_1_n_n.rhsBatch by decide), dif_pos (show (1 : Fin S16x32.rank) ∈ dot_S10000x16_S16x32_S10000x32_1_0_0_1_n_n.rhsNonContracting by decide)]
  rfl

/-- A [10000,16] block times the [16,32] weight into zeros, at row `p` and column `j`. -/
theorem emb_matmul_pre_apply (A : FVec Ideal S10000x16 .bf16) (B : FVec Ideal S16x32 .bf16) (p : Fin 10000) (j : Fin 32) :
    matmul dot_S10000x16_S16x32_S10000x32_1_0_0_1_n_n none A B (constant (F := Ideal) S10000x32 .f32 0x00000000#32) (ix2 p j)
      = ∑ k : Fin 16, A (ix2 p k) * B (ix2 k j) := by
  simp only [matmul]
  rw [Ideal.matmul_constant_zero_apply, ← Equiv.sum_comp (contrEquiv1 dot_S10000x16_S16x32_S10000x32_1_0_0_1_n_n 16 rfl rfl).symm]
  refine Finset.sum_congr rfl fun k _ => ?_
  have hk := contrEquiv1_symm_val dot_S10000x16_S16x32_S10000x32_1_0_0_1_n_n 16 rfl rfl k
  have el : dot_S10000x16_S16x32_S10000x32_1_0_0_1_n_n.lhsIdx (ix2 p j) ((contrEquiv1 dot_S10000x16_S16x32_S10000x32_1_0_0_1_n_n 16 rfl rfl).symm k) = ix2 p k := funext fun a => Fin.ext (by
    match a with
    | ⟨0, _⟩ => exact emb_lhs_pre_0 _ _
    | ⟨1, _⟩ => exact (emb_lhs_pre_1 _ _).trans hk)
  have er : dot_S10000x16_S16x32_S10000x32_1_0_0_1_n_n.rhsIdx (ix2 p j) ((contrEquiv1 dot_S10000x16_S16x32_S10000x32_1_0_0_1_n_n 16 rfl rfl).symm k) = ix2 k j := funext fun a => Fin.ext (by
    match a with
    | ⟨0, _⟩ => exact (emb_rhs_pre_0 _ _).trans hk
    | ⟨1, _⟩ => exact emb_rhs_pre_1 _ _)
  rw [el, er]

/-! ## The two halves side by side, and the bias row -/

/-- Two [10000,8] blocks laid side by side, at row `p` and column `k`: the first block below column 8, the second from it. -/
theorem emb_concat_apply (X Y : FVec Ideal S10000x8 .f32) (p : Fin 10000) (k : Fin 16) :
    concatenate S10000x16 1 [⟨S10000x8, X⟩, ⟨S10000x8, Y⟩] concatenates_S10000x8_S10000x8_S10000x16_d1 (ix2 p k)
      = if h : k.val < 8 then X (ix2 p ⟨k.val, h⟩) else Y (ix2 p ⟨k.val - 8, by omega⟩) := by
  by_cases h : k.val < 8
  · rw [dif_pos h]
    refine concatenate_pair_apply_left (1 : Fin 2) X Y concatenates_S10000x8_S10000x8_S10000x16_d1 (ix2 p k) rfl (ix2 p ⟨k.val, h⟩) fun b => ?_
    match b with
    | ⟨0, _⟩ => rfl
    | ⟨1, _⟩ => rfl
  · rw [dif_neg h]
    refine concatenate_pair_apply_right (1 : Fin 2) X Y concatenates_S10000x8_S10000x8_S10000x16_d1 (ix2 p k) rfl rfl (ix2 p ⟨k.val - 8, by omega⟩) (fun b hb => ?_) ?_
    · match b with
      | ⟨0, _⟩ => rfl
      | ⟨1, _⟩ => exact absurd rfl hb
    · show (k.val - 8) + 8 = k.val
      omega

/-- The bias vector viewed as one row and repeated down the block, at row `p` and column `j`. -/
theorem emb_bias_apply (b : FVec Ideal S32 .f32) (p : Fin 10000) (j : Fin 32) :
    broadcastTo S10000x32 (shapeCast S1x32 b shapeCasts_S32_S1x32) broadcasts_S1x32_S10000x32 (ix2 p j) = b (ix1 j) := by
  rw [broadcastTo_1b_ab_apply, shapeCast_a_1a_apply]

/-! ## The body's arithmetic at one element -/

/-- The one-hot block of a label column. -/
abbrev emb_hot (v : IVec S10000x1 32) : FVec Ideal S10000x16 .bf16 :=
  truncf .bf16 (sitofp .f32 (extui 32 (cmpi .eq (broadcastTo S10000x16 v broadcasts_S10000x1_S10000x16)
    (iota .tc S10000x16 32 [1] iota_S10000x16_d1_w32)) natLt_1_32) : FVec Ideal S10000x16 .f32) bitsLt_bf16_f32

/-- The body's value as one term of the blocks it loads: the two one-hot blocks through their tables, side by side,
    through the weight, plus the bias row, the larger of that and zero. -/
theorem emb_pay_eq (v0 v1 : IVec S10000x1 32) (v13 v15 : FVec Ideal S16x8 .f32) (v21 : FVec Ideal S16x32 .f32) (v24 : FVec Ideal S32 .f32) :
    k0_pay1 (F := Ideal) v0 v1 v13 v15 v21 v24
      = maximumf (addf
          (matmul dot_S10000x16_S16x32_S10000x32_1_0_0_1_n_n none
            (truncf .bf16 (concatenate S10000x16 1
              [⟨S10000x8, matmul dot_S10000x16_S16x8_S10000x8_1_0_0_1_n_n none (emb_hot v0) (truncf .bf16 v13 bitsLt_bf16_f32) (constant (F := Ideal) S10000x8 .f32 0x00000000#32)⟩,
               ⟨S10000x8, matmul dot_S10000x16_S16x8_S10000x8_1_0_0_1_n_n none (emb_hot v1) (truncf .bf16 v15 bitsLt_bf16_f32) (constant (F := Ideal) S10000x8 .f32 0x00000000#32)⟩]
              concatenates_S10000x8_S10000x8_S10000x16_d1 : FVec Ideal S10000x16 .f32) bitsLt_bf16_f32)
            (truncf .bf16 v21 bitsLt_bf16_f32) (constant (F := Ideal) S10000x32 .f32 0x00000000#32))
          (broadcastTo S10000x32 (shapeCast S1x32 v24 shapeCasts_S32_S1x32) broadcasts_S1x32_S10000x32))
        (broadcast S10000x32 (Scalar.ofBits (F := Ideal) .f32 0x00000000#32)) := rfl

/-- A row of the two tables side by side: columns 0–7 from row `a` of the first, columns 8–15 from row `b` of the second. -/
def emb_row (se ce : Fin 16 → Fin 8 → ℝ) (a b : Fin 16) (k : Fin 16) : ℝ :=
  if h : k.val < 8 then se a ⟨k.val, h⟩ else ce b ⟨k.val - 8, by omega⟩

/-- A one-hot row times a table of reals picks the table's row: every other term is zero times a finite entry. -/
theorem emb_hot_sum (A : FVec Ideal S10000x16 .bf16) (B : FVec Ideal S16x8 .bf16) (T : Fin 16 → Fin 8 → ℝ) (p : Fin 10000) (a : Fin 16) (k : Fin 8)
    (hA : ∀ t, A (ix2 p t) = if a = t then (1 : EReal) else 0) (hB : ∀ t, B (ix2 t k) = ((T t k : ℝ) : EReal)) :
    ∑ t : Fin 16, A (ix2 p t) * B (ix2 t k) = ((T a k : ℝ) : EReal) := by
  rw [Finset.sum_eq_single a]
  · rw [hA, if_pos rfl, hB, one_mul]
  · intro t _ hne
    rw [hA, if_neg (fun e => hne e.symm), zero_mul]
  · intro h; exact absurd (Finset.mem_univ a) h

/-- THE BODY AT ONE ELEMENT: with the row's two labels `a`, `b` below 16 and every table entry a real, the element at
    row `p`, column `j` is the dense layer of the looked-up row, as a real. -/
theorem emb_pay_apply (v0 v1 : IVec S10000x1 32) (v13 v15 : FVec Ideal S16x8 .f32) (v21 : FVec Ideal S16x32 .f32) (v24 : FVec Ideal S32 .f32)
    (p : Fin 10000) (j : Fin 32) (a b : Fin 16) (se ce : Fin 16 → Fin 8 → ℝ) (pw : Fin 16 → Fin 32 → ℝ) (pb : Fin 32 → ℝ)
    (h0 : v0 (ix2 p (0 : Fin 1)) = BitVec.ofNat 32 a.val) (h1 : v1 (ix2 p (0 : Fin 1)) = BitVec.ofNat 32 b.val)
    (hse : ∀ t k, v13 (ix2 t k) = ((se t k : ℝ) : EReal)) (hce : ∀ t k, v15 (ix2 t k) = ((ce t k : ℝ) : EReal))
    (hpw : ∀ k j, v21 (ix2 k j) = ((pw k j : ℝ) : EReal)) (hpb : ∀ j, v24 (ix1 j) = ((pb j : ℝ) : EReal)) :
    k0_pay1 (F := Ideal) v0 v1 v13 v15 v21 v24 (ix2 p j)
      = ((max (∑ k : Fin 16, emb_row se ce a b k * pw k j + pb j) 0 : ℝ) : EReal) := by
  rw [emb_pay_eq, maximumf_apply, addf_apply, broadcast_apply, emb_bias_apply, emb_matmul_pre_apply, hpb]
  have hrow : ∀ k : Fin 16,
      (truncf .bf16 (concatenate S10000x16 1
        [⟨S10000x8, matmul dot_S10000x16_S16x8_S10000x8_1_0_0_1_n_n none (emb_hot v0) (truncf .bf16 v13 bitsLt_bf16_f32) (constant (F := Ideal) S10000x8 .f32 0x00000000#32)⟩,
         ⟨S10000x8, matmul dot_S10000x16_S16x8_S10000x8_1_0_0_1_n_n none (emb_hot v1) (truncf .bf16 v15 bitsLt_bf16_f32) (constant (F := Ideal) S10000x8 .f32 0x00000000#32)⟩]
        concatenates_S10000x8_S10000x8_S10000x16_d1 : FVec Ideal S10000x16 .f32) bitsLt_bf16_f32 : FVec Ideal S10000x16 .bf16) (ix2 p k)
        = ((emb_row se ce a b k : ℝ) : EReal) := by
    intro k
    rw [truncf_apply, emb_concat_apply]
    unfold emb_row
    by_cases h : k.val < 8
    · rw [dif_pos h, dif_pos h, emb_matmul_tab_apply]
      exact emb_hot_sum _ _ se p a ⟨k.val, h⟩ (fun t => emb_onehot_apply v0 p a t h0) (fun t => by rw [truncf_apply, hse])
    · rw [dif_neg h, dif_neg h, emb_matmul_tab_apply]
      exact emb_hot_sum _ _ ce p b ⟨k.val - 8, by omega⟩ (fun t => emb_onehot_apply v1 p b t h1) (fun t => by rw [truncf_apply, hce])
  have hsum : ∑ k : Fin 16,
      (truncf .bf16 (concatenate S10000x16 1
        [⟨S10000x8, matmul dot_S10000x16_S16x8_S10000x8_1_0_0_1_n_n none (emb_hot v0) (truncf .bf16 v13 bitsLt_bf16_f32) (constant (F := Ideal) S10000x8 .f32 0x00000000#32)⟩,
         ⟨S10000x8, matmul dot_S10000x16_S16x8_S10000x8_1_0_0_1_n_n none (emb_hot v1) (truncf .bf16 v15 bitsLt_bf16_f32) (constant (F := Ideal) S10000x8 .f32 0x00000000#32)⟩]
        concatenates_S10000x8_S10000x8_S10000x16_d1 : FVec Ideal S10000x16 .f32) bitsLt_bf16_f32 : FVec Ideal S10000x16 .bf16) (ix2 p k)
        * (truncf .bf16 v21 bitsLt_bf16_f32 : FVec Ideal S16x32 .bf16) (ix2 k j)
      = ((∑ k : Fin 16, emb_row se ce a b k * pw k j : ℝ) : EReal) := by
    rw [← CoeLib.coe_sum_mul]
    exact Finset.sum_congr rfl fun k _ => by rw [hrow k, truncf_apply, hpw]
  rw [hsum]
  show max (((∑ k : Fin 16, emb_row se ce a b k * pw k j : ℝ) : EReal) + ((pb j : ℝ) : EReal)) (Ideal.ofBits .f32 0x00000000#32) = _
  rw [Ideal.ofBits_zero_f32, ← EReal.coe_add, ← EReal.coe_zero, CoeLib.max_coe]

/-! ## From blocks to the array -/

variable (V : (c : Dev nD) → (b : Ref sig .tc) → Buf (Elt Ideal) ((c : Thread nD τ).loc b))

theorem emb_hz : (![0, 0] : Fin 2 → Nat) = fun _ => 0 := funext fun a => by fin_cases a <;> rfl
theorem emb_hz1 : (![0] : Fin 1 → Nat) = fun _ => 0 := funext fun a => by fin_cases a; rfl

/-- The index maps over the grid: the label and output windows move one block of rows per point, the tables, the weight
    and the bias stay at their one block. -/
theorem emb_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The label window's block at point `t` is rows `10000 t … 10000 t + 9999` of the label array. -/
theorem emb_labels_blk (c : Dev nD) (t : Fin cfg0.N) (x : S10000x2.Idx) (k : S100000x2.Idx)
    (hk0 : (k 0).val = t.val * 10000 + (x 0).val) (hk1 : (k 1).val = (x 1).val) :
    (iblk0 V c 0 t : Vec Ideal S10000x2 .i32) x = (V c main_arg0 : S100000x2.Idx → BitVec 32) k := by
  obtain ⟨e0, e1, -⟩ := emb_idx_facts t
  unfold iblk0
  rw [View.read_apply]
  show V c main_arg0 _ = V c main_arg0 _
  congr 1
  funext a
  apply Fin.ext
  match a with
  | ⟨0, _⟩ => show win0_0.index t 0 * 10000 + 1 * (x 0).val = (k 0).val; rw [e0, hk0]; omega
  | ⟨1, _⟩ => show win0_0.index t 1 * 2 + 1 * (x 1).val = (k 1).val; rw [e1, hk1]; omega

/-- The first table's window holds the whole table at every point. -/
theorem emb_se_blk (c : Dev nD) (t : Fin cfg0.N) (x : S16x8.Idx) :
    (iblk0 V c 1 t : Vec Ideal S16x8 .f32) x = (V c main_arg4 : S16x8.Idx → EReal) x := by
  obtain ⟨-, -, e0, e1, -⟩ := emb_idx_facts t
  unfold iblk0
  rw [View.read_apply]
  show V c main_arg4 _ = V c main_arg4 _
  congr 1
  funext a
  apply Fin.ext
  match a with
  | ⟨0, _⟩ => show win0_1.index t 0 * 16 + 1 * (x 0).val = (x 0).val; rw [e0]; omega
  | ⟨1, _⟩ => show win0_1.index t 1 * 8 + 1 * (x 1).val = (x 1).val; rw [e1]; omega

/-- The second table's window holds the whole table at every point. -/
theorem emb_ce_blk (c : Dev nD) (t : Fin cfg0.N) (x : S16x8.Idx) :
    (iblk0 V c 2 t : Vec Ideal S16x8 .f32) x = (V c main_arg5 : S16x8.Idx → EReal) x := by
  obtain ⟨-, -, -, -, e0, e1, -⟩ := emb_idx_facts t
  unfold iblk0
  rw [View.read_apply]
  show V c main_arg5 _ = V c main_arg5 _
  congr 1
  funext a
  apply Fin.ext
  match a with
  | ⟨0, _⟩ => show win0_2.index t 0 * 16 + 1 * (x 0).val = (x 0).val; rw [e0]; omega
  | ⟨1, _⟩ => show win0_2.index t 1 * 8 + 1 * (x 1).val = (x 1).val; rw [e1]; omega

/-- The weight's window holds the whole weight at every point. -/
theorem emb_pw_blk (c : Dev nD) (t : Fin cfg0.N) (x : S16x32.Idx) :
    (iblk0 V c 3 t : Vec Ideal S16x32 .f32) x = (V c main_arg6 : S16x32.Idx → EReal) x := by
  obtain ⟨-, -, -, -, -, -, e0, e1, -⟩ := emb_idx_facts t
  unfold iblk0
  rw [View.read_apply]
  show V c main_arg6 _ = V c main_arg6 _
  congr 1
  funext a
  apply Fin.ext
  match a with
  | ⟨0, _⟩ => show win0_3.index t 0 * 16 + 1 * (x 0).val = (x 0).val; rw [e0]; omega
  | ⟨1, _⟩ => show win0_3.index t 1 * 32 + 1 * (x 1).val = (x 1).val; rw [e1]; omega

/-- The bias's window holds the whole bias at every point. -/
theorem emb_pb_blk (c : Dev nD) (t : Fin cfg0.N) (x : S32.Idx) :
    (iblk0 V c 4 t : Vec Ideal S32 .f32) x = (V c main_arg7 : S32.Idx → EReal) x := by
  obtain ⟨-, -, -, -, -, -, -, -, e0, -⟩ := emb_idx_facts t
  unfold iblk0
  rw [View.read_apply]
  show V c main_arg7 _ = V c main_arg7 _
  congr 1
  funext a
  apply Fin.ext
  match a with
  | ⟨0, _⟩ => show win0_4.index t 0 * 32 + 1 * (x 0).val = (x 0).val; rw [e0]; omega

/-- Column 0 of the label block, row `p`, is the label array at row `10000 t + p`, column 0. -/
theorem emb_labels_col0 (c : Dev nD) (t : Fin cfg0.N) (p : Fin 10000) (hn : t.val * 10000 + p.val < 100000) :
    View.ld (iblk0 V c 0 t : Vec Ideal S10000x2 .i32) r0_0 (ix2 p (0 : Fin 1))
      = (V c main_arg0 : S100000x2.Idx → BitVec 32) (ix2 ⟨t.val * 10000 + p.val, hn⟩ (0 : Fin 2)) :=
  emb_labels_blk V c t _ _ (by show t.val * 10000 + p.val = t.val * 10000 + (0 + 1 * p.val); omega) (by show 0 = 0 + 1 * 0; rfl)

/-- Column 1 likewise. -/
theorem emb_labels_col1 (c : Dev nD) (t : Fin cfg0.N) (p : Fin 10000) (hn : t.val * 10000 + p.val < 100000) :
    View.ld (iblk0 V c 0 t : Vec Ideal S10000x2 .i32) r0_1 (ix2 p (0 : Fin 1))
      = (V c main_arg0 : S100000x2.Idx → BitVec 32) (ix2 ⟨t.val * 10000 + p.val, hn⟩ (1 : Fin 2)) :=
  emb_labels_blk V c t _ _ (by show t.val * 10000 + p.val = t.val * 10000 + (0 + 1 * p.val); omega) (by show 1 = 1 + 1 * 0; rfl)

/-- The array the region leaves: the dense layer of the looked-up rows, element by element. -/
abbrev emb_result (xi : Fin 100000 → Fin 2 → Fin 16) (se ce : Fin 16 → Fin 8 → ℝ) (pw : Fin 16 → Fin 32 → ℝ) (pb : Fin 32 → ℝ) :
    S100000x32.Idx → EReal :=
  fun i => ((GnnSpec.dense (GnnSpec.emb se ce xi) pw pb ⟨(i 0).val, idx2_lt0 i⟩ ⟨(i 1).val, idx2_lt1 i⟩ : ℝ) : EReal)

/-- Two [10000,32] blocks that agree at every row and column are equal. -/
theorem emb_blk_ext (X Y : S10000x32.Idx → EReal) (h : ∀ (p : Fin 10000) (j : Fin 32), X (ix2 p j) = Y (ix2 p j)) : X = Y :=
  funext fun y => by rw [eq_ix2 y]; exact h _ _

/-- WHAT POINT `t` WRITES BACK is block `t` of the embedded array: each element of the body's value is the dense layer of
    the row its labels pick, and the block's row `p` is the array's row `10000 t + p`. -/
theorem emb_flushed_eq (c : Dev nD) (xi : Fin 100000 → Fin 2 → Fin 16) (se ce : Fin 16 → Fin 8 → ℝ) (pw : Fin 16 → Fin 32 → ℝ) (pb : Fin 32 → ℝ)
    (hx : ∀ n k, (V c main_arg0 : S100000x2.Idx → BitVec 32) (ix2 n k) = BitVec.ofNat 32 (xi n k).val)
    (hse : ∀ t k, (V c main_arg4 : S16x8.Idx → EReal) (ix2 t k) = ((se t k : ℝ) : EReal))
    (hce : ∀ t k, (V c main_arg5 : S16x8.Idx → EReal) (ix2 t k) = ((ce t k : ℝ) : EReal))
    (hpw : ∀ k j, (V c main_arg6 : S16x32.Idx → EReal) (ix2 k j) = ((pw k j : ℝ) : EReal))
    (hpb : ∀ j, (V c main_arg7 : S32.Idx → EReal) (ix1 j) = ((pb j : ℝ) : EReal)) (t : Fin cfg0.N) :
    (dat0 (F := Ideal) V c).flushed 5 t = ((cfg0.win 5).blk t).view.read (Elt Ideal) (emb_result xi se ce pw pb) := by
  show (cfg0.win 5).cut (grid0.coords t) ((dat0 (F := Ideal) V c).after 5 t) = _
  rw [after0_5]
  unfold out0_5
  rw [View.canon_unit_zero emb_hz]
  simp only [View.ld_unit_zero (S := S16x8) emb_hz, View.ld_unit_zero (S := S16x32) emb_hz, View.ld_unit_zero (S := S32) emb_hz1]
  have hN : cfg0.N = 10 := N_0
  have ht : t.val < 10 := by have := t.isLt; omega
  obtain ⟨-, -, -, -, -, -, -, -, -, e0, e1⟩ := emb_idx_facts t
  refine emb_blk_ext _ _ fun p j => ?_
  have hn : t.val * 10000 + p.val < 100000 := by have := p.isLt; omega
  refine (emb_pay_apply _ _ _ _ _ _ p j (xi ⟨t.val * 10000 + p.val, hn⟩ 0) (xi ⟨t.val * 10000 + p.val, hn⟩ 1) se ce pw pb ?_ ?_ ?_ ?_ ?_ ?_).trans ?_
  · exact (emb_labels_col0 V c t p hn).trans (hx _ _)
  · exact (emb_labels_col1 V c t p hn).trans (hx _ _)
  · intro a k; exact (emb_se_blk V c t _).trans (hse a k)
  · intro a k; exact (emb_ce_blk V c t _).trans (hce a k)
  · intro k j'; exact (emb_pw_blk V c t _).trans (hpw k j')
  · intro j'; exact (emb_pb_blk V c t _).trans (hpb j')
  · have hemb : ((cfg0.win 5).blk t).view.emb (ix2 p j) = (ix2 ⟨t.val * 10000 + p.val, hn⟩ j : S100000x32.Idx) := by
      funext a; apply Fin.ext
      match a with
      | ⟨0, _⟩ => show win0_5.index t 0 * 10000 + 1 * p.val = t.val * 10000 + p.val; rw [e0]; omega
      | ⟨1, _⟩ => show win0_5.index t 1 * 32 + 1 * j.val = j.val; rw [e1]; omega
    rw [View.read_apply]
    show _ = emb_result xi se ce pw pb (((cfg0.win 5).blk t).view.emb (ix2 p j))
    rw [hemb]
    rfl

/-- An index of the output array is in point `t`'s block iff each coordinate is in the block's range on its axis. -/
theorem emb_mem_blk (t : Fin cfg0.N) (i : S100000x32.Idx) :
    i ∈ ((cfg0.win 5).blk t).view.set ↔ ∀ a : Fin 2, win0_5.index t a * S10000x32.size a ≤ (i a).val ∧ (i a).val < win0_5.index t a * S10000x32.size a + S10000x32.size a := by
  show i ∈ ((View.whole main_call0_v4).slice (win0_5.rect t)).set ↔ _
  rw [View.set_slice_whole, Rect.mem_set_unit]
  exact Iff.rfl

/-- Every row of the output array is in some point's block: row `r` in the block of point `r / 10000`. -/
theorem emb_covered (i : S100000x32.Idx) : ∃ t : Fin cfg0.N, (cfg0.win 5).flush t = true ∧ i ∈ ((cfg0.win 5).blk t).view.set := by
  have hN : cfg0.N = 10 := N_0
  have hi0 : (i 0).val < 100000 := idx2_lt0 i
  have hi1 : (i 1).val < 32 := idx2_lt1 i
  have hq : (i 0).val / 10000 < cfg0.N := by rw [hN]; omega
  obtain ⟨-, -, -, -, -, -, -, -, -, e0, e1⟩ := emb_idx_facts ⟨(i 0).val / 10000, hq⟩
  refine ⟨⟨(i 0).val / 10000, hq⟩, flush0_5 _, ?_⟩
  rw [emb_mem_blk]
  intro a
  match a with
  | ⟨0, _⟩ =>
    show win0_5.index ⟨(i 0).val / 10000, hq⟩ 0 * 10000 ≤ (i 0).val ∧ (i 0).val < win0_5.index ⟨(i 0).val / 10000, hq⟩ 0 * 10000 + 10000
    rw [e0]; show (i 0).val / 10000 * 10000 ≤ (i 0).val ∧ (i 0).val < (i 0).val / 10000 * 10000 + 10000; omega
  | ⟨1, _⟩ =>
    show win0_5.index ⟨(i 0).val / 10000, hq⟩ 1 * 32 ≤ (i 1).val ∧ (i 1).val < win0_5.index ⟨(i 0).val / 10000, hq⟩ 1 * 32 + 32
    rw [e1]; omega

/-- THE REGION'S RESULT: with every label below 16 and every table, weight and bias entry a real, the output array the
    region leaves is, element by element, the dense layer with a rectifier of the two looked-up table rows side by side. -/
theorem embed_region (V : (c : Dev nD) → (b : Ref sig .tc) → Buf (Elt Ideal) ((c : Thread nD τ).loc b)) (c : Dev nD)
    (xi : Fin 100000 → Fin 2 → Fin 16) (se ce : Fin 16 → Fin 8 → ℝ) (pw : Fin 16 → Fin 32 → ℝ) (pb : Fin 32 → ℝ)
    (hx : ∀ n k, (V c main_arg0 : S100000x2.Idx → BitVec 32) (ix2 n k) = BitVec.ofNat 32 (xi n k).val)
    (hse : ∀ t k, (V c main_arg4 : S16x8.Idx → EReal) (ix2 t k) = ((se t k : ℝ) : EReal))
    (hce : ∀ t k, (V c main_arg5 : S16x8.Idx → EReal) (ix2 t k) = ((ce t k : ℝ) : EReal))
    (hpw : ∀ k j, (V c main_arg6 : S16x32.Idx → EReal) (ix2 k j) = ((pw k j : ℝ) : EReal))
    (hpb : ∀ j, (V c main_arg7 : S32.Idx → EReal) (ix1 j) = ((pb j : ℝ) : EReal)) :
    ∀ (n : Fin 100000) (j : Fin 32), ((dat0 (F := Ideal) V c).arrAt 5 cfg0.N : S100000x32.Idx → EReal) (ix2 n j)
      = ((GnnSpec.dense (GnnSpec.emb se ce xi) pw pb n j : ℝ) : EReal) := by
  intro n j
  have h := (dat0 (F := Ideal) V c).arrAt_eq_of_cover 5 (emb_result xi se ce pw pb)
    (fun t _ => emb_flushed_eq V c xi se ce pw pb hx hse hce hpw hpb t) emb_covered
  exact congrFun h (ix2 n j)

end Cert.KernelIdeal.KV

end
-- ==== Proof.KDense.lean ====
/-
  The two dense layers with a rectifier, read off their row-blocked runs.

  Each of the two regions computes out = max (A · W + b) 0 for a feature array A of 100000 rows, a weight matrix W and a
  bias row b, a block of rows at a time: region 1 takes A of width 128 in ten blocks of 10000 rows, region 2 takes A of
  width 256 in twenty blocks of 5000 rows. A point of the grid reads its block of rows of A, all of W and all of b, and
  stores into its block of rows of the output, at row p and column q of the block,

      max (∑ k, A[block · rows + p, k] · W[k, q] + b[q]) 0.

  Three steps per region. (1) The stored value at an entry of the block: the matrix product accumulated onto zero is the
  sum over the shared coordinate; the bias row is repeated down the rows; the rectifier is a maximum with zero; changes
  of number format do nothing to an extended real. (2) Block t of the output is block t of ONE function of the three
  arrays (the layer, entry by entry, over the extended reals), because row p of block t of A is row t · rows + p of A;
  the blocks tile the rows (row r lies in block r / rows), so the output array ends holding that function. (3) Where
  the three arrays hold real numbers, sums, products and maxima of them are the reals' own, so the function is the
  layer over the reals.
-/
import proofs.«428839_j88648124990070_3_alg».proof.Proof.Gen.KernelIdeal.Frame
import proofs.«428839_j88648124990070_3_alg».proof.Proof.Spec
import proofs.«428839_j88648124990070_3_alg».proof.Proof.LibCoe
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

/-! # The dense layer of region 1: blocks of 10000 rows -/

/-! ## The product of a block of rows with the weight matrix, entry by entry -/

theorem dn_lhs_dense1_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem dn_lhs_dense1_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem dn_rhs_dense1_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem dn_rhs_dense1_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Entry (p, q) of the product of a 10000×128 block with the 128×64 matrix, accumulated onto zero, is the sum over the
    128 shared coordinates of the products of the entries. -/
theorem dn_matmul1_apply {φ₁ φ₂ : FTy} (a : FVec Ideal S10000x128 φ₁) (w : FVec Ideal S128x64 φ₂) (p : Fin 10000) (q : Fin 64) :
    matmul dot_S10000x128_S128x64_S10000x64_1_0_0_1_n_n none a w (constant (F := Ideal) S10000x64 .f32 0x00000000#32) (ix2 p q)
      = ∑ k : Fin 128, a (ix2 p k) * w (ix2 k q) := by
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun ax => Fin.ext (by
    match ax with
    | ⟨0, _⟩ => exact dn_lhs_dense1_0 _ _
    | ⟨1, _⟩ => exact (dn_lhs_dense1_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun ax => Fin.ext (by
    match ax with
    | ⟨0, _⟩ => exact (dn_rhs_dense1_0 _ _).trans hk
    | ⟨1, _⟩ => exact dn_rhs_dense1_1 _ _)
  rw [el, er]

/-- The body's stored value at row p, column q of its block: the rectified sum of the row of the feature block against
    column q of the weights, plus the bias at q. -/
theorem dn_pay1_apply (x0 : Vec Ideal S10000x128 .f32) (x1 : Vec Ideal S128x64 .f32) (x2 : Vec Ideal S64 .f32) (p : Fin 10000) (q : Fin 64) :
    (k1_pay1 (F := Ideal) x0 x1 x2 : S10000x64.Idx → EReal) (ix2 p q)
      = max (∑ k : Fin 128, (x0 (ix2 p k) : EReal) * (x1 (ix2 k q) : EReal) + (x2 (ix1 q) : EReal)) 0 := by
  unfold k1_pay1
  rw [maximumf_apply, addf_apply, broadcast_apply, dn_matmul1_apply, broadcastTo_1b_ab_apply, shapeCast_a_1a_apply]
  simp only [truncf_apply, shapeCast_self]
  show max _ (Ideal.ofBits .f32 0x00000000#32) = _
  rw [Ideal.ofBits_zero_f32]

/-! ## From the blocks to the array -/

theorem dn_hz2 : (![0, 0] : Fin 2 → Nat) = fun _ => 0 := funext fun a => by fin_cases a <;> rfl
theorem dn_hz1 : (![0] : Fin 1 → Nat) = fun _ => 0 := funext fun a => by fin_cases a <;> rfl

/-- The layer over the extended reals, entry by entry: entry (n, j) is the rectified sum over k of features[n, k] ·
    weights[k, j], plus bias[j]. -/
def dn_denseE1 (VA : S100000x128.Idx → EReal) (VW : S128x64.Idx → EReal) (Vb : S64.Idx → EReal) : S100000x64.Idx → EReal :=
  fun i => max (∑ k : Fin 128, VA (ix2 ⟨(i 0).val, idx2_lt0 i⟩ k) * VW (ix2 k ⟨(i 1).val, idx2_lt1 i⟩)
    + Vb (ix1 ⟨(i 1).val, idx2_lt1 i⟩)) 0

/-- What the body stores at (p, q) of its block is the layer's entry at array index i, once row p of the feature block
    is row i₀ of the features, the weight block the weights, and the bias block the bias at column i₁ = q. -/
theorem dn_point1 (x0 : Vec Ideal S10000x128 .f32) (x1 : Vec Ideal S128x64 .f32) (x2 : Vec Ideal S64 .f32)
    (VA : S100000x128.Idx → EReal) (VW : S128x64.Idx → EReal) (Vb : S64.Idx → EReal)
    (p : Fin 10000) (q : Fin 64) (i : S100000x64.Idx)
    (h0 : ∀ k : Fin 128, (x0 (ix2 p k) : EReal) = VA (ix2 ⟨(i 0).val, idx2_lt0 i⟩ k))
    (h1 : ∀ k : Fin 128, (x1 (ix2 k q) : EReal) = VW (ix2 k ⟨(i 1).val, idx2_lt1 i⟩))
    (h2 : (x2 (ix1 q) : EReal) = Vb (ix1 ⟨(i 1).val, idx2_lt1 i⟩)) :
    (k1_pay1 (F := Ideal) x0 x1 x2 : S10000x64.Idx → EReal) (ix2 p q) = dn_denseE1 VA VW Vb i := by
  rw [dn_pay1_apply, h2]
  unfold dn_denseE1
  exact congrArg (fun s => max (s + Vb (ix1 ⟨(i 1).val, idx2_lt1 i⟩)) 0) (Finset.sum_congr rfl fun k _ => by rw [h0 k, h1 k])

/-- Where the three arrays hold real numbers, the layer over the extended reals is the layer over the reals: finite sums,
    products and maxima of reals stay real. -/
theorem dn_denseE1_coe (VA : S100000x128.Idx → EReal) (VW : S128x64.Idx → EReal) (Vb : S64.Idx → EReal)
    (A : Fin 100000 → Fin 128 → ℝ) (Wc : Fin 128 → Fin 64 → ℝ) (b : Fin 64 → ℝ)
    (hA : ∀ n k, VA (ix2 n k) = ((A n k : ℝ) : EReal)) (hW : ∀ k j, VW (ix2 k j) = ((Wc k j : ℝ) : EReal))
    (hb : ∀ j, Vb (ix1 j) = ((b j : ℝ) : EReal)) (n : Fin 100000) (j : Fin 64) :
    dn_denseE1 VA VW Vb (ix2 n j) = ((GnnSpec.dense A Wc b n j : ℝ) : EReal) := by
  show max (∑ k : Fin 128, VA (ix2 n k) * VW (ix2 k j) + Vb (ix1 j)) 0 = _
  rw [hb]
  simp only [hA, hW]
  rw [CoeLib.coe_sum_mul, ← EReal.coe_add, ← EReal.coe_zero, CoeLib.max_coe]
  rfl

variable (V : (c : Dev nD) → (b : Ref sig .tc) → Buf (Elt Ideal) ((c : Thread nD τ).loc b))

/-- The block index maps over the grid's ten points: the feature block and the output block move together down
    the rows, point t at block t; the weights and the bias stay at block zero. -/
theorem dn_idx_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- WHAT POINT t WRITES BACK is block t of the layer of the three arrays as the region finds them. -/
theorem dn_flushed1_eq (c : Dev nD) (t : Fin cfg1.N) :
    (dat1 (F := Ideal) V c).flushed 3 t = ((cfg1.win 3).blk t).view.read (Elt Ideal)
      (dn_denseE1 (V c main_call0_v29) (V c main_call0_v31) (V c main_arg10)) := by
  show (cfg1.win 3).cut (grid1.coords t) ((dat1 (F := Ideal) V c).after 3 t) = _
  rw [after1_3]
  unfold out1_3
  rw [View.canon_unit_zero dn_hz2]
  simp only [View.ld_unit_zero (S := S10000x128) dn_hz2, View.ld_unit_zero (S := S128x64) dn_hz2, View.ld_unit_zero (S := S64) dn_hz1]
  obtain ⟨e0, e1, e2, e3, e4, e5, e6⟩ := dn_idx_facts1 t
  funext j
  obtain ⟨p, q, rfl⟩ : ∃ (p : Fin 10000) (q : Fin 64), j = ix2 p q := ⟨j 0, j 1, eq_ix2 j⟩
  show (k1_pay1 (F := Ideal) (iblk1 V c 0 t) (iblk1 V c 1 t) (iblk1 V c 2 t) : S10000x64.Idx → EReal) (ix2 p q)
      = dn_denseE1 (V c main_call0_v29) (V c main_call0_v31) (V c main_arg10) (((cfg1.win 3).blk t).view.emb (ix2 p q))
  refine dn_point1 (iblk1 V c 0 t) (iblk1 V c 1 t) (iblk1 V c 2 t) (V c main_call0_v29) (V c main_call0_v31) (V c main_arg10)
    p q (((cfg1.win 3).blk t).view.emb (ix2 p q)) (fun k => ?_) (fun k => ?_) ?_
  · show V c main_call0_v29 (((cfg1.win 0).blk t).view.emb (ix2 p k)) = _
    refine congrArg (V c main_call0_v29) (funext fun a => Fin.ext ?_)
    match a with
    | ⟨0, _⟩ => show win1_0.index t (0 : Fin 2) * 10000 + 1 * p.val = win1_3.index t (0 : Fin 2) * 10000 + 1 * p.val; omega
    | ⟨1, _⟩ => show win1_0.index t (1 : Fin 2) * 128 + 1 * k.val = k.val; omega
  · show V c main_call0_v31 (((cfg1.win 1).blk t).view.emb (ix2 k q)) = _
    refine congrArg (V c main_call0_v31) (funext fun a => Fin.ext ?_)
    match a with
    | ⟨0, _⟩ => show win1_1.index t (0 : Fin 2) * 128 + 1 * k.val = k.val; omega
    | ⟨1, _⟩ => show win1_1.index t (1 : Fin 2) * 64 + 1 * q.val = win1_3.index t (1 : Fin 2) * 64 + 1 * q.val; omega
  · show V c main_arg10 (((cfg1.win 2).blk t).view.emb (ix1 q)) = _
    refine congrArg (V c main_arg10) (funext fun a => Fin.ext ?_)
    match a with
    | ⟨0, _⟩ => show win1_2.index t (0 : Fin 1) * 64 + 1 * q.val = win1_3.index t (1 : Fin 2) * 64 + 1 * q.val; omega

/-- An index of the array is in point t's block iff each coordinate is in the block's range on its axis. -/
theorem dn_mem_blk1 (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_call0_v32).slice (win1_3.rect t)).set ↔ _
  rw [View.set_slice_whole, Rect.mem_set_unit]
  exact Iff.rfl

/-- Row r of the array lies in the block of point r / 10000: the ten blocks of 10000 rows tile the 100000 rows. -/
theorem dn_cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : grid1.N = 10 := N_1
  refine ⟨⟨(i 0).val / 10000, by show (i 0).val / 10000 < grid1.N; omega⟩, flush1_3 _, ?_⟩
  rw [dn_mem_blk1]
  obtain ⟨e0, e1, e2, e3, e4, e5, e6⟩ := dn_idx_facts1 ⟨(i 0).val / 10000, by show (i 0).val / 10000 < grid1.N; omega⟩
  have e5' : win1_3.index ⟨(i 0).val / 10000, by show (i 0).val / 10000 < grid1.N; omega⟩ (0 : Fin 2) = (i 0).val / 10000 := e5
  intro a
  match a with
  | ⟨0, _⟩ => show win1_3.index _ (0 : Fin 2) * 10000 ≤ (i 0).val ∧ (i 0).val < win1_3.index _ (0 : Fin 2) * 10000 + 10000; omega
  | ⟨1, _⟩ => show win1_3.index _ (1 : Fin 2) * 64 ≤ (i 1).val ∧ (i 1).val < win1_3.index _ (1 : Fin 2) * 64 + 64; omega

/-- THE ARRAY after the region: the layer of the three arrays as the region finds them. -/
theorem dn_final1 (c : Dev nD) : (dat1 (F := Ideal) V c).arrAt 3 cfg1.N
    = dn_denseE1 (V c main_call0_v29) (V c main_call0_v31) (V c main_arg10) :=
  (dat1 (F := Ideal) V c).arrAt_eq_of_cover 3 (dn_denseE1 (V c main_call0_v29) (V c main_call0_v31) (V c main_arg10))
    (fun t _ => dn_flushed1_eq V c t) dn_cover1

/-- Region 1 leaves in its output array the dense layer of its three inputs, over the reals, wherever those hold reals. -/
theorem dense1_region (c : Dev nD) (A : Fin 100000 → Fin 128 → ℝ) (Wc : Fin 128 → Fin 64 → ℝ) (b : Fin 64 → ℝ)
    (hA : ∀ n k, (V c main_call0_v29 : S100000x128.Idx → EReal) (ix2 n k) = ((A n k : ℝ) : EReal))
    (hW : ∀ k j, (V c main_call0_v31 : S128x64.Idx → EReal) (ix2 k j) = ((Wc k j : ℝ) : EReal))
    (hb : ∀ j, (V c main_arg10 : S64.Idx → EReal) (ix1 j) = ((b j : ℝ) : EReal)) :
    ∀ (n : Fin 100000) (j : Fin 64), ((dat1 (F := Ideal) V c).arrAt 3 cfg1.N : S100000x64.Idx → EReal) (ix2 n j)
      = ((GnnSpec.dense A Wc b n j : ℝ) : EReal) := by
  intro n j
  exact (congrFun (dn_final1 V c) (ix2 n j)).trans
    (dn_denseE1_coe (V c main_call0_v29) (V c main_call0_v31) (V c main_arg10) A Wc b hA hW hb n j)

/-! # The dense layer of region 2: blocks of 5000 rows -/

/-! ## The product of a block of rows with the weight matrix, entry by entry -/

theorem dn_lhs_dense2_0 (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem dn_lhs_dense2_1 (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
theorem dn_rhs_dense2_0 (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
theorem dn_rhs_dense2_1 (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- Entry (p, q) of the product of a 5000×256 block with the 256×64 matrix, accumulated onto zero, is the sum over the
    256 shared coordinates of the products of the entries. -/
theorem dn_matmul2_apply {φ₁ φ₂ : FTy} (a : FVec Ideal S5000x256 φ₁) (w : FVec Ideal S256x64 φ₂) (p : Fin 5000) (q : Fin 64) :
    matmul dot_S5000x256_S256x64_S5000x64_1_0_0_1_n_n none a w (constant (F := Ideal) S5000x64 .f32 0x00000000#32) (ix2 p q)
      = ∑ k : Fin 256, a (ix2 p k) * w (ix2 k q) := by
  simp only [matmul]
  rw [Ideal.matmul_constant_zero_apply, ← Equiv.sum_comp (contrEquiv1 dot_S5000x256_S256x64_S5000x64_1_0_0_1_n_n 256 rfl rfl).symm]
  refine Finset.sum_congr rfl fun k _ => ?_
  have hk := contrEquiv1_symm_val dot_S5000x256_S256x64_S5000x64_1_0_0_1_n_n 256 rfl rfl k
  have el : dot_S5000x256_S256x64_S5000x64_1_0_0_1_n_n.lhsIdx (ix2 p q) ((contrEquiv1 dot_S5000x256_S256x64_S5000x64_1_0_0_1_n_n 256 rfl rfl).symm k) = ix2 p k := funext fun ax => Fin.ext (by
    match ax with
    | ⟨0, _⟩ => exact dn_lhs_dense2_0 _ _
    | ⟨1, _⟩ => exact (dn_lhs_dense2_1 _ _).trans hk)
  have er : dot_S5000x256_S256x64_S5000x64_1_0_0_1_n_n.rhsIdx (ix2 p q) ((contrEquiv1 dot_S5000x256_S256x64_S5000x64_1_0_0_1_n_n 256 rfl rfl).symm k) = ix2 k q := funext fun ax => Fin.ext (by
    match ax with
    | ⟨0, _⟩ => exact (dn_rhs_dense2_0 _ _).trans hk
    | ⟨1, _⟩ => exact dn_rhs_dense2_1 _ _)
  rw [el, er]

/-- The body's stored value at row p, column q of its block: the rectified sum of the row of the feature block against
    column q of the weights, plus the bias at q. -/
theorem dn_pay2_apply (x0 : Vec Ideal S5000x256 .f32) (x1 : Vec Ideal S256x64 .f32) (x2 : Vec Ideal S64 .f32) (p : Fin 5000) (q : Fin 64) :
    (k2_pay1 (F := Ideal) x0 x1 x2 : S5000x64.Idx → EReal) (ix2 p q)
      = max (∑ k : Fin 256, (x0 (ix2 p k) : EReal) * (x1 (ix2 k q) : EReal) + (x2 (ix1 q) : EReal)) 0 := by
  unfold k2_pay1
  rw [maximumf_apply, addf_apply, broadcast_apply, dn_matmul2_apply, broadcastTo_1b_ab_apply, shapeCast_a_1a_apply]
  simp only [truncf_apply, shapeCast_self]
  show max _ (Ideal.ofBits .f32 0x00000000#32) = _
  rw [Ideal.ofBits_zero_f32]

/-! ## From the blocks to the array -/

/-- The layer over the extended reals, entry by entry: entry (n, j) is the rectified sum over k of features[n, k] ·
    weights[k, j], plus bias[j]. -/
def dn_denseE2 (VA : S100000x256.Idx → EReal) (VW : S256x64.Idx → EReal) (Vb : S64.Idx → EReal) : S100000x64.Idx → EReal :=
  fun i => max (∑ k : Fin 256, VA (ix2 ⟨(i 0).val, idx2_lt0 i⟩ k) * VW (ix2 k ⟨(i 1).val, idx2_lt1 i⟩)
    + Vb (ix1 ⟨(i 1).val, idx2_lt1 i⟩)) 0

/-- What the body stores at (p, q) of its block is the layer's entry at array index i, once row p of the feature block
    is row i₀ of the features, the weight block the weights, and the bias block the bias at column i₁ = q. -/
theorem dn_point2 (x0 : Vec Ideal S5000x256 .f32) (x1 : Vec Ideal S256x64 .f32) (x2 : Vec Ideal S64 .f32)
    (VA : S100000x256.Idx → EReal) (VW : S256x64.Idx → EReal) (Vb : S64.Idx → EReal)
    (p : Fin 5000) (q : Fin 64) (i : S100000x64.Idx)
    (h0 : ∀ k : Fin 256, (x0 (ix2 p k) : EReal) = VA (ix2 ⟨(i 0).val, idx2_lt0 i⟩ k))
    (h1 : ∀ k : Fin 256, (x1 (ix2 k q) : EReal) = VW (ix2 k ⟨(i 1).val, idx2_lt1 i⟩))
    (h2 : (x2 (ix1 q) : EReal) = Vb (ix1 ⟨(i 1).val, idx2_lt1 i⟩)) :
    (k2_pay1 (F := Ideal) x0 x1 x2 : S5000x64.Idx → EReal) (ix2 p q) = dn_denseE2 VA VW Vb i := by
  rw [dn_pay2_apply, h2]
  unfold dn_denseE2
  exact congrArg (fun s => max (s + Vb (ix1 ⟨(i 1).val, idx2_lt1 i⟩)) 0) (Finset.sum_congr rfl fun k _ => by rw [h0 k, h1 k])

/-- Where the three arrays hold real numbers, the layer over the extended reals is the layer over the reals: finite sums,
    products and maxima of reals stay real. -/
theorem dn_denseE2_coe (VA : S100000x256.Idx → EReal) (VW : S256x64.Idx → EReal) (Vb : S64.Idx → EReal)
    (A : Fin 100000 → Fin 256 → ℝ) (Wc : Fin 256 → Fin 64 → ℝ) (b : Fin 64 → ℝ)
    (hA : ∀ n k, VA (ix2 n k) = ((A n k : ℝ) : EReal)) (hW : ∀ k j, VW (ix2 k j) = ((Wc k j : ℝ) : EReal))
    (hb : ∀ j, Vb (ix1 j) = ((b j : ℝ) : EReal)) (n : Fin 100000) (j : Fin 64) :
    dn_denseE2 VA VW Vb (ix2 n j) = ((GnnSpec.dense A Wc b n j : ℝ) : EReal) := by
  show max (∑ k : Fin 256, VA (ix2 n k) * VW (ix2 k j) + Vb (ix1 j)) 0 = _
  rw [hb]
  simp only [hA, hW]
  rw [CoeLib.coe_sum_mul, ← EReal.coe_add, ← EReal.coe_zero, CoeLib.max_coe]
  rfl

/-- The block index maps over the grid's twenty points: the feature block and the output block move together down the
    rows, point t at block t; the weights and the bias stay at block zero. -/
theorem dn_idx_facts2 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- WHAT POINT t WRITES BACK is block t of the layer of the three arrays as the region finds them. -/
theorem dn_flushed2_eq (c : Dev nD) (t : Fin cfg2.N) :
    (dat2 (F := Ideal) V c).flushed 3 t = ((cfg2.win 3).blk t).view.read (Elt Ideal)
      (dn_denseE2 (V c main_call0_v57) (V c main_call0_v59) (V c main_arg13)) := by
  show (cfg2.win 3).cut (grid2.coords t) ((dat2 (F := Ideal) V c).after 3 t) = _
  rw [after2_3]
  unfold out2_3
  rw [View.canon_unit_zero dn_hz2]
  simp only [View.ld_unit_zero (S := S5000x256) dn_hz2, View.ld_unit_zero (S := S256x64) dn_hz2, View.ld_unit_zero (S := S64) dn_hz1]
  obtain ⟨e0, e1, e2, e3, e4, e5, e6⟩ := dn_idx_facts2 t
  funext j
  obtain ⟨p, q, rfl⟩ : ∃ (p : Fin 5000) (q : Fin 64), j = ix2 p q := ⟨j 0, j 1, eq_ix2 j⟩
  show (k2_pay1 (F := Ideal) (iblk2 V c 0 t) (iblk2 V c 1 t) (iblk2 V c 2 t) : S5000x64.Idx → EReal) (ix2 p q)
      = dn_denseE2 (V c main_call0_v57) (V c main_call0_v59) (V c main_arg13) (((cfg2.win 3).blk t).view.emb (ix2 p q))
  refine dn_point2 (iblk2 V c 0 t) (iblk2 V c 1 t) (iblk2 V c 2 t) (V c main_call0_v57) (V c main_call0_v59) (V c main_arg13)
    p q (((cfg2.win 3).blk t).view.emb (ix2 p q)) (fun k => ?_) (fun k => ?_) ?_
  · show V c main_call0_v57 (((cfg2.win 0).blk t).view.emb (ix2 p k)) = _
    refine congrArg (V c main_call0_v57) (funext fun a => Fin.ext ?_)
    match a with
    | ⟨0, _⟩ => show win2_0.index t (0 : Fin 2) * 5000 + 1 * p.val = win2_3.index t (0 : Fin 2) * 5000 + 1 * p.val; omega
    | ⟨1, _⟩ => show win2_0.index t (1 : Fin 2) * 256 + 1 * k.val = k.val; omega
  · show V c main_call0_v59 (((cfg2.win 1).blk t).view.emb (ix2 k q)) = _
    refine congrArg (V c main_call0_v59) (funext fun a => Fin.ext ?_)
    match a with
    | ⟨0, _⟩ => show win2_1.index t (0 : Fin 2) * 256 + 1 * k.val = k.val; omega
    | ⟨1, _⟩ => show win2_1.index t (1 : Fin 2) * 64 + 1 * q.val = win2_3.index t (1 : Fin 2) * 64 + 1 * q.val; omega
  · show V c main_arg13 (((cfg2.win 2).blk t).view.emb (ix1 q)) = _
    refine congrArg (V c main_arg13) (funext fun a => Fin.ext ?_)
    match a with
    | ⟨0, _⟩ => show win2_2.index t (0 : Fin 1) * 64 + 1 * q.val = win2_3.index t (1 : Fin 2) * 64 + 1 * q.val; omega

/-- An index of the array is in point t's block iff each coordinate is in the block's range on its axis. -/
theorem dn_mem_blk2 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_call0_v60).slice (win2_3.rect t)).set ↔ _
  rw [View.set_slice_whole, Rect.mem_set_unit]
  exact Iff.rfl

/-- Row r of the array lies in the block of point r / 5000: the twenty blocks of 5000 rows tile the 100000 rows. -/
theorem dn_cover2 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : grid2.N = 20 := N_2
  refine ⟨⟨(i 0).val / 5000, by show (i 0).val / 5000 < grid2.N; omega⟩, flush2_3 _, ?_⟩
  rw [dn_mem_blk2]
  obtain ⟨e0, e1, e2, e3, e4, e5, e6⟩ := dn_idx_facts2 ⟨(i 0).val / 5000, by show (i 0).val / 5000 < grid2.N; omega⟩
  have e5' : win2_3.index ⟨(i 0).val / 5000, by show (i 0).val / 5000 < grid2.N; omega⟩ (0 : Fin 2) = (i 0).val / 5000 := e5
  intro a
  match a with
  | ⟨0, _⟩ => show win2_3.index _ (0 : Fin 2) * 5000 ≤ (i 0).val ∧ (i 0).val < win2_3.index _ (0 : Fin 2) * 5000 + 5000; omega
  | ⟨1, _⟩ => show win2_3.index _ (1 : Fin 2) * 64 ≤ (i 1).val ∧ (i 1).val < win2_3.index _ (1 : Fin 2) * 64 + 64; omega

/-- THE ARRAY after the region: the layer of the three arrays as the region finds them. -/
theorem dn_final2 (c : Dev nD) : (dat2 (F := Ideal) V c).arrAt 3 cfg2.N
    = dn_denseE2 (V c main_call0_v57) (V c main_call0_v59) (V c main_arg13) :=
  (dat2 (F := Ideal) V c).arrAt_eq_of_cover 3 (dn_denseE2 (V c main_call0_v57) (V c main_call0_v59) (V c main_arg13))
    (fun t _ => dn_flushed2_eq V c t) dn_cover2

/-- Region 2 leaves in its output array the dense layer of its three inputs, over the reals, wherever those hold reals. -/
theorem dense2_region (c : Dev nD) (A : Fin 100000 → Fin 256 → ℝ) (Wc : Fin 256 → Fin 64 → ℝ) (b : Fin 64 → ℝ)
    (hA : ∀ n k, (V c main_call0_v57 : S100000x256.Idx → EReal) (ix2 n k) = ((A n k : ℝ) : EReal))
    (hW : ∀ k j, (V c main_call0_v59 : S256x64.Idx → EReal) (ix2 k j) = ((Wc k j : ℝ) : EReal))
    (hb : ∀ j, (V c main_arg13 : S64.Idx → EReal) (ix1 j) = ((b j : ℝ) : EReal)) :
    ∀ (n : Fin 100000) (j : Fin 64), ((dat2 (F := Ideal) V c).arrAt 3 cfg2.N : S100000x64.Idx → EReal) (ix2 n j)
      = ((GnnSpec.dense A Wc b n j : ℝ) : EReal) := by
  intro n j
  exact (congrFun (dn_final2 V c) (ix2 n j)).trans
    (dn_denseE2_coe (V c main_call0_v57) (V c main_call0_v59) (V c main_arg13) A Wc b hA hW hb n j)

end Cert.KernelIdeal.KV

end
-- ==== Proof.KPool.lean ====
/-
  The pooling region: the sum of the node features over the nodes of each graph.

  The region walks the 100000 nodes in 50 blocks of 2000 rows. It keeps one 512 × 64 block, the running sums per graph.
  At the first block it resets that block to zeros; at every block it adds Mᵀ · H, where H is the block's 2000 × 64
  features and M[r, g] is 1 when row r's graph id is g and 0 otherwise (a 2000 × 512 membership matrix), the product
  contracting over the 2000 rows. So entry (g, j) grows at block t by ∑ r, [id(2000·t + r) = g] · h(2000·t + r, j).

  By induction on the block, after block n the entry (g, j) holds the contribution of rows 0 … 2000·(n+1) − 1. The 50
  blocks of 2000 rows are all the rows, each once, and a sum weighted by membership is the sum over the members; a
  32-bit id equals the word of g < 512 exactly when it reads, as a signed number, as g. The running block is written
  to the output array once, after the last block, and that one block is the whole array.

  All arithmetic is over the extended reals; the features are assumed to be real numbers, so every sum is the coercion
  of the real sum.
-/
import proofs.«428839_j88648124990070_3_alg».proof.Proof.Gen.KernelIdeal.Frame
import proofs.«428839_j88648124990070_3_alg».proof.Proof.Spec
import proofs.«428839_j88648124990070_3_alg».proof.Proof.LibCoe
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.KV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

/-- The zero offsets of a rank-2 rectangle, as a constant function. -/
theorem hz2 : (![0, 0] : Fin 2 → Nat) = fun _ => 0 := funext fun a => by fin_cases a <;> rfl

/-- A point that is not the first: the block holding `xo` ends holding the update of `xo` by this point's rows — the
    one covering store's payload, its three loads reading the whole buffers. -/
theorem pool_out_B (c : Dev nD) (i : grid3.Coords) (a1 : Memref sig .tc .vmem S2000x64 .f32) (h1 : a1.IsWhole)
    (a2 : Memref sig .tc .vmem S2000x1 .i32) (h2 : a2.IsWhole) (a3 : Memref sig .tc .vmem S512x64 .f32) (h3 : a3.IsWhole)
    (hc : ¬cond3_0 i) (x0 : Vec F S2000x64 .f32) (x1 : Vec F S2000x1 .i32) (xo : Vec F S512x64 .f32) :
    out3_B_2 c i a1 h1 a2 h2 a3 h3 hc x0 x1 xo = k3_pay2 x1 x0 xo := by
  unfold out3_B_2
  rw [View.read_writes_eq_canon _ _ _ (cover3_B_2 c i a1 h1 a2 h2 a3 h3 hc x0 x1 xo)]
  unfold kernelRun3_B
  dsimp only
  sl_unfold_words
  rw [View.canon_unit_zero hz2]
  simp only [View.readAt_eq_ld, h1.read_unread, h2.read_unread, h3.read_unread, View.ld_unit_zero (S := S2000x64) hz2,
    View.ld_unit_zero (S := S2000x1) hz2, View.ld_unit_zero (S := S512x64) hz2]

/-- The first point: the block is reset to zeros, read back, and ends holding the update of the zero block by this
    point's rows. -/
theorem pool_out_A (c : Dev nD) (i : grid3.Coords) (a1 : Memref sig .tc .vmem S2000x64 .f32) (h1 : a1.IsWhole)
    (a2 : Memref sig .tc .vmem S2000x1 .i32) (h2 : a2.IsWhole) (a3 : Memref sig .tc .vmem S512x64 .f32) (h3 : a3.IsWhole)
    (hc : cond3_0 i) (x0 : Vec F S2000x64 .f32) (x1 : Vec F S2000x1 .i32) :
    out3_A_2 c i a1 h1 a2 h2 a3 h3 hc x0 x1 = k3_pay2 x1 x0 (k3_pay1 (F := F)) := by
  unfold out3_A_2
  rw [View.read_writes_eq_canon _ _ _ (cover3_A_2 c i a1 h1 a2 h2 a3 h3 hc x0 x1)]
  unfold kernelRun3_A
  dsimp only
  sl_unfold_words
  rw [View.canon_cons_unit_zero (S := S512x64) hz2, View.readCov_unit_zero (S := S512x64) _ hz2]
  simp only [View.readAt_eq_ld, h1.read_unread, h2.read_unread, View.ld_unit_zero (S := S2000x64) hz2,
    View.ld_unit_zero (S := S2000x1) hz2]

/-! ## The update at an index -/

/-- The entry of the membership matrix: 1 where the row's graph id is the word of `g`, else 0. -/
def hot (w : BitVec 32) (g : Fin 512) : ℝ := if w = BitVec.ofNat 32 g.val then 1 else 0

/-- The product's left operand is contracted on its row axis; its column is the output's row. -/
theorem lhs_pool_0 (i : S512x64.Idx) (q : dot_S2000x512_S2000x64_S512x64_0_0_1_1_n_n.contr.Idx) :
    (dot_S2000x512_S2000x64_S512x64_0_0_1_1_n_n.lhsIdx i q 0).val = (q ⟨0, by decide⟩).val :=
  dot_S2000x512_S2000x64_S512x64_0_0_1_1_n_n.lhsIdx_val_of_single rfl i q
theorem lhs_pool_1 (i : S512x64.Idx) (q : dot_S2000x512_S2000x64_S512x64_0_0_1_1_n_n.contr.Idx) :
    (dot_S2000x512_S2000x64_S512x64_0_0_1_1_n_n.lhsIdx i q 1).val = (i 0).val := by
  unfold DotDims.lhsIdx
  rw [dif_neg (show ¬(1 : Fin S2000x512.rank) ∈ dot_S2000x512_S2000x64_S512x64_0_0_1_1_n_n.lhsBatch by decide), dif_pos (show (1 : Fin S2000x512.rank) ∈ dot_S2000x512_S2000x64_S512x64_0_0_1_1_n_n.lhsNonContracting by decide)]
  rfl
/-- The right operand is contracted on its row axis too; its column is the output's column. -/
theorem rhs_pool_0 (i : S512x64.Idx) (q : dot_S2000x512_S2000x64_S512x64_0_0_1_1_n_n.contr.Idx) :
    (dot_S2000x512_S2000x64_S512x64_0_0_1_1_n_n.rhsIdx i q 0).val = (q ⟨0, by decide⟩).val :=
  dot_S2000x512_S2000x64_S512x64_0_0_1_1_n_n.rhsIdx_val_of_single rfl i q
theorem rhs_pool_1 (i : S512x64.Idx) (q : dot_S2000x512_S2000x64_S512x64_0_0_1_1_n_n.contr.Idx) :
    (dot_S2000x512_S2000x64_S512x64_0_0_1_1_n_n.rhsIdx i q 1).val = (i 1).val := by
  unfold DotDims.rhsIdx
  rw [dif_neg (show ¬(1 : Fin S2000x64.rank) ∈ dot_S2000x512_S2000x64_S512x64_0_0_1_1_n_n.rhsBatch by decide), dif_pos (show (1 : Fin S2000x64.rank) ∈ dot_S2000x512_S2000x64_S512x64_0_0_1_1_n_n.rhsNonContracting by decide)]
  rfl

/-- The transposed product into zeros, at (g, j): the sum over the 2000 rows of l[r, g] · r[r, j]. -/
theorem pool_matmul_apply (l : FVec Ideal S2000x512 .bf16) (r : FVec Ideal S2000x64 .bf16) (g : Fin 512) (j : Fin 64) :
    matmul dot_S2000x512_S2000x64_S512x64_0_0_1_1_n_n none l r (constant (F := Ideal) S512x64 .f32 0x00000000#32) (ix2 g j)
      = ∑ k : Fin 2000, l (ix2 k g) * r (ix2 k j) := by
  simp only [matmul]
  rw [Ideal.matmul_constant_zero_apply, ← Equiv.sum_comp (contrEquiv1 dot_S2000x512_S2000x64_S512x64_0_0_1_1_n_n 2000 rfl rfl).symm]
  refine Finset.sum_congr rfl fun k _ => ?_
  have hk := contrEquiv1_symm_val dot_S2000x512_S2000x64_S512x64_0_0_1_1_n_n 2000 rfl rfl k
  have el : dot_S2000x512_S2000x64_S512x64_0_0_1_1_n_n.lhsIdx (ix2 g j) ((contrEquiv1 dot_S2000x512_S2000x64_S512x64_0_0_1_1_n_n 2000 rfl rfl).symm k) = ix2 k g := funext fun a => Fin.ext (by
    match a with
    | ⟨0, _⟩ => exact (lhs_pool_0 _ _).trans hk
    | ⟨1, _⟩ => exact lhs_pool_1 _ _)
  have er : dot_S2000x512_S2000x64_S512x64_0_0_1_1_n_n.rhsIdx (ix2 g j) ((contrEquiv1 dot_S2000x512_S2000x64_S512x64_0_0_1_1_n_n 2000 rfl rfl).symm k) = ix2 k j := funext fun a => Fin.ext (by
    match a with
    | ⟨0, _⟩ => exact (rhs_pool_0 _ _).trans hk
    | ⟨1, _⟩ => exact rhs_pool_1 _ _)
  rw [el, er]

/-- A comparison bit widened to a word and read as a signed number is 1 or 0. -/
theorem hot_word (w : BitVec 32) (g : Fin 512) :
    (((((IntOp.cmpi .eq w (BitVec.ofNat 32 g.val)).setWidth 32).toInt : ℤ) : ℝ) : EReal) = ((hot w g : ℝ) : EReal) := by
  unfold hot IntOp.cmpi
  by_cases h : w = BitVec.ofNat 32 g.val
  · rw [if_pos h]; subst h; simp
  · rw [if_neg h]
    have : (w == BitVec.ofNat 32 g.val) = false := by simpa using h
    simp [this]

/-- The update at (g, j): the old entry plus the sum over the block's 2000 rows r of [id r = g] · h[r, j]. -/
theorem pool_pay_apply (v4 : Vec Ideal S2000x1 .i32) (v11 : Vec Ideal S2000x64 .f32) (v14 : Vec Ideal S512x64 .f32)
    (g : Fin 512) (j : Fin 64) :
    k3_pay2 (F := Ideal) v4 v11 v14 (ix2 g j)
      = v14 (ix2 g j) + ∑ r : Fin 2000, ((hot (v4 (ix2 r (0 : Fin 1))) g : ℝ) : EReal) * v11 (ix2 r j) := by
  unfold k3_pay2
  refine (addf_apply _ _ (ix2 g j)).trans ?_
  refine congrArg₂ (· + ·) (congrFun (shapeCast_self v14 _) (ix2 g j)) ?_
  refine (pool_matmul_apply _ _ g j).trans ?_
  refine Finset.sum_congr rfl fun r _ => ?_
  refine congrArg₂ (· * ·) ?_ (congrFun (shapeCast_self v11 _) (ix2 r j))
  refine Eq.trans ?_ (hot_word (v4 (ix2 r (0 : Fin 1))) g)
  show (((((IntOp.cmpi .eq (broadcastTo S2000x512 (shapeCast S2000x1 v4 shapeCasts_S2000x1_S2000x1) broadcasts_S2000x1_S2000x512 (ix2 r g))
      (iota .tc S2000x512 32 [1] iota_S2000x512_d1_w32 (ix2 r g))).setWidth 32).toInt : ℤ) : ℝ) : EReal) = _
  rw [iota_single_apply, broadcastTo_apply _ broadcasts_S2000x1_S2000x512 (ix2 r g) (ix2 r (0 : Fin 1)) (fun a => by
    match a with
    | ⟨0, _⟩ => show r.val = if (2000 : Nat) = 1 then 0 else r.val; rw [if_neg (by decide)]
    | ⟨1, _⟩ => show (0 : Nat) = if (1 : Nat) = 1 then 0 else g.val; rw [if_pos rfl]), shapeCast_self]

/-! ## The rows block by block, and the partial sums -/

/-- Row `k` of block `t`: row 2000·t + k of the node arrays (read modulo the row count, so that it is total). -/
def rowOf (t : ℕ) (k : Fin 2000) : Fin 100000 := ⟨(2000 * t + k.val) % 100000, Nat.mod_lt _ (by decide)⟩

theorem rowOf_val (t : ℕ) (ht : t < 50) (k : Fin 2000) : (rowOf t k).val = 2000 * t + k.val := by
  have hk := k.isLt
  show (2000 * t + k.val) % 100000 = 2000 * t + k.val
  omega

/-- What blocks 0 … n contribute to entry (g, j): the sum over their rows r of [id r = g] · h r j. -/
def part (ids : Fin 100000 → BitVec 32) (h : Fin 100000 → Fin 64 → ℝ) (g : Fin 512) (j : Fin 64) (n : ℕ) : ℝ :=
  ∑ t ∈ Finset.range (n + 1), ∑ k : Fin 2000, hot (ids (rowOf t k)) g * h (rowOf t k) j

theorem part_zero (ids : Fin 100000 → BitVec 32) (h : Fin 100000 → Fin 64 → ℝ) (g : Fin 512) (j : Fin 64) :
    part ids h g j 0 = ∑ k : Fin 2000, hot (ids (rowOf 0 k)) g * h (rowOf 0 k) j := by
  unfold part
  rw [Finset.sum_range_one]

theorem part_succ (ids : Fin 100000 → BitVec 32) (h : Fin 100000 → Fin 64 → ℝ) (g : Fin 512) (j : Fin 64) (n : ℕ) :
    part ids h g j (n + 1) = part ids h g j n + ∑ k : Fin 2000, hot (ids (rowOf (n + 1) k)) g * h (rowOf (n + 1) k) j := by
  unfold part
  rw [Finset.sum_range_succ]

/-- The 50 blocks of 2000 rows are the 100000 rows: (t, k) ↦ 2000·t + k. -/
def rowEquiv : Fin 50 × Fin 2000 ≃ Fin 100000 where
  toFun p := ⟨2000 * p.1.val + p.2.val, by have := p.1.isLt; have := p.2.isLt; omega⟩
  invFun r := (⟨r.val / 2000, by have := r.isLt; omega⟩, ⟨r.val % 2000, Nat.mod_lt _ (by decide)⟩)
  left_inv p := by
    have h1 := p.1.isLt
    have h2 := p.2.isLt
    refine Prod.ext (Fin.ext ?_) (Fin.ext ?_)
    · show (2000 * p.1.val + p.2.val) / 2000 = p.1.val
      omega
    · show (2000 * p.1.val + p.2.val) % 2000 = p.2.val
      omega
  right_inv r := by
    refine Fin.ext ?_
    show 2000 * (r.val / 2000) + r.val % 2000 = r.val
    omega

/-- After the last block every row has been counted once. -/
theorem part_last (ids : Fin 100000 → BitVec 32) (h : Fin 100000 → Fin 64 → ℝ) (g : Fin 512) (j : Fin 64) :
    part ids h g j 49 = ∑ r : Fin 100000, hot (ids r) g * h r j := by
  unfold part
  rw [Finset.sum_range (fun t => ∑ k : Fin 2000, hot (ids (rowOf t k)) g * h (rowOf t k) j),
    ← Equiv.sum_comp rowEquiv (fun r => hot (ids r) g * h r j), Fintype.sum_prod_type]
  refine Finset.sum_congr rfl fun t _ => Finset.sum_congr rfl fun k _ => ?_
  have e : rowOf t.val k = rowEquiv (t, k) := Fin.ext (rowOf_val t.val t.isLt k)
  rw [e]

/-- For a graph number below 512, a 32-bit word is that number's word exactly when it reads, signed, as the number. -/
theorem word_eq_iff (w : BitVec 32) (g : Fin 512) : w = BitVec.ofNat 32 g.val ↔ w.toInt = (g.val : ℤ) := by
  have hg := g.isLt
  have hw := w.isLt
  constructor
  · rintro rfl
    rw [BitVec.toInt_eq_toNat_cond, BitVec.toNat_ofNat, Nat.mod_eq_of_lt (by omega), if_pos (by omega)]
  · intro h
    apply BitVec.eq_of_toNat_eq
    rw [BitVec.toNat_ofNat, Nat.mod_eq_of_lt (by omega)]
    rw [BitVec.toInt_eq_toNat_cond] at h
    split at h <;> omega

/-- The sum over all rows weighted by membership is the sum over the graph's members. -/
theorem sum_hot_eq_pool (ids : Fin 100000 → BitVec 32) (h : Fin 100000 → Fin 64 → ℝ) (g : Fin 512) (j : Fin 64) :
    ∑ r : Fin 100000, hot (ids r) g * h r j = GnnSpec.pool (fun n => (ids n).toInt) h g j := by
  unfold GnnSpec.pool GnnSpec.members
  rw [Finset.sum_filter]
  refine Finset.sum_congr rfl fun r _ => ?_
  unfold hot
  by_cases e : ids r = BitVec.ofNat 32 g.val
  · rw [if_pos e, if_pos ((word_eq_iff _ g).mp e), one_mul]
  · rw [if_neg e, if_neg (fun e' => e ((word_eq_iff _ g).mpr e')), zero_mul]

/-! ## The two inputs' blocks, read off the arrays -/

section Region
variable (V : (c : Dev nD) → (b : Ref sig .tc) → Buf (Elt Ideal) ((c : Thread nD τ).loc b))

/-- The feature array and the graph-id column as the region finds them, and their blocks at a point, each by its
    literal type. -/
abbrev featArr (c : Dev nD) : Vec Ideal S100000x64 .f32 := V c main_call0_v60
abbrev idArr (c : Dev nD) : Vec Ideal S100000x1 .i32 := V c main_call0_v61
abbrev featBlk (c : Dev nD) (t : Fin cfg3.N) : Vec Ideal S2000x64 .f32 := iblk3 V c 0 t
abbrev idBlk (c : Dev nD) (t : Fin cfg3.N) : Vec Ideal S2000x1 .i32 := iblk3 V c 1 t

/-- The graph id of a row, as a word. -/
abbrev idOf (c : Dev nD) (r : Fin 100000) : BitVec 32 := idArr V c (ix2 r (0 : Fin 1))

/-- Point `t` reads block `t` of the rows of both inputs, all their columns; the output's block never moves. -/
theorem pool_idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 :=
  (by decide +kernel : ∀ t : Fin grid3.N, _)

/-- Entry (k, j) of the feature block at point `t` is entry (2000·t + k, j) of the feature array. -/
theorem featBlk_apply (c : Dev nD) (t : Fin cfg3.N) (k : Fin 2000) (j : Fin 64) :
    featBlk V c t (ix2 k j) = featArr V c (ix2 (rowOf t.val k) j) := by
  have hN : cfg3.N = 50 := N_3
  have ht : t.val < 50 := by have := t.isLt; omega
  obtain ⟨e0, e1, -, -, -, -⟩ := pool_idx_facts t
  show V c main_call0_v60 (((cfg3.win 0).blk t).view.emb (ix2 k j)) = V c main_call0_v60 (ix2 (rowOf t.val k) j)
  refine congrArg _ (funext fun a => Fin.ext ?_)
  match a with
  | ⟨0, _⟩ =>
    show win3_0.index t (0 : Fin 2) * 2000 + 1 * k.val = (rowOf t.val k).val
    rw [rowOf_val t.val ht k, e0]; omega
  | ⟨1, _⟩ =>
    show win3_0.index t (1 : Fin 2) * 64 + 1 * j.val = j.val
    rw [e1]; omega

/-- Entry (k, 0) of the id block at point `t` is the id of row 2000·t + k. -/
theorem idBlk_apply (c : Dev nD) (t : Fin cfg3.N) (k : Fin 2000) :
    idBlk V c t (ix2 k (0 : Fin 1)) = idOf V c (rowOf t.val k) := by
  have hN : cfg3.N = 50 := N_3
  have ht : t.val < 50 := by have := t.isLt; omega
  obtain ⟨-, -, e0, e1, -, -⟩ := pool_idx_facts t
  show V c main_call0_v61 (((cfg3.win 1).blk t).view.emb (ix2 k (0 : Fin 1))) = V c main_call0_v61 (ix2 (rowOf t.val k) (0 : Fin 1))
  refine congrArg _ (funext fun a => Fin.ext ?_)
  match a with
  | ⟨0, _⟩ =>
    show win3_1.index t (0 : Fin 2) * 2000 + 1 * k.val = (rowOf t.val k).val
    rw [rowOf_val t.val ht k, e0]; omega
  | ⟨1, _⟩ =>
    show win3_1.index t (1 : Fin 2) * 1 + 1 * 0 = 0
    rw [e1]

/-- What point `t`'s rows add to entry (g, j), when the features are real numbers. -/
theorem blk_sum (c : Dev nD) (h : Fin 100000 → Fin 64 → ℝ)
    (hh : ∀ n j, featArr V c (ix2 n j) = ((h n j : ℝ) : EReal)) (t : Fin cfg3.N) (g : Fin 512) (j : Fin 64) :
    ∑ r : Fin 2000, ((hot (idBlk V c t (ix2 r (0 : Fin 1))) g : ℝ) : EReal) * featBlk V c t (ix2 r j)
      = ((∑ k : Fin 2000, hot (idOf V c (rowOf t.val k)) g * h (rowOf t.val k) j : ℝ) : EReal) := by
  rw [← CoeLib.coe_sum_mul]
  refine Finset.sum_congr rfl fun r _ => ?_
  rw [idBlk_apply V c t r, featBlk_apply V c t r j, hh]

/-! ## The invariant: after point n the block holds what blocks 0 … n contribute -/

theorem pool_inv (c : Dev nD) (h : Fin 100000 → Fin 64 → ℝ)
    (hh : ∀ n j, featArr V c (ix2 n j) = ((h n j : ℝ) : EReal)) :
    ∀ (n : ℕ) (hn : n < cfg3.N) (g : Fin 512) (j : Fin 64),
      (outsAt3 (F := Ideal) V c n hn : Vec Ideal S512x64 .f32) (ix2 g j) = ((part (idOf V c) h g j n : ℝ) : EReal)
  | 0, hn, g, j => by
    refine (congrFun (outsAt3_A V c ⟨0, hn⟩ rfl) (ix2 g j)).trans ?_
    refine (congrFun (pool_out_A (F := Ideal) c (grid3.coords ⟨0, hn⟩) (ms3_0 ⟨0, hn⟩) (hs3_0 ⟨0, hn⟩) (ms3_1 ⟨0, hn⟩) (hs3_1 ⟨0, hn⟩)
      (ms3_2 ⟨0, hn⟩) (hs3_2 ⟨0, hn⟩) ((hcond3_0 ⟨0, hn⟩).mpr rfl) (featBlk V c ⟨0, hn⟩) (idBlk V c ⟨0, hn⟩)) (ix2 g j)).trans ?_
    refine (pool_pay_apply (idBlk V c ⟨0, hn⟩) (featBlk V c ⟨0, hn⟩) (k3_pay1 (F := Ideal)) g j).trans ?_
    rw [part_zero, ← blk_sum V c h hh ⟨0, hn⟩ g j]
    show Ideal.ofBits .f32 0x00000000#32 + _ = _
    rw [Ideal.ofBits_zero_f32, zero_add]
  | n + 1, hn, g, j => by
    have hN : cfg3.N = 50 := N_3
    have hB : ¬(⟨n + 1, hn⟩ : Fin cfg3.N).val % 50 = 0 := by dsimp only; omega
    refine (congrFun (outsAt3_B V c ⟨n + 1, hn⟩ hB) (ix2 g j)).trans ?_
    refine (congrFun (pool_out_B (F := Ideal) c (grid3.coords ⟨n + 1, hn⟩) (ms3_0 ⟨n + 1, hn⟩) (hs3_0 ⟨n + 1, hn⟩) (ms3_1 ⟨n + 1, hn⟩) (hs3_1 ⟨n + 1, hn⟩)
      (ms3_2 ⟨n + 1, hn⟩) (hs3_2 ⟨n + 1, hn⟩) (fun hc => hB ((hcond3_0 ⟨n + 1, hn⟩).mp hc)) (featBlk V c ⟨n + 1, hn⟩) (idBlk V c ⟨n + 1, hn⟩)
      (outsAt3 V c n (Nat.lt_of_succ_lt hn))) (ix2 g j)).trans ?_
    refine (pool_pay_apply (idBlk V c ⟨n + 1, hn⟩) (featBlk V c ⟨n + 1, hn⟩) (outsAt3 V c n (Nat.lt_of_succ_lt hn)) g j).trans ?_
    rw [part_succ, EReal.coe_add]
    exact congrArg₂ (· + ·) (pool_inv c h hh n (Nat.lt_of_succ_lt hn) g j) (blk_sum V c h hh ⟨n + 1, hn⟩ g j)

/-! ## The output array: its one block, written back after the last point -/

/-- The last point of the grid. -/
abbrev lastPt : Fin cfg3.N := ⟨49, by rw [show cfg3.N = 50 from N_3]; decide⟩

/-- What the output block holds after the last point, as contents of the output array (the block is the array). -/
abbrev poolResult (c : Dev nD) : Buf (Elt Ideal) ((c : Thread nD τ).loc main_call0_v62) :=
  outsAt3 V c 49 (by rw [show cfg3.N = 50 from N_3]; decide)

/-- The one write-back, at the last point, writes it: block (0, 0) of the array read at zero offsets is the array. -/
theorem pool_flushed_eq (c : Dev nD) (t : Fin cfg3.N) (hf : (cfg3.win 2).flush t = true) :
    (dat3 V c).flushed 2 t = ((cfg3.win 2).blk t).view.read (Elt Ideal) (poolResult V c) := by
  have hN : cfg3.N = 50 := N_3
  have h49 : t.val = 49 := by have := (flush3_2 t).mp hf; have := t.isLt; omega
  obtain rfl : t = lastPt := Fin.ext h49
  show (cfg3.win 2).cut (grid3.coords lastPt) ((dat3 V c).after 2 lastPt) = _
  rw [after3_2]
  obtain ⟨-, -, -, -, e0, e1⟩ := pool_idx_facts lastPt
  have hz' : (fun a => win3_2.index lastPt a * main_call0_v62.ty.shape.size a) = fun _ => 0 := funext fun a => by
    match a with
    | ⟨0, _⟩ => show win3_2.index lastPt (0 : Fin 2) * 512 = 0; rw [e0]
    | ⟨1, _⟩ => show win3_2.index lastPt (1 : Fin 2) * 64 = 0; rw [e1]
  exact (Memref.read_access_unit_zero (Elt Ideal) main_call0_v62 hz' (fun a => by rw [congrFun hz' a]; simp) (poolResult V c)).symm

/-- So the output array ends holding the block's contents after the last point: that point's block covers it. -/
theorem pool_final (c : Dev nD) : (dat3 V c).arrAt 2 cfg3.N = poolResult V c :=
  (dat3 V c).arrAt_eq_of_cover 2 (poolResult V c) (pool_flushed_eq V c) fun i =>
    ⟨lastPt, (flush3_2 lastPt).mpr rfl, by
      show i ∈ ((View.whole main_call0_v62).slice (win3_2.rect lastPt)).set
      rw [View.set_slice_whole, Rect.mem_set_unit]
      intro a
      have h0 : (i 0 : Nat) < 512 := (i 0).isLt
      have h1 : (i 1 : Nat) < 64 := (i 1).isLt
      obtain ⟨-, -, -, -, e0, e1⟩ := pool_idx_facts lastPt
      match a with
      | ⟨0, _⟩ =>
        show win3_2.index lastPt (0 : Fin 2) * 512 ≤ (i 0 : Nat) ∧ (i 0 : Nat) < win3_2.index lastPt (0 : Fin 2) * 512 + 512
        rw [e0]; omega
      | ⟨1, _⟩ =>
        show win3_2.index lastPt (1 : Fin 2) * 64 ≤ (i 1 : Nat) ∧ (i 1 : Nat) < win3_2.index lastPt (1 : Fin 2) * 64 + 64
        rw [e1]; omega⟩

end Region

/-- REGION 3. With real features `h`, the pooled array the region leaves holds at (g, j) the sum of h n j over the
    nodes n of graph g: the block is reset at the first point, every point adds its 2000 rows' contributions, and
    the 50 blocks of rows are all the rows. -/
theorem pool_region (V : (c : Dev nD) → (b : Ref sig .tc) → Buf (Elt Ideal) ((c : Thread nD τ).loc b)) (c : Dev nD)
    (h : Fin 100000 → Fin 64 → ℝ)
    (hh : ∀ n j, (V c main_call0_v60 : S100000x64.Idx → EReal) (ix2 n j) = ((h n j : ℝ) : EReal)) :
    ∀ (g : Fin 512) (j : Fin 64), ((dat3 (F := Ideal) V c).arrAt 2 cfg3.N : S512x64.Idx → EReal) (ix2 g j)
      = ((GnnSpec.pool (fun n => ((V c main_call0_v61 : S100000x1.Idx → BitVec 32) (ix2 n (0 : Fin 1))).toInt) h g j : ℝ) : EReal) := by
  intro g j
  rw [pool_final V c]
  refine (pool_inv V c h hh 49 (by rw [show cfg3.N = 50 from N_3]; decide) g j).trans ?_
  rw [part_last, sum_hot_eq_pool]

end Cert.KernelIdeal.KV

end
-- ==== Proof.LibScatter.lean ====
/-
  Two readings of the accumulating stablehlo.scatter (body a float add) at an index, for any extents, at the exact
  arithmetic of the extended reals.

  The scatter adds to each operand element the sum of the update elements that land on it. Update index j lands at the
  operand index whose coordinate on every axis is the start (the scatter index's component for that axis, read as a
  SIGNED word and NOT clamped; 0 on an axis the map does not name) plus the window coordinate (j's coordinate on the
  window axis that goes to that operand axis; 0 on an inserted axis); an update that lands outside the operand is dropped.

  resultIdx?_eq_some_iff: landing at i is the equation "start + window coordinate = i's coordinate" on every axis.
  scatterAdd_rows: whole rows [E, C] of updates added into a table [S, C] at an [E, 1] column of row ids: entry (s, c)
  of the result is the table's entry plus the sum, over the update rows e whose id is s, of the update at (e, c).
  scatterAdd_vec: entries [E] added into a vector [S] at an [E, 1] column of ids: entry s of the result is the vector's
  entry plus the sum, over the e whose id is s, of update e.
  In both, an id that is negative or at least S matches no s, so its update contributes nowhere.
-/
import Idealize.ShloMosaic.PureOps.Ideal
import Idealize.ShloMosaic.PureOps.Contract
import Idealize.ShloMosaic.PureOps.Dims
import Idealize.ShloMosaic.Lib.ValueIdx

namespace IndexOpsLib

open Idealize.ShloMosaic Idealize.ShloMosaic.ValueIdx

/-- An update index lands at operand index i exactly when, on every operand axis, the signed start plus the window
    coordinate is i's coordinate (being inside the operand is then automatic). -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hi a
      have h1 := congrFun hi a
      have h2 := h a
      rw [← h1]
      show _ = ((d.start j idx a + (d.window j a : ℤ)).toNat : ℤ)
      omega
    · intro hi
      funext a
      apply Fin.ext
      show (d.start j idx a + (d.window j a : ℤ)).toNat = (i a).val
      have := hi a
      omega
  · rename_i h
    constructor
    · intro hh; cases hh
    · intro hi
      exfalso
      apply h
      intro a
      have h1 := hi a
      have h2 := (i a).isLt
      omega

/-- At the exact arithmetic the accumulating scatter of the contract is the sum over the landing updates. -/
theorem scatterAdd_ideal {s si u : Shape} {φ : FTy} {w : Nat} (d : ScatterDims s si u) (x : FVec Ideal s φ)
    (idx : IVec si w) (upd : FVec Ideal u φ) : Host.scatterAdd d x idx upd = Ideal.hostScatterAdd d x idx upd := rfl

/-- Rows of updates [E, C] accumulated into a table [S, C] at a column [E, 1] of row ids: entry (s, c) is the table's
    entry plus the sum of the updates (e, c) over the rows e whose id, read signed, is s. -/
theorem scatterAdd_rows {S C E w : Nat} (d : ScatterDims ⟨2, ![S, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![S, C]⟩ : Shape).Idx → EReal) (idx : IVec ⟨2, ![E, 1]⟩ w) (upd : (⟨2, ![E, C]⟩ : Shape).Idx → EReal)
    (s : Fin S) (c : Fin C) :
    Ideal.hostScatterAdd d x idx upd (ix2 s c)
      = x (ix2 s c) + ∑ e ∈ Finset.univ.filter (fun e : Fin E => (idx (ix2 e (0 : Fin 1))).toInt = (s.val : ℤ)),
          upd (ix2 e c) := by
  -- a scatter axis of the updates is not their window axis 1, so it is axis 0, where the index holds e
  have hscat : ∀ (e : Fin E) (b : Fin C) (X : Fin 2), X ∈ d.uScatter →
      ((ix2 e b : (⟨2, ![E, C]⟩ : Shape).Idx) X).val = e.val := by
    intro e b X hX
    have hX' : X ∉ d.updateWindowDims := by
      have := (List.mem_filter.1 hX).2
      simpa using this
    rw [huw] at hX'
    match X with
    | ⟨0, _⟩ => rfl
    | ⟨1, _⟩ => exact absurd (List.mem_singleton.mpr rfl) hX'
  -- a window axis of the updates is axis 1, where the index holds the column
  have hwin : ∀ (e : Fin E) (b : Fin C) (X : Fin 2), X ∈ d.updateWindowDims →
      ((ix2 e b : (⟨2, ![E, C]⟩ : Shape).Idx) X).val = b.val := by
    intro e b X hX
    rw [huw] at hX
    have hX1 : X = 1 := List.mem_singleton.mp hX
    subst hX1; rfl
  -- operand axis 0: start-indexed and inserted; the start is the signed id of update row e, the window coordinate 0
  have hs0 : ∀ (e : Fin E) (b : Fin C), d.start (ix2 e b) idx (0 : Fin 2) = (idx (ix2 e (0 : Fin 1))).toInt := by
    intro e b
    have hm : (0 : Fin 2) ∈ d.scatterDimsToOperandDims := by rw [hsd]; exact List.mem_singleton.mpr rfl
    unfold ScatterDims.start
    rw [dif_pos hm]
    congr 2
    funext a
    match a with
    | ⟨0, _⟩ =>
      unfold ScatterDims.siIdx
      rw [dif_neg (by rw [hivd]; simp)]
      unfold ScatterDims.siCoord
      apply Fin.ext
      simp only [Fin.val_cast]
      exact hscat e b _ (List.getElem_mem _)
    | ⟨1, _⟩ =>
      unfold ScatterDims.siIdx
      rw [dif_pos (by rw [hivd])]
      apply Fin.ext
      show List.idxOf (0 : Fin 2) d.scatterDimsToOperandDims = 0
      rw [hsd]; simp
  have hw0 : ∀ (e : Fin E) (b : Fin C), d.window (ix2 e b) (0 : Fin 2) = 0 := by
    intro e b
    have hk : (0 : Fin 2) ∉ d.sKept := by
      simp [ScatterDims.sKept, Shape.kept, List.mem_filter, hiw]
    unfold ScatterDims.window
    rw [dif_neg hk]
  -- operand axis 1: a window axis with no start index; the start is 0, the window coordinate the update's column
  have hs1 : ∀ (e : Fin E) (b : Fin C), d.start (ix2 e b) idx (1 : Fin 2) = 0 := by
    intro e b
    have hm : (1 : Fin 2) ∉ d.scatterDimsToOperandDims := by rw [hsd]; simp
    unfold ScatterDims.start
    rw [dif_neg hm]
  have hw1 : ∀ (e : Fin E) (b : Fin C), d.window (ix2 e b) (1 : Fin 2) = b.val := by
    intro e b
    have hk : (1 : Fin 2) ∈ d.sKept := by
      simp [ScatterDims.sKept, Shape.kept, List.mem_filter, hiw]
    unfold ScatterDims.window
    rw [dif_pos hk]
    exact hwin e b _ (List.getElem_mem _)
  -- update (e, b) lands at (s, c) exactly when row e's id is s and b is c
  have hkey : ∀ (e : Fin E) (b : Fin C),
      d.resultIdx? (ix2 e b) idx = some (ix2 s c) ↔ ((idx (ix2 e (0 : Fin 1))).toInt = (s.val : ℤ) ∧ b = c) := by
    intro e b
    rw [resultIdx?_eq_some_iff]
    constructor
    · intro h
      have h0 := h (0 : Fin 2)
      have h1 := h (1 : Fin 2)
      rw [hs0, hw0] at h0
      rw [hs1, hw1] at h1
      refine ⟨?_, ?_⟩
      · have : (((ix2 s c : (⟨2, ![S, C]⟩ : Shape).Idx) (0 : Fin 2)).val : ℤ) = (s.val : ℤ) := rfl
        rw [this] at h0
        simpa using h0
      · apply Fin.ext
        have : (((ix2 s c : (⟨2, ![S, C]⟩ : Shape).Idx) (1 : Fin 2)).val : ℤ) = (c.val : ℤ) := rfl
        rw [this] at h1
        omega
    · rintro ⟨h0, rfl⟩ a
      match a with
      | ⟨0, _⟩ =>
        show d.start (ix2 e b) idx (0 : Fin 2) + (d.window (ix2 e b) (0 : Fin 2) : ℤ) = (s.val : ℤ)
        rw [hs0, hw0, h0]; simp
      | ⟨1, _⟩ =>
        show d.start (ix2 e b) idx (1 : Fin 2) + (d.window (ix2 e b) (1 : Fin 2) : ℤ) = (b.val : ℤ)
        rw [hs1, hw1]; simp
  show x (ix2 s c) + _ = _
  congr 1
  rw [Finset.sum_filter, Finset.sum_filter, sum_idx2]
  apply Finset.sum_congr rfl
  intro e _
  simp only [hkey]
  by_cases he : (idx (ix2 e (0 : Fin 1))).toInt = (s.val : ℤ)
  · simp [he]
  · simp [he]

/-- Updates [E] accumulated into a vector [S] at a column [E, 1] of ids: entry s is the vector's entry plus the sum
    of the updates e whose id, read signed, is s. -/
theorem scatterAdd_vec {S E w : Nat} (d : ScatterDims ⟨1, ![S]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![S]⟩ : Shape).Idx → EReal) (idx : IVec ⟨2, ![E, 1]⟩ w) (upd : (⟨1, ![E]⟩ : Shape).Idx → EReal)
    (s : Fin S) :
    Ideal.hostScatterAdd d x idx upd (ix1 s)
      = x (ix1 s) + ∑ e ∈ Finset.univ.filter (fun e : Fin E => (idx (ix2 e (0 : Fin 1))).toInt = (s.val : ℤ)),
          upd (ix1 e) := by
  -- the updates' one axis holds e
  have hj : ∀ (e : Fin E) (X : Fin 1), ((ix1 e : (⟨1, ![E]⟩ : Shape).Idx) X).val = e.val := fun e X => by
    have hX : X = 0 := Subsingleton.elim _ _
    subst hX; rfl
  -- the operand's one axis is start-indexed and inserted: the start is the signed id of update e, the window coordinate 0
  have hs0 : ∀ e : Fin E, d.start (ix1 e) idx (0 : Fin 1) = (idx (ix2 e (0 : Fin 1))).toInt := by
    intro e
    have hm : (0 : Fin 1) ∈ d.scatterDimsToOperandDims := by rw [hsd]; exact List.mem_singleton.mpr rfl
    unfold ScatterDims.start
    rw [dif_pos hm]
    congr 2
    funext a
    match a with
    | ⟨0, _⟩ =>
      unfold ScatterDims.siIdx
      rw [dif_neg (by rw [hivd]; simp)]
      unfold ScatterDims.siCoord
      apply Fin.ext
      simp only [Fin.val_cast]
      exact hj e _
    | ⟨1, _⟩ =>
      unfold ScatterDims.siIdx
      rw [dif_pos (by rw [hivd])]
      apply Fin.ext
      show List.idxOf (0 : Fin 1) d.scatterDimsToOperandDims = 0
      rw [hsd]; simp
  have hw0 : ∀ e : Fin E, d.window (ix1 e) (0 : Fin 1) = 0 := by
    intro e
    have hk : (0 : Fin 1) ∉ d.sKept := by
      simp [ScatterDims.sKept, Shape.kept, List.mem_filter, hiw]
    unfold ScatterDims.window
    rw [dif_neg hk]
  -- update e lands at s exactly when its id is s
  have hkey : ∀ e : Fin E,
      d.resultIdx? (ix1 e) idx = some (ix1 s) ↔ (idx (ix2 e (0 : Fin 1))).toInt = (s.val : ℤ) := by
    intro e
    rw [resultIdx?_eq_some_iff]
    constructor
    · intro h
      have h0 := h (0 : Fin 1)
      rw [hs0, hw0] at h0
      have : (((ix1 s : (⟨1, ![S]⟩ : Shape).Idx) (0 : Fin 1)).val : ℤ) = (s.val : ℤ) := rfl
      rw [this] at h0
      simpa using h0
    · intro h0 a
      have ha : a = 0 := Subsingleton.elim _ _
      subst ha
      show d.start (ix1 e) idx (0 : Fin 1) + (d.window (ix1 e) (0 : Fin 1) : ℤ) = (s.val : ℤ)
      rw [hs0, hw0, h0]; simp
  -- a rank-1 index set is its one coordinate's range
  let eqv : Fin E ≃ (⟨1, ![E]⟩ : Shape).Idx :=
    { toFun := ix1, invFun := fun j => j 0, left_inv := fun _ => rfl, right_inv := fun j => (eq_ix1 j).symm }
  show x (ix1 s) + _ = _
  congr 1
  rw [Finset.sum_filter, Finset.sum_filter, ← Equiv.sum_comp eqv]
  apply Finset.sum_congr rfl
  intro e _
  show (if d.resultIdx? (ix1 e) idx = some (ix1 s) then upd (ix1 e) else 0) = _
  simp only [hkey]

end IndexOpsLib
-- ==== Proof.KClassify.lean ====
/-
  The last layer: the mean over each graph's nodes through a dense layer.

  The region has one grid point and every window's block is its whole array. Its body stores, at (g, q),

      ∑ j, sums[g, j] / max (counts[g, 0]) 1 · cls_w[j, q] + cls_b[q],

  the product as a [512, 64] by [64, 10] matrix product into zeros. So the output array ends holding that function of the
  four arrays the region reads; where those hold real numbers the divisor max c 1 ≥ 1 is a nonzero real, every operation
  stays in the reals, and the entry is the specification's `classify`.

  Before the region the host counts each graph's nodes: ones for all 100000 nodes accumulated into 512 zeros at the
  nodes' graph ids, the result laid out as a column. Entry g of the column is the number of nodes whose id, read signed,
  is g.
-/
import proofs.«428839_j88648124990070_3_alg».proof.Proof.Gen.KernelIdeal.Frame
import proofs.«428839_j88648124990070_3_alg».proof.Proof.Spec
import proofs.«428839_j88648124990070_3_alg».proof.Proof.LibCoe
import proofs.«428839_j88648124990070_3_alg».proof.Proof.LibScatter
import Idealize.ShloMosaic.Lib.StableHlo.Run
import Idealize.ShloMosaic.Lib.Pipeline.Value
import Idealize.ShloMosaic.Lib.ValueIdx
import Idealize.ShloMosaic.Lib.ValueIdxRank1
import Idealize.ShloMosaic.Lib.ValueLayout
import Idealize.ShloMosaic.Lib.IdealHost
import Idealize.ShloMosaic.PureOps.Ideal.Laws

set_option maxRecDepth 16384

noncomputable section

namespace Cert.KernelIdeal.KV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

/-! ## The last dense layer's product, axis by axis -/

theorem cls_lhs_0 (i : S512x10.Idx) (q : dot_S512x64_S64x10_S512x10_1_0_0_1_n_n.contr.Idx) :
    (dot_S512x64_S64x10_S512x10_1_0_0_1_n_n.lhsIdx i q 0).val = (i 0).val := by
  unfold DotDims.lhsIdx
  rw [dif_neg (show ¬(0 : Fin S512x64.rank) ∈ dot_S512x64_S64x10_S512x10_1_0_0_1_n_n.lhsBatch by decide), dif_pos (show (0 : Fin S512x64.rank) ∈ dot_S512x64_S64x10_S512x10_1_0_0_1_n_n.lhsNonContracting by decide)]
  rfl

theorem cls_lhs_1 (i : S512x10.Idx) (q : dot_S512x64_S64x10_S512x10_1_0_0_1_n_n.contr.Idx) :
    (dot_S512x64_S64x10_S512x10_1_0_0_1_n_n.lhsIdx i q 1).val = (q ⟨0, by decide⟩).val :=
  dot_S512x64_S64x10_S512x10_1_0_0_1_n_n.lhsIdx_val_of_single rfl i q

theorem cls_rhs_0 (i : S512x10.Idx) (q : dot_S512x64_S64x10_S512x10_1_0_0_1_n_n.contr.Idx) :
    (dot_S512x64_S64x10_S512x10_1_0_0_1_n_n.rhsIdx i q 0).val = (q ⟨0, by decide⟩).val :=
  dot_S512x64_S64x10_S512x10_1_0_0_1_n_n.rhsIdx_val_of_single rfl i q

theorem cls_rhs_1 (i : S512x10.Idx) (q : dot_S512x64_S64x10_S512x10_1_0_0_1_n_n.contr.Idx) :
    (dot_S512x64_S64x10_S512x10_1_0_0_1_n_n.rhsIdx i q 1).val = (i 1).val := by
  unfold DotDims.rhsIdx
  rw [dif_neg (show ¬(1 : Fin S64x10.rank) ∈ dot_S512x64_S64x10_S512x10_1_0_0_1_n_n.rhsBatch by decide), dif_pos (show (1 : Fin S64x10.rank) ∈ dot_S512x64_S64x10_S512x10_1_0_0_1_n_n.rhsNonContracting by decide)]
  rfl

/-- The product of a [512, 64] by a [64, 10] matrix into zeros, read at (g, q): the sum over the 64 columns. -/
theorem cls_matmul_apply (A : FVec Ideal S512x64 .bf16) (B : FVec Ideal S64x10 .bf16) (g : Fin 512) (q : Fin 10) :
    matmul dot_S512x64_S64x10_S512x10_1_0_0_1_n_n none A B (constant (F := Ideal) S512x10 .f32 0x00000000#32) (ix2 g q)
      = ∑ j : Fin 64, A (ix2 g j) * B (ix2 j q) := by
  show FloatOps.matmul _ none A B _ (ix2 g q) = _
  rw [Ideal.matmul_constant_zero_apply, ← Equiv.sum_comp (contrEquiv1 dot_S512x64_S64x10_S512x10_1_0_0_1_n_n 64 rfl rfl).symm]
  refine Finset.sum_congr rfl fun k _ => ?_
  have hk := contrEquiv1_symm_val dot_S512x64_S64x10_S512x10_1_0_0_1_n_n 64 rfl rfl k
  have el : dot_S512x64_S64x10_S512x10_1_0_0_1_n_n.lhsIdx (ix2 g q) ((contrEquiv1 dot_S512x64_S64x10_S512x10_1_0_0_1_n_n 64 rfl rfl).symm k) = ix2 g k := funext fun a => Fin.ext (by
    match a with
    | ⟨0, _⟩ => exact cls_lhs_0 _ _
    | ⟨1, _⟩ => exact (cls_lhs_1 _ _).trans hk)
  have er : dot_S512x64_S64x10_S512x10_1_0_0_1_n_n.rhsIdx (ix2 g q) ((contrEquiv1 dot_S512x64_S64x10_S512x10_1_0_0_1_n_n 64 rfl rfl).symm k) = ix2 k q := funext fun a => Fin.ext (by
    match a with
    | ⟨0, _⟩ => exact (cls_rhs_0 _ _).trans hk
    | ⟨1, _⟩ => exact cls_rhs_1 _ _)
  rw [el, er]

/-! ## The body's arithmetic at an index -/

/-- A column [a, 1] broadcast along the second axis to [a, b] reads, at (p, c), the column's entry p. -/
theorem cls_broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's stored value at (g, q): each of the 64 sums of row g divided by the larger of the count of row g and one,
    times the weight (j, q), summed over j, plus the bias q. -/
theorem cls_pay_apply (v0 : Vec Ideal S512x1 .f32) (v4 : Vec Ideal S512x64 .f32) (v9 : Vec Ideal S64x10 .f32)
    (v12 : Vec Ideal S10 .f32) (g : Fin 512) (q : Fin 10) :
    (k4_pay1 (F := Ideal) v0 v4 v9 v12 : S512x10.Idx → EReal) (ix2 g q)
      = (∑ j : Fin 64, Ideal.div ((v4 : S512x64.Idx → EReal) (ix2 g j))
            (max ((v0 : S512x1.Idx → EReal) (ix2 g (0 : Fin 1))) (Ideal.ofBits .f32 0x3F800000#32))
          * (v9 : S64x10.Idx → EReal) (ix2 j q))
        + (v12 : S10.Idx → EReal) (ix1 q) := by
  unfold k4_pay1
  refine (addf_apply _ _ _).trans ?_
  rw [cls_matmul_apply, broadcastTo_1b_ab_apply, shapeCast_a_1a_apply]
  congr 1
  refine Finset.sum_congr rfl fun j _ => ?_
  rw [truncf_apply, truncf_apply, divf_apply, shapeCast_self, cls_broadcastTo_col_apply, maximumf_apply, shapeCast_self,
    broadcast_apply]
  rfl

/-! ## In real numbers -/

/-- On real entries the stored value is the specification's last layer: the constant one is the real 1, the larger of a
    real and 1 is a nonzero real, so the quotient, the products and the sum stay real. -/
theorem cls_classify_coe (P : Fin 512 → Fin 64 → ℝ) (cn : Fin 512 → ℝ) (cw : Fin 64 → Fin 10 → ℝ) (cb : Fin 10 → ℝ)
    (g : Fin 512) (q : Fin 10) :
    (∑ j : Fin 64, Ideal.div ((P g j : ℝ) : EReal) (max ((cn g : ℝ) : EReal) (Ideal.ofBits .f32 0x3F800000#32))
          * ((cw j q : ℝ) : EReal))
        + ((cb q : ℝ) : EReal)
      = ((GnnSpec.classify P cn cw cb g q : ℝ) : EReal) := by
  have hne : max (cn g) 1 ≠ 0 := (lt_of_lt_of_le one_pos (le_max_right _ _)).ne'
  rw [Ideal.ofBits_one_f32, ← EReal.coe_one, CoeLib.max_coe]
  simp only [CoeLib.div_coe_coe _ _ hne]
  rw [CoeLib.coe_sum_mul, ← EReal.coe_add]
  rfl

/-! ## From the one block to the array -/

section Region
variable (V : (c : Dev nD) → (b : Ref sig .tc) → Buf (Elt Ideal) ((c : Thread nD τ).loc b))

/-- The four arrays the region reads, as it finds them: the per-graph sums, the per-graph counts, the last layer's
    weights and its bias. -/
abbrev cls_sums (c : Dev nD) : Vec Ideal S512x64 .f32 := V c main_call0_v62
abbrev cls_cnts (c : Dev nD) : Vec Ideal S512x1 .f32 := V c main_call0_v67
abbrev cls_W (c : Dev nD) : Vec Ideal S64x10 .f32 := V c main_arg14
abbrev cls_B (c : Dev nD) : Vec Ideal S10 .f32 := V c main_arg15

/-- What the output array ends holding: the body's value of the four whole arrays. -/
abbrev cls_result (c : Dev nD) : Vec Ideal S512x10 .f32 :=
  k4_pay1 (F := Ideal) (cls_cnts V c) (cls_sums V c) (cls_W V c) (cls_B V c)

theorem cls_hz2 : (![0, 0] : Fin 2 → Nat) = fun _ => 0 := funext fun a => by fin_cases a <;> rfl
theorem cls_hz1 : (![0] : Fin 1 → Nat) = fun _ => 0 := funext fun a => by fin_cases a <;> rfl

/-- Every window's block index is zero on every axis at every point: each block is its whole array. -/
theorem cls_idx_zero : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = 0 ∧ win4_4.index t (1 : Fin 2) = 0 :=
  (by decide +kernel : ∀ t : Fin grid4.N, _)

/-- The sums' block is the sums' array. -/
theorem cls_sums_blk (c : Dev nD) (t : Fin cfg4.N) : (iblk4 V c 0 t : S512x64.Idx → EReal) = cls_sums V c := by
  obtain ⟨e0, e1, -⟩ := cls_idx_zero t
  funext y
  unfold iblk4
  rw [View.read_apply]
  show V c main_call0_v62 (((cfg4.win 0).blk t).view.emb y) = V c main_call0_v62 y
  congr 1
  funext a; apply Fin.ext
  match a with
  | ⟨0, _⟩ => show win4_0.index t (0 : Fin 2) * 512 + 1 * (y 0).val = (y 0).val; rw [e0]; omega
  | ⟨1, _⟩ => show win4_0.index t (1 : Fin 2) * 64 + 1 * (y 1).val = (y 1).val; rw [e1]; omega

/-- The counts' block is the counts' array. -/
theorem cls_cnts_blk (c : Dev nD) (t : Fin cfg4.N) : (iblk4 V c 1 t : S512x1.Idx → EReal) = cls_cnts V c := by
  obtain ⟨-, -, e0, e1, -⟩ := cls_idx_zero t
  funext y
  unfold iblk4
  rw [View.read_apply]
  show V c main_call0_v67 (((cfg4.win 1).blk t).view.emb y) = V c main_call0_v67 y
  congr 1
  funext a; apply Fin.ext
  match a with
  | ⟨0, _⟩ => show win4_1.index t (0 : Fin 2) * 512 + 1 * (y 0).val = (y 0).val; rw [e0]; omega
  | ⟨1, _⟩ => show win4_1.index t (1 : Fin 2) * 1 + 1 * (y 1).val = (y 1).val; rw [e1]; omega

/-- The weights' block is the weights' array. -/
theorem cls_W_blk (c : Dev nD) (t : Fin cfg4.N) : (iblk4 V c 2 t : S64x10.Idx → EReal) = cls_W V c := by
  obtain ⟨-, -, -, -, e0, e1, -⟩ := cls_idx_zero t
  funext y
  unfold iblk4
  rw [View.read_apply]
  show V c main_arg14 (((cfg4.win 2).blk t).view.emb y) = V c main_arg14 y
  congr 1
  funext a; apply Fin.ext
  match a with
  | ⟨0, _⟩ => show win4_2.index t (0 : Fin 2) * 64 + 1 * (y 0).val = (y 0).val; rw [e0]; omega
  | ⟨1, _⟩ => show win4_2.index t (1 : Fin 2) * 10 + 1 * (y 1).val = (y 1).val; rw [e1]; omega

/-- The bias' block is the bias' array. -/
theorem cls_B_blk (c : Dev nD) (t : Fin cfg4.N) : (iblk4 V c 3 t : S10.Idx → EReal) = cls_B V c := by
  obtain ⟨-, -, -, -, -, -, e0, -⟩ := cls_idx_zero t
  funext y
  unfold iblk4
  rw [View.read_apply]
  show V c main_arg15 (((cfg4.win 3).blk t).view.emb y) = V c main_arg15 y
  congr 1
  funext a; apply Fin.ext
  match a with
  | ⟨0, _⟩ => show win4_3.index t (0 : Fin 1) * 10 + 1 * (y 0).val = (y 0).val; rw [e0]; omega

/-- What the one point writes back is the whole of `cls_result`, read through the output's one block. -/
theorem cls_flushed_eq (c : Dev nD) (t : Fin cfg4.N) :
    (dat4 (F := Ideal) V c).flushed 4 t = ((cfg4.win 4).blk t).view.read (Elt Ideal) (cls_result V c) := by
  obtain ⟨-, -, -, -, -, -, -, e0, e1⟩ := cls_idx_zero t
  show (cfg4.win 4).cut (grid4.coords t) ((dat4 (F := Ideal) V c).after 4 t) = _
  rw [after4_4]
  unfold out4_4
  rw [View.canon_unit_zero cls_hz2]
  simp only [View.ld_unit_zero (S := S512x1) cls_hz2, View.ld_unit_zero (S := S512x64) cls_hz2,
    View.ld_unit_zero (S := S64x10) cls_hz2, View.ld_unit_zero (S := S10) cls_hz1]
  rw [cls_cnts_blk V c t, cls_sums_blk V c t, cls_W_blk V c t, cls_B_blk V c t]
  funext y
  rw [View.read_apply]
  show cls_result V c ((win4 4).xinj (grid4.coords t) y) = cls_result V c (((cfg4.win 4).blk t).view.emb y)
  congr 1
  funext a; apply Fin.ext
  match a with
  | ⟨0, _⟩ => show (y 0).val = win4_4.index t (0 : Fin 2) * 512 + 1 * (y 0).val; rw [e0]; omega
  | ⟨1, _⟩ => show (y 1).val = win4_4.index t (1 : Fin 2) * 10 + 1 * (y 1).val; rw [e1]; omega

/-- An index of the output array lies in the one point's block: the block is the whole array. -/
theorem cls_mem_blk (t : Fin cfg4.N) (i : S512x10.Idx) :
    i ∈ ((cfg4.win 4).blk t).view.set ↔ ∀ a : Fin 2, win4_4.index t a * S512x10.size a ≤ (i a).val ∧ (i a).val < win4_4.index t a * S512x10.size a + S512x10.size a := by
  show i ∈ ((View.whole main_v0).slice (win4_4.rect t)).set ↔ _
  rw [View.set_slice_whole, Rect.mem_set_unit]
  exact Iff.rfl

/-- After the region the output array holds `cls_result`. -/
theorem cls_final (c : Dev nD) : (dat4 (F := Ideal) V c).arrAt 4 cfg4.N = cls_result V c :=
  (dat4 (F := Ideal) V c).arrAt_eq_of_cover 4 (cls_result V c) (fun t _ => cls_flushed_eq V c t) fun i =>
    ⟨t4_0, flush4_4 t4_0, by
      obtain ⟨-, -, -, -, -, -, -, e0, e1⟩ := cls_idx_zero t4_0
      rw [cls_mem_blk]
      intro a
      have h0 : (i 0).val < 512 := (i 0).isLt
      have h1 : (i 1).val < 10 := (i 1).isLt
      match a with
      | ⟨0, _⟩ => show win4_4.index t4_0 (0 : Fin 2) * 512 ≤ (i 0).val ∧ (i 0).val < win4_4.index t4_0 (0 : Fin 2) * 512 + 512; rw [e0]; omega
      | ⟨1, _⟩ => show win4_4.index t4_0 (1 : Fin 2) * 10 ≤ (i 1).val ∧ (i 1).val < win4_4.index t4_0 (1 : Fin 2) * 10 + 10; rw [e1]; omega⟩

/-- THE REGION IN REAL NUMBERS. Where the four arrays the region reads hold real numbers, the output array holds, at
    (g, q), the specification's last layer of those numbers. -/
theorem classify_region (c : Dev nD) (P : Fin 512 → Fin 64 → ℝ) (cn : Fin 512 → ℝ) (cw : Fin 64 → Fin 10 → ℝ) (cb : Fin 10 → ℝ)
    (hP : ∀ g j, (V c main_call0_v62 : S512x64.Idx → EReal) (ix2 g j) = ((P g j : ℝ) : EReal))
    (hc : ∀ g, (V c main_call0_v67 : S512x1.Idx → EReal) (ix2 g (0 : Fin 1)) = ((cn g : ℝ) : EReal))
    (hw : ∀ j q, (V c main_arg14 : S64x10.Idx → EReal) (ix2 j q) = ((cw j q : ℝ) : EReal))
    (hb : ∀ q, (V c main_arg15 : S10.Idx → EReal) (ix1 q) = ((cb q : ℝ) : EReal)) :
    ∀ (g : Fin 512) (q : Fin 10),
      ((dat4 (F := Ideal) V c).arrAt 4 cfg4.N : S512x10.Idx → EReal) (ix2 g q)
        = ((GnnSpec.classify P cn cw cb g q : ℝ) : EReal) := by
  intro g q
  rw [cls_final V c]
  refine (cls_pay_apply (cls_cnts V c) (cls_sums V c) (cls_W V c) (cls_B V c) g q).trans ?_
  have hc' : cls_cnts V c (ix2 g (0 : Fin 1)) = ((cn g : ℝ) : EReal) := hc g
  have hb' : cls_B V c (ix1 q) = ((cb q : ℝ) : EReal) := hb q
  have hP' : ∀ j, cls_sums V c (ix2 g j) = ((P g j : ℝ) : EReal) := hP g
  have hw' : ∀ j, cls_W V c (ix2 j q) = ((cw j q : ℝ) : EReal) := fun j => hw j q
  rw [hc', hb']
  simp only [hP', hw']
  exact cls_classify_coe P cn cw cb g q

end Region

/-! ## The host's count of each graph's nodes -/

/-- A vector [a] laid out as a column [a, 1] reads, at (i, 0), entry i. -/
theorem cls_shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The column of counts as one term of the graph ids: ones accumulated into zeros at the ids, as a column. -/
theorem cls_host4_term (W : Valuation τ sig (Elt Ideal)) :
    (StableHlo.after (hostOps4 (F := Ideal)) W (Proc.devRef .tc main_call0_v67) : S512x1.Idx → EReal)
      = shapeCast S512x1 (Host.scatterAdd (F := Ideal) scatter_S512_S100000x1_S100000_n_0_0_1
          (broadcastInDim S512 ![] bcast_S_S512 (constant (F := Ideal) S_ .f32 0x00000000#32))
          (broadcastInDim S100000x1 ![0] bcast_S100000_S100000x1_0 (W (Proc.devRef .tc main_arg3) : S100000.Idx → BitVec 32))
          (broadcastInDim S100000 ![] bcast_S_S100000 (constant (F := Ideal) S_ .f32 0x3F800000#32))) shapeCasts_S512_S512x1 := by
  show StableHlo.after hostOps4 W (Proc.devRef .tc main_call0_v67) = _
  after_results
  rfl

/-- THE COUNTS. Entry g of the column the host computes before the region is the number of nodes whose graph id, read
    signed, is g: each such node adds a one onto a zero. -/
theorem host4_cnt (W : Valuation τ sig (Elt Ideal)) : ∀ g : Fin 512,
    (StableHlo.after (hostOps4 (F := Ideal)) W (Proc.devRef .tc main_call0_v67) : S512x1.Idx → EReal) (ix2 g (0 : Fin 1))
      = ((GnnSpec.gcount (fun n => ((W (Proc.devRef .tc main_arg3) : S100000.Idx → BitVec 32) (ix1 n)).toInt) g : ℝ) : EReal) := by
  intro g
  rw [cls_host4_term W, cls_shapeCast_col_apply]
  show Ideal.hostScatterAdd scatter_S512_S100000x1_S100000_n_0_0_1 _ _ _ (ix1 g) = _
  rw [IndexOpsLib.scatterAdd_vec scatter_S512_S100000x1_S100000_n_0_0_1 rfl rfl rfl rfl]
  have hx : (broadcastInDim S512 ![] bcast_S_S512 (constant (F := Ideal) S_ .f32 0x00000000#32) : S512.Idx → EReal) (ix1 g) = 0 :=
    Ideal.ofBits_zero_f32
  have hu : ∀ e : Fin 100000,
      (broadcastInDim S100000 ![] bcast_S_S100000 (constant (F := Ideal) S_ .f32 0x3F800000#32) : S100000.Idx → EReal) (ix1 e)
        = ((1 : ℝ) : EReal) := fun e => Ideal.ofBits_one_f32.trans EReal.coe_one.symm
  have hi : ∀ e : Fin 100000,
      broadcastInDim S100000x1 ![0] bcast_S100000_S100000x1_0 (W (Proc.devRef .tc main_arg3) : S100000.Idx → BitVec 32) (ix2 e (0 : Fin 1))
        = (W (Proc.devRef .tc main_arg3) : S100000.Idx → BitVec 32) (ix1 e) := fun e =>
    broadcastInDim_apply _ _ _ _ (ix1 e) (fun a => by
      match a with
      | ⟨0, _⟩ => show e.val = if (100000 : ℕ) = 1 then 0 else e.val; rw [if_neg (by decide)])
  rw [hx, zero_add]
  simp only [hi, hu]
  rw [CoeLib.coe_sum, Finset.sum_const, nsmul_eq_mul, mul_one]
  rfl

end Cert.KernelIdeal.KV

end
-- ==== Proof.SpecLaw.lean ====
/-
  Laws of the real-arithmetic network.

  The stacked arrangement of a relational graph layer (the node's own features beside the three per-relation means of
  its neighbours' features, against the root matrix over the three relation matrices) is the layer itself:

    ∑ c < 4·D, comb[n, c] · combW[c, j]
      = ∑ k < D, h[n, k] · root[k, j]  +  ∑ r < 3, ∑ k < D, nagg[n, r, k] · W[r, k, j]          (the columns split)
    ∑ k < D, ((∑ e ∈ S, h[src e, k]) / c) · W[r, k, j]
      = (∑ e ∈ S, ∑ k < D, h[src e, k] · W[r, k, j]) / c                                       (a mean is linear)

  Both are identities of finite sums over the reals; no property of the divisor c is needed.
-/
import proofs.«428839_j88648124990070_3_alg».proof.Proof.Spec

noncomputable section

namespace GnnSpec

open Finset

/-- Column D + r·D + k of the stacked array is one of its 4·D columns. -/
theorem stack_lt {D : Nat} (r : Fin 3) (k : Fin D) : D + r.val * D + k.val < 4 * D := by
  have hr : r.val * D ≤ 2 * D := Nat.mul_le_mul_right D (by have := r.isLt; omega)
  have := k.isLt
  omega

/-- A column D + r·D + k' with r < 3, k' < D is past the first D, and its quotient and remainder by D are r and k'. -/
private theorem stack_div_mod {D : Nat} (r : Fin 3) (k' : Fin D) (c : Nat) (hc : c = D + r.val * D + k'.val) :
    ¬ c < D ∧ (c - D) / D = r.val ∧ (c - D) % D = k'.val := by
  have hD : 0 < D := Nat.lt_of_le_of_lt (Nat.zero_le _) k'.isLt
  have hsub : c - D = k'.val + r.val * D := by omega
  refine ⟨by omega, ?_, ?_⟩
  · rw [hsub, Nat.add_mul_div_right _ _ hD, Nat.div_eq_of_lt k'.isLt, Nat.zero_add]
  · rw [hsub, Nat.add_mul_mod_self_right, Nat.mod_eq_of_lt k'.isLt]

/-- The first D columns of the stacked features are the node's own. -/
theorem comb_lt {N E D : Nat} (src dst : Fin E → Fin N) (et : Fin E → Fin 3) (h : Fin N → Fin D → ℝ)
    (n : Fin N) (k : Fin (4 * D)) (hk : k.val < D) : comb src dst et h n k = h n ⟨k.val, hk⟩ := by
  unfold comb
  rw [dif_pos hk]

/-- Column D + r·D + k' of the stacked features is the relation-r mean of the neighbours' feature k'. -/
theorem comb_ge {N E D : Nat} (src dst : Fin E → Fin N) (et : Fin E → Fin 3) (h : Fin N → Fin D → ℝ)
    (n : Fin N) (k : Fin (4 * D)) (r : Fin 3) (k' : Fin D) (hk : k.val = D + r.val * D + k'.val) :
    comb src dst et h n k = nagg src dst et h n r k' := by
  obtain ⟨h1, h2, h3⟩ := stack_div_mod r k' k.val hk
  unfold comb
  rw [dif_neg h1]
  exact congrArg₂ (fun a c => nagg src dst et h n a c) (Fin.ext h2) (Fin.ext h3)

/-- The first D rows of the stacked matrix are the root matrix. -/
theorem combW_lt {D J : Nat} (W : Fin 3 → Fin D → Fin J → ℝ) (root : Fin D → Fin J → ℝ) (k : Fin (4 * D)) (j : Fin J)
    (hk : k.val < D) : combW W root k j = root ⟨k.val, hk⟩ j := by
  unfold combW
  rw [dif_pos hk]

/-- Row D + r·D + k' of the stacked matrix is row k' of the relation-r matrix. -/
theorem combW_ge {D J : Nat} (W : Fin 3 → Fin D → Fin J → ℝ) (root : Fin D → Fin J → ℝ) (k : Fin (4 * D)) (j : Fin J)
    (r : Fin 3) (k' : Fin D) (hk : k.val = D + r.val * D + k'.val) : combW W root k j = W r k' j := by
  obtain ⟨h1, h2, h3⟩ := stack_div_mod r k' k.val hk
  unfold combW
  rw [dif_neg h1]
  exact congrArg₂ (fun a c => W a c j) (Fin.ext h2) (Fin.ext h3)

/-- A sum over the first 4·D numbers splits into the first D and three further runs of D. -/
private theorem sum_range_four_mul (g : ℕ → ℝ) (D : Nat) :
    ∑ i ∈ range (4 * D), g i = ∑ k ∈ range D, g k + ∑ r ∈ range 3, ∑ k ∈ range D, g (D + r * D + k) := by
  have h4 : 4 * D = D + (D + (D + D)) := by omega
  rw [h4, sum_range_add, sum_range_add, sum_range_add]
  rw [sum_range_succ, sum_range_succ, sum_range_succ, sum_range_zero, zero_add]
  congr 1
  have e0 : ∀ x, D + 0 * D + x = D + x := by intro x; omega
  have e1 : ∀ x, D + 1 * D + x = D + (D + x) := by intro x; omega
  have e2 : ∀ x, D + 2 * D + x = D + (D + (D + x)) := by intro x; omega
  simp only [e0, e1, e2]
  rw [add_assoc]

/-- A sum over 4·D stacked columns splits into the first D columns and, for each of three blocks r and each k < D,
    column D + r·D + k. -/
theorem sum_fin_four_mul {D : Nat} (f : Fin (4 * D) → ℝ) :
    ∑ c, f c = ∑ k : Fin D, f ⟨k.val, by have := k.isLt; omega⟩
      + ∑ r : Fin 3, ∑ k : Fin D, f ⟨D + r.val * D + k.val, stack_lt r k⟩ := by
  -- extend f by zero to all numbers, so that the three sums can be read as sums over ranges
  let g : ℕ → ℝ := fun i => if hi : i < 4 * D then f ⟨i, hi⟩ else 0
  have hg : ∀ (i : ℕ) (hi : i < 4 * D), f ⟨i, hi⟩ = g i := by
    intro i hi
    show f ⟨i, hi⟩ = if hi : i < 4 * D then f ⟨i, hi⟩ else 0
    rw [dif_pos hi]
  have hL : ∑ c, f c = ∑ i ∈ range (4 * D), g i := by
    rw [← Fin.sum_univ_eq_sum_range g (4 * D)]
    exact Finset.sum_congr rfl fun c _ => hg c.val c.isLt
  have hA : ∑ k : Fin D, f ⟨k.val, by have := k.isLt; omega⟩ = ∑ k ∈ range D, g k := by
    rw [← Fin.sum_univ_eq_sum_range g D]
    exact Finset.sum_congr rfl fun k _ => hg k.val _
  have hB : ∑ r : Fin 3, ∑ k : Fin D, f ⟨D + r.val * D + k.val, stack_lt r k⟩
      = ∑ r ∈ range 3, ∑ k ∈ range D, g (D + r * D + k) := by
    rw [← Fin.sum_univ_eq_sum_range (fun r => ∑ k ∈ range D, g (D + r * D + k)) 3]
    refine Finset.sum_congr rfl fun r _ => ?_
    rw [← Fin.sum_univ_eq_sum_range (fun k => g (D + r.val * D + k)) D]
    exact Finset.sum_congr rfl fun k _ => hg _ _
  rw [hL, hA, hB, sum_range_four_mul]

/-- A mean followed by a linear map is the linear map followed by the mean. -/
theorem mean_linear {ι : Type} {D : Nat} (S : Finset ι) (a : ι → Fin D → ℝ) (w : Fin D → ℝ) (c : ℝ) :
    ∑ k, (∑ e ∈ S, a e k) / c * w k = (∑ e ∈ S, ∑ k, a e k * w k) / c := by
  rw [Finset.sum_comm, Finset.sum_div]
  refine Finset.sum_congr rfl fun k _ => ?_
  rw [div_mul_eq_mul_div, Finset.sum_mul]

/-- The stacked arrangement of a relational graph layer is the layer. -/
theorem dense_comb {N E D J : Nat} (src dst : Fin E → Fin N) (et : Fin E → Fin 3) (h : Fin N → Fin D → ℝ)
    (W : Fin 3 → Fin D → Fin J → ℝ) (root : Fin D → Fin J → ℝ) (b : Fin J → ℝ) (n : Fin N) (j : Fin J) :
    dense (comb src dst et h) (combW W root) b n j = layer src dst et h W root b n j := by
  have hsplit : ∑ c, comb src dst et h n c * combW W root c j
      = ∑ k, h n k * root k j
        + ∑ r, (∑ e ∈ edges dst et n r, ∑ k, h (src e) k * W r k j) / cnt1 (edges dst et n r) := by
    rw [sum_fin_four_mul]
    congr 1
    · refine Finset.sum_congr rfl fun k _ => ?_
      rw [comb_lt src dst et h n _ k.isLt, combW_lt W root _ j k.isLt]
    · refine Finset.sum_congr rfl fun r _ => ?_
      rw [← mean_linear]
      refine Finset.sum_congr rfl fun k _ => ?_
      rw [comb_ge src dst et h n _ r k rfl, combW_ge W root _ j r k rfl]
      rfl
  unfold dense layer
  rw [hsplit, add_right_comm]

end GnnSpec

end
-- ==== Proof.LibGather2.lean ====
/-
  Two readings of stablehlo.gather at an index, for any extents.

  `gather_rows`: whole rows of a rank-2 table [N, C] taken at an [E, 1] column of start ids (what `table[ids]` lowers
  to): entry (e, c) of the result is the table at row clamp(ids e) and column c, where the id is read as a signed
  word and clamped into [0, N − 1].
  `gather_pairs`: single entries of a rank-2 table [N, R] taken at an [E, 2] matrix of (row, column) ids (what
  `table[i, j]` lowers to): entry e of the result is the table at (clamp(i e), clamp(j e)), each id clamped into
  its own axis.
-/
import Idealize.ShloMosaic.PureOps.ShapeOps
import Idealize.ShloMosaic.PureOps.Dims
import Idealize.ShloMosaic.Lib.ValueIdx

namespace IndexOpsLib

open Idealize.ShloMosaic Idealize.ShloMosaic.ValueIdx

/-- A start id read signed and clamped into [0, N − 1]. -/
def clampRow (N : Nat) (hN : 0 < N) {w : Nat} (v : BitVec w) : Fin N := ⟨min v.toInt.toNat (N - 1), by omega⟩

theorem gather_rows {α : Type} {N C E w : Nat} (hN : 0 < N)
    (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (c : Fin C) :
    Host.gather d x idx (ix2 e c) = x (ix2 (clampRow N hN (idx (ix2 e (0 : Fin 1)))) c) := by
  -- a batch axis of the result is not its offset axis 1, so it is axis 0, where the index holds e
  have hbatch : ∀ X : Fin 2, X ∈ d.batchDims → ((ix2 e c : (⟨2, ![E, C]⟩ : Shape).Idx) X).val = e.val := by
    intro X hX
    have hX' : X ∉ d.offsetDims := by
      have := (List.mem_filter.1 hX).2
      simpa using this
    rw [hoff] at hX'
    match X with
    | ⟨0, _⟩ => rfl
    | ⟨1, _⟩ => exact absurd (List.mem_singleton.mpr rfl) hX'
  -- an offset axis of the result is axis 1, where the index holds c
  have hoffs : ∀ X : Fin 2, X ∈ d.offsetDims → ((ix2 e c : (⟨2, ![E, C]⟩ : Shape).Idx) X).val = c.val := by
    intro X hX
    rw [hoff] at hX
    have hX1 : X = 1 := List.mem_singleton.mp hX
    subst hX1; rfl
  have hb : ∀ a : Fin 2, a ∉ d.operandBatchingDims := fun a => by rw [hob]; exact List.not_mem_nil
  -- operand axis 0: collapsed and start-indexed, the clamped id
  have h0 : (d.operandIdx (ix2 e c) idx (0 : Fin 2)).val = (clampRow N hN (idx (ix2 e (0 : Fin 1)))).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix2 e 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact hbatch _ (List.getElem_mem _)
    | ⟨1, _⟩ =>
      unfold GatherDims.siIdx
      rw [dif_pos (by rw [hivd])]
      apply Fin.ext
      show List.idxOf (0 : Fin 2) d.startIndexMap = 0
      rw [hsim]; simp
  -- operand axis 1: an offset axis with no start index, the result's column
  have h1 : (d.operandIdx (ix2 e c) idx (1 : Fin 2)).val = c.val := by
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb 1), GatherDims.start, dif_neg hm,
      GatherDims.offCoord, dif_pos hk, Nat.add_zero, Nat.zero_add]
    exact hoffs _ (List.getElem_mem _)
  unfold Host.gather
  congr 1
  funext a
  match a with
  | ⟨0, _⟩ => exact Fin.ext h0
  | ⟨1, _⟩ => exact Fin.ext h1

theorem gather_pairs {α : Type} {N R E w : Nat} (hN : 0 < N) (hR : 0 < R)
    (d : GatherDims ⟨2, ![N, R]⟩ ⟨2, ![E, 2]⟩ ⟨1, ![E]⟩)
    (hoff : d.offsetDims = []) (hcoll : d.collapsedSliceDims = [0, 1]) (hob : d.operandBatchingDims = [])
    (hsim : d.startIndexMap = [0, 1]) (hivd : d.indexVectorDim = 1)
    (x : (⟨2, ![N, R]⟩ : Shape).Idx → α) (idx : IVec ⟨2, ![E, 2]⟩ w) (e : Fin E) :
    Host.gather d x idx (ix1 e)
      = x (ix2 (clampRow N hN (idx (ix2 e (0 : Fin 2)))) (clampRow R hR (idx (ix2 e (1 : Fin 2))))) := by
  -- the result's one axis holds e
  have hj : ∀ X : Fin 1, ((ix1 e : (⟨1, ![E]⟩ : Shape).Idx) X).val = e.val := fun X => by
    have hX : X = 0 := Subsingleton.elim _ _
    subst hX; rfl
  have hb : ∀ a : Fin 2, a ∉ d.operandBatchingDims := fun a => by rw [hob]; exact List.not_mem_nil
  -- both operand axes are collapsed, so neither is kept
  have hc : ∀ a : Fin 2, a ∈ d.collapsedSliceDims := fun a => by
    rw [hcoll]
    match a with
    | ⟨0, _⟩ => exact List.mem_cons_self
    | ⟨1, _⟩ => exact List.mem_cons_of_mem _ (List.mem_singleton.mpr rfl)
  have hk : ∀ a : Fin 2, a ∉ d.sKept := fun a h => ((d.mem_sKept a).1 h).1 (hc a)
  have hsl : ∀ a : Fin 2, d.sliceSizes a = 1 := fun a => d.slice_collapsed a (hc a)
  -- component k of the start index of result entry e is read at (e, k)
  have hsi : ∀ (n : Nat) (hn : n < d.startIndexMap.length) (k : Fin 2), n = k.val →
      d.siIdx (ix1 e) ⟨n, hn⟩ = ix2 e k := by
    intro n hn k hnk
    funext b
    match b with
    | ⟨0, _⟩ =>
      unfold GatherDims.siIdx
      rw [dif_neg (by rw [hivd]; simp)]
      unfold GatherDims.siCoord
      apply Fin.ext
      simp only [Fin.val_cast]
      exact hj _
    | ⟨1, _⟩ =>
      unfold GatherDims.siIdx
      rw [dif_pos (by rw [hivd])]
      apply Fin.ext
      exact hnk
  -- operand axis 0: the clamped row id
  have h0 : (d.operandIdx (ix1 e) idx (0 : Fin 2)).val = (clampRow N hN (idx (ix2 e (0 : Fin 2)))).val := by
    have hm : (0 : Fin 2) ∈ d.startIndexMap := by rw [hsim]; exact List.mem_cons_self
    have hi : List.idxOf (0 : Fin 2) d.startIndexMap = (0 : Fin 2).val := by rw [hsim]; simp
    simp only [GatherDims.operandIdx, GatherDims.batchCoord_eq_zero _ _ _ (hb 0), GatherDims.offCoord_eq_zero _ _ _ (hk 0),
      Nat.add_zero, GatherDims.start, dif_pos hm]
    show min (idx _).toInt.toNat (N - d.sliceSizes 0) = min (idx (ix2 e 0)).toInt.toNat (N - 1)
    rw [hsl 0, hsi _ _ 0 hi]
  -- operand axis 1: the clamped column id
  have h1 : (d.operandIdx (ix1 e) idx (1 : Fin 2)).val = (clampRow R hR (idx (ix2 e (1 : Fin 2)))).val := by
    have hm : (1 : Fin 2) ∈ d.startIndexMap := by rw [hsim]; exact List.mem_cons_of_mem _ (List.mem_singleton.mpr rfl)
    have hi : List.idxOf (1 : Fin 2) d.startIndexMap = (1 : Fin 2).val := by rw [hsim]; simp
    simp only [GatherDims.operandIdx, GatherDims.batchCoord_eq_zero _ _ _ (hb 1), GatherDims.offCoord_eq_zero _ _ _ (hk 1),
      Nat.add_zero, GatherDims.start, dif_pos hm]
    show min (idx _).toInt.toNat (R - d.sliceSizes 1) = min (idx (ix2 e 1)).toInt.toNat (R - 1)
    rw [hsl 1, hsi _ _ 1 hi]
  unfold Host.gather
  congr 1
  funext a
  match a with
  | ⟨0, _⟩ => exact Fin.ext h0
  | ⟨1, _⟩ => exact Fin.ext h1

end IndexOpsLib
-- ==== Proof.Decode.lean ====
/-
  The integer inputs read as indices.

  A node label is one of sixteen table rows; an edge's source is a node (a negative id wraps once by the node count,
  then the id is clamped into range, as a row lookup does); an edge's destination is a node and its relation one of
  three; a node's graph id is a signed number. Each reading is total; where an input is in its range the reading is
  the input itself (`*_val`).
-/
import proofs.«428839_j88648124990070_3_alg».proof.Proof.LibGather2
import Idealize.ShloMosaic.Lib.ValueIdx

namespace GnnDecode

open Idealize.ShloMosaic Idealize.ShloMosaic.ValueIdx

/-- A negative id wraps once by the axis length `N`; any other id is itself. -/
def wrapNeg (N v : BitVec 32) : BitVec 32 := if v.slt 0#32 then v + N else v

/-- The row a lookup with id `v` reads in a table of `N` rows: wrap a negative id once, then clamp into [0, N − 1]. -/
def rowOf (N : Nat) (hN : 0 < N) (v : BitVec 32) : Fin N := IndexOpsLib.clampRow N hN (wrapNeg (BitVec.ofNat 32 N) v)

/-- A signed word read as an index below `N` (reduced modulo `N` so that the reading is total). -/
def idxOf (N : Nat) (hN : 0 < N) (v : BitVec 32) : Fin N := ⟨v.toInt.toNat % N, Nat.mod_lt _ hN⟩

theorem idxOf_val (N : Nat) (hN : 0 < N) (v : BitVec 32) (h0 : 0 ≤ v.toInt) (h1 : v.toInt < N) :
    v.toInt = ((idxOf N hN v).val : ℤ) := by
  have h2 : v.toInt.toNat < N := by omega
  simp only [idxOf, Nat.mod_eq_of_lt h2]
  omega

theorem wrapNeg_of_nonneg (N v : BitVec 32) (h0 : 0 ≤ v.toInt) : wrapNeg N v = v := by
  unfold wrapNeg
  rw [if_neg]
  rw [BitVec.slt_iff_toInt_lt]
  simp only [BitVec.toInt_zero]
  omega

/-- Where the id is already in range the lookup reads row `id`. -/
theorem rowOf_val (N : Nat) (hN : 0 < N) (v : BitVec 32) (h0 : 0 ≤ v.toInt) (h1 : v.toInt < N) :
    rowOf N hN v = idxOf N hN v := by
  apply Fin.ext
  simp only [rowOf, IndexOpsLib.clampRow, wrapNeg_of_nonneg _ v h0, idxOf]
  have h2 : v.toInt.toNat < N := by omega
  rw [Nat.mod_eq_of_lt h2]
  omega

end GnnDecode
-- ==== Proof.KHostLayer.lean ====
/-
  The host arithmetic that prepares a relational graph layer's stacked operand.

  Before each of the two graph layers' dense stages the host computes, from the node features h[N, D], the two rows
  src, dst of the edge list and the relation ids et (N = 100000 nodes, E = 1200000 edges, three relations):

    id[e]         = src[e] + N  if src[e] < 0,  else src[e]               (a negative id wraps once)
    g[e, ·]       = h[clamp(id[e]), ·]                                    (the source's row; the id clamped into [0, N − 1])
    seg[e]        = 3 · dst[e] + et[e]                                    (on 32-bit words; below 2³¹, nothing wraps)
    agg[s, c]     = 0 + ∑ { g[e, c] : seg[e] = s }                        (s < 3 · N)
    cnt[s]        = 0 + ∑ { 1 : seg[e] = s }
    nagg[n, r, c] = agg[3n + r, c] / max (cnt[3n + r]) 1
    comb[n, ·]    = h[n, ·] ++ nagg[n, 0, ·] ++ nagg[n, 1, ·] ++ nagg[n, 2, ·]          (4 · D columns)

  With 0 ≤ dst < N and 0 ≤ et < 3 the number 3 · dst + et determines both, so the edges of segment 3n + r are the edges
  into node n of relation r; a sum of ones over a finite set is its size; the divisor is a real that is at least one,
  so the quotient taken in the extended reals is the quotient of the reals. Hence comb is `GnnSpec.comb`, for ANY
  contents of the buffers at the start of the stretch whose feature array holds the reals h and whose integer arrays
  read as src, dst and et.

  The composed array is read entry by entry: a column, a copy along an axis, a regrouping of rows, a flattening and a
  side-by-side placement each name, at an index of the result, the index of the operand they read. Every statement
  below the two last is generic in the feature width D; the two stretches are D = 32 and D = 64.
-/
import proofs.«428839_j88648124990070_3_alg».proof.Proof.Gen.KernelIdeal.Frame
import proofs.«428839_j88648124990070_3_alg».proof.Proof.Spec
import proofs.«428839_j88648124990070_3_alg».proof.Proof.SpecLaw
import proofs.«428839_j88648124990070_3_alg».proof.Proof.LibCoe
import proofs.«428839_j88648124990070_3_alg».proof.Proof.LibGather2
import proofs.«428839_j88648124990070_3_alg».proof.Proof.LibScatter
import proofs.«428839_j88648124990070_3_alg».proof.Proof.Decode
import Idealize.ShloMosaic.Lib.StableHlo.Run
import Idealize.ShloMosaic.Lib.ValueIdx
import Idealize.ShloMosaic.Lib.IdealHost
import Idealize.ShloMosaic.Lib.WordArith
import Idealize.ShloMosaic.Lib.Pipeline.Value

set_option maxRecDepth 16384

noncomputable section

namespace Cert.KernelIdeal.KV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

/-! ## Words -/

/-- The printed wrap of a negative id, select (v < 0) (v + N) v, is the wrap of the id. -/
theorem hl_select_slt_zero_eq_wrapNeg (N v : BitVec 32) :
    Scalar.select (IntOp.cmpi .slt v 0#32) (IntOp.addi v N) v = GnnDecode.wrapNeg N v := by
  show (if BitVec.ofBool (v.slt 0#32) = 1 then v + N else v) = if v.slt 0#32 then v + N else v
  cases v.slt 0#32 <;> rfl

/-- The segment id 3·d + t of an edge into node d < 100000 of relation t < 3, computed on 32-bit words and read
    signed, is the number 3·d + t: neither the product nor the sum leaves the signed range. -/
theorem hl_seg_toInt (dw tw : BitVec 32) (d : Fin 100000) (t : Fin 3) (hd : dw.toInt = (d.val : ℤ))
    (ht : tw.toInt = (t.val : ℤ)) :
    (IntOp.addi (IntOp.muli dw 3#32) tw).toInt = ((3 * d.val + t.val : ℕ) : ℤ) := by
  have h3 : (3#32 : BitVec 32).toInt = 3 := by decide
  have hd' := d.isLt
  have ht' := t.isLt
  have hm : (dw * 3#32).toInt = dw.toInt * 3 := by
    rw [WordArith.toInt_mul_of_bounds _ _ (by rw [h3, hd]; omega) (by rw [h3, hd]; omega), h3]
  show (dw * 3#32 + tw).toInt = _
  rw [WordArith.toInt_add_of_bounds _ _ (by rw [hm, hd, ht]; omega) (by rw [hm, hd, ht]; omega), hm, hd, ht]
  push_cast
  ring

/-! ## Layout operations read at an index -/

section Layout
variable {α : Type}

/-- A vector laid as a column reads, at row e, its entry e. -/
theorem hl_bcast_col_apply (x : (⟨1, ![1200000]⟩ : Shape).Idx → α)
    (h : (⟨1, ![1200000]⟩ : Shape).BroadcastsInDim ⟨2, ![1200000, 1]⟩ ![0]) (e : Fin 1200000) (u : Fin 1) :
    broadcastInDim ⟨2, ![1200000, 1]⟩ ![0] h x (ix2 e u) = x (ix1 e) := by
  refine broadcastInDim_apply _ h x (ix2 e u) (ix1 e) ?_
  intro a
  match a with
  | ⟨0, _⟩ => rfl

/-- A [100000, 3, 1] array copied along a last axis of any length reads, at (n, r, c), its entry (n, r, 0). -/
theorem hl_bcast_last_apply {D : Nat} (x : (⟨3, ![100000, 3, 1]⟩ : Shape).Idx → α)
    (h : (⟨3, ![100000, 3, 1]⟩ : Shape).BroadcastsInDim ⟨3, ![100000, 3, D]⟩ ![0, 1, 2])
    (n : Fin 100000) (r : Fin 3) (c : Fin D) :
    broadcastInDim ⟨3, ![100000, 3, D]⟩ ![0, 1, 2] h x (ix3 n r c) = x (ix3 n r (0 : Fin 1)) := by
  refine broadcastInDim_apply _ h x (ix3 n r c) (ix3 n r (0 : Fin 1)) ?_
  intro a
  match a with
  | ⟨0, _⟩ => rfl
  | ⟨1, _⟩ => rfl
  | ⟨2, _⟩ => rfl

/-- Rows 3n + r of a [300000, D] table regrouped as [100000, 3, D]: entry (n, r, c) is entry (3n + r, c). -/
theorem hl_reshape_rows_apply {D : Nat} (x : (⟨2, ![300000, D]⟩ : Shape).Idx → α)
    (h : (⟨2, ![300000, D]⟩ : Shape).ShapeCasts ⟨3, ![100000, 3, D]⟩) (n : Fin 100000) (r : Fin 3) (c : Fin D) :
    shapeCast ⟨3, ![100000, 3, D]⟩ x h (ix3 n r c)
      = x (ix2 (⟨3 * n.val + r.val, by have := n.isLt; have := r.isLt; omega⟩ : Fin 300000) c) := by
  refine shapeCast_apply x h (ix3 n r c) _ ?_
  rw [Shape.rowMajor_val_two, Shape.rowMajor_val_three]
  show (3 * n.val + r.val) * D + c.val = (n.val * 3 + r.val) * D + c.val
  rw [Nat.mul_comm 3]

/-- A vector of 300000 entries regrouped as [100000, 3, 1]: entry (n, r, 0) is entry 3n + r. -/
theorem hl_reshape_vec_apply (x : (⟨1, ![300000]⟩ : Shape).Idx → α)
    (h : (⟨1, ![300000]⟩ : Shape).ShapeCasts ⟨3, ![100000, 3, 1]⟩) (n : Fin 100000) (r : Fin 3) (u : Fin 1) :
    shapeCast ⟨3, ![100000, 3, 1]⟩ x h (ix3 n r u)
      = x (ix1 (⟨3 * n.val + r.val, by have := n.isLt; have := r.isLt; omega⟩ : Fin 300000)) := by
  refine shapeCast_apply x h (ix3 n r u) _ ?_
  rw [Shape.rowMajor_val_one, Shape.rowMajor_val_three]
  show 3 * n.val + r.val = (n.val * 3 + r.val) * 1 + u.val
  have := u.isLt
  omega

/-- A [100000, 3, D] array flattened to [100000, 3·D]: entry (n, r·D + c) is entry (n, r, c). -/
theorem hl_reshape_flat_apply {D D3 : Nat} (hD3 : D3 = 3 * D) (x : (⟨3, ![100000, 3, D]⟩ : Shape).Idx → α)
    (h : (⟨3, ![100000, 3, D]⟩ : Shape).ShapeCasts ⟨2, ![100000, D3]⟩) (n : Fin 100000) (r : Fin 3) (c : Fin D)
    (q : Fin D3) (hq : q.val = r.val * D + c.val) :
    shapeCast ⟨2, ![100000, D3]⟩ x h (ix2 n q) = x (ix3 n r c) := by
  refine shapeCast_apply x h (ix2 n q) (ix3 n r c) ?_
  rw [Shape.rowMajor_val_two, Shape.rowMajor_val_three]
  show (n.val * 3 + r.val) * D + c.val = n.val * D3 + q.val
  rw [hq, hD3]
  ring

end Layout

/-! ## The edges of a segment -/

/-- The edges whose segment id is 3n + r are the edges into node n of relation r: 3·d + t with t < 3 determines both. -/
theorem hl_seg_filter {E : Nat} (dst : Fin E → Fin 100000) (et : Fin E → Fin 3) (seg : Fin E → ℤ)
    (hseg : ∀ e, seg e = ((3 * (dst e).val + (et e).val : ℕ) : ℤ)) (n : Fin 100000) (r : Fin 3) :
    Finset.univ.filter (fun e => seg e = ((3 * n.val + r.val : ℕ) : ℤ)) = GnnSpec.edges dst et n r := by
  unfold GnnSpec.edges
  refine Finset.filter_congr fun e _ => ?_
  rw [hseg e]
  have h1 := (et e).isLt
  have h2 := r.isLt
  constructor
  · intro h
    have h' : 3 * (dst e).val + (et e).val = 3 * n.val + r.val := by exact_mod_cast h
    exact ⟨Fin.ext (by omega), Fin.ext (by omega)⟩
  · rintro ⟨h3, h4⟩
    rw [h3, h4]

/-! ## Contents at a buffer's own type and at the value's type

A host operation's function is stated at the tensor types of its operands; the buffers carry the same types, looked
up in the signature. Moving a value to its buffer's type and back changes nothing, and a reshape between two typed
buffers of one element type is the reshape of the values. -/

section Typed
variable {sg : RefSig} {tp : Topo} {Val : EltTy → Type}

/-- A value moved to its buffer's type and back is the value. -/
theorem hl_ofBuf_toBuf {T : BufTy} (r : Ref sg .tc) (h : r.ty = T) (d : r.space ≠ .host) (u : r.isScoped = false)
    (v : T.Contents Val) :
    (⟨r, h, d, u⟩ : StableHlo.TRef sg T).ofBuf ((⟨r, h, d, u⟩ : StableHlo.TRef sg T).toBuf v) = v := by
  subst h
  rfl

/-- A reshape between typed buffers, for any two value types of equal element type: the result buffer holds the
    reshape of the operand's value, the element carried along the equation of the element types. -/
theorem hl_reshape_result_gen {Tx Ty : BufTy} (rx ry : Ref sg .tc) (hx : rx.ty = Tx) (dx : rx.space ≠ .host)
    (ux : rx.isScoped = false) (hy : ry.ty = Ty) (dy : ry.space ≠ .host) (uy : ry.isScoped = false)
    (he : Tx.elt = Ty.elt) (hn : Tx.shape.ShapeCasts Ty.shape) (F : Valuation tp sg Val) :
    (StableHlo.TRef.reshape (τ := tp) (Val := Val) (⟨rx, hx, dx, ux⟩ : StableHlo.TRef sg Tx) (⟨ry, hy, dy, uy⟩ : StableHlo.TRef sg Ty)
        he hn).result F (Proc.devRef .tc ry)
      = (⟨ry, hy, dy, uy⟩ : StableHlo.TRef sg Ty).toBuf
          (fun i => he ▸ shapeCast Ty.shape ((⟨rx, hx, dx, ux⟩ : StableHlo.TRef sg Tx).ofBuf (F (Proc.devRef .tc rx))) hn i) := by
  subst hx hy
  exact StableHlo.reshape_result _ _ _ _ _ _ F

/-- The same at one element type: no transport is left. -/
theorem hl_reshape_result {sx sy : Shape} {e : EltTy} (rx ry : Ref sg .tc) (hx : rx.ty = ⟨sx, e⟩) (dx : rx.space ≠ .host)
    (ux : rx.isScoped = false) (hy : ry.ty = ⟨sy, e⟩) (dy : ry.space ≠ .host) (uy : ry.isScoped = false)
    (he : (⟨sx, e⟩ : BufTy).elt = (⟨sy, e⟩ : BufTy).elt) (hn : sx.ShapeCasts sy) (F : Valuation tp sg Val) :
    (StableHlo.TRef.reshape (τ := tp) (Val := Val) (⟨rx, hx, dx, ux⟩ : StableHlo.TRef sg ⟨sx, e⟩)
        (⟨ry, hy, dy, uy⟩ : StableHlo.TRef sg ⟨sy, e⟩) he hn).result F (no_index (Proc.devRef .tc ry))
      = (⟨ry, hy, dy, uy⟩ : StableHlo.TRef sg ⟨sy, e⟩).toBuf
          (shapeCast sy ((⟨rx, hx, dx, ux⟩ : StableHlo.TRef sg ⟨sx, e⟩).ofBuf (F (Proc.devRef .tc rx))) hn) :=
  hl_reshape_result_gen rx ry hx dx ux hy dy uy he hn F

end Typed

/-- The buffers' contents after a line of host operations: each operation's result at its own buffer is its function of
    its operands' contents and at any other buffer what was there; a value moved to a buffer's type and read back at the
    value's type is the value, so that the composed array is a term over the operations themselves. -/
macro "hl_results" : tactic =>
  `(tactic| (simp (disch := decide) only [StableHlo.after_cons, StableHlo.after_nil,
      StableHlo.nullary_result', StableHlo.unary_result', StableHlo.binary_result', StableHlo.ternary_result', hl_reshape_result,
      StableHlo.nullary_result_ne', StableHlo.unary_result_ne', StableHlo.binary_result_ne', StableHlo.ternary_result_ne',
      StableHlo.reshape_result_ne', hl_ofBuf_toBuf]))

/-! ## The operands of a graph layer, read entry by entry

The arrays below are stated over variables of the literal vector types, for any feature width D: the edge list has
1200000 edges, the graph 100000 nodes, and a segment is a (node, relation) pair, numbered 3·node + relation. -/

section Reads

variable (b0 : (⟨0, ![]⟩ : Shape).BroadcastsInDim ⟨1, ![1200000]⟩ ![])
  (b1 : (⟨1, ![1200000]⟩ : Shape).BroadcastsInDim ⟨2, ![1200000, 1]⟩ ![0])

/-- The column of source ids, each negative id wrapped once by N: row e holds the wrap of id e. -/
theorem hl_idcol_apply (N : BitVec 32) (v : IVec ⟨1, ![1200000]⟩ 32) (e : Fin 1200000) (u : Fin 1) :
    broadcastInDim ⟨2, ![1200000, 1]⟩ ![0] b1
        (select (cmpi .slt v (broadcastInDim ⟨1, ![1200000]⟩ ![] b0 (constantI ⟨0, ![]⟩ 32 0#32)))
          (addi v (broadcastInDim ⟨1, ![1200000]⟩ ![] b0 (constantI ⟨0, ![]⟩ 32 N))) v) (ix2 e u)
      = GnnDecode.wrapNeg N (v (ix1 e)) := by
  rw [hl_bcast_col_apply]
  show Scalar.select (IntOp.cmpi .slt (v (ix1 e)) (broadcastInDim ⟨1, ![1200000]⟩ ![] b0 (constantI ⟨0, ![]⟩ 32 0#32) (ix1 e)))
      (IntOp.addi (v (ix1 e)) (broadcastInDim ⟨1, ![1200000]⟩ ![] b0 (constantI ⟨0, ![]⟩ 32 N) (ix1 e))) (v (ix1 e)) = _
  rw [broadcastInDim_scalar_apply, broadcastInDim_scalar_apply]
  exact hl_select_slt_zero_eq_wrapNeg N _

/-- The column of segment ids 3·dst + relation: row e, read signed, is the number 3·dst e + et e. -/
theorem hl_segcol_toInt (dv tv : IVec ⟨1, ![1200000]⟩ 32) (dst : Fin 1200000 → Fin 100000) (et : Fin 1200000 → Fin 3)
    (hdst : ∀ e, (dv (ix1 e)).toInt = ((dst e).val : ℤ)) (het : ∀ e, (tv (ix1 e)).toInt = ((et e).val : ℤ))
    (e : Fin 1200000) (u : Fin 1) :
    (broadcastInDim ⟨2, ![1200000, 1]⟩ ![0] b1
        (addi (muli dv (broadcastInDim ⟨1, ![1200000]⟩ ![] b0 (constantI ⟨0, ![]⟩ 32 3#32))) tv) (ix2 e u)).toInt
      = ((3 * (dst e).val + (et e).val : ℕ) : ℤ) := by
  rw [hl_bcast_col_apply]
  show (IntOp.addi (IntOp.muli (dv (ix1 e)) (broadcastInDim ⟨1, ![1200000]⟩ ![] b0 (constantI ⟨0, ![]⟩ 32 3#32) (ix1 e)))
      (tv (ix1 e))).toInt = _
  rw [broadcastInDim_scalar_apply]
  exact hl_seg_toInt _ _ (dst e) (et e) (hdst e) (het e)

variable {D : Nat}
  (gd : GatherDims ⟨2, ![100000, D]⟩ ⟨2, ![1200000, 1]⟩ ⟨2, ![1200000, D]⟩)
  (hg1 : gd.offsetDims = [1]) (hg2 : gd.collapsedSliceDims = [0]) (hg3 : gd.operandBatchingDims = [])
  (hg4 : gd.startIndexMap = [0]) (hg5 : gd.indexVectorDim = 1)
  (hV : (⟨2, ![100000, D]⟩ : Shape).Idx → EReal) (sv dv tv : IVec ⟨1, ![1200000]⟩ 32)
  (h : Fin 100000 → Fin D → ℝ) (src dst : Fin 1200000 → Fin 100000) (et : Fin 1200000 → Fin 3)
  (hh : ∀ n k, hV (ix2 n k) = ((h n k : ℝ) : EReal))
  (hsrc : ∀ e, GnnDecode.rowOf 100000 (by norm_num) (sv (ix1 e)) = src e)
  (hdst : ∀ e, (dv (ix1 e)).toInt = ((dst e).val : ℤ)) (het : ∀ e, (tv (ix1 e)).toInt = ((et e).val : ℤ))

include hg1 hg2 hg3 hg4 hg5 hh hsrc in
/-- The gathered rows: row e is the features of edge e's source node. -/
theorem hl_gathered_apply (e : Fin 1200000) (c : Fin D) :
    Host.gather gd hV (broadcastInDim ⟨2, ![1200000, 1]⟩ ![0] b1
        (select (cmpi .slt sv (broadcastInDim ⟨1, ![1200000]⟩ ![] b0 (constantI ⟨0, ![]⟩ 32 0#32)))
          (addi sv (broadcastInDim ⟨1, ![1200000]⟩ ![] b0 (constantI ⟨0, ![]⟩ 32 100000#32))) sv)) (ix2 e c)
      = ((h (src e) c : ℝ) : EReal) := by
  have hs := hsrc e
  unfold GnnDecode.rowOf at hs
  rw [IndexOpsLib.gather_rows (by norm_num : 0 < 100000) gd hg1 hg2 hg3 hg4 hg5, hl_idcol_apply, hs, hh]

end Reads

/-! ## The sums over a segment, and the mean -/

section Segments

variable (b0 : (⟨0, ![]⟩ : Shape).BroadcastsInDim ⟨1, ![1200000]⟩ ![])
  (b1 : (⟨1, ![1200000]⟩ : Shape).BroadcastsInDim ⟨2, ![1200000, 1]⟩ ![0])
  {D : Nat}
  (gd : GatherDims ⟨2, ![100000, D]⟩ ⟨2, ![1200000, 1]⟩ ⟨2, ![1200000, D]⟩)
  (hg1 : gd.offsetDims = [1]) (hg2 : gd.collapsedSliceDims = [0]) (hg3 : gd.operandBatchingDims = [])
  (hg4 : gd.startIndexMap = [0]) (hg5 : gd.indexVectorDim = 1)
  (sd : ScatterDims ⟨2, ![300000, D]⟩ ⟨2, ![1200000, 1]⟩ ⟨2, ![1200000, D]⟩)
  (hs1 : sd.updateWindowDims = [1]) (hs2 : sd.insertedWindowDims = [0]) (hs3 : sd.scatterDimsToOperandDims = [0])
  (hs4 : sd.indexVectorDim = 1)
  (sc : ScatterDims ⟨1, ![300000]⟩ ⟨2, ![1200000, 1]⟩ ⟨1, ![1200000]⟩)
  (hc1 : sc.updateWindowDims = []) (hc2 : sc.insertedWindowDims = [0]) (hc3 : sc.scatterDimsToOperandDims = [0])
  (hc4 : sc.indexVectorDim = 1)
  (bz : (⟨0, ![]⟩ : Shape).BroadcastsInDim ⟨2, ![300000, D]⟩ ![])
  (bzv : (⟨0, ![]⟩ : Shape).BroadcastsInDim ⟨1, ![300000]⟩ ![])
  (b31 : (⟨0, ![]⟩ : Shape).BroadcastsInDim ⟨3, ![100000, 3, 1]⟩ ![])
  (bl : (⟨3, ![100000, 3, 1]⟩ : Shape).BroadcastsInDim ⟨3, ![100000, 3, D]⟩ ![0, 1, 2])
  (c1 : (⟨2, ![300000, D]⟩ : Shape).ShapeCasts ⟨3, ![100000, 3, D]⟩)
  (c2 : (⟨1, ![300000]⟩ : Shape).ShapeCasts ⟨3, ![100000, 3, 1]⟩)
  (hV : (⟨2, ![100000, D]⟩ : Shape).Idx → EReal) (srcV dstV etV : IVec ⟨1, ![1200000]⟩ 32)
  (h : Fin 100000 → Fin D → ℝ) (src dst : Fin 1200000 → Fin 100000) (et : Fin 1200000 → Fin 3)
  (hh : ∀ n k, hV (ix2 n k) = ((h n k : ℝ) : EReal))
  (hsrc : ∀ e, GnnDecode.rowOf 100000 (by norm_num) (srcV (ix1 e)) = src e)
  (hdst : ∀ e, (dstV (ix1 e)).toInt = ((dst e).val : ℤ)) (het : ∀ e, (etV (ix1 e)).toInt = ((et e).val : ℤ))

include hg1 hg2 hg3 hg4 hg5 hs1 hs2 hs3 hs4 hh hsrc hdst het in
/-- The gathered rows summed into their segments from zero, regrouped by node and relation: entry (n, r, c) is the
    sum, over the edges into n of relation r, of the source's feature c. -/
theorem hl_agg_apply (n : Fin 100000) (r : Fin 3) (c : Fin D) :
    shapeCast ⟨3, ![100000, 3, D]⟩
      (Host.scatterAdd (F := Ideal) (φ := .f32) sd
        (broadcastInDim ⟨2, ![300000, D]⟩ ![] bz (constant (F := Ideal) ⟨0, ![]⟩ .f32 0x00000000#32))
        (broadcastInDim ⟨2, ![1200000, 1]⟩ ![0] b1
          (addi (muli dstV (broadcastInDim ⟨1, ![1200000]⟩ ![] b0 (constantI ⟨0, ![]⟩ 32 3#32))) etV))
        (Host.gather gd hV (broadcastInDim ⟨2, ![1200000, 1]⟩ ![0] b1
          (select (cmpi .slt srcV (broadcastInDim ⟨1, ![1200000]⟩ ![] b0 (constantI ⟨0, ![]⟩ 32 0#32)))
            (addi srcV (broadcastInDim ⟨1, ![1200000]⟩ ![] b0 (constantI ⟨0, ![]⟩ 32 100000#32))) srcV))))
      c1 (ix3 n r c)
    = ((∑ e ∈ GnnSpec.edges dst et n r, h (src e) c : ℝ) : EReal) := by
  rw [hl_reshape_rows_apply, IndexOpsLib.scatterAdd_ideal, IndexOpsLib.scatterAdd_rows sd hs1 hs2 hs3 hs4,
    broadcastInDim_scalar_apply, constant_apply, Ideal.ofBits_zero_f32, zero_add]
  refine (Finset.sum_congr
    (hl_seg_filter dst et _ (fun e => hl_segcol_toInt b0 b1 dstV etV dst et hdst het e (0 : Fin 1)) n r)
    (fun e _ => hl_gathered_apply b0 b1 gd hg1 hg2 hg3 hg4 hg5 hV srcV h src hh hsrc e c)).trans (CoeLib.coe_sum _ _)

include hc1 hc2 hc3 hc4 hdst het in
/-- Ones summed into the segments from zero, regrouped by node and relation: entry (n, r, 0) is the number of
    edges into n of relation r. -/
theorem hl_cnt_apply (n : Fin 100000) (r : Fin 3) (u : Fin 1) :
    shapeCast ⟨3, ![100000, 3, 1]⟩
      (Host.scatterAdd (F := Ideal) (φ := .f32) sc
        (broadcastInDim ⟨1, ![300000]⟩ ![] bzv (constant (F := Ideal) ⟨0, ![]⟩ .f32 0x00000000#32))
        (broadcastInDim ⟨2, ![1200000, 1]⟩ ![0] b1
          (addi (muli dstV (broadcastInDim ⟨1, ![1200000]⟩ ![] b0 (constantI ⟨0, ![]⟩ 32 3#32))) etV))
        (broadcastInDim ⟨1, ![1200000]⟩ ![] b0 (constant (F := Ideal) ⟨0, ![]⟩ .f32 0x3F800000#32)))
      c2 (ix3 n r u)
    = (((GnnSpec.edges dst et n r).card : ℝ) : EReal) := by
  rw [hl_reshape_vec_apply, IndexOpsLib.scatterAdd_ideal, IndexOpsLib.scatterAdd_vec sc hc1 hc2 hc3 hc4,
    broadcastInDim_scalar_apply, constant_apply, Ideal.ofBits_zero_f32, zero_add]
  refine (Finset.sum_congr
    (hl_seg_filter dst et _ (fun e => hl_segcol_toInt b0 b1 dstV etV dst et hdst het e (0 : Fin 1)) n r)
    (fun e _ => ?_)).trans ((CoeLib.coe_sum _ (fun _ => (1 : ℝ))).trans ?_)
  · rw [broadcastInDim_scalar_apply, constant_apply, Ideal.ofBits_one_f32, EReal.coe_one]
  · rw [Finset.sum_const, nsmul_eq_mul, mul_one]

include hg1 hg2 hg3 hg4 hg5 hs1 hs2 hs3 hs4 hc1 hc2 hc3 hc4 hh hsrc hdst het in
/-- The segment sums divided by the segment counts (at least one), flattened to 3·D columns: column r·D + c of row
    n is the mean, over the edges into n of relation r, of the source's feature c. -/
theorem hl_nagg_read {D3 : Nat} (hD3 : D3 = 3 * D)
    (c3 : (⟨3, ![100000, 3, D]⟩ : Shape).ShapeCasts ⟨2, ![100000, D3]⟩)
    (n : Fin 100000) (r : Fin 3) (c : Fin D) (q : Fin D3) (hq : q.val = r.val * D + c.val) :
    shapeCast ⟨2, ![100000, D3]⟩
      (Host.divf (F := Ideal) (φ := .f32)
        (shapeCast ⟨3, ![100000, 3, D]⟩
          (Host.scatterAdd (F := Ideal) (φ := .f32) sd
            (broadcastInDim ⟨2, ![300000, D]⟩ ![] bz (constant (F := Ideal) ⟨0, ![]⟩ .f32 0x00000000#32))
            (broadcastInDim ⟨2, ![1200000, 1]⟩ ![0] b1
              (addi (muli dstV (broadcastInDim ⟨1, ![1200000]⟩ ![] b0 (constantI ⟨0, ![]⟩ 32 3#32))) etV))
            (Host.gather gd hV (broadcastInDim ⟨2, ![1200000, 1]⟩ ![0] b1
              (select (cmpi .slt srcV (broadcastInDim ⟨1, ![1200000]⟩ ![] b0 (constantI ⟨0, ![]⟩ 32 0#32)))
                (addi srcV (broadcastInDim ⟨1, ![1200000]⟩ ![] b0 (constantI ⟨0, ![]⟩ 32 100000#32))) srcV))))
          c1)
        (broadcastInDim ⟨3, ![100000, 3, D]⟩ ![0, 1, 2] bl
          (maximumf (F := Ideal) (φ := .f32)
            (shapeCast ⟨3, ![100000, 3, 1]⟩
              (Host.scatterAdd (F := Ideal) (φ := .f32) sc
                (broadcastInDim ⟨1, ![300000]⟩ ![] bzv (constant (F := Ideal) ⟨0, ![]⟩ .f32 0x00000000#32))
                (broadcastInDim ⟨2, ![1200000, 1]⟩ ![0] b1
                  (addi (muli dstV (broadcastInDim ⟨1, ![1200000]⟩ ![] b0 (constantI ⟨0, ![]⟩ 32 3#32))) etV))
                (broadcastInDim ⟨1, ![1200000]⟩ ![] b0 (constant (F := Ideal) ⟨0, ![]⟩ .f32 0x3F800000#32)))
              c2)
            (broadcastInDim ⟨3, ![100000, 3, 1]⟩ ![] b31 (constant (F := Ideal) ⟨0, ![]⟩ .f32 0x3F800000#32)))))
      c3 (ix2 n q)
    = ((GnnSpec.nagg src dst et h n r c : ℝ) : EReal) := by
  rw [hl_reshape_flat_apply hD3 _ c3 n r c q hq, hostDivf_apply, hl_bcast_last_apply, maximumf_apply,
    hl_agg_apply b0 b1 gd hg1 hg2 hg3 hg4 hg5 sd hs1 hs2 hs3 hs4 bz c1 hV srcV dstV etV h src dst et hh hsrc hdst het,
    hl_cnt_apply b0 b1 sc hc1 hc2 hc3 hc4 bzv c2 dstV etV dst et hdst het,
    broadcastInDim_scalar_apply, constant_apply, Ideal.ofBits_one_f32, ← EReal.coe_one, CoeLib.max_coe]
  exact CoeLib.div_coe_coe _ _ (GnnSpec.cnt1_ne _)

end Segments

/-! ## The two host stretches that prepare a graph layer's stacked operand -/

set_option maxHeartbeats 1000000 in
/-- What the host operations between the embedding region and the first graph layer's region leave in the layer's
    stacked operand: row n is node n's own 32 features followed by, for each of the three relations, the mean over the
    edges of that relation into n of the source's 32 features. -/
theorem host1_comb (W : Valuation τ sig (Elt Ideal)) (h : Fin 100000 → Fin 32 → ℝ)
    (src dst : Fin 1200000 → Fin 100000) (et : Fin 1200000 → Fin 3)
    (hh : ∀ n k, (W (Proc.devRef .tc main_call0_v4) : S100000x32.Idx → EReal) (ix2 n k) = ((h n k : ℝ) : EReal))
    (hsrc : ∀ e, GnnDecode.rowOf 100000 (by norm_num)
      ((W (Proc.devRef .tc main_call0_v1) : S1200000.Idx → BitVec 32) (ix1 e)) = src e)
    (hdst : ∀ e, ((W (Proc.devRef .tc main_call0_v3) : S1200000.Idx → BitVec 32) (ix1 e)).toInt = ((dst e).val : ℤ))
    (het : ∀ e, ((W (Proc.devRef .tc main_arg2) : S1200000.Idx → BitVec 32) (ix1 e)).toInt = ((et e).val : ℤ)) :
    ∀ (n : Fin 100000) (k : Fin 128),
      (StableHlo.after hostOps1 W (Proc.devRef .tc main_call0_v29) : S100000x128.Idx → EReal) (ix2 n k)
        = ((GnnSpec.comb (D := 32) src dst et h n k : ℝ) : EReal) := by
  intro n k
  by_cases hk : k.val < 32
  · -- one of the node's own features: the first piece of the concatenation
    rw [GnnSpec.comb_lt src dst et h n k hk, ← hh n ⟨k.val, hk⟩]
    hl_results
    refine (concatenate_pair_apply_left (s₁ := S100000x32) (s₂ := S100000x96) (1 : Fin 2) _ _
      concatenates_S100000x32_S100000x96_S100000x128_d1 (ix2 n k) rfl
      (ix2 n (⟨k.val, hk⟩ : Fin 32) : S100000x32.Idx) ?_).trans ?_
    · intro b
      match b with
      | ⟨0, _⟩ => rfl
      | ⟨1, _⟩ => rfl
    hl_results
    rfl
  · -- column D + r·D + c: the second piece, at column r·D + c, which is the mean over relation r of feature c
    have hk' := k.isLt
    have hr : (k.val - 32) / 32 < 3 := by omega
    have hc : (k.val - 32) % 32 < 32 := Nat.mod_lt _ (by norm_num)
    rw [GnnSpec.comb_ge src dst et h n k ⟨(k.val - 32) / 32, hr⟩ ⟨(k.val - 32) % 32, hc⟩
      (by show k.val = 32 + (k.val - 32) / 32 * 32 + (k.val - 32) % 32; omega)]
    hl_results
    refine (concatenate_pair_apply_right (s₁ := S100000x32) (s₂ := S100000x96) (1 : Fin 2) _ _
      concatenates_S100000x32_S100000x96_S100000x128_d1 (ix2 n k) rfl rfl
      (ix2 n (⟨k.val - 32, by omega⟩ : Fin 96) : S100000x96.Idx) ?_ ?_).trans ?_
    · intro b hb
      match b with
      | ⟨0, _⟩ => rfl
      | ⟨1, _⟩ => exact absurd rfl hb
    · show (k.val - 32) + 32 = k.val
      omega
    hl_results
    exact hl_nagg_read (D := 32) bcast_S_S1200000 bcast_S1200000_S1200000x1_0
      gather_S100000x32_S1200000x1_S1200000x32_1_0_n_n_0_1_132 rfl rfl rfl rfl rfl
      scatter_S300000x32_S1200000x1_S1200000x32_1_0_0_1 rfl rfl rfl rfl
      scatter_S300000_S1200000x1_S1200000_n_0_0_1 rfl rfl rfl rfl
      bcast_S_S300000x32 bcast_S_S300000 bcast_S_S100000x3x1 bcast_S100000x3x1_S100000x3x32_0_1_2
      shapeCasts_S300000x32_S100000x3x32 shapeCasts_S300000_S100000x3x1
      _ _ _ _ h src dst et hh hsrc hdst het (D3 := 96) rfl
      shapeCasts_S100000x3x32_S100000x96 n ⟨(k.val - 32) / 32, hr⟩ ⟨(k.val - 32) % 32, hc⟩ ⟨k.val - 32, by omega⟩
      (by show k.val - 32 = (k.val - 32) / 32 * 32 + (k.val - 32) % 32; omega)

set_option maxHeartbeats 1000000 in
/-- The same at width 64, between the first graph layer's region and the second's: row n of the second layer's stacked
    operand is node n's own 64 features followed by the three relations' mean neighbour features. -/
theorem host2_comb (W : Valuation τ sig (Elt Ideal)) (h : Fin 100000 → Fin 64 → ℝ)
    (src dst : Fin 1200000 → Fin 100000) (et : Fin 1200000 → Fin 3)
    (hh : ∀ n k, (W (Proc.devRef .tc main_call0_v32) : S100000x64.Idx → EReal) (ix2 n k) = ((h n k : ℝ) : EReal))
    (hsrc : ∀ e, GnnDecode.rowOf 100000 (by norm_num)
      ((W (Proc.devRef .tc main_call0_v1) : S1200000.Idx → BitVec 32) (ix1 e)) = src e)
    (hdst : ∀ e, ((W (Proc.devRef .tc main_call0_v3) : S1200000.Idx → BitVec 32) (ix1 e)).toInt = ((dst e).val : ℤ))
    (het : ∀ e, ((W (Proc.devRef .tc main_arg2) : S1200000.Idx → BitVec 32) (ix1 e)).toInt = ((et e).val : ℤ)) :
    ∀ (n : Fin 100000) (k : Fin 256),
      (StableHlo.after hostOps2 W (Proc.devRef .tc main_call0_v57) : S100000x256.Idx → EReal) (ix2 n k)
        = ((GnnSpec.comb (D := 64) src dst et h n k : ℝ) : EReal) := by
  intro n k
  by_cases hk : k.val < 64
  · -- one of the node's own features: the first piece of the concatenation
    rw [GnnSpec.comb_lt src dst et h n k hk, ← hh n ⟨k.val, hk⟩]
    hl_results
    refine (concatenate_pair_apply_left (s₁ := S100000x64) (s₂ := S100000x192) (1 : Fin 2) _ _
      concatenates_S100000x64_S100000x192_S100000x256_d1 (ix2 n k) rfl
      (ix2 n (⟨k.val, hk⟩ : Fin 64) : S100000x64.Idx) ?_).trans ?_
    · intro b
      match b with
      | ⟨0, _⟩ => rfl
      | ⟨1, _⟩ => rfl
    hl_results
    rfl
  · -- column D + r·D + c: the second piece, at column r·D + c, which is the mean over relation r of feature c
    have hk' := k.isLt
    have hr : (k.val - 64) / 64 < 3 := by omega
    have hc : (k.val - 64) % 64 < 64 := Nat.mod_lt _ (by norm_num)
    rw [GnnSpec.comb_ge src dst et h n k ⟨(k.val - 64) / 64, hr⟩ ⟨(k.val - 64) % 64, hc⟩
      (by show k.val = 64 + (k.val - 64) / 64 * 64 + (k.val - 64) % 64; omega)]
    hl_results
    refine (concatenate_pair_apply_right (s₁ := S100000x64) (s₂ := S100000x192) (1 : Fin 2) _ _
      concatenates_S100000x64_S100000x192_S100000x256_d1 (ix2 n k) rfl rfl
      (ix2 n (⟨k.val - 64, by omega⟩ : Fin 192) : S100000x192.Idx) ?_ ?_).trans ?_
    · intro b hb
      match b with
      | ⟨0, _⟩ => rfl
      | ⟨1, _⟩ => exact absurd rfl hb
    · show (k.val - 64) + 64 = k.val
      omega
    hl_results
    exact hl_nagg_read (D := 64) bcast_S_S1200000 bcast_S1200000_S1200000x1_0
      gather_S100000x64_S1200000x1_S1200000x64_1_0_n_n_0_1_164 rfl rfl rfl rfl rfl
      scatter_S300000x64_S1200000x1_S1200000x64_1_0_0_1 rfl rfl rfl rfl
      scatter_S300000_S1200000x1_S1200000_n_0_0_1 rfl rfl rfl rfl
      bcast_S_S300000x64 bcast_S_S300000 bcast_S_S100000x3x1 bcast_S100000x3x1_S100000x3x64_0_1_2
      shapeCasts_S300000x64_S100000x3x64 shapeCasts_S300000_S100000x3x1
      _ _ _ _ h src dst et hh hsrc hdst het (D3 := 192) rfl
      shapeCasts_S100000x3x64_S100000x192 n ⟨(k.val - 64) / 64, hr⟩ ⟨(k.val - 64) % 64, hc⟩ ⟨k.val - 64, by omega⟩
      (by show k.val - 64 = (k.val - 64) / 64 * 64 + (k.val - 64) % 64; omega)

end Cert.KernelIdeal.KV

end
-- ==== Proof.KHostSmall.lean ====
/-
  The short stretches of array bookkeeping between the network's dense stages, each read entry by entry, for any
  contents of the buffers at the moment the stretch starts.

    * the edge list e[2, E] is cut into its two rows:  src[i] = e[0, i],  dst[i] = e[1, i];
    * the graph ids g[N] are laid out as a column:     col[n, 0] = g[n];
    * per layer, the root matrix root[D, J] is put over the three relation matrices W[3, D, J] flattened to
      [3·D, J]:  row k < D of the stack is root[k, ·], row D + r·D + k' is W[r, k', ·] — the matrix `combW`.

  A flattening keeps row-major positions, so entry (r·D + k', j) of the flattened relation matrices is W[r, k', j];
  a stack of two matrices reads the first on its first D rows and the second, D rows up, below them.
-/
import proofs.«428839_j88648124990070_3_alg».proof.Proof.Gen.KernelIdeal.Frame
import proofs.«428839_j88648124990070_3_alg».proof.Proof.Spec
import proofs.«428839_j88648124990070_3_alg».proof.Proof.SpecLaw
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

/-! ## The edge list's two rows and the graph ids' column -/

/-- The first stretch leaves, as the flat source list, row 0 of the edge list cut out and flattened. -/
theorem host0_src_term (W : Valuation τ sig (Elt Ideal)) :
    (StableHlo.after hostOps0 W (Proc.devRef .tc main_call0_v1) : S1200000.Idx → BitVec 32)
      = shapeCast S1200000 (extractStridedSlice S1x1200000 ![0, 0]
          (W (Proc.devRef .tc main_arg1) : S2x1200000.Idx → BitVec 32) slices_S2x1200000_S1x1200000_0_0)
          shapeCasts_S1x1200000_S1200000 := by
  after_results
  rfl

/-- The first stretch leaves, as the flat destination list, row 1 of the edge list cut out and flattened. -/
theorem host0_dst_term (W : Valuation τ sig (Elt Ideal)) :
    (StableHlo.after hostOps0 W (Proc.devRef .tc main_call0_v3) : S1200000.Idx → BitVec 32)
      = shapeCast S1200000 (extractStridedSlice S1x1200000 ![1, 0]
          (W (Proc.devRef .tc main_arg1) : S2x1200000.Idx → BitVec 32) slices_S2x1200000_S1x1200000_1_0)
          shapeCasts_S1x1200000_S1200000 := by
  after_results
  rfl

/-- Entry e of the source list is entry (0, e) of the edge list. -/
theorem host0_src (W : Valuation τ sig (Elt Ideal)) : ∀ e : Fin 1200000,
    (StableHlo.after hostOps0 W (Proc.devRef .tc main_call0_v1) : S1200000.Idx → BitVec 32) (ix1 e)
      = (W (Proc.devRef .tc main_arg1) : S2x1200000.Idx → BitVec 32) (ix2 (0 : Fin 2) e) := by
  intro e
  rw [host0_src_term, shapeCast_1a_a_apply]
  exact slice2_axis0_apply 0 _ _ (0 : Fin 1) e (0 : Fin 2) rfl

/-- Entry e of the destination list is entry (1, e) of the edge list. -/
theorem host0_dst (W : Valuation τ sig (Elt Ideal)) : ∀ e : Fin 1200000,
    (StableHlo.after hostOps0 W (Proc.devRef .tc main_call0_v3) : S1200000.Idx → BitVec 32) (ix1 e)
      = (W (Proc.devRef .tc main_arg1) : S2x1200000.Idx → BitVec 32) (ix2 (1 : Fin 2) e) := by
  intro e
  rw [host0_dst_term, shapeCast_1a_a_apply]
  exact slice2_axis0_apply 1 _ _ (0 : Fin 1) e (1 : Fin 2) rfl

/-- A vector cast to a one-column matrix reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The fourth stretch leaves the graph ids reshaped to a column. -/
theorem host3_col_term (W : Valuation τ sig (Elt Ideal)) :
    (StableHlo.after hostOps3 W (Proc.devRef .tc main_call0_v61) : S100000x1.Idx → BitVec 32)
      = shapeCast S100000x1 (W (Proc.devRef .tc main_arg3) : S100000.Idx → BitVec 32) shapeCasts_S100000_S100000x1 := by
  after_results
  rfl

/-- Entry (n, 0) of the column is entry n of the graph ids. -/
theorem host3_col (W : Valuation τ sig (Elt Ideal)) : ∀ n : Fin 100000,
    (StableHlo.after hostOps3 W (Proc.devRef .tc main_call0_v61) : S100000x1.Idx → BitVec 32) (ix2 n (0 : Fin 1))
      = (W (Proc.devRef .tc main_arg3) : S100000.Idx → BitVec 32) (ix1 n) := by
  intro n
  rw [host3_col_term]
  exact shapeCast_a_a1_apply _ _ n 0

/-! ## The root matrix over the flattened relation matrices -/

section Stack
variable {α : Type}

/-- Two matrices stacked along the rows read, at a row inside the first, the first. -/
theorem stack_top {D J N3 N4 : ℕ} (A : (⟨2, ![D, J]⟩ : Shape).Idx → α) (Bm : (⟨2, ![N3, J]⟩ : Shape).Idx → α)
    (hcat : Shape.Concatenates [(⟨2, ![D, J]⟩ : Shape), ⟨2, ![N3, J]⟩] ⟨2, ![N4, J]⟩ 0)
    (k : Fin N4) (j : Fin J) (hk : k.val < D) :
    concatenate ⟨2, ![N4, J]⟩ 0 [⟨⟨2, ![D, J]⟩, A⟩, ⟨⟨2, ![N3, J]⟩, Bm⟩] hcat (ix2 k j) = A (ix2 ⟨k.val, hk⟩ j) :=
  concatenate_pair_apply_left 0 A Bm hcat (ix2 k j) rfl (ix2 ⟨k.val, hk⟩ j)
    (fun b => match b with | ⟨0, _⟩ => rfl | ⟨1, _⟩ => rfl)

/-- A matrix over three matrices flattened into one: row D + r·D + k' of the stack is row k' of the r-th of the three. -/
theorem stack_bot {D J N3 N4 : ℕ} (hN3 : N3 = 3 * D) (A : (⟨2, ![D, J]⟩ : Shape).Idx → α)
    (B : (⟨3, ![3, D, J]⟩ : Shape).Idx → α) (hc : (⟨3, ![3, D, J]⟩ : Shape).ShapeCasts ⟨2, ![N3, J]⟩)
    (hcat : Shape.Concatenates [(⟨2, ![D, J]⟩ : Shape), ⟨2, ![N3, J]⟩] ⟨2, ![N4, J]⟩ 0)
    (k : Fin N4) (j : Fin J) (r : Fin 3) (k' : Fin D) (hk : k.val = D + r.val * D + k'.val) :
    concatenate ⟨2, ![N4, J]⟩ 0 [⟨⟨2, ![D, J]⟩, A⟩, ⟨⟨2, ![N3, J]⟩, shapeCast ⟨2, ![N3, J]⟩ B hc⟩] hcat (ix2 k j)
      = B (ix3 r k' j) := by
  have hlt : r.val * D + k'.val < N3 := by
    have hr : r.val * D ≤ 2 * D := Nat.mul_le_mul_right D (by have := r.isLt; omega)
    have := k'.isLt
    omega
  refine (concatenate_pair_apply_right 0 A (shapeCast ⟨2, ![N3, J]⟩ B hc) hcat (ix2 k j) rfl rfl
    (ix2 ⟨r.val * D + k'.val, hlt⟩ j) ?_ ?_).trans ?_
  · intro b hb
    match b with
    | ⟨0, _⟩ => exact absurd rfl hb
    | ⟨1, _⟩ => rfl
  · show r.val * D + k'.val + D = k.val
    omega
  · refine shapeCast_apply B hc _ (ix3 r k' j) ?_
    rw [Shape.rowMajor_val_three, Shape.rowMajor_val_two]
    rfl

end Stack

/-- The second stretch leaves, as the stacked weight matrix, the root matrix over the relation matrices flattened. -/
theorem host1_term (W : Valuation τ sig (Elt Ideal)) :
    (StableHlo.after hostOps1 W (Proc.devRef .tc main_call0_v31) : S128x64.Idx → EReal)
      = concatenate S128x64 0
          [⟨S32x64, (W (Proc.devRef .tc main_arg9) : S32x64.Idx → EReal)⟩,
           ⟨S96x64, shapeCast S96x64 (W (Proc.devRef .tc main_arg8) : S3x32x64.Idx → EReal) shapeCasts_S3x32x64_S96x64⟩]
          concatenates_S32x64_S96x64_S128x64_d0 := by
  after_results_simp
  rfl

/-- The stacked weight matrix of the first layer, entry by entry. -/
theorem host1_combW (W : Valuation τ sig (Elt Ideal)) (w : Fin 3 → Fin 32 → Fin 64 → ℝ) (root : Fin 32 → Fin 64 → ℝ)
    (hw : ∀ r k j, (W (Proc.devRef .tc main_arg8) : S3x32x64.Idx → EReal) (ix3 r k j) = ((w r k j : ℝ) : EReal))
    (hroot : ∀ k j, (W (Proc.devRef .tc main_arg9) : S32x64.Idx → EReal) (ix2 k j) = ((root k j : ℝ) : EReal)) :
    ∀ (k : Fin 128) (j : Fin 64),
      (StableHlo.after hostOps1 W (Proc.devRef .tc main_call0_v31) : S128x64.Idx → EReal) (ix2 k j)
        = ((GnnSpec.combW (D := 32) w root k j : ℝ) : EReal) := by
  intro k j
  rw [host1_term]
  by_cases hk : k.val < 32
  · rw [GnnSpec.combW_lt w root k j hk, ← hroot ⟨k.val, hk⟩ j]
    exact stack_top _ _ _ k j hk
  · have hk' := k.isLt
    have hr : (k.val - 32) / 32 < 3 := by omega
    have hm : (k.val - 32) % 32 < 32 := by omega
    have e : k.val = 32 + (⟨(k.val - 32) / 32, hr⟩ : Fin 3).val * 32 + (⟨(k.val - 32) % 32, hm⟩ : Fin 32).val := by
      show k.val = 32 + (k.val - 32) / 32 * 32 + (k.val - 32) % 32
      omega
    rw [GnnSpec.combW_ge w root k j _ _ e, ← hw _ _ j]
    exact stack_bot rfl _ _ _ _ k j _ _ e

/-- The third stretch leaves, as the stacked weight matrix, the root matrix over the relation matrices flattened. -/
theorem host2_term (W : Valuation τ sig (Elt Ideal)) :
    (StableHlo.after hostOps2 W (Proc.devRef .tc main_call0_v59) : S256x64.Idx → EReal)
      = concatenate S256x64 0
          [⟨S64x64, (W (Proc.devRef .tc main_arg12) : S64x64.Idx → EReal)⟩,
           ⟨S192x64, shapeCast S192x64 (W (Proc.devRef .tc main_arg11) : S3x64x64.Idx → EReal) shapeCasts_S3x64x64_S192x64⟩]
          concatenates_S64x64_S192x64_S256x64_d0 := by
  after_results_simp
  rfl

/-- The stacked weight matrix of the second layer, entry by entry. -/
theorem host2_combW (W : Valuation τ sig (Elt Ideal)) (w : Fin 3 → Fin 64 → Fin 64 → ℝ) (root : Fin 64 → Fin 64 → ℝ)
    (hw : ∀ r k j, (W (Proc.devRef .tc main_arg11) : S3x64x64.Idx → EReal) (ix3 r k j) = ((w r k j : ℝ) : EReal))
    (hroot : ∀ k j, (W (Proc.devRef .tc main_arg12) : S64x64.Idx → EReal) (ix2 k j) = ((root k j : ℝ) : EReal)) :
    ∀ (k : Fin 256) (j : Fin 64),
      (StableHlo.after hostOps2 W (Proc.devRef .tc main_call0_v59) : S256x64.Idx → EReal) (ix2 k j)
        = ((GnnSpec.combW (D := 64) w root k j : ℝ) : EReal) := by
  intro k j
  rw [host2_term]
  by_cases hk : k.val < 64
  · rw [GnnSpec.combW_lt w root k j hk, ← hroot ⟨k.val, hk⟩ j]
    exact stack_top _ _ _ k j hk
  · have hk' := k.isLt
    have hr : (k.val - 64) / 64 < 3 := by omega
    have hm : (k.val - 64) % 64 < 64 := by omega
    have e : k.val = 64 + (⟨(k.val - 64) / 64, hr⟩ : Fin 3).val * 64 + (⟨(k.val - 64) % 64, hm⟩ : Fin 64).val := by
      show k.val = 64 + (k.val - 64) / 64 * 64 + (k.val - 64) % 64
      omega
    rw [GnnSpec.combW_ge w root k j _ _ e, ← hw _ _ j]
    exact stack_bot rfl _ _ _ _ k j _ _ e

end Cert.KernelIdeal.KV

end
-- ==== Proof.Net.lean ====
/-
  The whole network as one real function of the decoded inputs, and what it means for the raw arrays to decode to them.

  `Args` collects the inputs as indices and reals; `out A` is the network's result (two tables, a dense layer, two
  relational graph layers, the mean over each graph, a last dense layer). `Reads` says sixteen raw arrays — four of
  32-bit words, twelve of extended reals — are `A`: each word read as its index, each extended real a real.
  `exists_reads` builds such an `A` from arrays whose floats are all finite and whose labels, edge destinations and
  relation ids are in range.
-/
import proofs.«428839_j88648124990070_3_alg».proof.Proof.Spec
import proofs.«428839_j88648124990070_3_alg».proof.Proof.Decode
import Idealize.ShloMosaic.PureOps.Ideal

noncomputable section

namespace GnnNet

open Idealize.ShloMosaic Idealize.ShloMosaic.ValueIdx GnnSpec GnnDecode

/-- The inputs, decoded. -/
structure Args where
  xi : Fin 100000 → Fin 2 → Fin 16
  src : Fin 1200000 → Fin 100000
  dst : Fin 1200000 → Fin 100000
  et : Fin 1200000 → Fin 3
  gid : Fin 100000 → ℤ
  se : Fin 16 → Fin 8 → ℝ
  ce : Fin 16 → Fin 8 → ℝ
  pw : Fin 16 → Fin 32 → ℝ
  pb : Fin 32 → ℝ
  w1 : Fin 3 → Fin 32 → Fin 64 → ℝ
  root1 : Fin 32 → Fin 64 → ℝ
  b1 : Fin 64 → ℝ
  w2 : Fin 3 → Fin 64 → Fin 64 → ℝ
  root2 : Fin 64 → Fin 64 → ℝ
  b2 : Fin 64 → ℝ
  cw : Fin 64 → Fin 10 → ℝ
  cb : Fin 10 → ℝ

/-- The embedded and pre-transformed node features. -/
def h0 (A : Args) : Fin 100000 → Fin 32 → ℝ := dense (emb A.se A.ce A.xi) A.pw A.pb
/-- After the first graph layer. -/
def h1 (A : Args) : Fin 100000 → Fin 64 → ℝ := layer A.src A.dst A.et (h0 A) A.w1 A.root1 A.b1
/-- After the second graph layer. -/
def h2 (A : Args) : Fin 100000 → Fin 64 → ℝ := layer A.src A.dst A.et (h1 A) A.w2 A.root2 A.b2
/-- The network's result: per graph, the mean of its nodes' features through the last dense layer. -/
def out (A : Args) : Fin 512 → Fin 10 → ℝ := classify (pool A.gid (h2 A)) (gcount A.gid) A.cw A.cb

abbrev T100000x2 : Shape := ⟨2, ![100000, 2]⟩
abbrev T2x1200000 : Shape := ⟨2, ![2, 1200000]⟩
abbrev T1200000 : Shape := ⟨1, ![1200000]⟩
abbrev T100000 : Shape := ⟨1, ![100000]⟩
abbrev T16x8 : Shape := ⟨2, ![16, 8]⟩
abbrev T16x32 : Shape := ⟨2, ![16, 32]⟩
abbrev T32 : Shape := ⟨1, ![32]⟩
abbrev T3x32x64 : Shape := ⟨3, ![3, 32, 64]⟩
abbrev T32x64 : Shape := ⟨2, ![32, 64]⟩
abbrev T64 : Shape := ⟨1, ![64]⟩
abbrev T3x64x64 : Shape := ⟨3, ![3, 64, 64]⟩
abbrev T64x64 : Shape := ⟨2, ![64, 64]⟩
abbrev T64x10 : Shape := ⟨2, ![64, 10]⟩
abbrev T10 : Shape := ⟨1, ![10]⟩

/-- The raw arrays are the decoded inputs `A`. A label is stated twice: as the word of its index (a comparison
    with a column number reads the word) and as the row a lookup reads. -/
structure Reads (a0 : T100000x2.Idx → BitVec 32) (a1 : T2x1200000.Idx → BitVec 32) (a2 : T1200000.Idx → BitVec 32)
    (a3 : T100000.Idx → BitVec 32) (a4 a5 : T16x8.Idx → EReal) (a6 : T16x32.Idx → EReal) (a7 : T32.Idx → EReal)
    (a8 : T3x32x64.Idx → EReal) (a9 : T32x64.Idx → EReal) (a10 : T64.Idx → EReal) (a11 : T3x64x64.Idx → EReal)
    (a12 : T64x64.Idx → EReal) (a13 : T64.Idx → EReal) (a14 : T64x10.Idx → EReal) (a15 : T10.Idx → EReal)
    (A : Args) : Prop where
  x_word : ∀ n k, a0 (ix2 n k) = BitVec.ofNat 32 (A.xi n k).val
  x_row : ∀ n k, rowOf 16 (by norm_num) (a0 (ix2 n k)) = A.xi n k
  src_row : ∀ e, rowOf 100000 (by norm_num) (a1 (ix2 (0 : Fin 2) e)) = A.src e
  dst_val : ∀ e, (a1 (ix2 (1 : Fin 2) e)).toInt = ((A.dst e).val : ℤ)
  et_val : ∀ e, (a2 (ix1 e)).toInt = ((A.et e).val : ℤ)
  gid_val : ∀ n, (a3 (ix1 n)).toInt = A.gid n
  se_val : ∀ t k, a4 (ix2 t k) = ((A.se t k : ℝ) : EReal)
  ce_val : ∀ t k, a5 (ix2 t k) = ((A.ce t k : ℝ) : EReal)
  pw_val : ∀ k j, a6 (ix2 k j) = ((A.pw k j : ℝ) : EReal)
  pb_val : ∀ j, a7 (ix1 j) = ((A.pb j : ℝ) : EReal)
  w1_val : ∀ r k j, a8 (ix3 r k j) = ((A.w1 r k j : ℝ) : EReal)
  root1_val : ∀ k j, a9 (ix2 k j) = ((A.root1 k j : ℝ) : EReal)
  b1_val : ∀ j, a10 (ix1 j) = ((A.b1 j : ℝ) : EReal)
  w2_val : ∀ r k j, a11 (ix3 r k j) = ((A.w2 r k j : ℝ) : EReal)
  root2_val : ∀ k j, a12 (ix2 k j) = ((A.root2 k j : ℝ) : EReal)
  b2_val : ∀ j, a13 (ix1 j) = ((A.b2 j : ℝ) : EReal)
  cw_val : ∀ j q, a14 (ix2 j q) = ((A.cw j q : ℝ) : EReal)
  cb_val : ∀ q, a15 (ix1 q) = ((A.cb q : ℝ) : EReal)

/-- A word whose signed value is a natural number below 2³¹ is the word of that number. -/
theorem word_of_toInt (v : BitVec 32) (h0 : 0 ≤ v.toInt) : v = BitVec.ofNat 32 v.toInt.toNat := by
  apply BitVec.eq_of_toNat_eq
  have h1 : v.toInt = (v.toNat : ℤ) := by
    rcases BitVec.toInt_eq_toNat_cond v with h
    rw [h] at h0 ⊢
    split_ifs at h0 ⊢ with hlt
    · rfl
    · exfalso; have := v.isLt; omega
  rw [BitVec.toNat_ofNat, h1, Int.toNat_natCast, Nat.mod_eq_of_lt v.isLt]

/-- Arrays whose floats are all finite and whose labels, destinations and relation ids are in range decode. -/
theorem exists_reads (a0 : T100000x2.Idx → BitVec 32) (a1 : T2x1200000.Idx → BitVec 32) (a2 : T1200000.Idx → BitVec 32)
    (a3 : T100000.Idx → BitVec 32) (a4 a5 : T16x8.Idx → EReal) (a6 : T16x32.Idx → EReal) (a7 : T32.Idx → EReal)
    (a8 : T3x32x64.Idx → EReal) (a9 : T32x64.Idx → EReal) (a10 : T64.Idx → EReal) (a11 : T3x64x64.Idx → EReal)
    (a12 : T64x64.Idx → EReal) (a13 : T64.Idx → EReal) (a14 : T64x10.Idx → EReal) (a15 : T10.Idx → EReal)
    (f4 : ∀ i, ∃ r : ℝ, a4 i = (r : EReal)) (f5 : ∀ i, ∃ r : ℝ, a5 i = (r : EReal)) (f6 : ∀ i, ∃ r : ℝ, a6 i = (r : EReal))
    (f7 : ∀ i, ∃ r : ℝ, a7 i = (r : EReal)) (f8 : ∀ i, ∃ r : ℝ, a8 i = (r : EReal)) (f9 : ∀ i, ∃ r : ℝ, a9 i = (r : EReal))
    (f10 : ∀ i, ∃ r : ℝ, a10 i = (r : EReal)) (f11 : ∀ i, ∃ r : ℝ, a11 i = (r : EReal)) (f12 : ∀ i, ∃ r : ℝ, a12 i = (r : EReal))
    (f13 : ∀ i, ∃ r : ℝ, a13 i = (r : EReal)) (f14 : ∀ i, ∃ r : ℝ, a14 i = (r : EReal)) (f15 : ∀ i, ∃ r : ℝ, a15 i = (r : EReal))
    (hx : ∀ i, 0 ≤ (a0 i).toInt ∧ (a0 i).toInt < 16)
    (hd : ∀ e : Fin 1200000, 0 ≤ (a1 (ix2 (1 : Fin 2) e)).toInt ∧ (a1 (ix2 (1 : Fin 2) e)).toInt < 100000)
    (he : ∀ i, 0 ≤ (a2 i).toInt ∧ (a2 i).toInt < 3) :
    ∃ A : Args, Reads a0 a1 a2 a3 a4 a5 a6 a7 a8 a9 a10 a11 a12 a13 a14 a15 A := by
  choose r4 h4 using f4
  choose r5 h5 using f5
  choose r6 h6 using f6
  choose r7 h7 using f7
  choose r8 h8 using f8
  choose r9 h9 using f9
  choose r10 h10 using f10
  choose r11 h11 using f11
  choose r12 h12 using f12
  choose r13 h13 using f13
  choose r14 h14 using f14
  choose r15 h15 using f15
  refine ⟨{ xi := fun n k => idxOf 16 (by norm_num) (a0 (ix2 n k))
            src := fun e => rowOf 100000 (by norm_num) (a1 (ix2 (0 : Fin 2) e))
            dst := fun e => idxOf 100000 (by norm_num) (a1 (ix2 (1 : Fin 2) e))
            et := fun e => idxOf 3 (by norm_num) (a2 (ix1 e))
            gid := fun n => (a3 (ix1 n)).toInt
            se := fun t k => r4 (ix2 t k), ce := fun t k => r5 (ix2 t k), pw := fun k j => r6 (ix2 k j)
            pb := fun j => r7 (ix1 j), w1 := fun r k j => r8 (ix3 r k j), root1 := fun k j => r9 (ix2 k j)
            b1 := fun j => r10 (ix1 j), w2 := fun r k j => r11 (ix3 r k j), root2 := fun k j => r12 (ix2 k j)
            b2 := fun j => r13 (ix1 j), cw := fun j q => r14 (ix2 j q), cb := fun q => r15 (ix1 q) }, ?_⟩
  refine ⟨?_, ?_, fun _ => rfl, ?_, ?_, fun _ => rfl, fun _ _ => h4 _, fun _ _ => h5 _, fun _ _ => h6 _, fun _ => h7 _,
    fun _ _ _ => h8 _, fun _ _ => h9 _, fun _ => h10 _, fun _ _ _ => h11 _, fun _ _ => h12 _, fun _ => h13 _,
    fun _ _ => h14 _, fun _ => h15 _⟩
  · intro n k
    have h := hx (ix2 n k)
    have e := word_of_toInt _ h.1
    have h2 : (a0 (ix2 n k)).toInt.toNat < 16 := by omega
    show a0 (ix2 n k) = BitVec.ofNat 32 ((a0 (ix2 n k)).toInt.toNat % 16)
    rw [Nat.mod_eq_of_lt h2]
    exact e
  · intro n k
    have h := hx (ix2 n k)
    exact rowOf_val 16 (by norm_num) _ h.1 (by exact_mod_cast h.2)
  · intro e
    have h := hd e
    exact idxOf_val 100000 (by norm_num) _ h.1 (by exact_mod_cast h.2)
  · intro e
    have h := he (ix1 e)
    exact idxOf_val 3 (by norm_num) _ h.1 (by exact_mod_cast h.2)

end GnnNet

end
-- ==== Proof.KValue.lean ====
/-
  The kernel program's result as the network's real function.

  Boundary by boundary: the first region leaves the embedded features h0; the stretch after it lays h0 beside the
  per-relation means of its neighbours and stacks the weights; the second region applies one dense layer to the
  pair, which is the first graph layer (a mean commutes with a linear map: `dense_comb`); the same again for the
  second graph layer; the fourth region sums the features over each graph's nodes, point by point; a stretch counts
  each graph's nodes; the last region divides and applies the last dense layer.
-/
import proofs.«428839_j88648124990070_3_alg».proof.Proof.KChain
import proofs.«428839_j88648124990070_3_alg».proof.Proof.KEmbed
import proofs.«428839_j88648124990070_3_alg».proof.Proof.KDense
import proofs.«428839_j88648124990070_3_alg».proof.Proof.KPool
import proofs.«428839_j88648124990070_3_alg».proof.Proof.KClassify
import proofs.«428839_j88648124990070_3_alg».proof.Proof.KHostLayer
import proofs.«428839_j88648124990070_3_alg».proof.Proof.KHostSmall
import proofs.«428839_j88648124990070_3_alg».proof.Proof.SpecLaw
import proofs.«428839_j88648124990070_3_alg».proof.Proof.Net

set_option maxRecDepth 16384

noncomputable section

namespace Cert.KernelIdeal.KV

open Idealize.ShloMosaic Idealize.ShloMosaic.TcCoe Idealize.ShloMosaic.ValueIdx
open Idealize.SL Idealize.SL.Sem
open Cert.KernelIdeal Cert.KernelIdeal.Gen Cert.KernelIdeal.Chain

variable (m : (ℓ : Loc nD τ sig) → Buf (Elt Ideal) ℓ) (ρ : Dev nD → PrngReg) (c : Dev nD)

variable (A : GnnNet.Args)
  (hR : GnnNet.Reads (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) A)
include hR

/-- After the first region: the embedded features. -/
theorem stage_h0 : ∀ n j, (W2 m ρ c (Proc.devRef .tc main_call0_v4) : S100000x32.Idx → EReal) (ix2 n j)
    = ((GnnNet.h0 A n j : ℝ) : EReal) := by
  intro n j
  have e := embed_region (V1 m ρ) c A.xi A.se A.ce A.pw A.pb
    (fun n k => by show (W1 m ρ c (Proc.devRef .tc main_arg0) : S100000x2.Idx → BitVec 32) (ix2 n k) = _; rw [W1_arg0]; exact hR.x_word n k)
    (fun t k => by show (W1 m ρ c (Proc.devRef .tc main_arg4) : S16x8.Idx → EReal) (ix2 t k) = _; rw [W1_arg4]; exact hR.se_val t k)
    (fun t k => by show (W1 m ρ c (Proc.devRef .tc main_arg5) : S16x8.Idx → EReal) (ix2 t k) = _; rw [W1_arg5]; exact hR.ce_val t k)
    (fun k j => by show (W1 m ρ c (Proc.devRef .tc main_arg6) : S16x32.Idx → EReal) (ix2 k j) = _; rw [W1_arg6]; exact hR.pw_val k j)
    (fun j => by show (W1 m ρ c (Proc.devRef .tc main_arg7) : S32.Idx → EReal) (ix1 j) = _; rw [W1_arg7]; exact hR.pb_val j) n j
  exact (congrFun (W2_arr m ρ c 5) (ix2 n j)).trans e

/-- The edge list's first row, as the first stretch leaves it, reads each edge's source. -/
theorem stage_src : ∀ e, GnnDecode.rowOf 100000 (by norm_num)
    ((W1 m ρ c (Proc.devRef .tc main_call0_v1) : S1200000.Idx → BitVec 32) (ix1 e)) = A.src e := by
  intro e
  rw [show (W1 m ρ c (Proc.devRef .tc main_call0_v1) : S1200000.Idx → BitVec 32) (ix1 e) = _ from host0_src (W0 m ρ c) e]
  exact hR.src_row e

/-- The edge list's second row reads each edge's destination. -/
theorem stage_dst : ∀ e, ((W1 m ρ c (Proc.devRef .tc main_call0_v3) : S1200000.Idx → BitVec 32) (ix1 e)).toInt
    = ((A.dst e).val : ℤ) := by
  intro e
  rw [show (W1 m ρ c (Proc.devRef .tc main_call0_v3) : S1200000.Idx → BitVec 32) (ix1 e) = _ from host0_dst (W0 m ρ c) e]
  exact hR.dst_val e

/-- After the second region: the first graph layer. -/
theorem stage_h1 : ∀ n j, (W4 m ρ c (Proc.devRef .tc main_call0_v32) : S100000x64.Idx → EReal) (ix2 n j)
    = ((GnnNet.h1 A n j : ℝ) : EReal) := by
  intro n j
  have hc := host1_comb (W2 m ρ c) (GnnNet.h0 A) A.src A.dst A.et (stage_h0 m ρ c A hR)
    (fun e => by rw [W2_v1]; exact stage_src m ρ c A hR e) (fun e => by rw [W2_v3]; exact stage_dst m ρ c A hR e)
    (fun e => by rw [W2_arg2]; exact hR.et_val e)
  have hw := host1_combW (W2 m ρ c) A.w1 A.root1
    (fun r k j => by rw [W2_arg8]; exact hR.w1_val r k j) (fun k j => by rw [W2_arg9]; exact hR.root1_val k j)
  have e := dense1_region (V3 m ρ) c (GnnSpec.comb (D := 32) A.src A.dst A.et (GnnNet.h0 A)) (GnnSpec.combW (D := 32) A.w1 A.root1) A.b1
    hc hw (fun j => by show (W3 m ρ c (Proc.devRef .tc main_arg10) : S64.Idx → EReal) (ix1 j) = _; rw [W3_arg10]; exact hR.b1_val j) n j
  refine ((congrFun (W4_arr m ρ c 3) (ix2 n j)).trans e).trans ?_
  exact congrArg _ (GnnSpec.dense_comb A.src A.dst A.et (GnnNet.h0 A) A.w1 A.root1 A.b1 n j)

/-- After the third region: the second graph layer. -/
theorem stage_h2 : ∀ n j, (W6 m ρ c (Proc.devRef .tc main_call0_v60) : S100000x64.Idx → EReal) (ix2 n j)
    = ((GnnNet.h2 A n j : ℝ) : EReal) := by
  intro n j
  have hc := host2_comb (W4 m ρ c) (GnnNet.h1 A) A.src A.dst A.et (stage_h1 m ρ c A hR)
    (fun e => by rw [W4_v1]; exact stage_src m ρ c A hR e) (fun e => by rw [W4_v3]; exact stage_dst m ρ c A hR e)
    (fun e => by rw [W4_arg2]; exact hR.et_val e)
  have hw := host2_combW (W4 m ρ c) A.w2 A.root2
    (fun r k j => by rw [W4_arg11]; exact hR.w2_val r k j) (fun k j => by rw [W4_arg12]; exact hR.root2_val k j)
  have e := dense2_region (V5 m ρ) c (GnnSpec.comb (D := 64) A.src A.dst A.et (GnnNet.h1 A)) (GnnSpec.combW (D := 64) A.w2 A.root2) A.b2
    hc hw (fun j => by show (W5 m ρ c (Proc.devRef .tc main_arg13) : S64.Idx → EReal) (ix1 j) = _; rw [W5_arg13]; exact hR.b2_val j) n j
  refine ((congrFun (W6_arr m ρ c 3) (ix2 n j)).trans e).trans ?_
  exact congrArg _ (GnnSpec.dense_comb A.src A.dst A.et (GnnNet.h1 A) A.w2 A.root2 A.b2 n j)

/-- The graph ids as the fourth region finds them are the decoded ids. -/
theorem stage_gid7 : (fun n : Fin 100000 => ((V7 m ρ c main_call0_v61 : S100000x1.Idx → BitVec 32) (ix2 n (0 : Fin 1))).toInt) = A.gid := by
  funext n
  show ((W7 m ρ c (Proc.devRef .tc main_call0_v61) : S100000x1.Idx → BitVec 32) (ix2 n (0 : Fin 1))).toInt = A.gid n
  rw [show (W7 m ρ c (Proc.devRef .tc main_call0_v61) : S100000x1.Idx → BitVec 32) (ix2 n (0 : Fin 1)) = _ from host3_col (W6 m ρ c) n, W6_arg3]
  exact hR.gid_val n

/-- After the fourth region: the features summed over each graph's nodes. -/
theorem stage_pool : ∀ g j, (W8 m ρ c (Proc.devRef .tc main_call0_v62) : S512x64.Idx → EReal) (ix2 g j)
    = ((GnnSpec.pool A.gid (GnnNet.h2 A) g j : ℝ) : EReal) := by
  intro g j
  have e := pool_region (V7 m ρ) c (GnnNet.h2 A)
    (fun n j => by show (W7 m ρ c (Proc.devRef .tc main_call0_v60) : S100000x64.Idx → EReal) (ix2 n j) = _; rw [W7_v60]; exact stage_h2 m ρ c A hR n j) g j
  rw [stage_gid7 m ρ c A hR] at e
  exact (congrFun (W8_arr m ρ c 2) (ix2 g j)).trans e

/-- The graph ids as the last stretch finds them are the decoded ids. -/
theorem stage_gid8 : (fun n : Fin 100000 => ((W8 m ρ c (Proc.devRef .tc main_arg3) : S100000.Idx → BitVec 32) (ix1 n)).toInt) = A.gid := by
  funext n
  show ((W8 m ρ c (Proc.devRef .tc main_arg3) : S100000.Idx → BitVec 32) (ix1 n)).toInt = A.gid n
  rw [W8_arg3]
  exact hR.gid_val n

/-- After the last stretch: each graph's node count. -/
theorem stage_cnt : ∀ g, (W9 m ρ c (Proc.devRef .tc main_call0_v67) : S512x1.Idx → EReal) (ix2 g (0 : Fin 1))
    = ((GnnSpec.gcount A.gid g : ℝ) : EReal) := by
  intro g
  have e := host4_cnt (W8 m ρ c) g
  rw [stage_gid8 m ρ c A hR] at e
  exact e

/-- From launch contents that decode to `A`, the result array ends at the network's result. -/
theorem kernel_value : ∀ (g : Fin 512) (q : Fin 10),
    (W10 m ρ c (Proc.devRef .tc main_v0) : S512x10.Idx → EReal) (ix2 g q) = ((GnnNet.out A g q : ℝ) : EReal) := by
  intro g q
  have e := classify_region (V9 m ρ) c (GnnSpec.pool A.gid (GnnNet.h2 A)) (GnnSpec.gcount A.gid) A.cw A.cb
    (fun g j => by show (W9 m ρ c (Proc.devRef .tc main_call0_v62) : S512x64.Idx → EReal) (ix2 g j) = _; rw [W9_v62]; exact stage_pool m ρ c A hR g j)
    (stage_cnt m ρ c A hR)
    (fun j q => by show (W9 m ρ c (Proc.devRef .tc main_arg14) : S64x10.Idx → EReal) (ix2 j q) = _; rw [W9_arg14]; exact hR.cw_val j q)
    (fun q => by show (W9 m ρ c (Proc.devRef .tc main_arg15) : S10.Idx → EReal) (ix1 q) = _; rw [W9_arg15]; exact hR.cb_val q) g q
  exact (congrFun (W10_arr m ρ c 4) (ix2 g q)).trans e

end Cert.KernelIdeal.KV

end
-- ==== Proof.RefEmbed.lean ====
/-
  The reference's embedding stage read as real arithmetic.

  Each of a node's two labels names a row of a 16-row table: a negative label wraps once by 16, and the result is
  clamped into [0, 15]. The two rows (8 columns each) lie side by side as the node's 16 embedding columns; a dense
  layer (16 → 32) with bias and rectifier follows:

    h0[n, j] = max (∑ k, emb[n, k] · pre_w[k, j] + pre_b[j]) 0.

  With the two tables, the weight and the bias finite (given as reals), the stage's value at (n, j) is that real.
  The stage is read one operation at a time from the result back to the arguments: the rectifier, the bias add, the
  contraction over the 16 columns, the concatenation (column k < 8 from the first lookup, column k ≥ 8 from the
  second at k − 8), each lookup (the table at the clamped, wrapped label), and the wrap itself (select / compare /
  add on one word).
-/
import proofs.«428839_j88648124990070_3_alg».proof.Proof.ReadStages
import proofs.«428839_j88648124990070_3_alg».proof.Proof.Spec
import proofs.«428839_j88648124990070_3_alg».proof.Proof.LibCoe
import proofs.«428839_j88648124990070_3_alg».proof.Proof.LibGather2
import proofs.«428839_j88648124990070_3_alg».proof.Proof.Decode
import Idealize.ShloMosaic.Lib.Pipeline.Value
import Idealize.ShloMosaic.Lib.ValueIdx
import Idealize.ShloMosaic.PureOps.Ideal.Laws

namespace Cert.ReferenceIdeal.RV

open Cert.ReferenceIdeal Cert.ReferenceIdeal.Gen Cert.ReferenceIdeal.Read Idealize.ShloMosaic Idealize.ShloMosaic.ValueIdx

/-! ## A table lookup's row id: select / compare / add on one word is "a negative id wraps once" -/

/-- select (v < 0) (v + 16) v on one word is the wrap of a negative id by the table's 16 rows. -/
theorem select_wrap (v : BitVec 32) :
    Scalar.select (IntOp.cmpi .slt v 0#32) (IntOp.addi v 16#32) v = GnnDecode.wrapNeg (BitVec.ofNat 32 16) v := by
  unfold GnnDecode.wrapNeg Scalar.select IntOp.cmpi IntOp.addi
  cases h : v.slt 0#32 <;> simp

/-- The wrapped id of node n's first label. -/
theorem v6_at (x0 : (⟨S100000x2, .i32⟩ : BufTy).Contents (Elt Ideal)) (n : Fin 100000) :
    val_main_v6 (F := Ideal) x0 (ix1 n) = GnnDecode.wrapNeg (BitVec.ofNat 32 16) (x0 (ix2 n (0 : Fin 2))) := by
  have e : idx_main_v0 (idx_main_v1 (ix1 n)) = ix2 n (0 : Fin 2) := funext fun a => Fin.ext (by
    match a with
    | ⟨0, _⟩ => exact Nat.div_one _
    | ⟨1, _⟩ => rfl)
  rw [val_main_v6_apply, val_main_v3_apply, val_main_v5_apply, val_main_v2_apply, val_main_v4_apply,
    val_main_c_apply, val_main_c_0_apply, val_main_v1_apply, val_main_v0_apply, e]
  exact select_wrap _

/-- The wrapped id of node n's second label. -/
theorem v15_at (x0 : (⟨S100000x2, .i32⟩ : BufTy).Contents (Elt Ideal)) (n : Fin 100000) :
    val_main_v15 (F := Ideal) x0 (ix1 n) = GnnDecode.wrapNeg (BitVec.ofNat 32 16) (x0 (ix2 n (1 : Fin 2))) := by
  have e : idx_main_v9 (idx_main_v10 (ix1 n)) = ix2 n (1 : Fin 2) := funext fun a => Fin.ext (by
    match a with
    | ⟨0, _⟩ => exact Nat.div_one _
    | ⟨1, _⟩ => rfl)
  rw [val_main_v15_apply, val_main_v12_apply, val_main_v14_apply, val_main_v11_apply, val_main_v13_apply,
    val_main_c_1_apply, val_main_c_2_apply, val_main_v10_apply, val_main_v9_apply, e]
  exact select_wrap _

/-! ## The two gathers and the concatenation -/

/-- Whole rows of a 16-row, 8-column table taken at a column of 100000 ids: entry (n, c) is the table at the clamped id
    of n and column c. -/
theorem gather16 (x : (⟨S16x8, .f32⟩ : BufTy).Contents (Elt Ideal)) (idx : (⟨S100000x1, .i32⟩ : BufTy).Contents (Elt Ideal))
    (n : Fin 100000) (c : Fin 8) :
    Host.gather gather_S16x8_S100000x1_S100000x8_1_0_n_n_0_1_18 x idx (ix2 n c)
      = x (ix2 (IndexOpsLib.clampRow 16 (by norm_num) (idx (ix2 n (0 : Fin 1)))) c) :=
  IndexOpsLib.gather_rows (by norm_num) gather_S16x8_S100000x1_S100000x8_1_0_n_n_0_1_18 rfl rfl rfl rfl rfl x idx n c

/-- Entry (n, c) of the first lookup: the first table at the row node n's first label names. -/
theorem v8_at (x0 : (⟨S100000x2, .i32⟩ : BufTy).Contents (Elt Ideal)) (x4 : (⟨S16x8, .f32⟩ : BufTy).Contents (Elt Ideal))
    (n : Fin 100000) (c : Fin 8) :
    val_main_v8 (F := Ideal) x0 x4 (ix2 n c)
      = x4 (ix2 (GnnDecode.rowOf 16 (by norm_num) (x0 (ix2 n (0 : Fin 2)))) c) := by
  have e : idx_main_v7 (ix2 n (0 : Fin 1)) = ix1 n := funext fun a => Fin.ext (by
    match a with
    | ⟨0, _⟩ => rfl)
  unfold val_main_v8
  rw [gather16, val_main_v7_apply, e, v6_at]
  rfl

/-- Entry (n, c) of the second lookup: the second table at the row node n's second label names. -/
theorem v17_at (x0 : (⟨S100000x2, .i32⟩ : BufTy).Contents (Elt Ideal)) (x5 : (⟨S16x8, .f32⟩ : BufTy).Contents (Elt Ideal))
    (n : Fin 100000) (c : Fin 8) :
    val_main_v17 (F := Ideal) x0 x5 (ix2 n c)
      = x5 (ix2 (GnnDecode.rowOf 16 (by norm_num) (x0 (ix2 n (1 : Fin 2)))) c) := by
  have e : idx_main_v16 (ix2 n (0 : Fin 1)) = ix1 n := funext fun a => Fin.ext (by
    match a with
    | ⟨0, _⟩ => rfl)
  unfold val_main_v17
  rw [gather16, val_main_v16_apply, e, v15_at]
  rfl

/-- Two 8-column blocks side by side, read at a column below 8: the first block. -/
theorem cat_left (y₁ y₂ : (⟨S100000x8, .f32⟩ : BufTy).Contents (Elt Ideal)) (n : Fin 100000) (k : Fin 16) (hk : k.val < 8) :
    concatenate S100000x16 1 [⟨S100000x8, y₁⟩, ⟨S100000x8, y₂⟩] concatenates_S100000x8_S100000x8_S100000x16_d1 (ix2 n k)
      = y₁ (ix2 n ⟨k.val, hk⟩) :=
  concatenate_pair_apply_left 1 y₁ y₂ concatenates_S100000x8_S100000x8_S100000x16_d1 (ix2 n k) rfl (ix2 n ⟨k.val, hk⟩)
    (fun b => match b with | ⟨0, _⟩ => rfl | ⟨1, _⟩ => rfl)

/-- Two 8-column blocks side by side, read at a column from 8 on: the second block, eight columns to the left. -/
theorem cat_right (y₁ y₂ : (⟨S100000x8, .f32⟩ : BufTy).Contents (Elt Ideal)) (n : Fin 100000) (k : Fin 16) (hk : ¬ k.val < 8) :
    concatenate S100000x16 1 [⟨S100000x8, y₁⟩, ⟨S100000x8, y₂⟩] concatenates_S100000x8_S100000x8_S100000x16_d1 (ix2 n k)
      = y₂ (ix2 n ⟨k.val - 8, by omega⟩) :=
  concatenate_pair_apply_right 1 y₁ y₂ concatenates_S100000x8_S100000x8_S100000x16_d1 (ix2 n k) rfl rfl
    (ix2 n ⟨k.val - 8, by omega⟩)
    (fun b hb => match b, hb with | ⟨0, _⟩, _ => rfl | ⟨1, _⟩, hb => absurd rfl hb)
    (by show k.val - 8 + 8 = k.val; omega)

/-- The embedding matrix at (n, k), in reals: the first table's row for k < 8, the second's otherwise. -/
theorem v18_emb (x0 : (⟨S100000x2, .i32⟩ : BufTy).Contents (Elt Ideal)) (x4 x5 : (⟨S16x8, .f32⟩ : BufTy).Contents (Elt Ideal))
    (xi : Fin 100000 → Fin 2 → Fin 16) (se ce : Fin 16 → Fin 8 → ℝ)
    (hx : ∀ n k, GnnDecode.rowOf 16 (by norm_num) (x0 (ix2 n k)) = xi n k)
    (hse : ∀ t k, x4 (ix2 t k) = ((se t k : ℝ) : EReal)) (hce : ∀ t k, x5 (ix2 t k) = ((ce t k : ℝ) : EReal))
    (n : Fin 100000) (k : Fin 16) :
    val_main_v18 (F := Ideal) x0 x4 x5 (ix2 n k) = ((GnnSpec.emb se ce xi n k : ℝ) : EReal) := by
  unfold val_main_v18 GnnSpec.emb
  by_cases h : k.val < 8
  · rw [cat_left _ _ n k h, v8_at, hx, hse, dif_pos h]
  · rw [cat_right _ _ n k h, v17_at, hx, hce, dif_neg h]

/-! ## The dense layer -/

/-- The embedding stage: the two looked-up rows side by side through the first dense layer with its rectifier. -/
theorem ref_h0 (x0 : (⟨S100000x2, .i32⟩ : BufTy).Contents (Elt Ideal)) (x4 x5 : (⟨S16x8, .f32⟩ : BufTy).Contents (Elt Ideal))
    (x6 : (⟨S16x32, .f32⟩ : BufTy).Contents (Elt Ideal)) (x7 : (⟨S32, .f32⟩ : BufTy).Contents (Elt Ideal))
    (xi : Fin 100000 → Fin 2 → Fin 16) (se ce : Fin 16 → Fin 8 → ℝ) (pw : Fin 16 → Fin 32 → ℝ) (pb : Fin 32 → ℝ)
    (hx : ∀ n k, GnnDecode.rowOf 16 (by norm_num) (x0 (ix2 n k)) = xi n k)
    (hse : ∀ t k, x4 (ix2 t k) = ((se t k : ℝ) : EReal)) (hce : ∀ t k, x5 (ix2 t k) = ((ce t k : ℝ) : EReal))
    (hpw : ∀ k j, x6 (ix2 k j) = ((pw k j : ℝ) : EReal)) (hpb : ∀ j, x7 (ix1 j) = ((pb j : ℝ) : EReal)) :
    ∀ (n : Fin 100000) (j : Fin 32),
      val_main_v23 (F := Ideal) x0 x4 x5 x6 x7 (ix2 n j) = ((GnnSpec.dense (GnnSpec.emb se ce xi) pw pb n j : ℝ) : EReal) := by
  intro n j
  have el : ∀ k : Fin 16, lidx_main_v19 (ix2 n j) k = ix2 n k := fun k => funext fun a => Fin.ext (by
    match a with
    | ⟨0, _⟩ => rfl
    | ⟨1, _⟩ => rfl)
  have er : ∀ k : Fin 16, ridx_main_v19 (ix2 n j) k = ix2 k j := fun k => funext fun a => Fin.ext (by
    match a with
    | ⟨0, _⟩ => rfl
    | ⟨1, _⟩ => rfl)
  have eb : idx_main_v20 (idx_main_v21 (ix2 n j)) = ix1 j := funext fun a => Fin.ext (by
    match a with
    | ⟨0, _⟩ => rfl)
  -- the contraction over the 16 embedding columns, in reals
  have hs : (∑ k : Fin 16, val_main_v18 (F := Ideal) x0 x4 x5 (lidx_main_v19 (ix2 n j) k) * x6 (ridx_main_v19 (ix2 n j) k))
      = ((∑ k : Fin 16, GnnSpec.emb se ce xi n k * pw k j : ℝ) : EReal) := by
    rw [← CoeLib.coe_sum_mul]
    exact Finset.sum_congr rfl fun k _ => by rw [el, er, v18_emb x0 x4 x5 xi se ce hx hse hce, hpw]
  rw [val_main_v23_apply, val_main_v22_apply, val_main_v19_apply, hs, val_main_v21_apply, val_main_v20_apply, eb, hpb,
    val_main_call0_v0_apply, val_main_call0_cst_apply, Ideal.maximumf_def, Ideal.addf_def, Ideal.ofBits_def,
    Ideal.ofBits_zero_f32, ← EReal.coe_add, ← EReal.coe_zero, CoeLib.max_coe]
  rfl

end Cert.ReferenceIdeal.RV
-- ==== Proof.RefLayer1.lean ====
/-
  The reference's first relational graph layer, read at a node n and a column j, is the specification's real layer.

  From the embedding stage h (100000 nodes by 32 features) the reference computes
    out0[n, j] = ∑ k, h[n, k] · root[k, j] + b[j],
  then, for each relation r = 0, 1, 2 in turn, the same block of operations:
    hr       = h · W[r]                                  the features through relation r's matrix
    msg[e,·] = hr[src e, ·] if edge e is of relation r, else 0     (a negative source id wraps once, then the row
                                                                   lookup clamps)
    agg[n,·] = ∑ over the edges e with dst e = n of msg[e, ·]      a segment sum at the destinations
    cnt[n]   = the number of edges of relation r with dst e = n    the same segment sum of the mask
    out_{r+1} = out_r + agg / max cnt 1
  and closes with max · 0.

  One block is proved once, over its stage values as variables (blockTerm_apply): at (n, j) it is the real number
  (∑ e ∈ E(n, r), g[src e, j]) / max |E(n, r)| 1, where g is the real content of hr and E(n, r) the edges of relation
  r into n. Its ingredients: the wrap of a negative id is one word's select (wrap_word); a relation id with signed
  value in {0, 1, 2} equals the word of r exactly when the value is r (mask_word); a segment sum at node n collects
  the edges whose destination id, read signed, is n, and a masked-out edge adds 0 (agg_read, cnt_read); a quotient of
  reals by a divisor at least one stays real (mean_read). Each of the three blocks of the program is that term of its
  own stages by definition; the stages are read from the arguments one operation at a time. The three means are
  added in the reference's own order, ((out0 + t0) + t1) + t2, which is the specification's sum over r.
-/
import Idealize.ShloMosaic.Lib.IdealHost
import Idealize.ShloMosaic.Lib.Pipeline.Value
import Idealize.ShloMosaic.Lib.StableHlo.Predicate
import Idealize.ShloMosaic.PureOps.Contract
import Mathlib.Algebra.BigOperators.Group.Finset.Basic
import Mathlib.Algebra.BigOperators.Ring.Finset
import Mathlib.Algebra.BigOperators.Fin
import proofs.«428839_j88648124990070_3_alg».proof.Proof.Spec
import proofs.«428839_j88648124990070_3_alg».proof.Proof.LibCoe
import proofs.«428839_j88648124990070_3_alg».proof.Proof.LibGather2
import proofs.«428839_j88648124990070_3_alg».proof.Proof.LibScatter
import proofs.«428839_j88648124990070_3_alg».proof.Proof.Decode
import proofs.«428839_j88648124990070_3_alg».proof.Proof.ReadStages

noncomputable section

namespace Cert.ReferenceIdeal.RV.L1

open Idealize.ShloMosaic Idealize.ShloMosaic.ValueIdx

/-! ## Words -/

/-- A negative id wraps once by the node count: the printed compare, add and select at one word. -/
theorem wrap_word (c : BitVec 32) :
    Scalar.select (IntOp.cmpi .slt c 0#32) (IntOp.addi c 100000#32) c
      = GnnDecode.wrapNeg (BitVec.ofNat 32 100000) c := by
  unfold GnnDecode.wrapNeg Scalar.select IntOp.cmpi IntOp.addi
  cases h : c.slt 0#32 <;> simp

/-- A word whose signed value is a relation number equals the word of relation r exactly when the number is r. -/
theorem mask_word (v rc : BitVec 32) (t r : Fin 3) (hv : v.toInt = (t.val : ℤ)) (hrc : rc.toInt = (r.val : ℤ)) :
    IntOp.cmpi .eq v rc = 1#1 ↔ t = r := by
  rw [StableHlo.Predicate.cmpi_eq_iff]
  constructor
  · intro h
    subst h
    apply Fin.ext
    have := hv.symm.trans hrc
    exact_mod_cast this
  · intro h
    subst h
    exact BitVec.eq_of_toInt_eq (hv.trans hrc.symm)

/-- The relation mask bit at one edge. -/
theorem mask_bit (v rc : BitVec 32) (t r : Fin 3) (hv : v.toInt = (t.val : ℤ)) (hrc : rc.toInt = (r.val : ℤ)) :
    IntOp.cmpi .eq v rc = if t = r then 1#1 else 0#1 := by
  by_cases h : t = r
  · rw [if_pos h]; exact (mask_word v rc t r hv hrc).2 h
  · rw [if_neg h]; exact eq_zero_of_ne_one fun h1 => h ((mask_word v rc t r hv hrc).1 h1)

/-! ## Broadcasts read at an index -/

/-- A vector as a column: entry (e, 0) is entry e. -/
theorem bc_col {α : Type} {E : Nat} (hE : E ≠ 1) (h : (⟨1, ![E]⟩ : Shape).BroadcastsInDim ⟨2, ![E, 1]⟩ ![0])
    (y : (⟨1, ![E]⟩ : Shape).Idx → α) (e : Fin E) (z : Fin 1) :
    broadcastInDim ⟨2, ![E, 1]⟩ ![0] h y (ix2 e z) = y (ix1 e) :=
  broadcastInDim_apply _ h y (ix2 e z) (ix1 e) (fun a => match a with
    | ⟨0, _⟩ => by show e.val = if E = 1 then 0 else e.val; rw [if_neg hE])

/-- A column repeated along the second axis: entry (e, c) is the column's entry (e, 0). -/
theorem bc_row {α : Type} {E C : Nat} (hE : E ≠ 1) (h : (⟨2, ![E, 1]⟩ : Shape).BroadcastsInDim ⟨2, ![E, C]⟩ ![0, 1])
    (y : (⟨2, ![E, 1]⟩ : Shape).Idx → α) (e : Fin E) (c : Fin C) :
    broadcastInDim ⟨2, ![E, C]⟩ ![0, 1] h y (ix2 e c) = y (ix2 e (0 : Fin 1)) :=
  broadcastInDim_apply _ h y (ix2 e c) (ix2 e (0 : Fin 1)) (fun a => match a with
    | ⟨0, _⟩ => by show e.val = if E = 1 then 0 else e.val; rw [if_neg hE]
    | ⟨1, _⟩ => by show 0 = if (1 : Nat) = 1 then 0 else c.val; rw [if_pos rfl])

/-! ## The two segment sums and the mean, in real numbers -/

open GnnSpec in
/-- The rows' segment sum at (n, j): the sum over the edges of relation r into n of the edge's real value, when the
    destination ids read signed are the destinations, the zero array is zero there, and a masked-out edge carries 0. -/
theorem agg_read {S C E w : Nat} (d : ScatterDims ⟨2, ![S, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (z : (⟨2, ![S, C]⟩ : Shape).Idx → EReal) (dcol : IVec ⟨2, ![E, 1]⟩ w) (msg : (⟨2, ![E, C]⟩ : Shape).Idx → EReal)
    (dst : Fin E → Fin S) (et : Fin E → Fin 3) (r : Fin 3) (a : Fin E → ℝ) (n : Fin S) (j : Fin C)
    (hz : z (ix2 n j) = 0)
    (hd : ∀ e, (dcol (ix2 e (0 : Fin 1))).toInt = ((dst e).val : ℤ))
    (hmsg : ∀ e, msg (ix2 e j) = (((if et e = r then a e else 0 : ℝ)) : EReal)) :
    Ideal.hostScatterAdd d z dcol msg (ix2 n j) = ((∑ e ∈ edges dst et n r, a e : ℝ) : EReal) := by
  rw [IndexOpsLib.scatterAdd_rows d huw hiw hsd hivd, hz, zero_add]
  have hf : (Finset.univ.filter fun e : Fin E => (dcol (ix2 e (0 : Fin 1))).toInt = (n.val : ℤ))
      = Finset.univ.filter fun e : Fin E => dst e = n := by
    apply Finset.filter_congr
    intro e _
    rw [hd e]
    constructor
    · intro h; exact Fin.ext (by exact_mod_cast h)
    · intro h; rw [h]
  rw [hf, Finset.sum_congr rfl (fun e _ => hmsg e), CoeLib.coe_sum, ← Finset.sum_filter, Finset.filter_filter]
  rfl

open GnnSpec in
/-- The mask's segment sum at n: the number of edges of relation r into n. -/
theorem cnt_read {S E w : Nat} (d : ScatterDims ⟨1, ![S]⟩ ⟨2, ![E, 1]⟩ ⟨1, ![E]⟩)
    (huw : d.updateWindowDims = []) (hiw : d.insertedWindowDims = [0]) (hsd : d.scatterDimsToOperandDims = [0])
    (hivd : d.indexVectorDim = 1)
    (z : (⟨1, ![S]⟩ : Shape).Idx → EReal) (dcol : IVec ⟨2, ![E, 1]⟩ w) (mf : (⟨1, ![E]⟩ : Shape).Idx → EReal)
    (dst : Fin E → Fin S) (et : Fin E → Fin 3) (r : Fin 3) (n : Fin S)
    (hz : z (ix1 n) = 0)
    (hd : ∀ e, (dcol (ix2 e (0 : Fin 1))).toInt = ((dst e).val : ℤ))
    (hmf : ∀ e, mf (ix1 e) = (((if et e = r then 1 else 0 : ℝ)) : EReal)) :
    Ideal.hostScatterAdd d z dcol mf (ix1 n) = (((edges dst et n r).card : ℝ) : EReal) := by
  rw [IndexOpsLib.scatterAdd_vec d huw hiw hsd hivd, hz, zero_add]
  have hf : (Finset.univ.filter fun e : Fin E => (dcol (ix2 e (0 : Fin 1))).toInt = (n.val : ℤ))
      = Finset.univ.filter fun e : Fin E => dst e = n := by
    apply Finset.filter_congr
    intro e _
    rw [hd e]
    constructor
    · intro h; exact Fin.ext (by exact_mod_cast h)
    · intro h; rw [h]
  rw [hf, Finset.sum_congr rfl (fun e _ => hmf e), CoeLib.coe_sum, Finset.sum_boole, Finset.filter_filter]
  rfl

open GnnSpec in
/-- The mean: the sum over a set divided by the larger of its size and one. -/
theorem mean_read {ι : Type} (s : Finset ι) (A : ℝ) :
    Ideal.div (A : EReal) (max (((s.card : ℝ)) : EReal) 1) = ((A / cnt1 s : ℝ) : EReal) := by
  rw [show (1 : EReal) = ((1 : ℝ) : EReal) by norm_cast, CoeLib.max_coe]
  exact CoeLib.div_coe_coe A (cnt1 s) (cnt1_ne s)

/-! ## One relation block over its stage values -/

open Cert.ReferenceIdeal Cert.ReferenceIdeal.Gen

section Block

variable (hr : (⟨S100000x64, .f32⟩ : BufTy).Contents (Elt Ideal))
  (c d : (⟨S1200000, .i32⟩ : BufTy).Contents (Elt Ideal))
  (m : (⟨S1200000, .i1⟩ : BufTy).Contents (Elt Ideal))

/-- The source ids, a negative one wrapped once, as a column. -/
def idsCol : (⟨S1200000x1, .i32⟩ : BufTy).Contents (Elt Ideal) :=
  broadcastInDim S1200000x1 ![0] bcast_S1200000_S1200000x1_0
    (select (cmpi .slt c (broadcastInDim S1200000 ![] bcast_S_S1200000 (constantI S_ 32 0#32)))
      (addi c (broadcastInDim S1200000 ![] bcast_S_S1200000 (constantI S_ 32 100000#32))) c)

/-- The messages: the transformed features' rows at the source ids, zero where the edge is not of the relation. -/
def msgOf : (⟨S1200000x64, .f32⟩ : BufTy).Contents (Elt Ideal) :=
  select (broadcastInDim S1200000x64 ![0, 1] bcast_S1200000x1_S1200000x64_0_1
            (broadcastInDim S1200000x1 ![0] bcast_S1200000_S1200000x1_0 m))
    (Host.gather gather_S100000x64_S1200000x1_S1200000x64_1_0_n_n_0_1_164 hr (idsCol c))
    (broadcastInDim S1200000x64 ![] bcast_S_S1200000x64 (constant (F := Ideal) S_ .f32 0x00000000#32))

/-- The messages summed at their destinations. -/
def aggOf : (⟨S100000x64, .f32⟩ : BufTy).Contents (Elt Ideal) :=
  Host.scatterAdd scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 d) (msgOf hr c m)

/-- The relation's edges counted at their destinations. -/
def cntOf : (⟨S100000, .f32⟩ : BufTy).Contents (Elt Ideal) :=
  Host.scatterAdd scatter_S100000_S1200000x1_S1200000_n_0_0_1
    (broadcastInDim S100000 ![] bcast_S_S100000 (constant (F := Ideal) S_ .f32 0x00000000#32))
    (broadcastInDim S1200000x1 ![0] bcast_S1200000_S1200000x1_0 d) (uitofp (F := Ideal) .f32 m)

/-- The block's closing term: the summed messages over the count, the count at least one. -/
def blockTerm : (⟨S100000x64, .f32⟩ : BufTy).Contents (Elt Ideal) :=
  Host.divf (aggOf hr c d m)
    (broadcastInDim S100000x64 ![0, 1] bcast_S100000x1_S100000x64_0_1
      (broadcastInDim S100000x1 ![0] bcast_S100000_S100000x1_0
        (maximumf (cntOf d m)
          (broadcastInDim S100000 ![] bcast_S_S100000 (constant (F := Ideal) S_ .f32 0x3F800000#32)))))

theorem blockTerm_apply (g : Fin 100000 → Fin 64 → ℝ) (src dst : Fin 1200000 → Fin 100000)
    (et : Fin 1200000 → Fin 3) (r : Fin 3)
    (hhr : ∀ n j, hr (ix2 n j) = ((g n j : ℝ) : EReal))
    (hc : ∀ e, GnnDecode.rowOf 100000 (by norm_num) (c (ix1 e)) = src e)
    (hd : ∀ e, (d (ix1 e)).toInt = ((dst e).val : ℤ))
    (hm : ∀ e, m (ix1 e) = if et e = r then 1#1 else 0#1)
    (n : Fin 100000) (j : Fin 64) :
    blockTerm hr c d m (ix2 n j)
      = (((∑ e ∈ GnnSpec.edges dst et n r, g (src e) j) / GnnSpec.cnt1 (GnnSpec.edges dst et n r) : ℝ) : EReal) := by
  have hcol : ∀ e : Fin 1200000,
      broadcastInDim S1200000x1 ![0] bcast_S1200000_S1200000x1_0 d (ix2 e (0 : Fin 1)) = d (ix1 e) :=
    fun e => bc_col (E := 1200000) (by decide) _ d e 0
  have hagg : aggOf hr c d m (ix2 n j) = ((∑ e ∈ GnnSpec.edges dst et n r, g (src e) j : ℝ) : EReal) := by
    unfold aggOf
    rw [IndexOpsLib.scatterAdd_ideal]
    refine agg_read _ rfl rfl rfl rfl _ _ _ dst et r (fun e => g (src e) j) n j ?_ ?_ ?_
    · rw [broadcastInDim_scalar_apply, constant_apply, Ideal.ofBits_zero_f32]
    · intro e; rw [hcol e]; exact hd e
    · intro e
      have hrow : IndexOpsLib.clampRow 100000 (by norm_num) (idsCol c (ix2 e (0 : Fin 1))) = src e := by
        unfold idsCol
        rw [bc_col (E := 1200000) (by decide), select_apply]
        show IndexOpsLib.clampRow 100000 _ (Scalar.select (IntOp.cmpi .slt (c (ix1 e)) 0#32)
          (IntOp.addi (c (ix1 e)) 100000#32) (c (ix1 e))) = src e
        rw [wrap_word]
        exact hc e
      unfold msgOf
      rw [select_apply, bc_row (E := 1200000) (C := 64) (by decide), bc_col (E := 1200000) (by decide), hm e,
        broadcastInDim_scalar_apply, constant_apply, Ideal.ofBits_zero_f32,
        IndexOpsLib.gather_rows (N := 100000) (by norm_num) _ rfl rfl rfl rfl rfl, hrow, hhr]
      by_cases h : et e = r
      · rw [if_pos h, if_pos h, select_one]
      · rw [if_neg h, if_neg h, select_zero, EReal.coe_zero]
  have hcnt : cntOf d m (ix1 n) = (((GnnSpec.edges dst et n r).card : ℝ) : EReal) := by
    unfold cntOf
    rw [IndexOpsLib.scatterAdd_ideal]
    refine cnt_read _ rfl rfl rfl rfl _ _ _ dst et r n ?_ ?_ ?_
    · rw [broadcastInDim_scalar_apply, constant_apply, Ideal.ofBits_zero_f32]
    · intro e; rw [hcol e]; exact hd e
    · intro e
      show (((m (ix1 e)).toNat : ℝ) : EReal) = _
      rw [hm e]
      by_cases h : et e = r
      · rw [if_pos h, if_pos h]; simp
      · rw [if_neg h, if_neg h]; simp
  unfold blockTerm
  rw [hostDivf_apply, hagg, bc_row (E := 100000) (C := 64) (by decide), bc_col (E := 100000) (by decide),
    maximumf_apply, hcnt, broadcastInDim_scalar_apply, constant_apply, Ideal.ofBits_one_f32]
  exact mean_read _ _

end Block

/-! ## The layer's stages read from the arguments -/

open Cert.ReferenceIdeal.Read

/-- The source row of the edge list at edge e. -/
theorem src_read (x1 : (⟨S2x1200000, .i32⟩ : BufTy).Contents (Elt Ideal)) (e : Fin 1200000) :
    val_main_v25 (F := Ideal) x1 (ix1 e) = x1 (ix2 (0 : Fin 2) e) := by
  rw [val_main_v25_apply, val_main_v24_apply]
  congr 1
  funext a
  match a with
  | ⟨0, _⟩ => rfl
  | ⟨1, _⟩ => exact Fin.ext (Nat.mod_eq_of_lt e.isLt)

/-- The destination row of the edge list at edge e. -/
theorem dst_read (x1 : (⟨S2x1200000, .i32⟩ : BufTy).Contents (Elt Ideal)) (e : Fin 1200000) :
    val_main_v27 (F := Ideal) x1 (ix1 e) = x1 (ix2 (1 : Fin 2) e) := by
  rw [val_main_v27_apply, val_main_v26_apply]
  congr 1
  funext a
  match a with
  | ⟨0, _⟩ => rfl
  | ⟨1, _⟩ => exact Fin.ext (Nat.mod_eq_of_lt e.isLt)

/-- Relation 0's matrix: the reshaped slice at (k, j) is the weight array at (0, k, j). -/
theorem w_read0 (x8 : (⟨S3x32x64, .f32⟩ : BufTy).Contents (Elt Ideal)) (k : Fin 32) (j : Fin 64) :
    val_main_v35 (F := Ideal) x8 (ix2 k j) = x8 (ix3 (0 : Fin 3) k j) := by
  rw [val_main_v35_apply, val_main_v34_apply]
  congr 1
  funext a
  match a with
  | ⟨0, _⟩ => rfl
  | ⟨1, _⟩ =>
    exact Fin.ext (by
      show (k.val * 64 + j.val) / 64 % 32 = k.val
      have := k.isLt; have := j.isLt; omega)
  | ⟨2, _⟩ =>
    exact Fin.ext (by
      show (k.val * 64 + j.val) % 64 = j.val
      have := j.isLt; omega)

/-- Relation 0's transformed features at (n, j): the real product row n of h by column j of relation 0's matrix. -/
theorem hr_read0 (x0 : (⟨S100000x2, .i32⟩ : BufTy).Contents (Elt Ideal))
    (x4 x5 : (⟨S16x8, .f32⟩ : BufTy).Contents (Elt Ideal)) (x6 : (⟨S16x32, .f32⟩ : BufTy).Contents (Elt Ideal))
    (x7 : (⟨S32, .f32⟩ : BufTy).Contents (Elt Ideal)) (x8 : (⟨S3x32x64, .f32⟩ : BufTy).Contents (Elt Ideal))
    (h : Fin 100000 → Fin 32 → ℝ) (w : Fin 3 → Fin 32 → Fin 64 → ℝ)
    (hh : ∀ n k, val_main_v23 (F := Ideal) x0 x4 x5 x6 x7 (ix2 n k) = ((h n k : ℝ) : EReal))
    (hw : ∀ r k j, x8 (ix3 r k j) = ((w r k j : ℝ) : EReal)) (n : Fin 100000) (j : Fin 64) :
    val_main_v36 (F := Ideal) x0 x4 x5 x6 x7 x8 (ix2 n j) = ((∑ k, h n k * w 0 k j : ℝ) : EReal) := by
  rw [val_main_v36_apply, ← CoeLib.coe_sum_mul Finset.univ (fun k => h n k) (fun k => w 0 k j)]
  refine Finset.sum_congr rfl fun k _ => ?_
  have el : lidx_main_v36 (ix2 n j) k = ix2 n k :=
    funext fun a => match a with | ⟨0, _⟩ => rfl | ⟨1, _⟩ => rfl
  have er : ridx_main_v36 (ix2 n j) k = ix2 k j :=
    funext fun a => match a with | ⟨0, _⟩ => rfl | ⟨1, _⟩ => rfl
  rw [el, er, hh, w_read0, hw]

/-- Relation 0's mask bit at edge e. -/
theorem m_read0 (x2 : (⟨S1200000, .i32⟩ : BufTy).Contents (Elt Ideal)) (et : Fin 1200000 → Fin 3)
    (het : ∀ e, (x2 (ix1 e)).toInt = ((et e).val : ℤ)) (e : Fin 1200000) :
    val_main_v33 (F := Ideal) x2 (ix1 e) = if et e = (0 : Fin 3) then 1#1 else 0#1 := by
  rw [val_main_v33_apply, val_main_v32_apply, val_main_c_3_apply]
  exact mask_bit _ _ (et e) 0 (het e) (by decide)

/-- Relation 0's block closes with the block term of its stages. -/
theorem blk_eq0 (x0 : (⟨S100000x2, .i32⟩ : BufTy).Contents (Elt Ideal))
    (x1 : (⟨S2x1200000, .i32⟩ : BufTy).Contents (Elt Ideal)) (x2 : (⟨S1200000, .i32⟩ : BufTy).Contents (Elt Ideal))
    (x4 x5 : (⟨S16x8, .f32⟩ : BufTy).Contents (Elt Ideal)) (x6 : (⟨S16x32, .f32⟩ : BufTy).Contents (Elt Ideal))
    (x7 : (⟨S32, .f32⟩ : BufTy).Contents (Elt Ideal)) (x8 : (⟨S3x32x64, .f32⟩ : BufTy).Contents (Elt Ideal)) :
    val_main_v57 (F := Ideal) x0 x1 x2 x4 x5 x6 x7 x8
      = blockTerm (val_main_v36 (F := Ideal) x0 x4 x5 x6 x7 x8) (val_main_v25 (F := Ideal) x1)
          (val_main_v27 (F := Ideal) x1) (val_main_v33 (F := Ideal) x2) := rfl

/-- Relation 1's matrix: the reshaped slice at (k, j) is the weight array at (1, k, j). -/
theorem w_read1 (x8 : (⟨S3x32x64, .f32⟩ : BufTy).Contents (Elt Ideal)) (k : Fin 32) (j : Fin 64) :
    val_main_v62 (F := Ideal) x8 (ix2 k j) = x8 (ix3 (1 : Fin 3) k j) := by
  rw [val_main_v62_apply, val_main_v61_apply]
  congr 1
  funext a
  match a with
  | ⟨0, _⟩ => rfl
  | ⟨1, _⟩ =>
    exact Fin.ext (by
      show (k.val * 64 + j.val) / 64 % 32 = k.val
      have := k.isLt; have := j.isLt; omega)
  | ⟨2, _⟩ =>
    exact Fin.ext (by
      show (k.val * 64 + j.val) % 64 = j.val
      have := j.isLt; omega)

/-- Relation 1's transformed features at (n, j): the real product row n of h by column j of relation 1's matrix. -/
theorem hr_read1 (x0 : (⟨S100000x2, .i32⟩ : BufTy).Contents (Elt Ideal))
    (x4 x5 : (⟨S16x8, .f32⟩ : BufTy).Contents (Elt Ideal)) (x6 : (⟨S16x32, .f32⟩ : BufTy).Contents (Elt Ideal))
    (x7 : (⟨S32, .f32⟩ : BufTy).Contents (Elt Ideal)) (x8 : (⟨S3x32x64, .f32⟩ : BufTy).Contents (Elt Ideal))
    (h : Fin 100000 → Fin 32 → ℝ) (w : Fin 3 → Fin 32 → Fin 64 → ℝ)
    (hh : ∀ n k, val_main_v23 (F := Ideal) x0 x4 x5 x6 x7 (ix2 n k) = ((h n k : ℝ) : EReal))
    (hw : ∀ r k j, x8 (ix3 r k j) = ((w r k j : ℝ) : EReal)) (n : Fin 100000) (j : Fin 64) :
    val_main_v63 (F := Ideal) x0 x4 x5 x6 x7 x8 (ix2 n j) = ((∑ k, h n k * w 1 k j : ℝ) : EReal) := by
  rw [val_main_v63_apply, ← CoeLib.coe_sum_mul Finset.univ (fun k => h n k) (fun k => w 1 k j)]
  refine Finset.sum_congr rfl fun k _ => ?_
  have el : lidx_main_v63 (ix2 n j) k = ix2 n k :=
    funext fun a => match a with | ⟨0, _⟩ => rfl | ⟨1, _⟩ => rfl
  have er : ridx_main_v63 (ix2 n j) k = ix2 k j :=
    funext fun a => match a with | ⟨0, _⟩ => rfl | ⟨1, _⟩ => rfl
  rw [el, er, hh, w_read1, hw]

/-- Relation 1's mask bit at edge e. -/
theorem m_read1 (x2 : (⟨S1200000, .i32⟩ : BufTy).Contents (Elt Ideal)) (et : Fin 1200000 → Fin 3)
    (het : ∀ e, (x2 (ix1 e)).toInt = ((et e).val : ℤ)) (e : Fin 1200000) :
    val_main_v60 (F := Ideal) x2 (ix1 e) = if et e = (1 : Fin 3) then 1#1 else 0#1 := by
  rw [val_main_v60_apply, val_main_v59_apply, val_main_c_9_apply]
  exact mask_bit _ _ (et e) 1 (het e) (by decide)

/-- Relation 1's block closes with the block term of its stages. -/
theorem blk_eq1 (x0 : (⟨S100000x2, .i32⟩ : BufTy).Contents (Elt Ideal))
    (x1 : (⟨S2x1200000, .i32⟩ : BufTy).Contents (Elt Ideal)) (x2 : (⟨S1200000, .i32⟩ : BufTy).Contents (Elt Ideal))
    (x4 x5 : (⟨S16x8, .f32⟩ : BufTy).Contents (Elt Ideal)) (x6 : (⟨S16x32, .f32⟩ : BufTy).Contents (Elt Ideal))
    (x7 : (⟨S32, .f32⟩ : BufTy).Contents (Elt Ideal)) (x8 : (⟨S3x32x64, .f32⟩ : BufTy).Contents (Elt Ideal)) :
    val_main_v84 (F := Ideal) x0 x1 x2 x4 x5 x6 x7 x8
      = blockTerm (val_main_v63 (F := Ideal) x0 x4 x5 x6 x7 x8) (val_main_v25 (F := Ideal) x1)
          (val_main_v27 (F := Ideal) x1) (val_main_v60 (F := Ideal) x2) := rfl

/-- Relation 2's matrix: the reshaped slice at (k, j) is the weight array at (2, k, j). -/
theorem w_read2 (x8 : (⟨S3x32x64, .f32⟩ : BufTy).Contents (Elt Ideal)) (k : Fin 32) (j : Fin 64) :
    val_main_v89 (F := Ideal) x8 (ix2 k j) = x8 (ix3 (2 : Fin 3) k j) := by
  rw [val_main_v89_apply, val_main_v88_apply]
  congr 1
  funext a
  match a with
  | ⟨0, _⟩ => rfl
  | ⟨1, _⟩ =>
    exact Fin.ext (by
      show (k.val * 64 + j.val) / 64 % 32 = k.val
      have := k.isLt; have := j.isLt; omega)
  | ⟨2, _⟩ =>
    exact Fin.ext (by
      show (k.val * 64 + j.val) % 64 = j.val
      have := j.isLt; omega)

/-- Relation 2's transformed features at (n, j): the real product row n of h by column j of relation 2's matrix. -/
theorem hr_read2 (x0 : (⟨S100000x2, .i32⟩ : BufTy).Contents (Elt Ideal))
    (x4 x5 : (⟨S16x8, .f32⟩ : BufTy).Contents (Elt Ideal)) (x6 : (⟨S16x32, .f32⟩ : BufTy).Contents (Elt Ideal))
    (x7 : (⟨S32, .f32⟩ : BufTy).Contents (Elt Ideal)) (x8 : (⟨S3x32x64, .f32⟩ : BufTy).Contents (Elt Ideal))
    (h : Fin 100000 → Fin 32 → ℝ) (w : Fin 3 → Fin 32 → Fin 64 → ℝ)
    (hh : ∀ n k, val_main_v23 (F := Ideal) x0 x4 x5 x6 x7 (ix2 n k) = ((h n k : ℝ) : EReal))
    (hw : ∀ r k j, x8 (ix3 r k j) = ((w r k j : ℝ) : EReal)) (n : Fin 100000) (j : Fin 64) :
    val_main_v90 (F := Ideal) x0 x4 x5 x6 x7 x8 (ix2 n j) = ((∑ k, h n k * w 2 k j : ℝ) : EReal) := by
  rw [val_main_v90_apply, ← CoeLib.coe_sum_mul Finset.univ (fun k => h n k) (fun k => w 2 k j)]
  refine Finset.sum_congr rfl fun k _ => ?_
  have el : lidx_main_v90 (ix2 n j) k = ix2 n k :=
    funext fun a => match a with | ⟨0, _⟩ => rfl | ⟨1, _⟩ => rfl
  have er : ridx_main_v90 (ix2 n j) k = ix2 k j :=
    funext fun a => match a with | ⟨0, _⟩ => rfl | ⟨1, _⟩ => rfl
  rw [el, er, hh, w_read2, hw]

/-- Relation 2's mask bit at edge e. -/
theorem m_read2 (x2 : (⟨S1200000, .i32⟩ : BufTy).Contents (Elt Ideal)) (et : Fin 1200000 → Fin 3)
    (het : ∀ e, (x2 (ix1 e)).toInt = ((et e).val : ℤ)) (e : Fin 1200000) :
    val_main_v87 (F := Ideal) x2 (ix1 e) = if et e = (2 : Fin 3) then 1#1 else 0#1 := by
  rw [val_main_v87_apply, val_main_v86_apply, val_main_c_16_apply]
  exact mask_bit _ _ (et e) 2 (het e) (by decide)

/-- Relation 2's block closes with the block term of its stages. -/
theorem blk_eq2 (x0 : (⟨S100000x2, .i32⟩ : BufTy).Contents (Elt Ideal))
    (x1 : (⟨S2x1200000, .i32⟩ : BufTy).Contents (Elt Ideal)) (x2 : (⟨S1200000, .i32⟩ : BufTy).Contents (Elt Ideal))
    (x4 x5 : (⟨S16x8, .f32⟩ : BufTy).Contents (Elt Ideal)) (x6 : (⟨S16x32, .f32⟩ : BufTy).Contents (Elt Ideal))
    (x7 : (⟨S32, .f32⟩ : BufTy).Contents (Elt Ideal)) (x8 : (⟨S3x32x64, .f32⟩ : BufTy).Contents (Elt Ideal)) :
    val_main_v111 (F := Ideal) x0 x1 x2 x4 x5 x6 x7 x8
      = blockTerm (val_main_v90 (F := Ideal) x0 x4 x5 x6 x7 x8) (val_main_v25 (F := Ideal) x1)
          (val_main_v27 (F := Ideal) x1) (val_main_v87 (F := Ideal) x2) := rfl

/-- The node's own part at (n, j): row n of h by column j of the root matrix, plus the bias. -/
theorem out0_read (x0 : (⟨S100000x2, .i32⟩ : BufTy).Contents (Elt Ideal))
    (x4 x5 : (⟨S16x8, .f32⟩ : BufTy).Contents (Elt Ideal)) (x6 : (⟨S16x32, .f32⟩ : BufTy).Contents (Elt Ideal))
    (x7 : (⟨S32, .f32⟩ : BufTy).Contents (Elt Ideal)) (x9 : (⟨S32x64, .f32⟩ : BufTy).Contents (Elt Ideal))
    (x10 : (⟨S64, .f32⟩ : BufTy).Contents (Elt Ideal))
    (h : Fin 100000 → Fin 32 → ℝ) (root : Fin 32 → Fin 64 → ℝ) (b : Fin 64 → ℝ)
    (hh : ∀ n k, val_main_v23 (F := Ideal) x0 x4 x5 x6 x7 (ix2 n k) = ((h n k : ℝ) : EReal))
    (hroot : ∀ k j, x9 (ix2 k j) = ((root k j : ℝ) : EReal)) (hb : ∀ j, x10 (ix1 j) = ((b j : ℝ) : EReal))
    (n : Fin 100000) (j : Fin 64) :
    val_main_v31 (F := Ideal) x0 x4 x5 x6 x7 x9 x10 (ix2 n j) = ((∑ k, h n k * root k j + b j : ℝ) : EReal) := by
  rw [val_main_v31_apply, Ideal.addf_def, val_main_v28_apply, val_main_v30_apply, val_main_v29_apply,
    EReal.coe_add, ← CoeLib.coe_sum_mul Finset.univ (fun k => h n k) (fun k => root k j)]
  congr 1
  · refine Finset.sum_congr rfl fun k _ => ?_
    have el : lidx_main_v28 (ix2 n j) k = ix2 n k :=
      funext fun a => match a with | ⟨0, _⟩ => rfl | ⟨1, _⟩ => rfl
    have er : ridx_main_v28 (ix2 n j) k = ix2 k j :=
      funext fun a => match a with | ⟨0, _⟩ => rfl | ⟨1, _⟩ => rfl
    rw [el, er, hh, hroot]
  · have eb : idx_main_v29 (idx_main_v30 (ix2 n j)) = ix1 j :=
      funext fun a => match a with | ⟨0, _⟩ => rfl
    rw [eb, hb]

end Cert.ReferenceIdeal.RV.L1

namespace Cert.ReferenceIdeal.RV

open Cert.ReferenceIdeal Cert.ReferenceIdeal.Gen Cert.ReferenceIdeal.Read Idealize.ShloMosaic Idealize.ShloMosaic.ValueIdx
open Cert.ReferenceIdeal.RV.L1

/-- THE FIRST RELATIONAL GRAPH LAYER. At every node n and column j the reference's value is the real layer of the
    specification: the node's own features through the root matrix, the bias, the three relations' means of the
    sources' transformed features in the reference's own order of addition, and the rectifier. -/
theorem ref_layer1 (x0 : (⟨S100000x2, .i32⟩ : BufTy).Contents (Elt Ideal))
    (x1 : (⟨S2x1200000, .i32⟩ : BufTy).Contents (Elt Ideal))
    (x2 : (⟨S1200000, .i32⟩ : BufTy).Contents (Elt Ideal))
    (x4 x5 : (⟨S16x8, .f32⟩ : BufTy).Contents (Elt Ideal))
    (x6 : (⟨S16x32, .f32⟩ : BufTy).Contents (Elt Ideal))
    (x7 : (⟨S32, .f32⟩ : BufTy).Contents (Elt Ideal))
    (x8 : (⟨S3x32x64, .f32⟩ : BufTy).Contents (Elt Ideal))
    (x9 : (⟨S32x64, .f32⟩ : BufTy).Contents (Elt Ideal))
    (x10 : (⟨S64, .f32⟩ : BufTy).Contents (Elt Ideal))
    (h : Fin 100000 → Fin 32 → ℝ) (src dst : Fin 1200000 → Fin 100000) (et : Fin 1200000 → Fin 3)
    (w : Fin 3 → Fin 32 → Fin 64 → ℝ) (root : Fin 32 → Fin 64 → ℝ) (b : Fin 64 → ℝ)
    (hh : ∀ n k, val_main_v23 (F := Ideal) x0 x4 x5 x6 x7 (ix2 n k) = ((h n k : ℝ) : EReal))
    (hsrc : ∀ e, GnnDecode.rowOf 100000 (by norm_num) (x1 (ix2 (0 : Fin 2) e)) = src e)
    (hdst : ∀ e, (x1 (ix2 (1 : Fin 2) e)).toInt = ((dst e).val : ℤ))
    (het : ∀ e, (x2 (ix1 e)).toInt = ((et e).val : ℤ))
    (hw : ∀ r k j, x8 (ix3 r k j) = ((w r k j : ℝ) : EReal))
    (hroot : ∀ k j, x9 (ix2 k j) = ((root k j : ℝ) : EReal))
    (hb : ∀ j, x10 (ix1 j) = ((b j : ℝ) : EReal)) :
    ∀ (n : Fin 100000) (j : Fin 64),
      val_main_v113 (F := Ideal) x0 x1 x2 x4 x5 x6 x7 x8 x9 x10 (ix2 n j)
        = ((GnnSpec.layer src dst et h w root b n j : ℝ) : EReal) := by
  intro n j
  have hc : ∀ e, GnnDecode.rowOf 100000 (by norm_num) (val_main_v25 (F := Ideal) x1 (ix1 e)) = src e :=
    fun e => by rw [src_read]; exact hsrc e
  have hd : ∀ e, (val_main_v27 (F := Ideal) x1 (ix1 e)).toInt = ((dst e).val : ℤ) :=
    fun e => by rw [dst_read]; exact hdst e
  have t0 : val_main_v57 (F := Ideal) x0 x1 x2 x4 x5 x6 x7 x8 (ix2 n j)
      = (((∑ e ∈ GnnSpec.edges dst et n 0, ∑ k, h (src e) k * w 0 k j)
          / GnnSpec.cnt1 (GnnSpec.edges dst et n 0) : ℝ) : EReal) :=
    (congrFun (blk_eq0 x0 x1 x2 x4 x5 x6 x7 x8) (ix2 n j)).trans
      (blockTerm_apply _ _ _ _ (fun n j => ∑ k, h n k * w 0 k j) src dst et 0
        (hr_read0 x0 x4 x5 x6 x7 x8 h w hh hw) hc hd (m_read0 x2 et het) n j)
  have t1 : val_main_v84 (F := Ideal) x0 x1 x2 x4 x5 x6 x7 x8 (ix2 n j)
      = (((∑ e ∈ GnnSpec.edges dst et n 1, ∑ k, h (src e) k * w 1 k j)
          / GnnSpec.cnt1 (GnnSpec.edges dst et n 1) : ℝ) : EReal) :=
    (congrFun (blk_eq1 x0 x1 x2 x4 x5 x6 x7 x8) (ix2 n j)).trans
      (blockTerm_apply _ _ _ _ (fun n j => ∑ k, h n k * w 1 k j) src dst et 1
        (hr_read1 x0 x4 x5 x6 x7 x8 h w hh hw) hc hd (m_read1 x2 et het) n j)
  have t2 : val_main_v111 (F := Ideal) x0 x1 x2 x4 x5 x6 x7 x8 (ix2 n j)
      = (((∑ e ∈ GnnSpec.edges dst et n 2, ∑ k, h (src e) k * w 2 k j)
          / GnnSpec.cnt1 (GnnSpec.edges dst et n 2) : ℝ) : EReal) :=
    (congrFun (blk_eq2 x0 x1 x2 x4 x5 x6 x7 x8) (ix2 n j)).trans
      (blockTerm_apply _ _ _ _ (fun n j => ∑ k, h n k * w 2 k j) src dst et 2
        (hr_read2 x0 x4 x5 x6 x7 x8 h w hh hw) hc hd (m_read2 x2 et het) n j)
  have hz : val_main_call4_v0 (F := Ideal) (ix2 n j) = ((0 : ℝ) : EReal) := by
    rw [val_main_call4_v0_apply, val_main_call4_cst_apply, Ideal.ofBits_def, Ideal.ofBits_zero_f32]
    rfl
  rw [val_main_v113_apply, Ideal.maximumf_def, val_main_v112_apply, Ideal.addf_def, val_main_v85_apply,
    Ideal.addf_def, val_main_v58_apply, Ideal.addf_def]
  rw [t0, t1, t2]
  rw [out0_read x0 x4 x5 x6 x7 x9 x10 h root b hh hroot hb, hz]
  rw [← EReal.coe_add, ← EReal.coe_add, ← EReal.coe_add, CoeLib.max_coe]
  unfold GnnSpec.layer
  rw [Fin.sum_univ_three]
  exact congrArg Real.toEReal (congrArg (fun t : ℝ => max t 0) (by ring))

end Cert.ReferenceIdeal.RV

end
-- ==== Proof.RefLayer2.lean ====
/-
  The second relational graph layer of the reference, read at a node and a column.

  The layer's output is max (out0 + t0 + t1 + t2) 0, where out0 = h · root + b is the node's own term and, for each of
  the three relations r, t_r is the mean message into the node: the edges' sources are looked up in the table h · W_r
  (a negative id wraps once by the node count and the lookup clamps it), an edge of another relation is replaced by
  zero, the rows are summed into their destination nodes, and the sum is divided by the number of the relation's edges
  into the node, at least one. Each relation's twenty-seven operations are one function `relBlock` of four operands
  (the table, the source ids, the destination ids, the relation ids) and the relation's number; it is read at an index
  once, over variables, and its value is shown to be the coercion of the real mean; the three blocks of the program are
  that function of their operands by unfolding.
-/
import proofs.«428839_j88648124990070_3_alg».proof.Proof.ReadStages
import proofs.«428839_j88648124990070_3_alg».proof.Proof.Spec
import proofs.«428839_j88648124990070_3_alg».proof.Proof.LibCoe
import proofs.«428839_j88648124990070_3_alg».proof.Proof.LibGather2
import proofs.«428839_j88648124990070_3_alg».proof.Proof.LibScatter
import proofs.«428839_j88648124990070_3_alg».proof.Proof.Decode
import Idealize.ShloMosaic.Lib.Pipeline.Value
import Idealize.ShloMosaic.Lib.ValueIdx
import Idealize.ShloMosaic.PureOps.Ideal.Laws
import Idealize.ShloMosaic.Lib.StableHlo.Predicate

noncomputable section

namespace Cert.ReferenceIdeal.RV.L2

open Cert.ReferenceIdeal Cert.ReferenceIdeal.Gen Cert.ReferenceIdeal.Read Idealize.ShloMosaic Idealize.ShloMosaic.ValueIdx

/-! ## Broadcasts read at an index -/

section Bcast
variable {α : Type}

theorem bc_scalar_E (y : S_.Idx → α) (i : S1200000.Idx) :
    broadcastInDim S1200000 ![] bcast_S_S1200000 y i = y ix0 :=
  broadcastInDim_apply _ bcast_S_S1200000 y i ix0 (fun a => a.elim0)

theorem bc_scalar_E64 (y : S_.Idx → α) (i : S1200000x64.Idx) :
    broadcastInDim S1200000x64 ![] bcast_S_S1200000x64 y i = y ix0 :=
  broadcastInDim_apply _ bcast_S_S1200000x64 y i ix0 (fun a => a.elim0)

theorem bc_scalar_N64 (y : S_.Idx → α) (i : S100000x64.Idx) :
    broadcastInDim S100000x64 ![] bcast_S_S100000x64 y i = y ix0 :=
  broadcastInDim_apply _ bcast_S_S100000x64 y i ix0 (fun a => a.elim0)

theorem bc_scalar_N (y : S_.Idx → α) (i : S100000.Idx) :
    broadcastInDim S100000 ![] bcast_S_S100000 y i = y ix0 :=
  broadcastInDim_apply _ bcast_S_S100000 y i ix0 (fun a => a.elim0)

theorem bc_col_E (y : S1200000.Idx → α) (e : Fin 1200000) (c : Fin 1) :
    broadcastInDim S1200000x1 ![0] bcast_S1200000_S1200000x1_0 y (ix2 e c) = y (ix1 e) :=
  broadcastInDim_apply _ bcast_S1200000_S1200000x1_0 y (ix2 e c) (ix1 e) (fun a => match a with
    | ⟨0, _⟩ => by show e.val = if (1200000 : Nat) = 1 then 0 else e.val; rw [if_neg (by decide)])

theorem bc_cols_E64 (y : S1200000x1.Idx → α) (e : Fin 1200000) (c : Fin 64) :
    broadcastInDim S1200000x64 ![0, 1] bcast_S1200000x1_S1200000x64_0_1 y (ix2 e c) = y (ix2 e (0 : Fin 1)) :=
  broadcastInDim_apply _ bcast_S1200000x1_S1200000x64_0_1 y (ix2 e c) (ix2 e (0 : Fin 1)) (fun a => match a with
    | ⟨0, _⟩ => by show e.val = if (1200000 : Nat) = 1 then 0 else e.val; rw [if_neg (by decide)]
    | ⟨1, _⟩ => by show 0 = if (1 : Nat) = 1 then 0 else c.val; rw [if_pos rfl])

theorem bc_col_N (y : S100000.Idx → α) (n : Fin 100000) (c : Fin 1) :
    broadcastInDim S100000x1 ![0] bcast_S100000_S100000x1_0 y (ix2 n c) = y (ix1 n) :=
  broadcastInDim_apply _ bcast_S100000_S100000x1_0 y (ix2 n c) (ix1 n) (fun a => match a with
    | ⟨0, _⟩ => by show n.val = if (100000 : Nat) = 1 then 0 else n.val; rw [if_neg (by decide)])

theorem bc_cols_N64 (y : S100000x1.Idx → α) (n : Fin 100000) (c : Fin 64) :
    broadcastInDim S100000x64 ![0, 1] bcast_S100000x1_S100000x64_0_1 y (ix2 n c) = y (ix2 n (0 : Fin 1)) :=
  broadcastInDim_apply _ bcast_S100000x1_S100000x64_0_1 y (ix2 n c) (ix2 n (0 : Fin 1)) (fun a => match a with
    | ⟨0, _⟩ => by show n.val = if (100000 : Nat) = 1 then 0 else n.val; rw [if_neg (by decide)]
    | ⟨1, _⟩ => by show 0 = if (1 : Nat) = 1 then 0 else c.val; rw [if_pos rfl])

end Bcast

/-! ## One relation's block of operations, over its operands as variables -/

section Defs
variable {F : FTy → Type} [FloatOps F]

/-- The relation's mask: the edge's relation id is the relation's number. -/
def relMask (x2 : IVec S1200000 32) (rc : BitVec 32) : IVec S1200000 1 :=
  cmpi .eq x2 (broadcastInDim S1200000 ![] bcast_S_S1200000 (constantI S_ 32 rc))

/-- The source ids, a negative one wrapped once by the node count, as a column. -/
def srcCol (s25 : IVec S1200000 32) : IVec S1200000x1 32 :=
  broadcastInDim S1200000x1 ![0] bcast_S1200000_S1200000x1_0
    (select (cmpi .slt s25 (broadcastInDim S1200000 ![] bcast_S_S1200000 (constantI S_ 32 0#32)))
      (addi s25 (broadcastInDim S1200000 ![] bcast_S_S1200000 (constantI S_ 32 100000#32))) s25)

/-- The messages: the transformed features of each edge's source, zero on the edges of another relation. -/
def relMsg (hr : FVec F S100000x64 .f32) (s25 x2 : IVec S1200000 32) (rc : BitVec 32) : FVec F S1200000x64 .f32 :=
  select (broadcastInDim S1200000x64 ![0, 1] bcast_S1200000x1_S1200000x64_0_1
      (broadcastInDim S1200000x1 ![0] bcast_S1200000_S1200000x1_0 (relMask x2 rc)))
    (Host.gather gather_S100000x64_S1200000x1_S1200000x64_1_0_n_n_0_1_164 hr (srcCol s25))
    (broadcastInDim S1200000x64 ![] bcast_S_S1200000x64 (id (constant (F := F) S_ .f32 0x00000000#32)))

/-- The messages summed into their destination nodes. -/
def relAgg (hr : FVec F S100000x64 .f32) (s25 s27 x2 : IVec S1200000 32) (rc : BitVec 32) : FVec F S100000x64 .f32 :=
  Host.scatterAdd scatter_S100000x64_S1200000x1_S1200000x64_1_0_0_1
    (broadcastInDim S100000x64 ![] bcast_S_S100000x64 (constant (F := F) S_ .f32 0x00000000#32))
    (broadcastInDim S1200000x1 ![0] bcast_S1200000_S1200000x1_0 s27)
    (relMsg hr s25 x2 rc)

/-- The number of the relation's edges into each node. -/
def relCnt (s27 x2 : IVec S1200000 32) (rc : BitVec 32) : FVec F S100000 .f32 :=
  Host.scatterAdd scatter_S100000_S1200000x1_S1200000_n_0_0_1
    (broadcastInDim S100000 ![] bcast_S_S100000 (constant (F := F) S_ .f32 0x00000000#32))
    (broadcastInDim S1200000x1 ![0] bcast_S1200000_S1200000x1_0 s27)
    (uitofp (F := F) .f32 (relMask x2 rc))

/-- The divisor: that number, at least one, the same in every column. -/
def relDen (s27 x2 : IVec S1200000 32) (rc : BitVec 32) : FVec F S100000x64 .f32 :=
  broadcastInDim S100000x64 ![0, 1] bcast_S100000x1_S100000x64_0_1
    (broadcastInDim S100000x1 ![0] bcast_S100000_S100000x1_0
      (maximumf (relCnt (F := F) s27 x2 rc)
        (broadcastInDim S100000 ![] bcast_S_S100000 (constant (F := F) S_ .f32 0x3F800000#32))))

/-- The relation's term: the mean message into each node. -/
def relBlock (hr : FVec F S100000x64 .f32) (s25 s27 x2 : IVec S1200000 32) (rc : BitVec 32) : FVec F S100000x64 .f32 :=
  Host.divf (relAgg hr s25 s27 x2 rc) (relDen (F := F) s27 x2 rc)

end Defs

/-! ## The pointwise host operations read at an index -/

theorem host_divf_apply {s : Shape} (a b : FVec Ideal s .f32) (i : s.Idx) :
    Host.divf a b i = Ideal.div (a i) (b i) := rfl

theorem uitofp_apply {s : Shape} (m : IVec s 1) (i : s.Idx) :
    uitofp (F := Ideal) .f32 m i = (((m i).toNat : ℝ) : EReal) := rfl

theorem one_f32 : Ideal.ofBits .f32 0x3F800000#32 = 1 := by
  simp [Ideal.ofBits, Ideal.ieee, -EReal.coe_mul]; norm_num

/-! ## The block's stages read at an index -/

theorem relMask_apply (x2 : IVec S1200000 32) (rc : BitVec 32) (e : Fin 1200000) :
    relMask x2 rc (ix1 e) = IntOp.cmpi .eq (x2 (ix1 e)) rc := by
  unfold relMask
  show IntOp.cmpi .eq (x2 (ix1 e)) (broadcastInDim S1200000 ![] bcast_S_S1200000 (constantI S_ 32 rc) (ix1 e)) = _
  rw [bc_scalar_E]
  rfl

/-- The printed compare, add and select at an edge are the wrap of a negative id. -/
theorem srcCol_apply (s25 : IVec S1200000 32) (e : Fin 1200000) (c : Fin 1) :
    srcCol s25 (ix2 e c) = GnnDecode.wrapNeg (BitVec.ofNat 32 100000) (s25 (ix1 e)) := by
  unfold srcCol
  rw [bc_col_E]
  show Scalar.select (IntOp.cmpi .slt (s25 (ix1 e)) (broadcastInDim S1200000 ![] bcast_S_S1200000 (constantI S_ 32 0#32) (ix1 e)))
      (IntOp.addi (s25 (ix1 e)) (broadcastInDim S1200000 ![] bcast_S_S1200000 (constantI S_ 32 100000#32) (ix1 e))) (s25 (ix1 e)) = _
  rw [bc_scalar_E, bc_scalar_E]
  show Scalar.select (IntOp.cmpi .slt (s25 (ix1 e)) 0#32) (IntOp.addi (s25 (ix1 e)) 100000#32) (s25 (ix1 e)) = _
  unfold GnnDecode.wrapNeg Scalar.select IntOp.cmpi IntOp.addi
  cases h : (s25 (ix1 e)).slt 0#32
  · simp
  · simp

/-- A message at an edge and a column: the source's row of the table if the mask is set, else zero. -/
theorem relMsg_apply (hr : FVec Ideal S100000x64 .f32) (s25 x2 : IVec S1200000 32) (rc : BitVec 32)
    (e : Fin 1200000) (j : Fin 64) :
    relMsg (F := Ideal) hr s25 x2 rc (ix2 e j)
      = Scalar.select (IntOp.cmpi .eq (x2 (ix1 e)) rc)
          (hr (ix2 (GnnDecode.rowOf 100000 (by norm_num) (s25 (ix1 e))) j)) 0 := by
  unfold relMsg
  rw [select_apply, bc_cols_E64, bc_col_E, relMask_apply, bc_scalar_E64,
    IndexOpsLib.gather_rows (by norm_num) _ rfl rfl rfl rfl rfl, srcCol_apply]
  show Scalar.select _ _ (Ideal.ofBits .f32 0x00000000#32) = _
  rw [Ideal.ofBits_zero_f32]
  rfl

theorem relAgg_apply (hr : FVec Ideal S100000x64 .f32) (s25 s27 x2 : IVec S1200000 32) (rc : BitVec 32)
    (n : Fin 100000) (j : Fin 64) :
    relAgg (F := Ideal) hr s25 s27 x2 rc (ix2 n j)
      = ∑ e ∈ Finset.univ.filter (fun e : Fin 1200000 => (s27 (ix1 e)).toInt = (n.val : ℤ)),
          Scalar.select (IntOp.cmpi .eq (x2 (ix1 e)) rc)
            (hr (ix2 (GnnDecode.rowOf 100000 (by norm_num) (s25 (ix1 e))) j)) 0 := by
  unfold relAgg
  rw [IndexOpsLib.scatterAdd_ideal, IndexOpsLib.scatterAdd_rows _ rfl rfl rfl rfl, bc_scalar_N64]
  show Ideal.ofBits .f32 0x00000000#32 + _ = _
  rw [Ideal.ofBits_zero_f32, zero_add]
  refine Finset.sum_congr (Finset.filter_congr fun e _ => by rw [bc_col_E]) fun e _ => ?_
  rw [relMsg_apply]

theorem relCnt_apply (s27 x2 : IVec S1200000 32) (rc : BitVec 32) (n : Fin 100000) :
    relCnt (F := Ideal) s27 x2 rc (ix1 n)
      = ∑ e ∈ Finset.univ.filter (fun e : Fin 1200000 => (s27 (ix1 e)).toInt = (n.val : ℤ)),
          (((IntOp.cmpi .eq (x2 (ix1 e)) rc).toNat : ℝ) : EReal) := by
  unfold relCnt
  rw [IndexOpsLib.scatterAdd_ideal, IndexOpsLib.scatterAdd_vec _ rfl rfl rfl rfl, bc_scalar_N]
  show Ideal.ofBits .f32 0x00000000#32 + _ = _
  rw [Ideal.ofBits_zero_f32, zero_add]
  refine Finset.sum_congr (Finset.filter_congr fun e _ => by rw [bc_col_E]) fun e _ => ?_
  rw [uitofp_apply, relMask_apply]

theorem relDen_apply (s27 x2 : IVec S1200000 32) (rc : BitVec 32) (n : Fin 100000) (j : Fin 64) :
    relDen (F := Ideal) s27 x2 rc (ix2 n j)
      = max (∑ e ∈ Finset.univ.filter (fun e : Fin 1200000 => (s27 (ix1 e)).toInt = (n.val : ℤ)),
          (((IntOp.cmpi .eq (x2 (ix1 e)) rc).toNat : ℝ) : EReal)) 1 := by
  unfold relDen
  rw [bc_cols_N64, bc_col_N, maximumf_apply, relCnt_apply, bc_scalar_N]
  show max _ (Ideal.ofBits .f32 0x3F800000#32) = _
  rw [one_f32]

theorem relBlock_apply (hr : FVec Ideal S100000x64 .f32) (s25 s27 x2 : IVec S1200000 32) (rc : BitVec 32)
    (n : Fin 100000) (j : Fin 64) :
    relBlock (F := Ideal) hr s25 s27 x2 rc (ix2 n j)
      = Ideal.div
          (∑ e ∈ Finset.univ.filter (fun e : Fin 1200000 => (s27 (ix1 e)).toInt = (n.val : ℤ)),
            Scalar.select (IntOp.cmpi .eq (x2 (ix1 e)) rc)
              (hr (ix2 (GnnDecode.rowOf 100000 (by norm_num) (s25 (ix1 e))) j)) 0)
          (max (∑ e ∈ Finset.univ.filter (fun e : Fin 1200000 => (s27 (ix1 e)).toInt = (n.val : ℤ)),
            (((IntOp.cmpi .eq (x2 (ix1 e)) rc).toNat : ℝ) : EReal)) 1) := by
  unfold relBlock
  rw [host_divf_apply, relAgg_apply, relDen_apply]

/-! ## The block's value as real arithmetic -/

/-- A relation id in range equals the relation's number as a word exactly when it is that relation. -/
theorem mask_iff (v : BitVec 32) (t r : Fin 3) (hv : v.toInt = (t.val : ℤ)) :
    IntOp.cmpi .eq v (BitVec.ofNat 32 r.val) = 1#1 ↔ t = r := by
  rw [StableHlo.Predicate.cmpi_eq_iff]
  have hr : (BitVec.ofNat 32 r.val).toInt = (r.val : ℤ) :=
    StableHlo.Predicate.toInt_ofNat_small r.val (by have := r.isLt; omega)
  constructor
  · intro h
    rw [h, hr] at hv
    exact Fin.ext (by exact_mod_cast hv.symm)
  · intro h
    subst h
    apply BitVec.eq_of_toInt_eq
    rw [hv, hr]

/-- The masked sum over the edges into a node divided by the masked count, at least one, is the mean over the
    relation's edges into the node: a masked-out edge adds nothing to either. -/
theorem mean_of_masked (dst : Fin 1200000 → Fin 100000) (et : Fin 1200000 → Fin 3) (r : Fin 3) (n : Fin 100000)
    (a : Fin 1200000 → BitVec 32) (m : Fin 1200000 → BitVec 1) (v : Fin 1200000 → EReal) (f : Fin 1200000 → ℝ)
    (ha : ∀ e, (a e).toInt = ((dst e).val : ℤ)) (hm : ∀ e, m e = 1#1 ↔ et e = r) (hv : ∀ e, v e = ((f e : ℝ) : EReal)) :
    Ideal.div (∑ e ∈ Finset.univ.filter (fun e : Fin 1200000 => (a e).toInt = (n.val : ℤ)), Scalar.select (m e) (v e) 0)
        (max (∑ e ∈ Finset.univ.filter (fun e : Fin 1200000 => (a e).toInt = (n.val : ℤ)), (((m e).toNat : ℝ) : EReal)) 1)
      = (((∑ e ∈ GnnSpec.edges dst et n r, f e) / GnnSpec.cnt1 (GnnSpec.edges dst et n r) : ℝ) : EReal) := by
  have hfil : (Finset.univ.filter fun e : Fin 1200000 => (a e).toInt = (n.val : ℤ))
      = Finset.univ.filter fun e : Fin 1200000 => dst e = n := by
    apply Finset.filter_congr
    intro e _
    rw [ha e]
    constructor
    · intro h; exact Fin.ext (by exact_mod_cast h)
    · intro h; rw [h]
  have hsel : ∀ e, Scalar.select (m e) (v e) (0 : EReal) = if et e = r then ((f e : ℝ) : EReal) else 0 := by
    intro e
    by_cases h : et e = r
    · rw [if_pos h, (hm e).2 h, select_one, hv]
    · rw [if_neg h, eq_zero_of_ne_one (fun h1 => h ((hm e).1 h1)), select_zero]
  have hnat : ∀ e, (((m e).toNat : ℝ) : EReal) = if et e = r then ((1 : ℝ) : EReal) else 0 := by
    intro e
    by_cases h : et e = r
    · rw [if_pos h, (hm e).2 h]; simp
    · rw [if_neg h, eq_zero_of_ne_one (fun h1 => h ((hm e).1 h1))]; simp
  have hedges : (Finset.univ.filter fun e : Fin 1200000 => dst e = n).filter (fun e => et e = r)
      = GnnSpec.edges dst et n r := by
    unfold GnnSpec.edges
    rw [Finset.filter_filter]
  rw [hfil]
  simp only [hsel, hnat]
  rw [← Finset.sum_filter, ← Finset.sum_filter, hedges, CoeLib.coe_sum, CoeLib.coe_sum, ← EReal.coe_one,
    CoeLib.max_coe, CoeLib.div_coe_coe _ _ (by
      have : (0 : ℝ) < max (∑ _e ∈ GnnSpec.edges dst et n r, (1 : ℝ)) 1 := lt_of_lt_of_le one_pos (le_max_right _ _)
      exact this.ne')]
  rw [Finset.sum_const, nsmul_eq_mul, mul_one]
  rfl

/-- One relation's term at a node and a column, when the table holds reals and the ids decode: the mean over the
    relation's edges into the node of the table's row at the edge's source. -/
theorem relBlock_real (hr : FVec Ideal S100000x64 .f32) (s25 s27 x2 : IVec S1200000 32) (r : Fin 3)
    (src dst : Fin 1200000 → Fin 100000) (et : Fin 1200000 → Fin 3) (g : Fin 100000 → Fin 64 → ℝ)
    (hg : ∀ m j, hr (ix2 m j) = ((g m j : ℝ) : EReal))
    (hsrc : ∀ e, GnnDecode.rowOf 100000 (by norm_num) (s25 (ix1 e)) = src e)
    (hdst : ∀ e, (s27 (ix1 e)).toInt = ((dst e).val : ℤ))
    (het : ∀ e, (x2 (ix1 e)).toInt = ((et e).val : ℤ)) (n : Fin 100000) (j : Fin 64) :
    relBlock (F := Ideal) hr s25 s27 x2 (BitVec.ofNat 32 r.val) (ix2 n j)
      = (((∑ e ∈ GnnSpec.edges dst et n r, g (src e) j) / GnnSpec.cnt1 (GnnSpec.edges dst et n r) : ℝ) : EReal) := by
  rw [relBlock_apply]
  exact mean_of_masked dst et r n (fun e => s27 (ix1 e)) (fun e => IntOp.cmpi .eq (x2 (ix1 e)) (BitVec.ofNat 32 r.val))
    (fun e => hr (ix2 (GnnDecode.rowOf 100000 (by norm_num) (s25 (ix1 e))) j)) (fun e => g (src e) j) hdst
    (fun e => mask_iff _ _ _ (het e))
    (fun e => (congrArg (fun m => hr (ix2 m j)) (hsrc e)).trans (hg _ _))

/-- A row of a product of a real table with a real matrix, the sum written over any two index maps that are the row's
    and the column's. -/
theorem dot_real (y0 : S100000x64.Idx → EReal) (y1 : S64x64.Idx → EReal) (h : Fin 100000 → Fin 64 → ℝ)
    (w : Fin 64 → Fin 64 → ℝ) (h0 : ∀ m k, y0 (ix2 m k) = ((h m k : ℝ) : EReal))
    (h1 : ∀ k j, y1 (ix2 k j) = ((w k j : ℝ) : EReal)) (m : Fin 100000) (j : Fin 64)
    (li : Fin 64 → S100000x64.Idx) (ri : Fin 64 → S64x64.Idx) (hl : ∀ k, li k = ix2 m k) (hr : ∀ k, ri k = ix2 k j) :
    ∑ k : Fin 64, y0 (li k) * y1 (ri k) = ((∑ k, h m k * w k j : ℝ) : EReal) := by
  rw [← CoeLib.coe_sum_mul]
  refine Finset.sum_congr rfl fun k _ => ?_
  rw [hl, hr, h0, h1]

/-! ## The three blocks of the program are that block of their operands -/

section Blocks
variable {F : FTy → Type} [FloatOps F]
variable (x0 : (⟨S100000x2, .i32⟩ : BufTy).Contents (Elt F)) (x1 : (⟨S2x1200000, .i32⟩ : BufTy).Contents (Elt F))
  (x2 : (⟨S1200000, .i32⟩ : BufTy).Contents (Elt F)) (x4 x5 : (⟨S16x8, .f32⟩ : BufTy).Contents (Elt F))
  (x6 : (⟨S16x32, .f32⟩ : BufTy).Contents (Elt F)) (x7 : (⟨S32, .f32⟩ : BufTy).Contents (Elt F))
  (x8 : (⟨S3x32x64, .f32⟩ : BufTy).Contents (Elt F)) (x9 : (⟨S32x64, .f32⟩ : BufTy).Contents (Elt F))
  (x10 : (⟨S64, .f32⟩ : BufTy).Contents (Elt F)) (x11 : (⟨S3x64x64, .f32⟩ : BufTy).Contents (Elt F))

theorem block0_eq : val_main_v143 (F := F) x0 x1 x2 x4 x5 x6 x7 x8 x9 x10 x11
    = relBlock (val_main_v122 (F := F) x0 x1 x2 x4 x5 x6 x7 x8 x9 x10 x11) (val_main_v25 (F := F) x1)
        (val_main_v27 (F := F) x1) x2 0#32 := rfl

theorem block1_eq : val_main_v170 (F := F) x0 x1 x2 x4 x5 x6 x7 x8 x9 x10 x11
    = relBlock (val_main_v149 (F := F) x0 x1 x2 x4 x5 x6 x7 x8 x9 x10 x11) (val_main_v25 (F := F) x1)
        (val_main_v27 (F := F) x1) x2 1#32 := rfl

theorem block2_eq : val_main_v197 (F := F) x0 x1 x2 x4 x5 x6 x7 x8 x9 x10 x11
    = relBlock (val_main_v176 (F := F) x0 x1 x2 x4 x5 x6 x7 x8 x9 x10 x11) (val_main_v25 (F := F) x1)
        (val_main_v27 (F := F) x1) x2 2#32 := rfl

end Blocks

/-! ## The operands read at an index -/

section Operands
variable (x0 : (⟨S100000x2, .i32⟩ : BufTy).Contents (Elt Ideal)) (x1 : (⟨S2x1200000, .i32⟩ : BufTy).Contents (Elt Ideal))
  (x2 : (⟨S1200000, .i32⟩ : BufTy).Contents (Elt Ideal)) (x4 x5 : (⟨S16x8, .f32⟩ : BufTy).Contents (Elt Ideal))
  (x6 : (⟨S16x32, .f32⟩ : BufTy).Contents (Elt Ideal)) (x7 : (⟨S32, .f32⟩ : BufTy).Contents (Elt Ideal))
  (x8 : (⟨S3x32x64, .f32⟩ : BufTy).Contents (Elt Ideal)) (x9 : (⟨S32x64, .f32⟩ : BufTy).Contents (Elt Ideal))
  (x10 : (⟨S64, .f32⟩ : BufTy).Contents (Elt Ideal)) (x11 : (⟨S3x64x64, .f32⟩ : BufTy).Contents (Elt Ideal))
  (x12 : (⟨S64x64, .f32⟩ : BufTy).Contents (Elt Ideal)) (x13 : (⟨S64, .f32⟩ : BufTy).Contents (Elt Ideal))

/-- The source ids are row 0 of the edge list. -/
theorem srcIds_apply (e : Fin 1200000) : val_main_v25 (F := Ideal) x1 (ix1 e) = x1 (ix2 (0 : Fin 2) e) := by
  rw [val_main_v25_apply, val_main_v24_apply]
  refine congrArg x1 (funext fun a => Fin.ext ?_)
  match a with
  | ⟨0, _⟩ => rfl
  | ⟨1, _⟩ => exact Nat.mod_eq_of_lt e.isLt

/-- The destination ids are row 1 of the edge list. -/
theorem dstIds_apply (e : Fin 1200000) : val_main_v27 (F := Ideal) x1 (ix1 e) = x1 (ix2 (1 : Fin 2) e) := by
  rw [val_main_v27_apply, val_main_v26_apply]
  refine congrArg x1 (funext fun a => Fin.ext ?_)
  match a with
  | ⟨0, _⟩ => rfl
  | ⟨1, _⟩ => exact Nat.mod_eq_of_lt e.isLt

/-- The three relation matrices are the three slices of the stacked weights. -/
theorem w0_apply (k j : Fin 64) : val_main_v121 (F := Ideal) x11 (ix2 k j) = x11 (ix3 (0 : Fin 3) k j) := by
  rw [val_main_v121_apply, val_main_v120_apply]
  refine congrArg x11 (funext fun a => Fin.ext ?_)
  have hk := k.isLt
  have hj := j.isLt
  match a with
  | ⟨0, _⟩ => rfl
  | ⟨1, _⟩ => show (k.val * 64 + j.val) / 64 % 64 = k.val; omega
  | ⟨2, _⟩ => show (k.val * 64 + j.val) % 64 = j.val; omega

theorem w1_apply (k j : Fin 64) : val_main_v148 (F := Ideal) x11 (ix2 k j) = x11 (ix3 (1 : Fin 3) k j) := by
  rw [val_main_v148_apply, val_main_v147_apply]
  refine congrArg x11 (funext fun a => Fin.ext ?_)
  have hk := k.isLt
  have hj := j.isLt
  match a with
  | ⟨0, _⟩ => rfl
  | ⟨1, _⟩ => show (k.val * 64 + j.val) / 64 % 64 = k.val; omega
  | ⟨2, _⟩ => show (k.val * 64 + j.val) % 64 = j.val; omega

theorem w2_apply (k j : Fin 64) : val_main_v175 (F := Ideal) x11 (ix2 k j) = x11 (ix3 (2 : Fin 3) k j) := by
  rw [val_main_v175_apply, val_main_v174_apply]
  refine congrArg x11 (funext fun a => Fin.ext ?_)
  have hk := k.isLt
  have hj := j.isLt
  match a with
  | ⟨0, _⟩ => rfl
  | ⟨1, _⟩ => show (k.val * 64 + j.val) / 64 % 64 = k.val; omega
  | ⟨2, _⟩ => show (k.val * 64 + j.val) % 64 = j.val; omega

variable (h : Fin 100000 → Fin 64 → ℝ) (w : Fin 3 → Fin 64 → Fin 64 → ℝ) (root : Fin 64 → Fin 64 → ℝ) (b : Fin 64 → ℝ)
  (hh : ∀ n k, val_main_v113 (F := Ideal) x0 x1 x2 x4 x5 x6 x7 x8 x9 x10 (ix2 n k) = ((h n k : ℝ) : EReal))
  (hw : ∀ r k j, x11 (ix3 r k j) = ((w r k j : ℝ) : EReal))
  (hroot : ∀ k j, x12 (ix2 k j) = ((root k j : ℝ) : EReal))
  (hb : ∀ j, x13 (ix1 j) = ((b j : ℝ) : EReal))
include hh hw

/-- The three tables h · W_r hold reals. -/
theorem table0_real (m : Fin 100000) (j : Fin 64) :
    val_main_v122 (F := Ideal) x0 x1 x2 x4 x5 x6 x7 x8 x9 x10 x11 (ix2 m j)
      = ((∑ k, h m k * w 0 k j : ℝ) : EReal) := by
  rw [val_main_v122_apply]
  exact dot_real _ _ h (w 0) hh (fun k j => by rw [w0_apply, hw]) m j _ _
    (fun k => funext fun a => Fin.ext (by match a with | ⟨0, _⟩ => rfl | ⟨1, _⟩ => rfl))
    (fun k => funext fun a => Fin.ext (by match a with | ⟨0, _⟩ => rfl | ⟨1, _⟩ => rfl))

theorem table1_real (m : Fin 100000) (j : Fin 64) :
    val_main_v149 (F := Ideal) x0 x1 x2 x4 x5 x6 x7 x8 x9 x10 x11 (ix2 m j)
      = ((∑ k, h m k * w 1 k j : ℝ) : EReal) := by
  rw [val_main_v149_apply]
  exact dot_real _ _ h (w 1) hh (fun k j => by rw [w1_apply, hw]) m j _ _
    (fun k => funext fun a => Fin.ext (by match a with | ⟨0, _⟩ => rfl | ⟨1, _⟩ => rfl))
    (fun k => funext fun a => Fin.ext (by match a with | ⟨0, _⟩ => rfl | ⟨1, _⟩ => rfl))

theorem table2_real (m : Fin 100000) (j : Fin 64) :
    val_main_v176 (F := Ideal) x0 x1 x2 x4 x5 x6 x7 x8 x9 x10 x11 (ix2 m j)
      = ((∑ k, h m k * w 2 k j : ℝ) : EReal) := by
  rw [val_main_v176_apply]
  exact dot_real _ _ h (w 2) hh (fun k j => by rw [w2_apply, hw]) m j _ _
    (fun k => funext fun a => Fin.ext (by match a with | ⟨0, _⟩ => rfl | ⟨1, _⟩ => rfl))
    (fun k => funext fun a => Fin.ext (by match a with | ⟨0, _⟩ => rfl | ⟨1, _⟩ => rfl))

omit hw
include hroot hb

/-- The node's own term: its features through the root matrix, plus the bias. -/
theorem own_real (n : Fin 100000) (j : Fin 64) :
    val_main_v117 (F := Ideal) x0 x1 x2 x4 x5 x6 x7 x8 x9 x10 x12 x13 (ix2 n j)
      = ((∑ k, h n k * root k j + b j : ℝ) : EReal) := by
  rw [val_main_v117_apply, val_main_v114_apply, val_main_v116_apply, val_main_v115_apply, Ideal.addf_def,
    dot_real _ _ h root hh hroot n j _ _
      (fun k => funext fun a => Fin.ext (by match a with | ⟨0, _⟩ => rfl | ⟨1, _⟩ => rfl))
      (fun k => funext fun a => Fin.ext (by match a with | ⟨0, _⟩ => rfl | ⟨1, _⟩ => rfl)),
    show idx_main_v115 (idx_main_v116 (ix2 n j)) = ix1 j from
      funext fun a => Fin.ext (by match a with | ⟨0, _⟩ => rfl),
    hb, ← EReal.coe_add]

end Operands

end Cert.ReferenceIdeal.RV.L2

namespace Cert.ReferenceIdeal.RV

open Cert.ReferenceIdeal Cert.ReferenceIdeal.Gen Cert.ReferenceIdeal.Read Idealize.ShloMosaic Idealize.ShloMosaic.ValueIdx

/-- The second graph layer of the reference at a node and a column is the real layer of the decoded inputs. -/
theorem ref_layer2 (x0 : (⟨S100000x2, .i32⟩ : BufTy).Contents (Elt Ideal)) (x1 : (⟨S2x1200000, .i32⟩ : BufTy).Contents (Elt Ideal))
    (x2 : (⟨S1200000, .i32⟩ : BufTy).Contents (Elt Ideal)) (x4 x5 : (⟨S16x8, .f32⟩ : BufTy).Contents (Elt Ideal))
    (x6 : (⟨S16x32, .f32⟩ : BufTy).Contents (Elt Ideal)) (x7 : (⟨S32, .f32⟩ : BufTy).Contents (Elt Ideal))
    (x8 : (⟨S3x32x64, .f32⟩ : BufTy).Contents (Elt Ideal)) (x9 : (⟨S32x64, .f32⟩ : BufTy).Contents (Elt Ideal))
    (x10 : (⟨S64, .f32⟩ : BufTy).Contents (Elt Ideal)) (x11 : (⟨S3x64x64, .f32⟩ : BufTy).Contents (Elt Ideal))
    (x12 : (⟨S64x64, .f32⟩ : BufTy).Contents (Elt Ideal)) (x13 : (⟨S64, .f32⟩ : BufTy).Contents (Elt Ideal))
    (h : Fin 100000 → Fin 64 → ℝ) (src dst : Fin 1200000 → Fin 100000) (et : Fin 1200000 → Fin 3)
    (w : Fin 3 → Fin 64 → Fin 64 → ℝ) (root : Fin 64 → Fin 64 → ℝ) (b : Fin 64 → ℝ)
    (hh : ∀ n k, val_main_v113 (F := Ideal) x0 x1 x2 x4 x5 x6 x7 x8 x9 x10 (ix2 n k) = ((h n k : ℝ) : EReal))
    (hsrc : ∀ e, GnnDecode.rowOf 100000 (by norm_num) (x1 (ix2 (0 : Fin 2) e)) = src e)
    (hdst : ∀ e, (x1 (ix2 (1 : Fin 2) e)).toInt = ((dst e).val : ℤ))
    (het : ∀ e, (x2 (ix1 e)).toInt = ((et e).val : ℤ))
    (hw : ∀ r k j, x11 (ix3 r k j) = ((w r k j : ℝ) : EReal))
    (hroot : ∀ k j, x12 (ix2 k j) = ((root k j : ℝ) : EReal))
    (hb : ∀ j, x13 (ix1 j) = ((b j : ℝ) : EReal)) :
    ∀ (n : Fin 100000) (j : Fin 64),
      val_main_v199 (F := Ideal) x0 x1 x2 x4 x5 x6 x7 x8 x9 x10 x11 x12 x13 (ix2 n j)
        = ((GnnSpec.layer src dst et h w root b n j : ℝ) : EReal) := by
  intro n j
  have hs : ∀ e, GnnDecode.rowOf 100000 (by norm_num) (val_main_v25 (F := Ideal) x1 (ix1 e)) = src e := fun e => by
    rw [L2.srcIds_apply]; exact hsrc e
  have hd : ∀ e, (val_main_v27 (F := Ideal) x1 (ix1 e)).toInt = ((dst e).val : ℤ) := fun e => by
    rw [L2.dstIds_apply]; exact hdst e
  have t0 : val_main_v143 (F := Ideal) x0 x1 x2 x4 x5 x6 x7 x8 x9 x10 x11 (ix2 n j)
      = (((∑ e ∈ GnnSpec.edges dst et n 0, ∑ k, h (src e) k * w 0 k j) / GnnSpec.cnt1 (GnnSpec.edges dst et n 0) : ℝ) : EReal) := by
    rw [L2.block0_eq]
    exact L2.relBlock_real _ _ _ x2 0 src dst et (fun m j => ∑ k, h m k * w 0 k j)
      (L2.table0_real x0 x1 x2 x4 x5 x6 x7 x8 x9 x10 x11 h w hh hw) hs hd het n j
  have t1 : val_main_v170 (F := Ideal) x0 x1 x2 x4 x5 x6 x7 x8 x9 x10 x11 (ix2 n j)
      = (((∑ e ∈ GnnSpec.edges dst et n 1, ∑ k, h (src e) k * w 1 k j) / GnnSpec.cnt1 (GnnSpec.edges dst et n 1) : ℝ) : EReal) := by
    rw [L2.block1_eq]
    exact L2.relBlock_real _ _ _ x2 1 src dst et (fun m j => ∑ k, h m k * w 1 k j)
      (L2.table1_real x0 x1 x2 x4 x5 x6 x7 x8 x9 x10 x11 h w hh hw) hs hd het n j
  have t2 : val_main_v197 (F := Ideal) x0 x1 x2 x4 x5 x6 x7 x8 x9 x10 x11 (ix2 n j)
      = (((∑ e ∈ GnnSpec.edges dst et n 2, ∑ k, h (src e) k * w 2 k j) / GnnSpec.cnt1 (GnnSpec.edges dst et n 2) : ℝ) : EReal) := by
    rw [L2.block2_eq]
    exact L2.relBlock_real _ _ _ x2 2 src dst et (fun m j => ∑ k, h m k * w 2 k j)
      (L2.table2_real x0 x1 x2 x4 x5 x6 x7 x8 x9 x10 x11 h w hh hw) hs hd het n j
  rw [val_main_v199_apply, val_main_v198_apply, val_main_v171_apply, val_main_v144_apply, t0, t1, t2,
    L2.own_real x0 x1 x2 x4 x5 x6 x7 x8 x9 x10 x12 x13 h root b hh hroot hb n j,
    val_main_call8_v0_apply, val_main_call8_cst_apply, Ideal.ofBits_def, Ideal.ofBits_zero_f32,
    Ideal.maximumf_def, Ideal.addf_def, Ideal.addf_def, Ideal.addf_def,
    ← EReal.coe_add, ← EReal.coe_add, ← EReal.coe_add, ← EReal.coe_zero, CoeLib.max_coe]
  unfold GnnSpec.layer
  rw [Fin.sum_univ_three]
  refine congrArg (fun t : ℝ => ((max t 0 : ℝ) : EReal)) ?_
  ring

end Cert.ReferenceIdeal.RV
-- ==== Proof.RefFinal.lean ====
/-
  The reference's last stage read as real arithmetic.

  The second layer's output h2 (finite, given as reals) is summed over the nodes of each graph — a segment sum over the
  graph ids, read as signed numbers: a node whose id is negative or at least 512 belongs to no graph and is dropped —
  and divided by the graph's node count, at least one; a dense layer (64 → 10) with bias follows:

    out[g, q] = ∑ j, (∑ n ∈ G(g), h2[n, j]) / max |G(g)| 1 · cls_w[j, q] + cls_b[q].

  The stage is read one operation at a time from the result back: the bias add, the contraction over the 64 features,
  the quotient (its divisor is at least one, so it is the reals' own), the segment sum of the rows (zero plus the sum
  over the nodes whose id is g), and the segment sum of ones (the count) under its maximum with one.
-/
import proofs.«428839_j88648124990070_3_alg».proof.Proof.ReadStages
import proofs.«428839_j88648124990070_3_alg».proof.Proof.Spec
import proofs.«428839_j88648124990070_3_alg».proof.Proof.LibCoe
import proofs.«428839_j88648124990070_3_alg».proof.Proof.LibScatter
import Idealize.ShloMosaic.Lib.ValueIdx
import Idealize.ShloMosaic.Lib.IdealHost
import Idealize.ShloMosaic.PureOps.Ideal.Laws

namespace Cert.ReferenceIdeal.RV

open Cert.ReferenceIdeal Cert.ReferenceIdeal.Gen Cert.ReferenceIdeal.Read Idealize.ShloMosaic Idealize.ShloMosaic.ValueIdx

/-! ## The two segment sums over the graph ids -/

/-- The id column the scatters read: row e holds node e's graph id. -/
theorem v201_at (x3 : (⟨S100000, .i32⟩ : BufTy).Contents (Elt Ideal)) (e : Fin 100000) :
    val_main_v201 (F := Ideal) x3 (ix2 e (0 : Fin 1)) = x3 (ix1 e) := by
  rw [val_main_v201_apply]
  exact congrArg x3 (funext fun a => Fin.ext (by
    match a with
    | ⟨0, _⟩ => rfl))

/-- The same column, as the count's scatter reads it. -/
theorem v205_at (x3 : (⟨S100000, .i32⟩ : BufTy).Contents (Elt Ideal)) (e : Fin 100000) :
    val_main_v205 (F := Ideal) x3 (ix2 e (0 : Fin 1)) = x3 (ix1 e) := by
  rw [val_main_v205_apply]
  exact congrArg x3 (funext fun a => Fin.ext (by
    match a with
    | ⟨0, _⟩ => rfl))

/-- The rows of a finite array summed per graph: entry (g, k) of the segment sum is the sum of column k over the nodes
    whose graph id, read signed, is g. -/
theorem pool_rows (x3 : (⟨S100000, .i32⟩ : BufTy).Contents (Elt Ideal)) (upd : (⟨S100000x64, .f32⟩ : BufTy).Contents (Elt Ideal))
    (h2 : Fin 100000 → Fin 64 → ℝ) (hh : ∀ n j, upd (ix2 n j) = ((h2 n j : ℝ) : EReal)) (g : Fin 512) (k : Fin 64) :
    Host.scatterAdd (F := Ideal) (φ := .f32) scatter_S512x64_S100000x1_S100000x64_1_0_0_1 (val_main_v200 (F := Ideal)) (val_main_v201 (F := Ideal) x3) upd
        (ix2 g k)
      = ((GnnSpec.pool (fun n => (x3 (ix1 n)).toInt) h2 g k : ℝ) : EReal) := by
  rw [IndexOpsLib.scatterAdd_ideal,
    IndexOpsLib.scatterAdd_rows scatter_S512x64_S100000x1_S100000x64_1_0_0_1 rfl rfl rfl rfl,
    val_main_v200_apply, val_main_cst_44_apply, Ideal.ofBits_def, Ideal.ofBits_zero_f32, zero_add]
  unfold GnnSpec.pool GnnSpec.members
  rw [← CoeLib.coe_sum]
  simp only [v201_at, hh]

/-- The nodes counted per graph: entry g of the segment sum of ones is the number of nodes whose graph id is g. -/
theorem count_rows (x3 : (⟨S100000, .i32⟩ : BufTy).Contents (Elt Ideal)) (g : Fin 512) :
    val_main_v206 (F := Ideal) x3 (ix1 g) = ((GnnSpec.gcount (fun n => (x3 (ix1 n)).toInt) g : ℝ) : EReal) := by
  unfold val_main_v206
  rw [IndexOpsLib.scatterAdd_ideal,
    IndexOpsLib.scatterAdd_vec scatter_S512_S100000x1_S100000_n_0_0_1 rfl rfl rfl rfl,
    val_main_v204_apply, val_main_cst_46_apply, Ideal.ofBits_def, Ideal.ofBits_zero_f32, zero_add]
  unfold GnnSpec.gcount GnnSpec.members
  simp only [v205_at, val_main_v203_apply, val_main_cst_45_apply, Ideal.ofBits_def, Ideal.ofBits_one_f32]
  rw [← EReal.coe_one, CoeLib.coe_sum, Finset.sum_const, nsmul_eq_mul, mul_one]

/-- The divisor of the mean at (g, k): the node count of graph g, at least one. -/
theorem v210_at (x3 : (⟨S100000, .i32⟩ : BufTy).Contents (Elt Ideal)) (g : Fin 512) (k : Fin 64) :
    val_main_v210 (F := Ideal) x3 (ix2 g k)
      = ((max (GnnSpec.gcount (fun n => (x3 (ix1 n)).toInt) g) 1 : ℝ) : EReal) := by
  have e : idx_main_v209 (idx_main_v210 (ix2 g k)) = ix1 g := funext fun a => Fin.ext (by
    match a with
    | ⟨0, _⟩ => rfl)
  rw [val_main_v210_apply, val_main_v209_apply, e, val_main_v208_apply, count_rows, val_main_v207_apply,
    val_main_cst_47_apply, Ideal.maximumf_def, Ideal.ofBits_def, Ideal.ofBits_one_f32, ← EReal.coe_one, CoeLib.max_coe]

/-! ## The mean and the last dense layer -/

/-- The last stage: the second layer's output averaged over each graph's nodes, through the classifier's dense layer. -/
theorem ref_out (x0 : (⟨S100000x2, .i32⟩ : BufTy).Contents (Elt Ideal)) (x1 : (⟨S2x1200000, .i32⟩ : BufTy).Contents (Elt Ideal))
    (x2 : (⟨S1200000, .i32⟩ : BufTy).Contents (Elt Ideal)) (x3 : (⟨S100000, .i32⟩ : BufTy).Contents (Elt Ideal))
    (x4 x5 : (⟨S16x8, .f32⟩ : BufTy).Contents (Elt Ideal)) (x6 : (⟨S16x32, .f32⟩ : BufTy).Contents (Elt Ideal))
    (x7 : (⟨S32, .f32⟩ : BufTy).Contents (Elt Ideal)) (x8 : (⟨S3x32x64, .f32⟩ : BufTy).Contents (Elt Ideal))
    (x9 : (⟨S32x64, .f32⟩ : BufTy).Contents (Elt Ideal)) (x10 : (⟨S64, .f32⟩ : BufTy).Contents (Elt Ideal))
    (x11 : (⟨S3x64x64, .f32⟩ : BufTy).Contents (Elt Ideal)) (x12 : (⟨S64x64, .f32⟩ : BufTy).Contents (Elt Ideal))
    (x13 : (⟨S64, .f32⟩ : BufTy).Contents (Elt Ideal)) (x14 : (⟨S64x10, .f32⟩ : BufTy).Contents (Elt Ideal))
    (x15 : (⟨S10, .f32⟩ : BufTy).Contents (Elt Ideal))
    (h2 : Fin 100000 → Fin 64 → ℝ) (cw : Fin 64 → Fin 10 → ℝ) (cb : Fin 10 → ℝ)
    (hh : ∀ n j, val_main_v199 (F := Ideal) x0 x1 x2 x4 x5 x6 x7 x8 x9 x10 x11 x12 x13 (ix2 n j) = ((h2 n j : ℝ) : EReal))
    (hcw : ∀ j q, x14 (ix2 j q) = ((cw j q : ℝ) : EReal)) (hcb : ∀ q, x15 (ix1 q) = ((cb q : ℝ) : EReal)) :
    ∀ (g : Fin 512) (q : Fin 10),
      val_main_v215 (F := Ideal) x0 x1 x2 x3 x4 x5 x6 x7 x8 x9 x10 x11 x12 x13 x14 x15 (ix2 g q)
        = ((GnnSpec.classify (GnnSpec.pool (fun n => (x3 (ix1 n)).toInt) h2) (GnnSpec.gcount (fun n => (x3 (ix1 n)).toInt))
            cw cb g q : ℝ) : EReal) := by
  intro g q
  have el : ∀ k : Fin 64, lidx_main_v212 (ix2 g q) k = ix2 g k := fun k => funext fun a => Fin.ext (by
    match a with
    | ⟨0, _⟩ => rfl
    | ⟨1, _⟩ => rfl)
  have er : ∀ k : Fin 64, ridx_main_v212 (ix2 g q) k = ix2 k q := fun k => funext fun a => Fin.ext (by
    match a with
    | ⟨0, _⟩ => rfl
    | ⟨1, _⟩ => rfl)
  have eb : idx_main_v213 (idx_main_v214 (ix2 g q)) = ix1 q := funext fun a => Fin.ext (by
    match a with
    | ⟨0, _⟩ => rfl)
  -- the mean at (g, k), in reals: the divisor is at least one, so the quotient is the reals' own
  have hm : ∀ k : Fin 64, val_main_v211 (F := Ideal) x0 x1 x2 x3 x4 x5 x6 x7 x8 x9 x10 x11 x12 x13 (ix2 g k)
      = ((GnnSpec.pool (fun n => (x3 (ix1 n)).toInt) h2 g k / max (GnnSpec.gcount (fun n => (x3 (ix1 n)).toInt) g) 1 : ℝ) : EReal) := by
    intro k
    rw [val_main_v211_apply, v210_at, Ideal.hostDivf_def]
    unfold val_main_v202
    rw [pool_rows x3 _ h2 hh g k]
    exact CoeLib.div_coe_coe _ _ (lt_of_lt_of_le one_pos (le_max_right _ _)).ne'
  -- the contraction over the 64 features, in reals
  have hs : (∑ k : Fin 64, val_main_v211 (F := Ideal) x0 x1 x2 x3 x4 x5 x6 x7 x8 x9 x10 x11 x12 x13 (lidx_main_v212 (ix2 g q) k)
        * x14 (ridx_main_v212 (ix2 g q) k))
      = ((∑ k : Fin 64, GnnSpec.pool (fun n => (x3 (ix1 n)).toInt) h2 g k
            / max (GnnSpec.gcount (fun n => (x3 (ix1 n)).toInt) g) 1 * cw k q : ℝ) : EReal) := by
    rw [← CoeLib.coe_sum_mul]
    exact Finset.sum_congr rfl fun k _ => by rw [el, er, hm, hcw]
  rw [val_main_v215_apply, val_main_v212_apply, hs, val_main_v214_apply, val_main_v213_apply, eb, hcb, Ideal.addf_def,
    ← EReal.coe_add]
  rfl

end Cert.ReferenceIdeal.RV
-- ==== Proof.RefValue.lean ====
/-
  The reference program's result as the network's real function: the embedding stage, the two graph layers and the
  pooled last layer, each read off the stage before it.
-/
import proofs.«428839_j88648124990070_3_alg».proof.Proof.RefEmbed
import proofs.«428839_j88648124990070_3_alg».proof.Proof.RefLayer1
import proofs.«428839_j88648124990070_3_alg».proof.Proof.RefLayer2
import proofs.«428839_j88648124990070_3_alg».proof.Proof.RefFinal
import proofs.«428839_j88648124990070_3_alg».proof.Proof.Net

noncomputable section

namespace Cert.ReferenceIdeal.RV

open Cert.ReferenceIdeal Cert.ReferenceIdeal.Gen Cert.ReferenceIdeal.Read Idealize.ShloMosaic Idealize.ShloMosaic.ValueIdx

/-- From argument arrays that decode to `A`, the reference's last stage is the network's result. -/
theorem ref_value (x0 : (⟨S100000x2, .i32⟩ : BufTy).Contents (Elt Ideal)) (x1 : (⟨S2x1200000, .i32⟩ : BufTy).Contents (Elt Ideal)) (x2 : (⟨S1200000, .i32⟩ : BufTy).Contents (Elt Ideal)) (x3 : (⟨S100000, .i32⟩ : BufTy).Contents (Elt Ideal)) (x4 x5 : (⟨S16x8, .f32⟩ : BufTy).Contents (Elt Ideal)) (x6 : (⟨S16x32, .f32⟩ : BufTy).Contents (Elt Ideal)) (x7 : (⟨S32, .f32⟩ : BufTy).Contents (Elt Ideal)) (x8 : (⟨S3x32x64, .f32⟩ : BufTy).Contents (Elt Ideal)) (x9 : (⟨S32x64, .f32⟩ : BufTy).Contents (Elt Ideal)) (x10 : (⟨S64, .f32⟩ : BufTy).Contents (Elt Ideal)) (x11 : (⟨S3x64x64, .f32⟩ : BufTy).Contents (Elt Ideal)) (x12 : (⟨S64x64, .f32⟩ : BufTy).Contents (Elt Ideal)) (x13 : (⟨S64, .f32⟩ : BufTy).Contents (Elt Ideal)) (x14 : (⟨S64x10, .f32⟩ : BufTy).Contents (Elt Ideal)) (x15 : (⟨S10, .f32⟩ : BufTy).Contents (Elt Ideal)) (A : GnnNet.Args)
    (hR : GnnNet.Reads x0 x1 x2 x3 x4 x5 x6 x7 x8 x9 x10 x11 x12 x13 x14 x15 A) :
    ∀ (g : Fin 512) (q : Fin 10),
      val_main_v215 (F := Ideal) x0 x1 x2 x3 x4 x5 x6 x7 x8 x9 x10 x11 x12 x13 x14 x15 (ix2 g q) = ((GnnNet.out A g q : ℝ) : EReal) := by
  have H0 := ref_h0 x0 x4 x5 x6 x7 A.xi A.se A.ce A.pw A.pb hR.x_row hR.se_val hR.ce_val hR.pw_val hR.pb_val
  have H1 := ref_layer1 x0 x1 x2 x4 x5 x6 x7 x8 x9 x10 (GnnNet.h0 A) A.src A.dst A.et A.w1 A.root1 A.b1 H0
    hR.src_row hR.dst_val hR.et_val hR.w1_val hR.root1_val hR.b1_val
  have H2 := ref_layer2 x0 x1 x2 x4 x5 x6 x7 x8 x9 x10 x11 x12 x13 (GnnNet.h1 A) A.src A.dst A.et A.w2 A.root2 A.b2 H1
    hR.src_row hR.dst_val hR.et_val hR.w2_val hR.root2_val hR.b2_val
  have H := ref_out x0 x1 x2 x3 x4 x5 x6 x7 x8 x9 x10 x11 x12 x13 x14 x15 (GnnNet.h2 A) A.cw A.cb H2 hR.cw_val hR.cb_val
  have hg : (fun n => (x3 (ix1 n)).toInt) = A.gid := funext hR.gid_val
  intro g q
  rw [H g q, hg]
  rfl

end Cert.ReferenceIdeal.RV

end
-- ==== Proof.RefRun.lean ====
/-
  The reference program's run, stretch by stretch. @main is a straight line of 290 host operations; it is cut
  here into twelve stretches, each inside one of @main's five windows and ending where a value that later
  stretches read has just been computed (the two embedding lookups; the input layer and the edge list's two
  rows; for each of the two message-passing layers and each of the three relations, the masked messages summed
  per target and their mean added to the layer's running sum; the readout). Over ANY contents of the buffers a
  stretch's fold is the composition of its operations' functions, and that composition is the stage
  (`Read.val_main_vN`) of the stretch's result whenever the buffers it reads hold the stages of theirs. The
  arguments' buffers are written by no operation and a computed stage stays in its buffer through the
  stretches that do not write it, so from the launch contents the result buffer ends at the last stage,
  `val_main_v215` of the sixteen arguments, and the arguments end unchanged: `run`.
-/
import proofs.«428839_j88648124990070_3_alg».proof.Proof.ReadStages
import proofs.«428839_j88648124990070_3_alg».proof.Proof.Gen.ReferenceIdeal
import Idealize.ShloMosaic.Lib.StableHlo.Run

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! ## The twelve stretches of @main's operations, in order (a called function's operations stand in its call's place) -/

abbrev ops0a : List (HloOp τ sig (Elt F)) :=
  [ unary main_arg0 main_v0 ((extractStridedSlice S100000x1 ![0, 0] · slices_S100000x2_S100000x1_0_0) : (⟨S100000x2, .i32⟩ : BufTy).Contents (Elt F) → (⟨S100000x1, .i32⟩ : BufTy).Contents (Elt F)),
    reshape main_v0 main_v1 rfl shapeCasts_S100000x1_S100000,
    nullary main_c (constantI S_ 32 0#32),
    unary main_c main_v2 (broadcastInDim S100000 ![] bcast_S_S100000 : (⟨S_, .i32⟩ : BufTy).Contents (Elt F) → (⟨S100000, .i32⟩ : BufTy).Contents (Elt F)),
    binary main_v1 main_v2 main_v3 (cmpi .slt : (⟨S100000, .i32⟩ : BufTy).Contents (Elt F) → (⟨S100000, .i32⟩ : BufTy).Contents (Elt F) → (⟨S100000, .i1⟩ : BufTy).Contents (Elt F)),
    nullary main_c_0 (constantI S_ 32 16#32),
    unary main_c_0 main_v4 (broadcastInDim S100000 ![] bcast_S_S100000 : (⟨S_, .i32⟩ : BufTy).Contents (Elt F) → (⟨S100000, .i32⟩ : BufTy).Contents (Elt F)),
    binary main_v1 main_v4 main_v5 (addi : (⟨S100000, .i32⟩ : BufTy).Contents (Elt F) → (⟨S100000, .i32⟩ : BufTy).Contents (Elt F) → (⟨S100000, .i32⟩ : BufTy).Contents (Elt F)),
    ternary main_v3 main_v5 main_v1 main_v6 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v6 main_v7 (broadcastInDim S100000x1 ![0] bcast_S100000_S100000x1_0 : (⟨S100000, .i32⟩ : BufTy).Contents (Elt F) → (⟨S100000x1, .i32⟩ : BufTy).Contents (Elt F)),
    binary main_arg4 main_v7 main_v8 ((fun x i => Host.gather gather_S16x8_S100000x1_S100000x8_1_0_n_n_0_1_18 x i) : (⟨S16x8, .f32⟩ : BufTy).Contents (Elt F) → (⟨S100000x1, .i32⟩ : BufTy).Contents (Elt F) → (⟨S100000x8, .f32⟩ : BufTy).Contents (Elt F)),
    unary main_arg0 main_v9 ((extractStridedSlice S100000x1 ![0, 1] · slices_S100000x2_S100000x1_0_1) : (⟨S100000x2, .i32⟩ : BufTy).Contents (Elt F) → (⟨S100000x1, .i32⟩ : BufTy).Contents (Elt F)),
    reshape main_v9 main_v10 rfl shapeCasts_S100000x1_S100000,
    nullary main_c_1 (constantI S_ 32 0#32),
    unary main_c_1 main_v11 (broadcastInDim S100000 ![] bcast_S_S100000 : (⟨S_, .i32⟩ : BufTy).Contents (Elt F) → (⟨S100000, .i32⟩ : BufTy).Contents (Elt F)),
    binary main_v10 main_v11 main_v12 (cmpi .slt : (⟨S100000, .i32⟩ : BufTy).Contents (Elt F) → (⟨S100000, .i32⟩ : BufTy).Contents (Elt F) → (⟨S100000, .i1⟩ : BufTy).Contents (Elt F)),
    nullary main_c_2 (constantI S_ 32 16#32),
    unary main_c_2 main_v13 (broadcastInDim S100000 ![] bcast_S_S100000 : (⟨S_, .i32⟩ : BufTy).Contents (Elt F) → (⟨S100000, .i32⟩ : BufTy).Contents (Elt F)),
    binary main_v10 main_v13 main_v14 (addi : (⟨S100000, .i32⟩ : BufTy).Contents (Elt F) → (⟨S100000, .i32⟩ : BufTy).Contents (Elt F) → (⟨S100000, .i32⟩ : BufTy).Contents (Elt F)),
    ternary main_v12 main_v14 main_v10 main_v15 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v15 main_v16 (broadcastInDim S100000x1 ![0] bcast_S100000_S100000x1_0 : (⟨S100000, .i32⟩ : BufTy).Contents (Elt F) → (⟨S100000x1, .i32⟩ : BufTy).Contents (Elt F)),
    binary main_arg5 main_v16 main_v17 ((fun x i => Host.gather gather_S16x8_S100000x1_S100000x8_1_0_n_n_0_1_18 x i) : (⟨S16x8, .f32⟩ : BufTy).Contents (Elt F) → (⟨S100000x1, .i32⟩ : BufTy).Contents (Elt F) → (⟨S100000x8, .f32⟩ : BufTy).Contents (Elt F)) ]

abbrev ops0b : List (HloOp τ sig (Elt F)) :=
  [ binary main_v8 main_v17 main_v18 ((fun a b => concatenate S100000x16 1 [⟨S100000x8, a⟩, ⟨S100000x8, b⟩] concatenates_S100000x8_S100000x8_S100000x16_d1) : (⟨S100000x8, .f32⟩ : BufTy).Contents (Elt F) → (⟨S100000x8, .f32⟩ : BufTy).Contents (Elt F) → (⟨S100000x16, .f32⟩ : BufTy).Contents (Elt F)),
    binary main_v18 main_arg6 main_v19 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    unary main_arg7 main_v20 (broadcastInDim S1x32 ![1] bcast_S32_S1x32_1 : (⟨S32, .f32⟩ : BufTy).Contents (Elt F) → (⟨S1x32, .f32⟩ : BufTy).Contents (Elt F)),
    unary main_v20 main_v21 (broadcastInDim S100000x32 ![0, 1] bcast_S1x32_S100000x32_0_1 : (⟨S1x32, .f32⟩ : BufTy).Contents (Elt F) → (⟨S100000x32, .f32⟩ : BufTy).Contents (Elt F)),
    binary main_v19 main_v21 main_v22 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x32, .f32⟩) main_call0_v0) (broadcastInDim S100000x32 ![] bcast_S_S100000x32),
    TRef.binary (TRef.of (T := ⟨S100000x32, .f32⟩) main_v22) (TRef.of (T := ⟨S100000x32, .f32⟩) main_call0_v0) (TRef.of (T := ⟨S100000x32, .f32⟩) main_v23) maximumf,
    unary main_arg1 main_v24 ((extractStridedSlice S1x1200000 ![0, 0] · slices_S2x1200000_S1x1200000_0_0) : (⟨S2x1200000, .i32⟩ : BufTy).Contents (Elt F) → (⟨S1x1200000, .i32⟩ : BufTy).Contents (Elt F)),
    reshape main_v24 main_v25 rfl shapeCasts_S1x1200000_S1200000,
    unary main_arg1 main_v26 ((extractStridedSlice S1x1200000 ![1, 0] · slices_S2x1200000_S1x1200000_1_0) : (⟨S2x1200000, .i32⟩ : BufTy).Contents (Elt F) → (⟨S1x1200000, .i32⟩ : BufTy).Contents (Elt F)),
    reshape main_v26 main_v27 rfl shapeCasts_S1x1200000_S1200000,
    binary main_v23 main_arg9 main_v28 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    unary main_arg10 main_v29 (broadcastInDim S1x64 ![1] bcast_S64_S1x64_1 : (⟨S64, .f32⟩ : BufTy).Contents (Elt F) → (⟨S1x64, .f32⟩ : BufTy).Contents (Elt F)),
    unary main_v29 main_v30 (broadcastInDim S100000x64 ![0, 1] bcast_S1x64_S100000x64_0_1 : (⟨S1x64, .f32⟩ : BufTy).Contents (Elt F) → (⟨S100000x64, .f32⟩ : BufTy).Contents (Elt F)),
    binary main_v28 main_v30 main_v31 (addf : (⟨S100000x64, .f32⟩ : BufTy).Contents (Elt F) → (⟨S100000x64, .f32⟩ : BufTy).Contents (Elt F) → (⟨S100000x64, .f32⟩ : BufTy).Contents (Elt F)) ]

abbrev ops0c : List (HloOp τ sig (Elt F)) :=
  [ nullary main_c_3 (constantI S_ 32 0#32),
    unary main_c_3 main_v32 (broadcastInDim S1200000 ![] bcast_S_S1200000 : (⟨S_, .i32⟩ : BufTy).Contents (Elt F) → (⟨S1200000, .i32⟩ : BufTy).Contents (Elt F)),
    binary main_arg2 main_v32 main_v33 (cmpi .eq : (⟨S1200000, .i32⟩ : BufTy).Contents (Elt F) → (⟨S1200000, .i32⟩ : BufTy).Contents (Elt F) → (⟨S1200000, .i1⟩ : BufTy).Contents (Elt F)),
    unary main_arg8 main_v34 ((extractStridedSlice S1x32x64 ![0, 0, 0] · slices_S3x32x64_S1x32x64_0_0_0) : (⟨S3x32x64, .f32⟩ : BufTy).Contents (Elt F) → (⟨S1x32x64, .f32⟩ : BufTy).Contents (Elt F)),
    reshape main_v34 main_v35 rfl shapeCasts_S1x32x64_S32x64,
    binary main_v23 main_v35 main_v36 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    unary main_v33 main_v37 (broadcastInDim S1200000x1 ![0] bcast_S1200000_S1200000x1_0 : (⟨S1200000, .i1⟩ : BufTy).Contents (Elt F) → (⟨S1200000x1, .i1⟩ : BufTy).Contents (Elt F)),
    nullary main_c_4 (constantI S_ 32 0#32),
    unary main_c_4 main_v38 (broadcastInDim S1200000 ![] bcast_S_S1200000 : (⟨S_, .i32⟩ : BufTy).Contents (Elt F) → (⟨S1200000, .i32⟩ : BufTy).Contents (Elt F)),
    binary main_v25 main_v38 main_v39 (cmpi .slt : (⟨S1200000, .i32⟩ : BufTy).Contents (Elt F) → (⟨S1200000, .i32⟩ : BufTy).Contents (Elt F) → (⟨S1200000, .i1⟩ : BufTy).Contents (Elt F)),
    nullary main_c_5 (constantI S_ 32 100000#32),
    unary main_c_5 main_v40 (broadcastInDim S1200000 ![] bcast_S_S1200000 : (⟨S_, .i32⟩ : BufTy).Contents (Elt F) → (⟨S1200000, .i32⟩ : BufTy).Contents (Elt F)),
    binary main_v25 main_v40 main_v41 (addi : (⟨S1200000, .i32⟩ : BufTy).Contents (Elt F) → (⟨S1200000, .i32⟩ : BufTy).Contents (Elt F) → (⟨S1200000, .i32⟩ : BufTy).Contents (Elt F)),
    ternary main_v39 main_v41 main_v25 main_v42 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v42 main_v43 (broadcastInDim S1200000x1 ![0] bcast_S1200000_S1200000x1_0 : (⟨S1200000, .i32⟩ : BufTy).Contents (Elt F) → (⟨S1200000x1, .i32⟩ : BufTy).Contents (Elt F)),
    binary main_v36 main_v43 main_v44 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_cst (constant S_ .f32 0x00000000#32),
    TRef.unary (TRef.of (T := ⟨S_, .f32⟩) main_cst) (TRef.of (T := ⟨S_, .f32⟩) main_call1_v0) id,
    TRef.unary (TRef.of (T := ⟨S1200000x1, .i1⟩) main_v37) (TRef.of (T := ⟨S1200000x64, .i1⟩) main_call1_v1) (broadcastInDim S1200000x64 ![0, 1] bcast_S1200000x1_S1200000x64_0_1),
    TRef.unary (TRef.of (T := ⟨S_, .f32⟩) main_call1_v0) (TRef.of (T := ⟨S1200000x64, .f32⟩) main_call1_v2) (broadcastInDim S1200000x64 ![] bcast_S_S1200000x64),
    TRef.ternary (TRef.of (T := ⟨S1200000x64, .i1⟩) main_call1_v1) (TRef.of (T := ⟨S1200000x64, .f32⟩) main_v44) (TRef.of (T := ⟨S1200000x64, .f32⟩) main_call1_v2) (TRef.of (T := ⟨S1200000x64, .f32⟩) main_v45) select,
    nullary main_cst_6 (constant S_ .f32 0x00000000#32),
    unary main_cst_6 main_v46 (broadcastInDim S100000x64 ![] bcast_S_S100000x64 : (⟨S_, .f32⟩ : BufTy).Contents (Elt F) → (⟨S100000x64, .f32⟩ : BufTy).Contents (Elt F)),
    unary main_v27 main_v47 (broadcastInDim S1200000x1 ![0] bcast_S1200000_S1200000x1_0 : (⟨S1200000, .i32⟩ : BufTy).Contents (Elt F) → (⟨S1200000x1, .i32⟩ : BufTy).Contents (Elt F)),
    ternary main_v46 main_v47 main_v45 main_v48 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    unary main_v33 main_v49 (uitofp .f32 : (⟨S1200000, .i1⟩ : BufTy).Contents (Elt F) → (⟨S1200000, .f32⟩ : BufTy).Contents (Elt F)),
    nullary main_cst_7 (constant S_ .f32 0x00000000#32) ]

abbrev ops1a : List (HloOp τ sig (Elt F)) :=
  [ unary main_cst_7 main_v50 (broadcastInDim S100000 ![] bcast_S_S100000 : (⟨S_, .f32⟩ : BufTy).Contents (Elt F) → (⟨S100000, .f32⟩ : BufTy).Contents (Elt F)),
    unary main_v27 main_v51 (broadcastInDim S1200000x1 ![0] bcast_S1200000_S1200000x1_0 : (⟨S1200000, .i32⟩ : BufTy).Contents (Elt F) → (⟨S1200000x1, .i32⟩ : BufTy).Contents (Elt F)),
    ternary main_v50 main_v51 main_v49 main_v52 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    nullary main_cst_8 (constant S_ .f32 0x3F800000#32),
    unary main_cst_8 main_v53 (broadcastInDim S100000 ![] bcast_S_S100000 : (⟨S_, .f32⟩ : BufTy).Contents (Elt F) → (⟨S100000, .f32⟩ : BufTy).Contents (Elt F)),
    binary main_v52 main_v53 main_v54 (maximumf : (⟨S100000, .f32⟩ : BufTy).Contents (Elt F) → (⟨S100000, .f32⟩ : BufTy).Contents (Elt F) → (⟨S100000, .f32⟩ : BufTy).Contents (Elt F)),
    unary main_v54 main_v55 (broadcastInDim S100000x1 ![0] bcast_S100000_S100000x1_0 : (⟨S100000, .f32⟩ : BufTy).Contents (Elt F) → (⟨S100000x1, .f32⟩ : BufTy).Contents (Elt F)),
    unary main_v55 main_v56 (broadcastInDim S100000x64 ![0, 1] bcast_S100000x1_S100000x64_0_1 : (⟨S100000x1, .f32⟩ : BufTy).Contents (Elt F) → (⟨S100000x64, .f32⟩ : BufTy).Contents (Elt F)),
    binary main_v48 main_v56 main_v57 (Host.divf : (⟨S100000x64, .f32⟩ : BufTy).Contents (Elt F) → (⟨S100000x64, .f32⟩ : BufTy).Contents (Elt F) → (⟨S100000x64, .f32⟩ : BufTy).Contents (Elt F)),
    binary main_v31 main_v57 main_v58 (addf : (⟨S100000x64, .f32⟩ : BufTy).Contents (Elt F) → (⟨S100000x64, .f32⟩ : BufTy).Contents (Elt F) → (⟨S100000x64, .f32⟩ : BufTy).Contents (Elt F)) ]

abbrev ops1b : List (HloOp τ sig (Elt F)) :=
  [ nullary main_c_9 (constantI S_ 32 1#32),
    unary main_c_9 main_v59 (broadcastInDim S1200000 ![] bcast_S_S1200000 : (⟨S_, .i32⟩ : BufTy).Contents (Elt F) → (⟨S1200000, .i32⟩ : BufTy).Contents (Elt F)),
    binary main_arg2 main_v59 main_v60 (cmpi .eq : (⟨S1200000, .i32⟩ : BufTy).Contents (Elt F) → (⟨S1200000, .i32⟩ : BufTy).Contents (Elt F) → (⟨S1200000, .i1⟩ : BufTy).Contents (Elt F)),
    unary main_arg8 main_v61 ((extractStridedSlice S1x32x64 ![1, 0, 0] · slices_S3x32x64_S1x32x64_1_0_0) : (⟨S3x32x64, .f32⟩ : BufTy).Contents (Elt F) → (⟨S1x32x64, .f32⟩ : BufTy).Contents (Elt F)),
    reshape main_v61 main_v62 rfl shapeCasts_S1x32x64_S32x64,
    binary main_v23 main_v62 main_v63 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    unary main_v60 main_v64 (broadcastInDim S1200000x1 ![0] bcast_S1200000_S1200000x1_0 : (⟨S1200000, .i1⟩ : BufTy).Contents (Elt F) → (⟨S1200000x1, .i1⟩ : BufTy).Contents (Elt F)),
    nullary main_c_10 (constantI S_ 32 0#32),
    unary main_c_10 main_v65 (broadcastInDim S1200000 ![] bcast_S_S1200000 : (⟨S_, .i32⟩ : BufTy).Contents (Elt F) → (⟨S1200000, .i32⟩ : BufTy).Contents (Elt F)),
    binary main_v25 main_v65 main_v66 (cmpi .slt : (⟨S1200000, .i32⟩ : BufTy).Contents (Elt F) → (⟨S1200000, .i32⟩ : BufTy).Contents (Elt F) → (⟨S1200000, .i1⟩ : BufTy).Contents (Elt F)),
    nullary main_c_11 (constantI S_ 32 100000#32),
    unary main_c_11 main_v67 (broadcastInDim S1200000 ![] bcast_S_S1200000 : (⟨S_, .i32⟩ : BufTy).Contents (Elt F) → (⟨S1200000, .i32⟩ : BufTy).Contents (Elt F)),
    binary main_v25 main_v67 main_v68 (addi : (⟨S1200000, .i32⟩ : BufTy).Contents (Elt F) → (⟨S1200000, .i32⟩ : BufTy).Contents (Elt F) → (⟨S1200000, .i32⟩ : BufTy).Contents (Elt F)),
    ternary main_v66 main_v68 main_v25 main_v69 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v69 main_v70 (broadcastInDim S1200000x1 ![0] bcast_S1200000_S1200000x1_0 : (⟨S1200000, .i32⟩ : BufTy).Contents (Elt F) → (⟨S1200000x1, .i32⟩ : BufTy).Contents (Elt F)),
    binary main_v63 main_v70 main_v71 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S1200000x1, .i1⟩) main_v64) (TRef.of (T := ⟨S1200000x64, .i1⟩) main_call2_v1) (broadcastInDim S1200000x64 ![0, 1] bcast_S1200000x1_S1200000x64_0_1),
    TRef.unary (TRef.of (T := ⟨S_, .f32⟩) main_call2_v0) (TRef.of (T := ⟨S1200000x64, .f32⟩) main_call2_v2) (broadcastInDim S1200000x64 ![] bcast_S_S1200000x64),
    TRef.ternary (TRef.of (T := ⟨S1200000x64, .i1⟩) main_call2_v1) (TRef.of (T := ⟨S1200000x64, .f32⟩) main_v71) (TRef.of (T := ⟨S1200000x64, .f32⟩) main_call2_v2) (TRef.of (T := ⟨S1200000x64, .f32⟩) main_v72) select,
    nullary main_cst_13 (constant S_ .f32 0x00000000#32),
    unary main_cst_13 main_v73 (broadcastInDim S100000x64 ![] bcast_S_S100000x64 : (⟨S_, .f32⟩ : BufTy).Contents (Elt F) → (⟨S100000x64, .f32⟩ : BufTy).Contents (Elt F)),
    unary main_v27 main_v74 (broadcastInDim S1200000x1 ![0] bcast_S1200000_S1200000x1_0 : (⟨S1200000, .i32⟩ : BufTy).Contents (Elt F) → (⟨S1200000x1, .i32⟩ : BufTy).Contents (Elt F)),
    ternary main_v73 main_v74 main_v72 main_v75 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    unary main_v60 main_v76 (uitofp .f32 : (⟨S1200000, .i1⟩ : BufTy).Contents (Elt F) → (⟨S1200000, .f32⟩ : BufTy).Contents (Elt F)),
    nullary main_cst_14 (constant S_ .f32 0x00000000#32),
    unary main_cst_14 main_v77 (broadcastInDim S100000 ![] bcast_S_S100000 : (⟨S_, .f32⟩ : BufTy).Contents (Elt F) → (⟨S100000, .f32⟩ : BufTy).Contents (Elt F)),
    unary main_v27 main_v78 (broadcastInDim S1200000x1 ![0] bcast_S1200000_S1200000x1_0 : (⟨S1200000, .i32⟩ : BufTy).Contents (Elt F) → (⟨S1200000x1, .i32⟩ : BufTy).Contents (Elt F)),
    ternary main_v77 main_v78 main_v76 main_v79 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    nullary main_cst_15 (constant S_ .f32 0x3F800000#32),
    unary main_cst_15 main_v80 (broadcastInDim S100000 ![] bcast_S_S100000 : (⟨S_, .f32⟩ : BufTy).Contents (Elt F) → (⟨S100000, .f32⟩ : BufTy).Contents (Elt F)),
    binary main_v79 main_v80 main_v81 (maximumf : (⟨S100000, .f32⟩ : BufTy).Contents (Elt F) → (⟨S100000, .f32⟩ : BufTy).Contents (Elt F) → (⟨S100000, .f32⟩ : BufTy).Contents (Elt F)),
    unary main_v81 main_v82 (broadcastInDim S100000x1 ![0] bcast_S100000_S100000x1_0 : (⟨S100000, .f32⟩ : BufTy).Contents (Elt F) → (⟨S100000x1, .f32⟩ : BufTy).Contents (Elt F)),
    unary main_v82 main_v83 (broadcastInDim S100000x64 ![0, 1] bcast_S100000x1_S100000x64_0_1 : (⟨S100000x1, .f32⟩ : BufTy).Contents (Elt F) → (⟨S100000x64, .f32⟩ : BufTy).Contents (Elt F)),
    binary main_v75 main_v83 main_v84 (Host.divf : (⟨S100000x64, .f32⟩ : BufTy).Contents (Elt F) → (⟨S100000x64, .f32⟩ : BufTy).Contents (Elt F) → (⟨S100000x64, .f32⟩ : BufTy).Contents (Elt F)),
    binary main_v58 main_v84 main_v85 (addf : (⟨S100000x64, .f32⟩ : BufTy).Contents (Elt F) → (⟨S100000x64, .f32⟩ : BufTy).Contents (Elt F) → (⟨S100000x64, .f32⟩ : BufTy).Contents (Elt F)) ]

abbrev ops1c : List (HloOp τ sig (Elt F)) :=
  [ nullary main_c_16 (constantI S_ 32 2#32),
    unary main_c_16 main_v86 (broadcastInDim S1200000 ![] bcast_S_S1200000 : (⟨S_, .i32⟩ : BufTy).Contents (Elt F) → (⟨S1200000, .i32⟩ : BufTy).Contents (Elt F)),
    binary main_arg2 main_v86 main_v87 (cmpi .eq : (⟨S1200000, .i32⟩ : BufTy).Contents (Elt F) → (⟨S1200000, .i32⟩ : BufTy).Contents (Elt F) → (⟨S1200000, .i1⟩ : BufTy).Contents (Elt F)),
    unary main_arg8 main_v88 ((extractStridedSlice S1x32x64 ![2, 0, 0] · slices_S3x32x64_S1x32x64_2_0_0) : (⟨S3x32x64, .f32⟩ : BufTy).Contents (Elt F) → (⟨S1x32x64, .f32⟩ : BufTy).Contents (Elt F)),
    reshape main_v88 main_v89 rfl shapeCasts_S1x32x64_S32x64,
    binary main_v23 main_v89 main_v90 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    unary main_v87 main_v91 (broadcastInDim S1200000x1 ![0] bcast_S1200000_S1200000x1_0 : (⟨S1200000, .i1⟩ : BufTy).Contents (Elt F) → (⟨S1200000x1, .i1⟩ : BufTy).Contents (Elt F)),
    nullary main_c_17 (constantI S_ 32 0#32),
    unary main_c_17 main_v92 (broadcastInDim S1200000 ![] bcast_S_S1200000 : (⟨S_, .i32⟩ : BufTy).Contents (Elt F) → (⟨S1200000, .i32⟩ : BufTy).Contents (Elt F)),
    binary main_v25 main_v92 main_v93 (cmpi .slt : (⟨S1200000, .i32⟩ : BufTy).Contents (Elt F) → (⟨S1200000, .i32⟩ : BufTy).Contents (Elt F) → (⟨S1200000, .i1⟩ : BufTy).Contents (Elt F)),
    nullary main_c_18 (constantI S_ 32 100000#32),
    unary main_c_18 main_v94 (broadcastInDim S1200000 ![] bcast_S_S1200000 : (⟨S_, .i32⟩ : BufTy).Contents (Elt F) → (⟨S1200000, .i32⟩ : BufTy).Contents (Elt F)),
    binary main_v25 main_v94 main_v95 (addi : (⟨S1200000, .i32⟩ : BufTy).Contents (Elt F) → (⟨S1200000, .i32⟩ : BufTy).Contents (Elt F) → (⟨S1200000, .i32⟩ : BufTy).Contents (Elt F)),
    ternary main_v93 main_v95 main_v25 main_v96 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v96 main_v97 (broadcastInDim S1200000x1 ![0] bcast_S1200000_S1200000x1_0 : (⟨S1200000, .i32⟩ : BufTy).Contents (Elt F) → (⟨S1200000x1, .i32⟩ : BufTy).Contents (Elt F)),
    binary main_v90 main_v97 main_v98 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)) ]

abbrev ops2a : List (HloOp τ sig (Elt F)) :=
  [ nullary main_cst_19 (constant S_ .f32 0x00000000#32),
    TRef.unary (TRef.of (T := ⟨S_, .f32⟩) main_cst_19) (TRef.of (T := ⟨S_, .f32⟩) main_call3_v0) id,
    TRef.unary (TRef.of (T := ⟨S1200000x1, .i1⟩) main_v91) (TRef.of (T := ⟨S1200000x64, .i1⟩) main_call3_v1) (broadcastInDim S1200000x64 ![0, 1] bcast_S1200000x1_S1200000x64_0_1),
    TRef.unary (TRef.of (T := ⟨S_, .f32⟩) main_call3_v0) (TRef.of (T := ⟨S1200000x64, .f32⟩) main_call3_v2) (broadcastInDim S1200000x64 ![] bcast_S_S1200000x64),
    TRef.ternary (TRef.of (T := ⟨S1200000x64, .i1⟩) main_call3_v1) (TRef.of (T := ⟨S1200000x64, .f32⟩) main_v98) (TRef.of (T := ⟨S1200000x64, .f32⟩) main_call3_v2) (TRef.of (T := ⟨S1200000x64, .f32⟩) main_v99) select,
    nullary main_cst_20 (constant S_ .f32 0x00000000#32),
    unary main_cst_20 main_v100 (broadcastInDim S100000x64 ![] bcast_S_S100000x64 : (⟨S_, .f32⟩ : BufTy).Contents (Elt F) → (⟨S100000x64, .f32⟩ : BufTy).Contents (Elt F)),
    unary main_v27 main_v101 (broadcastInDim S1200000x1 ![0] bcast_S1200000_S1200000x1_0 : (⟨S1200000, .i32⟩ : BufTy).Contents (Elt F) → (⟨S1200000x1, .i32⟩ : BufTy).Contents (Elt F)),
    ternary main_v100 main_v101 main_v99 main_v102 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    unary main_v87 main_v103 (uitofp .f32 : (⟨S1200000, .i1⟩ : BufTy).Contents (Elt F) → (⟨S1200000, .f32⟩ : BufTy).Contents (Elt F)),
    nullary main_cst_21 (constant S_ .f32 0x00000000#32),
    unary main_cst_21 main_v104 (broadcastInDim S100000 ![] bcast_S_S100000 : (⟨S_, .f32⟩ : BufTy).Contents (Elt F) → (⟨S100000, .f32⟩ : BufTy).Contents (Elt F)),
    unary main_v27 main_v105 (broadcastInDim S1200000x1 ![0] bcast_S1200000_S1200000x1_0 : (⟨S1200000, .i32⟩ : BufTy).Contents (Elt F) → (⟨S1200000x1, .i32⟩ : BufTy).Contents (Elt F)),
    ternary main_v104 main_v105 main_v103 main_v106 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    nullary main_cst_22 (constant S_ .f32 0x3F800000#32),
    unary main_cst_22 main_v107 (broadcastInDim S100000 ![] bcast_S_S100000 : (⟨S_, .f32⟩ : BufTy).Contents (Elt F) → (⟨S100000, .f32⟩ : BufTy).Contents (Elt F)),
    binary main_v106 main_v107 main_v108 (maximumf : (⟨S100000, .f32⟩ : BufTy).Contents (Elt F) → (⟨S100000, .f32⟩ : BufTy).Contents (Elt F) → (⟨S100000, .f32⟩ : BufTy).Contents (Elt F)),
    unary main_v108 main_v109 (broadcastInDim S100000x1 ![0] bcast_S100000_S100000x1_0 : (⟨S100000, .f32⟩ : BufTy).Contents (Elt F) → (⟨S100000x1, .f32⟩ : BufTy).Contents (Elt F)),
    unary main_v109 main_v110 (broadcastInDim S100000x64 ![0, 1] bcast_S100000x1_S100000x64_0_1 : (⟨S100000x1, .f32⟩ : BufTy).Contents (Elt F) → (⟨S100000x64, .f32⟩ : BufTy).Contents (Elt F)),
    binary main_v102 main_v110 main_v111 (Host.divf : (⟨S100000x64, .f32⟩ : BufTy).Contents (Elt F) → (⟨S100000x64, .f32⟩ : BufTy).Contents (Elt F) → (⟨S100000x64, .f32⟩ : BufTy).Contents (Elt F)),
    binary main_v85 main_v111 main_v112 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v112) (TRef.of (T := ⟨S100000x64, .f32⟩) main_call4_v0) (TRef.of (T := ⟨S100000x64, .f32⟩) main_v113) maximumf,
    binary main_v113 main_arg12 main_v114 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg13 main_v115 (broadcastInDim S1x64 ![1] bcast_S64_S1x64_1 : (⟨S64, .f32⟩ : BufTy).Contents (Elt F) → (⟨S1x64, .f32⟩ : BufTy).Contents (Elt F)),
    unary main_v115 main_v116 (broadcastInDim S100000x64 ![0, 1] bcast_S1x64_S100000x64_0_1 : (⟨S1x64, .f32⟩ : BufTy).Contents (Elt F) → (⟨S100000x64, .f32⟩ : BufTy).Contents (Elt F)),
    binary main_v114 main_v116 main_v117 (addf : (⟨S100000x64, .f32⟩ : BufTy).Contents (Elt F) → (⟨S100000x64, .f32⟩ : BufTy).Contents (Elt F) → (⟨S100000x64, .f32⟩ : BufTy).Contents (Elt F)) ]

abbrev ops2b : List (HloOp τ sig (Elt F)) :=
  [ nullary main_c_23 (constantI S_ 32 0#32),
    unary main_c_23 main_v118 (broadcastInDim S1200000 ![] bcast_S_S1200000 : (⟨S_, .i32⟩ : BufTy).Contents (Elt F) → (⟨S1200000, .i32⟩ : BufTy).Contents (Elt F)),
    binary main_arg2 main_v118 main_v119 (cmpi .eq : (⟨S1200000, .i32⟩ : BufTy).Contents (Elt F) → (⟨S1200000, .i32⟩ : BufTy).Contents (Elt F) → (⟨S1200000, .i1⟩ : BufTy).Contents (Elt F)),
    unary main_arg11 main_v120 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v120 main_v121 rfl shapeCasts_S1x64x64_S64x64,
    binary main_v113 main_v121 main_v122 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v119 main_v123 (broadcastInDim S1200000x1 ![0] bcast_S1200000_S1200000x1_0 : (⟨S1200000, .i1⟩ : BufTy).Contents (Elt F) → (⟨S1200000x1, .i1⟩ : BufTy).Contents (Elt F)),
    nullary main_c_24 (constantI S_ 32 0#32),
    unary main_c_24 main_v124 (broadcastInDim S1200000 ![] bcast_S_S1200000 : (⟨S_, .i32⟩ : BufTy).Contents (Elt F) → (⟨S1200000, .i32⟩ : BufTy).Contents (Elt F)),
    binary main_v25 main_v124 main_v125 (cmpi .slt : (⟨S1200000, .i32⟩ : BufTy).Contents (Elt F) → (⟨S1200000, .i32⟩ : BufTy).Contents (Elt F) → (⟨S1200000, .i1⟩ : BufTy).Contents (Elt F)),
    nullary main_c_25 (constantI S_ 32 100000#32),
    unary main_c_25 main_v126 (broadcastInDim S1200000 ![] bcast_S_S1200000 : (⟨S_, .i32⟩ : BufTy).Contents (Elt F) → (⟨S1200000, .i32⟩ : BufTy).Contents (Elt F)),
    binary main_v25 main_v126 main_v127 (addi : (⟨S1200000, .i32⟩ : BufTy).Contents (Elt F) → (⟨S1200000, .i32⟩ : BufTy).Contents (Elt F) → (⟨S1200000, .i32⟩ : BufTy).Contents (Elt F)),
    ternary main_v125 main_v127 main_v25 main_v128 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v128 main_v129 (broadcastInDim S1200000x1 ![0] bcast_S1200000_S1200000x1_0 : (⟨S1200000, .i32⟩ : BufTy).Contents (Elt F) → (⟨S1200000x1, .i32⟩ : BufTy).Contents (Elt F)),
    binary main_v122 main_v129 main_v130 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_cst_26 (constant S_ .f32 0x00000000#32),
    TRef.unary (TRef.of (T := ⟨S_, .f32⟩) main_cst_26) (TRef.of (T := ⟨S_, .f32⟩) main_call5_v0) id,
    TRef.unary (TRef.of (T := ⟨S1200000x1, .i1⟩) main_v123) (TRef.of (T := ⟨S1200000x64, .i1⟩) main_call5_v1) (broadcastInDim S1200000x64 ![0, 1] bcast_S1200000x1_S1200000x64_0_1),
    TRef.unary (TRef.of (T := ⟨S_, .f32⟩) main_call5_v0) (TRef.of (T := ⟨S1200000x64, .f32⟩) main_call5_v2) (broadcastInDim S1200000x64 ![] bcast_S_S1200000x64),
    TRef.ternary (TRef.of (T := ⟨S1200000x64, .i1⟩) main_call5_v1) (TRef.of (T := ⟨S1200000x64, .f32⟩) main_v130) (TRef.of (T := ⟨S1200000x64, .f32⟩) main_call5_v2) (TRef.of (T := ⟨S1200000x64, .f32⟩) main_v131) select,
    nullary main_cst_27 (constant S_ .f32 0x00000000#32),
    unary main_cst_27 main_v132 (broadcastInDim S100000x64 ![] bcast_S_S100000x64 : (⟨S_, .f32⟩ : BufTy).Contents (Elt F) → (⟨S100000x64, .f32⟩ : BufTy).Contents (Elt F)),
    unary main_v27 main_v133 (broadcastInDim S1200000x1 ![0] bcast_S1200000_S1200000x1_0 : (⟨S1200000, .i32⟩ : BufTy).Contents (Elt F) → (⟨S1200000x1, .i32⟩ : BufTy).Contents (Elt F)),
    ternary main_v132 main_v133 main_v131 main_v134 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    unary main_v119 main_v135 (uitofp .f32 : (⟨S1200000, .i1⟩ : BufTy).Contents (Elt F) → (⟨S1200000, .f32⟩ : BufTy).Contents (Elt F)),
    nullary main_cst_28 (constant S_ .f32 0x00000000#32),
    unary main_cst_28 main_v136 (broadcastInDim S100000 ![] bcast_S_S100000 : (⟨S_, .f32⟩ : BufTy).Contents (Elt F) → (⟨S100000, .f32⟩ : BufTy).Contents (Elt F)),
    unary main_v27 main_v137 (broadcastInDim S1200000x1 ![0] bcast_S1200000_S1200000x1_0 : (⟨S1200000, .i32⟩ : BufTy).Contents (Elt F) → (⟨S1200000x1, .i32⟩ : BufTy).Contents (Elt F)),
    ternary main_v136 main_v137 main_v135 main_v138 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    nullary main_cst_29 (constant S_ .f32 0x3F800000#32),
    unary main_cst_29 main_v139 (broadcastInDim S100000 ![] bcast_S_S100000 : (⟨S_, .f32⟩ : BufTy).Contents (Elt F) → (⟨S100000, .f32⟩ : BufTy).Contents (Elt F)),
    binary main_v138 main_v139 main_v140 (maximumf : (⟨S100000, .f32⟩ : BufTy).Contents (Elt F) → (⟨S100000, .f32⟩ : BufTy).Contents (Elt F) → (⟨S100000, .f32⟩ : BufTy).Contents (Elt F)),
    unary main_v140 main_v141 (broadcastInDim S100000x1 ![0] bcast_S100000_S100000x1_0 : (⟨S100000, .f32⟩ : BufTy).Contents (Elt F) → (⟨S100000x1, .f32⟩ : BufTy).Contents (Elt F)),
    unary main_v141 main_v142 (broadcastInDim S100000x64 ![0, 1] bcast_S100000x1_S100000x64_0_1 : (⟨S100000x1, .f32⟩ : BufTy).Contents (Elt F) → (⟨S100000x64, .f32⟩ : BufTy).Contents (Elt F)),
    binary main_v134 main_v142 main_v143 (Host.divf : (⟨S100000x64, .f32⟩ : BufTy).Contents (Elt F) → (⟨S100000x64, .f32⟩ : BufTy).Contents (Elt F) → (⟨S100000x64, .f32⟩ : BufTy).Contents (Elt F)),
    binary main_v117 main_v143 main_v144 (addf : (⟨S100000x64, .f32⟩ : BufTy).Contents (Elt F) → (⟨S100000x64, .f32⟩ : BufTy).Contents (Elt F) → (⟨S100000x64, .f32⟩ : BufTy).Contents (Elt F)) ]

abbrev ops2c : List (HloOp τ sig (Elt F)) :=
  [ nullary main_c_30 (constantI S_ 32 1#32),
    unary main_c_30 main_v145 (broadcastInDim S1200000 ![] bcast_S_S1200000 : (⟨S_, .i32⟩ : BufTy).Contents (Elt F) → (⟨S1200000, .i32⟩ : BufTy).Contents (Elt F)),
    binary main_arg2 main_v145 main_v146 (cmpi .eq : (⟨S1200000, .i32⟩ : BufTy).Contents (Elt F) → (⟨S1200000, .i32⟩ : BufTy).Contents (Elt F) → (⟨S1200000, .i1⟩ : BufTy).Contents (Elt F)) ]

abbrev ops3a : List (HloOp τ sig (Elt F)) :=
  [ unary main_arg11 main_v147 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v147 main_v148 rfl shapeCasts_S1x64x64_S64x64,
    binary main_v113 main_v148 main_v149 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v146 main_v150 (broadcastInDim S1200000x1 ![0] bcast_S1200000_S1200000x1_0 : (⟨S1200000, .i1⟩ : BufTy).Contents (Elt F) → (⟨S1200000x1, .i1⟩ : BufTy).Contents (Elt F)),
    nullary main_c_31 (constantI S_ 32 0#32),
    unary main_c_31 main_v151 (broadcastInDim S1200000 ![] bcast_S_S1200000 : (⟨S_, .i32⟩ : BufTy).Contents (Elt F) → (⟨S1200000, .i32⟩ : BufTy).Contents (Elt F)),
    binary main_v25 main_v151 main_v152 (cmpi .slt : (⟨S1200000, .i32⟩ : BufTy).Contents (Elt F) → (⟨S1200000, .i32⟩ : BufTy).Contents (Elt F) → (⟨S1200000, .i1⟩ : BufTy).Contents (Elt F)),
    nullary main_c_32 (constantI S_ 32 100000#32),
    unary main_c_32 main_v153 (broadcastInDim S1200000 ![] bcast_S_S1200000 : (⟨S_, .i32⟩ : BufTy).Contents (Elt F) → (⟨S1200000, .i32⟩ : BufTy).Contents (Elt F)),
    binary main_v25 main_v153 main_v154 (addi : (⟨S1200000, .i32⟩ : BufTy).Contents (Elt F) → (⟨S1200000, .i32⟩ : BufTy).Contents (Elt F) → (⟨S1200000, .i32⟩ : BufTy).Contents (Elt F)),
    ternary main_v152 main_v154 main_v25 main_v155 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v155 main_v156 (broadcastInDim S1200000x1 ![0] bcast_S1200000_S1200000x1_0 : (⟨S1200000, .i32⟩ : BufTy).Contents (Elt F) → (⟨S1200000x1, .i32⟩ : BufTy).Contents (Elt F)),
    binary main_v149 main_v156 main_v157 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_cst_33 (constant S_ .f32 0x00000000#32),
    TRef.unary (TRef.of (T := ⟨S_, .f32⟩) main_cst_33) (TRef.of (T := ⟨S_, .f32⟩) main_call6_v0) id,
    TRef.unary (TRef.of (T := ⟨S1200000x1, .i1⟩) main_v150) (TRef.of (T := ⟨S1200000x64, .i1⟩) main_call6_v1) (broadcastInDim S1200000x64 ![0, 1] bcast_S1200000x1_S1200000x64_0_1),
    TRef.unary (TRef.of (T := ⟨S_, .f32⟩) main_call6_v0) (TRef.of (T := ⟨S1200000x64, .f32⟩) main_call6_v2) (broadcastInDim S1200000x64 ![] bcast_S_S1200000x64),
    TRef.ternary (TRef.of (T := ⟨S1200000x64, .i1⟩) main_call6_v1) (TRef.of (T := ⟨S1200000x64, .f32⟩) main_v157) (TRef.of (T := ⟨S1200000x64, .f32⟩) main_call6_v2) (TRef.of (T := ⟨S1200000x64, .f32⟩) main_v158) select,
    nullary main_cst_34 (constant S_ .f32 0x00000000#32),
    unary main_cst_34 main_v159 (broadcastInDim S100000x64 ![] bcast_S_S100000x64 : (⟨S_, .f32⟩ : BufTy).Contents (Elt F) → (⟨S100000x64, .f32⟩ : BufTy).Contents (Elt F)),
    unary main_v27 main_v160 (broadcastInDim S1200000x1 ![0] bcast_S1200000_S1200000x1_0 : (⟨S1200000, .i32⟩ : BufTy).Contents (Elt F) → (⟨S1200000x1, .i32⟩ : BufTy).Contents (Elt F)),
    ternary main_v159 main_v160 main_v158 main_v161 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    unary main_v146 main_v162 (uitofp .f32 : (⟨S1200000, .i1⟩ : BufTy).Contents (Elt F) → (⟨S1200000, .f32⟩ : BufTy).Contents (Elt F)),
    nullary main_cst_35 (constant S_ .f32 0x00000000#32),
    unary main_cst_35 main_v163 (broadcastInDim S100000 ![] bcast_S_S100000 : (⟨S_, .f32⟩ : BufTy).Contents (Elt F) → (⟨S100000, .f32⟩ : BufTy).Contents (Elt F)),
    unary main_v27 main_v164 (broadcastInDim S1200000x1 ![0] bcast_S1200000_S1200000x1_0 : (⟨S1200000, .i32⟩ : BufTy).Contents (Elt F) → (⟨S1200000x1, .i32⟩ : BufTy).Contents (Elt F)),
    ternary main_v163 main_v164 main_v162 main_v165 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    nullary main_cst_36 (constant S_ .f32 0x3F800000#32),
    unary main_cst_36 main_v166 (broadcastInDim S100000 ![] bcast_S_S100000 : (⟨S_, .f32⟩ : BufTy).Contents (Elt F) → (⟨S100000, .f32⟩ : BufTy).Contents (Elt F)),
    binary main_v165 main_v166 main_v167 (maximumf : (⟨S100000, .f32⟩ : BufTy).Contents (Elt F) → (⟨S100000, .f32⟩ : BufTy).Contents (Elt F) → (⟨S100000, .f32⟩ : BufTy).Contents (Elt F)),
    unary main_v167 main_v168 (broadcastInDim S100000x1 ![0] bcast_S100000_S100000x1_0 : (⟨S100000, .f32⟩ : BufTy).Contents (Elt F) → (⟨S100000x1, .f32⟩ : BufTy).Contents (Elt F)),
    unary main_v168 main_v169 (broadcastInDim S100000x64 ![0, 1] bcast_S100000x1_S100000x64_0_1 : (⟨S100000x1, .f32⟩ : BufTy).Contents (Elt F) → (⟨S100000x64, .f32⟩ : BufTy).Contents (Elt F)),
    binary main_v161 main_v169 main_v170 (Host.divf : (⟨S100000x64, .f32⟩ : BufTy).Contents (Elt F) → (⟨S100000x64, .f32⟩ : BufTy).Contents (Elt F) → (⟨S100000x64, .f32⟩ : BufTy).Contents (Elt F)),
    binary main_v144 main_v170 main_v171 (addf : (⟨S100000x64, .f32⟩ : BufTy).Contents (Elt F) → (⟨S100000x64, .f32⟩ : BufTy).Contents (Elt F) → (⟨S100000x64, .f32⟩ : BufTy).Contents (Elt F)) ]

abbrev ops3b : List (HloOp τ sig (Elt F)) :=
  [ nullary main_c_37 (constantI S_ 32 2#32),
    unary main_c_37 main_v172 (broadcastInDim S1200000 ![] bcast_S_S1200000 : (⟨S_, .i32⟩ : BufTy).Contents (Elt F) → (⟨S1200000, .i32⟩ : BufTy).Contents (Elt F)),
    binary main_arg2 main_v172 main_v173 (cmpi .eq : (⟨S1200000, .i32⟩ : BufTy).Contents (Elt F) → (⟨S1200000, .i32⟩ : BufTy).Contents (Elt F) → (⟨S1200000, .i1⟩ : BufTy).Contents (Elt F)),
    unary main_arg11 main_v174 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v174 main_v175 rfl shapeCasts_S1x64x64_S64x64,
    binary main_v113 main_v175 main_v176 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v173 main_v177 (broadcastInDim S1200000x1 ![0] bcast_S1200000_S1200000x1_0 : (⟨S1200000, .i1⟩ : BufTy).Contents (Elt F) → (⟨S1200000x1, .i1⟩ : BufTy).Contents (Elt F)),
    nullary main_c_38 (constantI S_ 32 0#32),
    unary main_c_38 main_v178 (broadcastInDim S1200000 ![] bcast_S_S1200000 : (⟨S_, .i32⟩ : BufTy).Contents (Elt F) → (⟨S1200000, .i32⟩ : BufTy).Contents (Elt F)),
    binary main_v25 main_v178 main_v179 (cmpi .slt : (⟨S1200000, .i32⟩ : BufTy).Contents (Elt F) → (⟨S1200000, .i32⟩ : BufTy).Contents (Elt F) → (⟨S1200000, .i1⟩ : BufTy).Contents (Elt F)),
    nullary main_c_39 (constantI S_ 32 100000#32),
    unary main_c_39 main_v180 (broadcastInDim S1200000 ![] bcast_S_S1200000 : (⟨S_, .i32⟩ : BufTy).Contents (Elt F) → (⟨S1200000, .i32⟩ : BufTy).Contents (Elt F)),
    binary main_v25 main_v180 main_v181 (addi : (⟨S1200000, .i32⟩ : BufTy).Contents (Elt F) → (⟨S1200000, .i32⟩ : BufTy).Contents (Elt F) → (⟨S1200000, .i32⟩ : BufTy).Contents (Elt F)),
    ternary main_v179 main_v181 main_v25 main_v182 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v182 main_v183 (broadcastInDim S1200000x1 ![0] bcast_S1200000_S1200000x1_0 : (⟨S1200000, .i32⟩ : BufTy).Contents (Elt F) → (⟨S1200000x1, .i32⟩ : BufTy).Contents (Elt F)),
    binary main_v176 main_v183 main_v184 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_cst_40 (constant S_ .f32 0x00000000#32),
    TRef.unary (TRef.of (T := ⟨S_, .f32⟩) main_cst_40) (TRef.of (T := ⟨S_, .f32⟩) main_call7_v0) id,
    TRef.unary (TRef.of (T := ⟨S1200000x1, .i1⟩) main_v177) (TRef.of (T := ⟨S1200000x64, .i1⟩) main_call7_v1) (broadcastInDim S1200000x64 ![0, 1] bcast_S1200000x1_S1200000x64_0_1),
    TRef.unary (TRef.of (T := ⟨S_, .f32⟩) main_call7_v0) (TRef.of (T := ⟨S1200000x64, .f32⟩) main_call7_v2) (broadcastInDim S1200000x64 ![] bcast_S_S1200000x64),
    TRef.ternary (TRef.of (T := ⟨S1200000x64, .i1⟩) main_call7_v1) (TRef.of (T := ⟨S1200000x64, .f32⟩) main_v184) (TRef.of (T := ⟨S1200000x64, .f32⟩) main_call7_v2) (TRef.of (T := ⟨S1200000x64, .f32⟩) main_v185) select,
    nullary main_cst_41 (constant S_ .f32 0x00000000#32),
    unary main_cst_41 main_v186 (broadcastInDim S100000x64 ![] bcast_S_S100000x64 : (⟨S_, .f32⟩ : BufTy).Contents (Elt F) → (⟨S100000x64, .f32⟩ : BufTy).Contents (Elt F)),
    unary main_v27 main_v187 (broadcastInDim S1200000x1 ![0] bcast_S1200000_S1200000x1_0 : (⟨S1200000, .i32⟩ : BufTy).Contents (Elt F) → (⟨S1200000x1, .i32⟩ : BufTy).Contents (Elt F)),
    ternary main_v186 main_v187 main_v185 main_v188 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    unary main_v173 main_v189 (uitofp .f32 : (⟨S1200000, .i1⟩ : BufTy).Contents (Elt F) → (⟨S1200000, .f32⟩ : BufTy).Contents (Elt F)),
    nullary main_cst_42 (constant S_ .f32 0x00000000#32),
    unary main_cst_42 main_v190 (broadcastInDim S100000 ![] bcast_S_S100000 : (⟨S_, .f32⟩ : BufTy).Contents (Elt F) → (⟨S100000, .f32⟩ : BufTy).Contents (Elt F)),
    unary main_v27 main_v191 (broadcastInDim S1200000x1 ![0] bcast_S1200000_S1200000x1_0 : (⟨S1200000, .i32⟩ : BufTy).Contents (Elt F) → (⟨S1200000x1, .i32⟩ : BufTy).Contents (Elt F)),
    ternary main_v190 main_v191 main_v189 main_v192 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    nullary main_cst_43 (constant S_ .f32 0x3F800000#32),
    unary main_cst_43 main_v193 (broadcastInDim S100000 ![] bcast_S_S100000 : (⟨S_, .f32⟩ : BufTy).Contents (Elt F) → (⟨S100000, .f32⟩ : BufTy).Contents (Elt F)) ]

abbrev ops4 : List (HloOp τ sig (Elt F)) :=
  [ binary main_v192 main_v193 main_v194 (maximumf : (⟨S100000, .f32⟩ : BufTy).Contents (Elt F) → (⟨S100000, .f32⟩ : BufTy).Contents (Elt F) → (⟨S100000, .f32⟩ : BufTy).Contents (Elt F)),
    unary main_v194 main_v195 (broadcastInDim S100000x1 ![0] bcast_S100000_S100000x1_0 : (⟨S100000, .f32⟩ : BufTy).Contents (Elt F) → (⟨S100000x1, .f32⟩ : BufTy).Contents (Elt F)),
    unary main_v195 main_v196 (broadcastInDim S100000x64 ![0, 1] bcast_S100000x1_S100000x64_0_1 : (⟨S100000x1, .f32⟩ : BufTy).Contents (Elt F) → (⟨S100000x64, .f32⟩ : BufTy).Contents (Elt F)),
    binary main_v188 main_v196 main_v197 (Host.divf : (⟨S100000x64, .f32⟩ : BufTy).Contents (Elt F) → (⟨S100000x64, .f32⟩ : BufTy).Contents (Elt F) → (⟨S100000x64, .f32⟩ : BufTy).Contents (Elt F)),
    binary main_v171 main_v197 main_v198 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S100000x64, .f32⟩) main_call8_v0) (broadcastInDim S100000x64 ![] bcast_S_S100000x64),
    TRef.binary (TRef.of (T := ⟨S100000x64, .f32⟩) main_v198) (TRef.of (T := ⟨S100000x64, .f32⟩) main_call8_v0) (TRef.of (T := ⟨S100000x64, .f32⟩) main_v199) maximumf,
    nullary main_cst_44 (constant S_ .f32 0x00000000#32),
    unary main_cst_44 main_v200 (broadcastInDim S512x64 ![] bcast_S_S512x64 : (⟨S_, .f32⟩ : BufTy).Contents (Elt F) → (⟨S512x64, .f32⟩ : BufTy).Contents (Elt F)),
    unary main_arg3 main_v201 (broadcastInDim S100000x1 ![0] bcast_S100000_S100000x1_0 : (⟨S100000, .i32⟩ : BufTy).Contents (Elt F) → (⟨S100000x1, .i32⟩ : BufTy).Contents (Elt F)),
    ternary main_v200 main_v201 main_v199 main_v202 ((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F)),
    nullary main_cst_45 (constant S_ .f32 0x3F800000#32),
    unary main_cst_45 main_v203 (broadcastInDim S100000 ![] bcast_S_S100000 : (⟨S_, .f32⟩ : BufTy).Contents (Elt F) → (⟨S100000, .f32⟩ : BufTy).Contents (Elt F)),
    nullary main_cst_46 (constant S_ .f32 0x00000000#32),
    unary main_cst_46 main_v204 (broadcastInDim S512 ![] bcast_S_S512 : (⟨S_, .f32⟩ : BufTy).Contents (Elt F) → (⟨S512, .f32⟩ : BufTy).Contents (Elt F)),
    unary main_arg3 main_v205 (broadcastInDim S100000x1 ![0] bcast_S100000_S100000x1_0 : (⟨S100000, .i32⟩ : BufTy).Contents (Elt F) → (⟨S100000x1, .i32⟩ : BufTy).Contents (Elt F)),
    ternary main_v204 main_v205 main_v203 main_v206 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    nullary main_cst_47 (constant S_ .f32 0x3F800000#32),
    unary main_cst_47 main_v207 (broadcastInDim S512 ![] bcast_S_S512 : (⟨S_, .f32⟩ : BufTy).Contents (Elt F) → (⟨S512, .f32⟩ : BufTy).Contents (Elt F)),
    binary main_v206 main_v207 main_v208 (maximumf : (⟨S512, .f32⟩ : BufTy).Contents (Elt F) → (⟨S512, .f32⟩ : BufTy).Contents (Elt F) → (⟨S512, .f32⟩ : BufTy).Contents (Elt F)),
    unary main_v208 main_v209 (broadcastInDim S512x1 ![0] bcast_S512_S512x1_0 : (⟨S512, .f32⟩ : BufTy).Contents (Elt F) → (⟨S512x1, .f32⟩ : BufTy).Contents (Elt F)),
    unary main_v209 main_v210 (broadcastInDim S512x64 ![0, 1] bcast_S512x1_S512x64_0_1 : (⟨S512x1, .f32⟩ : BufTy).Contents (Elt F) → (⟨S512x64, .f32⟩ : BufTy).Contents (Elt F)),
    binary main_v202 main_v210 main_v211 (Host.divf : (⟨S512x64, .f32⟩ : BufTy).Contents (Elt F) → (⟨S512x64, .f32⟩ : BufTy).Contents (Elt F) → (⟨S512x64, .f32⟩ : BufTy).Contents (Elt F)),
    binary main_v211 main_arg14 main_v212 ((fun l r => Host.dotGeneral dot_S512x64_S64x10_S512x10_1_0_0_1_n_n none l r) : (⟨S512x64, .f32⟩ : BufTy).Contents (Elt F) → (⟨S64x10, .f32⟩ : BufTy).Contents (Elt F) → (⟨S512x10, .f32⟩ : BufTy).Contents (Elt F)),
    unary main_arg15 main_v213 (broadcastInDim S1x10 ![1] bcast_S10_S1x10_1 : (⟨S10, .f32⟩ : BufTy).Contents (Elt F) → (⟨S1x10, .f32⟩ : BufTy).Contents (Elt F)),
    unary main_v213 main_v214 (broadcastInDim S512x10 ![0, 1] bcast_S1x10_S512x10_0_1 : (⟨S1x10, .f32⟩ : BufTy).Contents (Elt F) → (⟨S512x10, .f32⟩ : BufTy).Contents (Elt F)),
    binary main_v212 main_v214 main_v215 (addf : (⟨S512x10, .f32⟩ : BufTy).Contents (Elt F) → (⟨S512x10, .f32⟩ : BufTy).Contents (Elt F) → (⟨S512x10, .f32⟩ : BufTy).Contents (Elt F)) ]

/-! ## The program is the straight line of the twelve stretches

Each printed window of @main is, by computation, the straight line of its stretches; sequencing of straight
lines is concatenation of their operation lists. -/

noncomputable def win0 : List (HloOp τ sig (Elt F)) := ops0a ++ (ops0b ++ ops0c)
noncomputable def win1 : List (HloOp τ sig (Elt F)) := ops1a ++ (ops1b ++ ops1c)
noncomputable def win2 : List (HloOp τ sig (Elt F)) := ops2a ++ (ops2b ++ ops2c)
noncomputable def win3 : List (HloOp τ sig (Elt F)) := ops3a ++ ops3b
/-- @main's 290 operations, in order. -/
noncomputable def ops : List (HloOp τ sig (Elt F)) := win0 ++ (win1 ++ (win2 ++ (win3 ++ ops4)))

set_option maxRecDepth 8192 in
set_option maxHeartbeats 2000000 in
theorem part0_eq (d : Dev nD) : main_part0 (F := F) d = seq win0 := rfl
set_option maxRecDepth 8192 in
set_option maxHeartbeats 2000000 in
theorem part1_eq (d : Dev nD) : main_part1 (F := F) d = seq win1 := rfl
set_option maxRecDepth 8192 in
set_option maxHeartbeats 2000000 in
theorem part2_eq (d : Dev nD) : main_part2 (F := F) d = seq win2 := rfl
set_option maxRecDepth 8192 in
set_option maxHeartbeats 2000000 in
theorem part3_eq (d : Dev nD) : main_part3 (F := F) d = seq win3 := rfl
set_option maxRecDepth 8192 in
set_option maxHeartbeats 2000000 in
theorem part4_eq (d : Dev nD) : main_part4 (F := F) d = seq ops4 := rfl

theorem main_eq (d : Dev nD) : main (F := F) d = seq ops := by
  rw [ops, seq_append, seq_append, seq_append, seq_append, ← part0_eq d, ← part1_eq d, ← part2_eq d, ← part3_eq d, ← part4_eq d]
  rfl

theorem scopedRefs_eq : (Finset.univ.filter fun b : Ref sig .tc => b.isScoped) = ∅ := by decide
theorem scopedSems_eq : (Finset.univ.filter fun sm : SemLoc sig => sm.isScoped .tc) = ∅ := by decide

/-- A property of every operation of two lines holds of every operation of the two in a row. -/
theorem forall_app {p : HloOp τ sig (Elt F) → Prop} {l₁ l₂ : List (HloOp τ sig (Elt F))}
    (h₁ : l₁.Forall p) (h₂ : l₂.Forall p) : (l₁ ++ l₂).Forall p := List.forall_append.2 ⟨h₁, h₂⟩

/-! ## What each stretch touches, writes and decides

Every operation touches TensorCore references only and determines its results; the references a stretch
writes are listed, so that any other reference keeps its contents through the stretch. -/

theorem ops0a_sub : (ops0a : List (HloOp τ sig (Elt F))).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub ..⟩
theorem ops0b_sub : (ops0b : List (HloOp τ sig (Elt F))).Forall fun op => op.bufs ⊆ tcRefs τ sig :=
  ⟨binary_bufs_sub .., binary_bufs_sub .., unary_bufs_sub .., unary_bufs_sub .., binary_bufs_sub .., nullary_bufs_sub ..,
    unary_bufs_sub .., binary_bufs_sub .., unary_bufs_sub .., reshape_bufs_sub .., unary_bufs_sub .., reshape_bufs_sub ..,
    binary_bufs_sub .., unary_bufs_sub .., unary_bufs_sub .., binary_bufs_sub ..⟩
theorem ops0c_sub : (ops0c : List (HloOp τ sig (Elt F))).Forall fun op => op.bufs ⊆ tcRefs τ sig :=
  ⟨nullary_bufs_sub .., unary_bufs_sub .., binary_bufs_sub .., unary_bufs_sub .., reshape_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., unary_bufs_sub .., ternary_bufs_sub .., nullary_bufs_sub .., unary_bufs_sub .., unary_bufs_sub ..,
    ternary_bufs_sub .., unary_bufs_sub .., nullary_bufs_sub ..⟩
theorem ops1a_sub : (ops1a : List (HloOp τ sig (Elt F))).Forall fun op => op.bufs ⊆ tcRefs τ sig :=
  ⟨unary_bufs_sub .., unary_bufs_sub .., ternary_bufs_sub .., nullary_bufs_sub .., unary_bufs_sub .., binary_bufs_sub ..,
    unary_bufs_sub .., unary_bufs_sub .., binary_bufs_sub .., binary_bufs_sub ..⟩
theorem ops1b_sub : (ops1b : List (HloOp τ sig (Elt F))).Forall fun op => op.bufs ⊆ tcRefs τ sig :=
  ⟨nullary_bufs_sub .., unary_bufs_sub .., binary_bufs_sub .., unary_bufs_sub .., reshape_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., unary_bufs_sub .., ternary_bufs_sub .., nullary_bufs_sub .., unary_bufs_sub .., unary_bufs_sub ..,
    ternary_bufs_sub .., unary_bufs_sub .., nullary_bufs_sub .., unary_bufs_sub .., unary_bufs_sub .., ternary_bufs_sub ..,
    nullary_bufs_sub .., unary_bufs_sub .., binary_bufs_sub .., unary_bufs_sub .., unary_bufs_sub .., binary_bufs_sub ..,
    binary_bufs_sub ..⟩
theorem ops1c_sub : (ops1c : List (HloOp τ sig (Elt F))).Forall fun op => op.bufs ⊆ tcRefs τ sig :=
  ⟨nullary_bufs_sub .., unary_bufs_sub .., binary_bufs_sub .., unary_bufs_sub .., reshape_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub ..⟩
theorem ops2a_sub : (ops2a : List (HloOp τ sig (Elt F))).Forall fun op => op.bufs ⊆ tcRefs τ sig :=
  ⟨nullary_bufs_sub .., unary_bufs_sub .., unary_bufs_sub .., unary_bufs_sub .., ternary_bufs_sub .., nullary_bufs_sub ..,
    unary_bufs_sub .., unary_bufs_sub .., ternary_bufs_sub .., unary_bufs_sub .., nullary_bufs_sub .., unary_bufs_sub ..,
    unary_bufs_sub .., ternary_bufs_sub .., nullary_bufs_sub .., unary_bufs_sub .., binary_bufs_sub .., unary_bufs_sub ..,
    unary_bufs_sub .., binary_bufs_sub .., binary_bufs_sub .., nullary_bufs_sub .., unary_bufs_sub .., binary_bufs_sub ..,
    binary_bufs_sub .., unary_bufs_sub .., unary_bufs_sub .., binary_bufs_sub ..⟩
theorem ops2b_sub : (ops2b : List (HloOp τ sig (Elt F))).Forall fun op => op.bufs ⊆ tcRefs τ sig :=
  ⟨nullary_bufs_sub .., unary_bufs_sub .., binary_bufs_sub .., unary_bufs_sub .., reshape_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., unary_bufs_sub .., ternary_bufs_sub .., nullary_bufs_sub .., unary_bufs_sub .., unary_bufs_sub ..,
    ternary_bufs_sub .., unary_bufs_sub .., nullary_bufs_sub .., unary_bufs_sub .., unary_bufs_sub .., ternary_bufs_sub ..,
    nullary_bufs_sub .., unary_bufs_sub .., binary_bufs_sub .., unary_bufs_sub .., unary_bufs_sub .., binary_bufs_sub ..,
    binary_bufs_sub ..⟩
theorem ops2c_sub : (ops2c : List (HloOp τ sig (Elt F))).Forall fun op => op.bufs ⊆ tcRefs τ sig :=
  ⟨nullary_bufs_sub .., unary_bufs_sub .., binary_bufs_sub ..⟩
theorem ops3a_sub : (ops3a : List (HloOp τ sig (Elt F))).Forall fun op => op.bufs ⊆ tcRefs τ sig :=
  ⟨unary_bufs_sub .., reshape_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., unary_bufs_sub .., ternary_bufs_sub ..,
    nullary_bufs_sub .., unary_bufs_sub .., unary_bufs_sub .., ternary_bufs_sub .., unary_bufs_sub .., nullary_bufs_sub ..,
    unary_bufs_sub .., unary_bufs_sub .., ternary_bufs_sub .., nullary_bufs_sub .., unary_bufs_sub .., binary_bufs_sub ..,
    unary_bufs_sub .., unary_bufs_sub .., binary_bufs_sub .., binary_bufs_sub ..⟩
theorem ops3b_sub : (ops3b : List (HloOp τ sig (Elt F))).Forall fun op => op.bufs ⊆ tcRefs τ sig :=
  ⟨nullary_bufs_sub .., unary_bufs_sub .., binary_bufs_sub .., unary_bufs_sub .., reshape_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., unary_bufs_sub .., ternary_bufs_sub .., nullary_bufs_sub .., unary_bufs_sub .., unary_bufs_sub ..,
    ternary_bufs_sub .., unary_bufs_sub .., nullary_bufs_sub .., unary_bufs_sub .., unary_bufs_sub .., ternary_bufs_sub ..,
    nullary_bufs_sub .., unary_bufs_sub ..⟩
theorem ops4_sub : (ops4 : List (HloOp τ sig (Elt F))).Forall fun op => op.bufs ⊆ tcRefs τ sig :=
  ⟨binary_bufs_sub .., unary_bufs_sub .., unary_bufs_sub .., binary_bufs_sub .., binary_bufs_sub .., nullary_bufs_sub ..,
    unary_bufs_sub .., binary_bufs_sub .., nullary_bufs_sub .., unary_bufs_sub .., unary_bufs_sub .., ternary_bufs_sub ..,
    nullary_bufs_sub .., unary_bufs_sub .., nullary_bufs_sub .., unary_bufs_sub .., unary_bufs_sub .., ternary_bufs_sub ..,
    nullary_bufs_sub .., unary_bufs_sub .., binary_bufs_sub .., unary_bufs_sub .., unary_bufs_sub .., binary_bufs_sub ..,
    binary_bufs_sub .., unary_bufs_sub .., unary_bufs_sub .., binary_bufs_sub ..⟩

theorem ops0a_fresh : (ops0a : List (HloOp τ sig (Elt F))).Forall fun op => op.fresh = ∅ := by
  repeat' apply And.intro
  all_goals exact rfl
theorem ops0b_fresh : (ops0b : List (HloOp τ sig (Elt F))).Forall fun op => op.fresh = ∅ := by
  repeat' apply And.intro
  all_goals exact rfl
theorem ops0c_fresh : (ops0c : List (HloOp τ sig (Elt F))).Forall fun op => op.fresh = ∅ := by
  repeat' apply And.intro
  all_goals exact rfl
theorem ops1a_fresh : (ops1a : List (HloOp τ sig (Elt F))).Forall fun op => op.fresh = ∅ := by
  repeat' apply And.intro
  all_goals exact rfl
theorem ops1b_fresh : (ops1b : List (HloOp τ sig (Elt F))).Forall fun op => op.fresh = ∅ := by
  repeat' apply And.intro
  all_goals exact rfl
theorem ops1c_fresh : (ops1c : List (HloOp τ sig (Elt F))).Forall fun op => op.fresh = ∅ := by
  repeat' apply And.intro
  all_goals exact rfl
theorem ops2a_fresh : (ops2a : List (HloOp τ sig (Elt F))).Forall fun op => op.fresh = ∅ := by
  repeat' apply And.intro
  all_goals exact rfl
theorem ops2b_fresh : (ops2b : List (HloOp τ sig (Elt F))).Forall fun op => op.fresh = ∅ := by
  repeat' apply And.intro
  all_goals exact rfl
theorem ops2c_fresh : (ops2c : List (HloOp τ sig (Elt F))).Forall fun op => op.fresh = ∅ := by
  repeat' apply And.intro
  all_goals exact rfl
theorem ops3a_fresh : (ops3a : List (HloOp τ sig (Elt F))).Forall fun op => op.fresh = ∅ := by
  repeat' apply And.intro
  all_goals exact rfl
theorem ops3b_fresh : (ops3b : List (HloOp τ sig (Elt F))).Forall fun op => op.fresh = ∅ := by
  repeat' apply And.intro
  all_goals exact rfl
theorem ops4_fresh : (ops4 : List (HloOp τ sig (Elt F))).Forall fun op => op.fresh = ∅ := by
  repeat' apply And.intro
  all_goals exact rfl

theorem ops_sub : (ops : List (HloOp τ sig (Elt F))).Forall fun op => op.bufs ⊆ tcRefs τ sig :=
  forall_app (forall_app ops0a_sub (forall_app ops0b_sub ops0c_sub))
    (forall_app (forall_app ops1a_sub (forall_app ops1b_sub ops1c_sub))
      (forall_app (forall_app ops2a_sub (forall_app ops2b_sub ops2c_sub))
        (forall_app (forall_app ops3a_sub ops3b_sub) ops4_sub)))

theorem ops_fresh : (ops : List (HloOp τ sig (Elt F))).Forall fun op => op.fresh = ∅ :=
  forall_app (forall_app ops0a_fresh (forall_app ops0b_fresh ops0c_fresh))
    (forall_app (forall_app ops1a_fresh (forall_app ops1b_fresh ops1c_fresh))
      (forall_app (forall_app ops2a_fresh (forall_app ops2b_fresh ops2c_fresh))
        (forall_app (forall_app ops3a_fresh ops3b_fresh) ops4_fresh)))

/-- Every weakly fair execution of @main terminates with each TensorCore buffer at the fold of the 290
    operations over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.1 ops_fresh)

/-- The singleton of a listed reference lies among the listed references' device buffers. -/
theorem single_sub_of_mem {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

noncomputable def wr0a : List (Ref sig .tc) :=
  [main_v0, main_v1, main_c, main_v2, main_v3, main_c_0, main_v4, main_v5, main_v6, main_v7, main_v8, main_v9, main_v10,
    main_c_1, main_v11, main_v12, main_c_2, main_v13, main_v14, main_v15, main_v16, main_v17]
noncomputable def wr0b : List (Ref sig .tc) :=
  [main_v18, main_v19, main_v20, main_v21, main_v22, main_call0_cst, main_call0_v0, main_v23, main_v24, main_v25, main_v26,
    main_v27, main_v28, main_v29, main_v30, main_v31]
noncomputable def wr0c : List (Ref sig .tc) :=
  [main_c_3, main_v32, main_v33, main_v34, main_v35, main_v36, main_v37, main_c_4, main_v38, main_v39, main_c_5, main_v40,
    main_v41, main_v42, main_v43, main_v44, main_cst, main_call1_v0, main_call1_v1, main_call1_v2, main_v45, main_cst_6,
    main_v46, main_v47, main_v48, main_v49, main_cst_7]
noncomputable def wr1a : List (Ref sig .tc) :=
  [main_v50, main_v51, main_v52, main_cst_8, main_v53, main_v54, main_v55, main_v56, main_v57, main_v58]
noncomputable def wr1b : List (Ref sig .tc) :=
  [main_c_9, main_v59, main_v60, main_v61, main_v62, main_v63, main_v64, main_c_10, main_v65, main_v66, main_c_11, main_v67,
    main_v68, main_v69, main_v70, main_v71, main_cst_12, main_call2_v0, main_call2_v1, main_call2_v2, main_v72, main_cst_13,
    main_v73, main_v74, main_v75, main_v76, main_cst_14, main_v77, main_v78, main_v79, main_cst_15, main_v80, main_v81,
    main_v82, main_v83, main_v84, main_v85]
noncomputable def wr1c : List (Ref sig .tc) :=
  [main_c_16, main_v86, main_v87, main_v88, main_v89, main_v90, main_v91, main_c_17, main_v92, main_v93, main_c_18, main_v94,
    main_v95, main_v96, main_v97, main_v98]
noncomputable def wr2a : List (Ref sig .tc) :=
  [main_cst_19, main_call3_v0, main_call3_v1, main_call3_v2, main_v99, main_cst_20, main_v100, main_v101, main_v102, main_v103,
    main_cst_21, main_v104, main_v105, main_v106, main_cst_22, main_v107, main_v108, main_v109, main_v110, main_v111, main_v112,
    main_call4_cst, main_call4_v0, main_v113, main_v114, main_v115, main_v116, main_v117]
noncomputable def wr2b : List (Ref sig .tc) :=
  [main_c_23, main_v118, main_v119, main_v120, main_v121, main_v122, main_v123, main_c_24, main_v124, main_v125, main_c_25,
    main_v126, main_v127, main_v128, main_v129, main_v130, main_cst_26, main_call5_v0, main_call5_v1, main_call5_v2, main_v131,
    main_cst_27, main_v132, main_v133, main_v134, main_v135, main_cst_28, main_v136, main_v137, main_v138, main_cst_29,
    main_v139, main_v140, main_v141, main_v142, main_v143, main_v144]
noncomputable def wr2c : List (Ref sig .tc) := [main_c_30, main_v145, main_v146]
noncomputable def wr3a : List (Ref sig .tc) :=
  [main_v147, main_v148, main_v149, main_v150, main_c_31, main_v151, main_v152, main_c_32, main_v153, main_v154, main_v155,
    main_v156, main_v157, main_cst_33, main_call6_v0, main_call6_v1, main_call6_v2, main_v158, main_cst_34, main_v159,
    main_v160, main_v161, main_v162, main_cst_35, main_v163, main_v164, main_v165, main_cst_36, main_v166, main_v167,
    main_v168, main_v169, main_v170, main_v171]
noncomputable def wr3b : List (Ref sig .tc) :=
  [main_c_37, main_v172, main_v173, main_v174, main_v175, main_v176, main_v177, main_c_38, main_v178, main_v179, main_c_39,
    main_v180, main_v181, main_v182, main_v183, main_v184, main_cst_40, main_call7_v0, main_call7_v1, main_call7_v2, main_v185,
    main_cst_41, main_v186, main_v187, main_v188, main_v189, main_cst_42, main_v190, main_v191, main_v192, main_cst_43,
    main_v193]
noncomputable def wr4 : List (Ref sig .tc) :=
  [main_v194, main_v195, main_v196, main_v197, main_v198, main_call8_cst, main_call8_v0, main_v199, main_cst_44, main_v200,
    main_v201, main_v202, main_cst_45, main_v203, main_cst_46, main_v204, main_v205, main_v206, main_cst_47, main_v207,
    main_v208, main_v209, main_v210, main_v211, main_v212, main_v213, main_v214, main_v215]

theorem ops0a_wr : (ops0a : List (HloOp τ sig (Elt F))).Forall fun op =>
    op.writes ⊆ (wr0a.map (Proc.devRef (τ := τ) .tc)).toFinset := by
  repeat' apply And.intro
  all_goals exact single_sub_of_mem (by decide)
theorem ops0b_wr : (ops0b : List (HloOp τ sig (Elt F))).Forall fun op =>
    op.writes ⊆ (wr0b.map (Proc.devRef (τ := τ) .tc)).toFinset := by
  repeat' apply And.intro
  all_goals exact single_sub_of_mem (by decide)
theorem ops0c_wr : (ops0c : List (HloOp τ sig (Elt F))).Forall fun op =>
    op.writes ⊆ (wr0c.map (Proc.devRef (τ := τ) .tc)).toFinset := by
  repeat' apply And.intro
  all_goals exact single_sub_of_mem (by decide)
theorem ops1a_wr : (ops1a : List (HloOp τ sig (Elt F))).Forall fun op =>
    op.writes ⊆ (wr1a.map (Proc.devRef (τ := τ) .tc)).toFinset := by
  repeat' apply And.intro
  all_goals exact single_sub_of_mem (by decide)
theorem ops1b_wr : (ops1b : List (HloOp τ sig (Elt F))).Forall fun op =>
    op.writes ⊆ (wr1b.map (Proc.devRef (τ := τ) .tc)).toFinset := by
  repeat' apply And.intro
  all_goals exact single_sub_of_mem (by decide)
theorem ops1c_wr : (ops1c : List (HloOp τ sig (Elt F))).Forall fun op =>
    op.writes ⊆ (wr1c.map (Proc.devRef (τ := τ) .tc)).toFinset := by
  repeat' apply And.intro
  all_goals exact single_sub_of_mem (by decide)
theorem ops2a_wr : (ops2a : List (HloOp τ sig (Elt F))).Forall fun op =>
    op.writes ⊆ (wr2a.map (Proc.devRef (τ := τ) .tc)).toFinset := by
  repeat' apply And.intro
  all_goals exact single_sub_of_mem (by decide)
theorem ops2b_wr : (ops2b : List (HloOp τ sig (Elt F))).Forall fun op =>
    op.writes ⊆ (wr2b.map (Proc.devRef (τ := τ) .tc)).toFinset := by
  repeat' apply And.intro
  all_goals exact single_sub_of_mem (by decide)
theorem ops2c_wr : (ops2c : List (HloOp τ sig (Elt F))).Forall fun op =>
    op.writes ⊆ (wr2c.map (Proc.devRef (τ := τ) .tc)).toFinset := by
  repeat' apply And.intro
  all_goals exact single_sub_of_mem (by decide)
theorem ops3a_wr : (ops3a : List (HloOp τ sig (Elt F))).Forall fun op =>
    op.writes ⊆ (wr3a.map (Proc.devRef (τ := τ) .tc)).toFinset := by
  repeat' apply And.intro
  all_goals exact single_sub_of_mem (by decide)
theorem ops3b_wr : (ops3b : List (HloOp τ sig (Elt F))).Forall fun op =>
    op.writes ⊆ (wr3b.map (Proc.devRef (τ := τ) .tc)).toFinset := by
  repeat' apply And.intro
  all_goals exact single_sub_of_mem (by decide)
theorem ops4_wr : (ops4 : List (HloOp τ sig (Elt F))).Forall fun op =>
    op.writes ⊆ (wr4.map (Proc.devRef (τ := τ) .tc)).toFinset := by
  repeat' apply And.intro
  all_goals exact single_sub_of_mem (by decide)

/-- The references of @main's sixteen arguments. -/
noncomputable def argRefs : List (Ref sig .tc) :=
  [main_arg0, main_arg1, main_arg2, main_arg3, main_arg4, main_arg5, main_arg6, main_arg7, main_arg8, main_arg9, main_arg10,
    main_arg11, main_arg12, main_arg13, main_arg14, main_arg15]

/-- The arguments' buffers hold in `W` what they hold in `V`. -/
def Kept (V W : Valuation τ sig (Elt F)) : Prop := ∀ r ∈ argRefs, W (Proc.devRef .tc r) = V (Proc.devRef .tc r)

theorem Kept.refl (V : Valuation τ sig (Elt F)) : Kept V V := fun _ _ => rfl

/-- A stretch that writes none of the arguments keeps them. -/
theorem Kept.step {V W : Valuation τ sig (Elt F)} (h : Kept V W) {l : List (HloOp τ sig (Elt F))} {L : List (Ref sig .tc)}
    (hl : l.Forall fun op => op.writes ⊆ (L.map (Proc.devRef (τ := τ) .tc)).toFinset) (hd : ∀ r ∈ argRefs, r ∉ L) :
    Kept V (after l W) :=
  fun r hr => (after_of_writes_sub l W hl (hd r hr)).trans (h r hr)

/-! ## Each stretch computes its stage

Over any contents `W` of the buffers: where the buffers a stretch reads hold the stages of the arguments
`x0 … x15` (an argument's buffer the argument itself), the buffer it is read at afterwards holds its stage.
The fold over the stretch unrolls to the operations' functions applied to `W` at the buffers read, and the
stage unfolds to the same composition. -/

variable {x0 : (⟨S100000x2, .i32⟩ : BufTy).Contents (Elt F)} {x1 : (⟨S2x1200000, .i32⟩ : BufTy).Contents (Elt F)}
  {x2 : (⟨S1200000, .i32⟩ : BufTy).Contents (Elt F)} {x3 : (⟨S100000, .i32⟩ : BufTy).Contents (Elt F)}
  {x4 x5 : (⟨S16x8, .f32⟩ : BufTy).Contents (Elt F)} {x6 : (⟨S16x32, .f32⟩ : BufTy).Contents (Elt F)}
  {x7 : (⟨S32, .f32⟩ : BufTy).Contents (Elt F)} {x8 : (⟨S3x32x64, .f32⟩ : BufTy).Contents (Elt F)}
  {x9 : (⟨S32x64, .f32⟩ : BufTy).Contents (Elt F)} {x10 : (⟨S64, .f32⟩ : BufTy).Contents (Elt F)}
  {x11 : (⟨S3x64x64, .f32⟩ : BufTy).Contents (Elt F)} {x12 : (⟨S64x64, .f32⟩ : BufTy).Contents (Elt F)}
  {x13 : (⟨S64, .f32⟩ : BufTy).Contents (Elt F)} {x14 : (⟨S64x10, .f32⟩ : BufTy).Contents (Elt F)}
  {x15 : (⟨S10, .f32⟩ : BufTy).Contents (Elt F)}

-- the two embedding lookups
theorem s0a_v8 (W : Valuation τ sig (Elt F)) (a0 : W main_arg0 = x0) (a4 : W main_arg4 = x4) :
    after ops0a W main_v8 = val_main_v8 (F := F) x0 x4 := by
  after_results_simp
  rw [a0, a4]
  rfl

theorem s0a_v17 (W : Valuation τ sig (Elt F)) (a0 : W main_arg0 = x0) (a5 : W main_arg5 = x5) :
    after ops0a W main_v17 = val_main_v17 (F := F) x0 x5 := by
  after_results_simp
  rw [a0, a5]
  rfl

-- the joined embedding through the input layer; the two rows of the edge list; the first layer's root term and bias
theorem s0b_v23 (W : Valuation τ sig (Elt F)) (h8 : W main_v8 = val_main_v8 (F := F) x0 x4)
    (h17 : W main_v17 = val_main_v17 (F := F) x0 x5) (a6 : W main_arg6 = x6) (a7 : W main_arg7 = x7) :
    after ops0b W main_v23 = val_main_v23 (F := F) x0 x4 x5 x6 x7 := by
  after_results_simp
  rw [h8, h17, a6, a7]
  rfl

theorem s0b_v25 (W : Valuation τ sig (Elt F)) (a1 : W main_arg1 = x1) :
    after ops0b W main_v25 = val_main_v25 (F := F) x1 := by
  after_results_simp
  rw [a1]
  rfl

theorem s0b_v27 (W : Valuation τ sig (Elt F)) (a1 : W main_arg1 = x1) :
    after ops0b W main_v27 = val_main_v27 (F := F) x1 := by
  after_results_simp
  rw [a1]
  rfl

theorem s0b_v31 (W : Valuation τ sig (Elt F)) (h8 : W main_v8 = val_main_v8 (F := F) x0 x4)
    (h17 : W main_v17 = val_main_v17 (F := F) x0 x5) (a6 : W main_arg6 = x6) (a7 : W main_arg7 = x7)
    (a9 : W main_arg9 = x9) (a10 : W main_arg10 = x10) :
    after ops0b W main_v31 = val_main_v31 (F := F) x0 x4 x5 x6 x7 x9 x10 := by
  after_results_simp
  rw [h8, h17, a6, a7, a9, a10]
  rfl

-- first layer, relation 0: the masked messages summed per target; the mask as a float; a zero
theorem s0c_v48 (W : Valuation τ sig (Elt F)) (h23 : W main_v23 = val_main_v23 (F := F) x0 x4 x5 x6 x7)
    (h25 : W main_v25 = val_main_v25 (F := F) x1) (h27 : W main_v27 = val_main_v27 (F := F) x1)
    (a2 : W main_arg2 = x2) (a8 : W main_arg8 = x8) :
    after ops0c W main_v48 = val_main_v48 (F := F) x0 x1 x2 x4 x5 x6 x7 x8 := by
  after_results_simp
  rw [h23, h25, h27, a2, a8]
  rfl

theorem s0c_v49 (W : Valuation τ sig (Elt F)) (a2 : W main_arg2 = x2) :
    after ops0c W main_v49 = val_main_v49 (F := F) x2 := by
  after_results_simp
  rw [a2]
  rfl

theorem s0c_cst_7 (W : Valuation τ sig (Elt F)) : after ops0c W main_cst_7 = val_main_cst_7 (F := F) := by
  after_results_simp
  rfl

-- first layer, relation 0: the mean over each target's edges, added to the root term
theorem s1a_v58 (W : Valuation τ sig (Elt F)) (hc : W main_cst_7 = val_main_cst_7 (F := F))
    (h27 : W main_v27 = val_main_v27 (F := F) x1) (h49 : W main_v49 = val_main_v49 (F := F) x2)
    (h48 : W main_v48 = val_main_v48 (F := F) x0 x1 x2 x4 x5 x6 x7 x8)
    (h31 : W main_v31 = val_main_v31 (F := F) x0 x4 x5 x6 x7 x9 x10) :
    after ops1a W main_v58 = val_main_v58 (F := F) x0 x1 x2 x4 x5 x6 x7 x8 x9 x10 := by
  after_results_simp
  rw [hc, h27, h49, h48, h31]
  rfl

-- first layer, relation 1
theorem s1b_v85 (W : Valuation τ sig (Elt F)) (h23 : W main_v23 = val_main_v23 (F := F) x0 x4 x5 x6 x7)
    (h25 : W main_v25 = val_main_v25 (F := F) x1) (h27 : W main_v27 = val_main_v27 (F := F) x1)
    (h58 : W main_v58 = val_main_v58 (F := F) x0 x1 x2 x4 x5 x6 x7 x8 x9 x10)
    (a2 : W main_arg2 = x2) (a8 : W main_arg8 = x8) :
    after ops1b W main_v85 = val_main_v85 (F := F) x0 x1 x2 x4 x5 x6 x7 x8 x9 x10 := by
  after_results_simp
  rw [h23, h25, h27, h58, a2, a8]
  rfl

-- first layer, relation 2: the mask, the mask as a column, the gathered messages
theorem s1c_v87 (W : Valuation τ sig (Elt F)) (a2 : W main_arg2 = x2) :
    after ops1c W main_v87 = val_main_v87 (F := F) x2 := by
  after_results_simp
  rw [a2]
  rfl

theorem s1c_v91 (W : Valuation τ sig (Elt F)) (a2 : W main_arg2 = x2) :
    after ops1c W main_v91 = val_main_v91 (F := F) x2 := by
  after_results_simp
  rw [a2]
  rfl

theorem s1c_v98 (W : Valuation τ sig (Elt F)) (h23 : W main_v23 = val_main_v23 (F := F) x0 x4 x5 x6 x7)
    (h25 : W main_v25 = val_main_v25 (F := F) x1) (a8 : W main_arg8 = x8) :
    after ops1c W main_v98 = val_main_v98 (F := F) x0 x1 x4 x5 x6 x7 x8 := by
  after_results_simp
  rw [h23, h25, a8]
  rfl

-- first layer, relation 2: the mean added, the layer's output; the second layer's root term and bias
theorem s2a_v113 (W : Valuation τ sig (Elt F)) (h91 : W main_v91 = val_main_v91 (F := F) x2)
    (h98 : W main_v98 = val_main_v98 (F := F) x0 x1 x4 x5 x6 x7 x8) (h27 : W main_v27 = val_main_v27 (F := F) x1)
    (h87 : W main_v87 = val_main_v87 (F := F) x2)
    (h85 : W main_v85 = val_main_v85 (F := F) x0 x1 x2 x4 x5 x6 x7 x8 x9 x10) :
    after ops2a W main_v113 = val_main_v113 (F := F) x0 x1 x2 x4 x5 x6 x7 x8 x9 x10 := by
  after_results_simp
  rw [h91, h98, h27, h87, h85]
  rfl

theorem s2a_v117 (W : Valuation τ sig (Elt F)) (h91 : W main_v91 = val_main_v91 (F := F) x2)
    (h98 : W main_v98 = val_main_v98 (F := F) x0 x1 x4 x5 x6 x7 x8) (h27 : W main_v27 = val_main_v27 (F := F) x1)
    (h87 : W main_v87 = val_main_v87 (F := F) x2)
    (h85 : W main_v85 = val_main_v85 (F := F) x0 x1 x2 x4 x5 x6 x7 x8 x9 x10)
    (a12 : W main_arg12 = x12) (a13 : W main_arg13 = x13) :
    after ops2a W main_v117 = val_main_v117 (F := F) x0 x1 x2 x4 x5 x6 x7 x8 x9 x10 x12 x13 := by
  after_results_simp
  rw [h91, h98, h27, h87, h85, a12, a13]
  rfl

-- second layer, relation 0
theorem s2b_v144 (W : Valuation τ sig (Elt F))
    (h113 : W main_v113 = val_main_v113 (F := F) x0 x1 x2 x4 x5 x6 x7 x8 x9 x10)
    (h25 : W main_v25 = val_main_v25 (F := F) x1) (h27 : W main_v27 = val_main_v27 (F := F) x1)
    (h117 : W main_v117 = val_main_v117 (F := F) x0 x1 x2 x4 x5 x6 x7 x8 x9 x10 x12 x13)
    (a2 : W main_arg2 = x2) (a11 : W main_arg11 = x11) :
    after ops2b W main_v144 = val_main_v144 (F := F) x0 x1 x2 x4 x5 x6 x7 x8 x9 x10 x11 x12 x13 := by
  after_results_simp
  rw [h113, h25, h27, h117, a2, a11]
  rfl

-- second layer, relation 1: the mask
theorem s2c_v146 (W : Valuation τ sig (Elt F)) (a2 : W main_arg2 = x2) :
    after ops2c W main_v146 = val_main_v146 (F := F) x2 := by
  after_results_simp
  rw [a2]
  rfl

-- second layer, relation 1
theorem s3a_v171 (W : Valuation τ sig (Elt F))
    (h113 : W main_v113 = val_main_v113 (F := F) x0 x1 x2 x4 x5 x6 x7 x8 x9 x10)
    (h146 : W main_v146 = val_main_v146 (F := F) x2)
    (h25 : W main_v25 = val_main_v25 (F := F) x1) (h27 : W main_v27 = val_main_v27 (F := F) x1)
    (h144 : W main_v144 = val_main_v144 (F := F) x0 x1 x2 x4 x5 x6 x7 x8 x9 x10 x11 x12 x13)
    (a11 : W main_arg11 = x11) :
    after ops3a W main_v171 = val_main_v171 (F := F) x0 x1 x2 x4 x5 x6 x7 x8 x9 x10 x11 x12 x13 := by
  after_results_simp
  rw [h113, h146, h25, h27, h144, a11]
  rfl

-- second layer, relation 2: the summed messages, the count per target, the ones it is bounded below by
theorem s3b_v188 (W : Valuation τ sig (Elt F))
    (h113 : W main_v113 = val_main_v113 (F := F) x0 x1 x2 x4 x5 x6 x7 x8 x9 x10)
    (h25 : W main_v25 = val_main_v25 (F := F) x1) (h27 : W main_v27 = val_main_v27 (F := F) x1)
    (a2 : W main_arg2 = x2) (a11 : W main_arg11 = x11) :
    after ops3b W main_v188 = val_main_v188 (F := F) x0 x1 x2 x4 x5 x6 x7 x8 x9 x10 x11 := by
  after_results_simp
  rw [h113, h25, h27, a2, a11]
  rfl

theorem s3b_v192 (W : Valuation τ sig (Elt F)) (h27 : W main_v27 = val_main_v27 (F := F) x1) (a2 : W main_arg2 = x2) :
    after ops3b W main_v192 = val_main_v192 (F := F) x1 x2 := by
  after_results_simp
  rw [h27, a2]
  rfl

theorem s3b_v193 (W : Valuation τ sig (Elt F)) : after ops3b W main_v193 = val_main_v193 (F := F) := by
  after_results_simp
  rfl

-- the second layer's output, the mean over each graph, the readout
theorem s4_v215 (W : Valuation τ sig (Elt F)) (h192 : W main_v192 = val_main_v192 (F := F) x1 x2)
    (h193 : W main_v193 = val_main_v193 (F := F))
    (h188 : W main_v188 = val_main_v188 (F := F) x0 x1 x2 x4 x5 x6 x7 x8 x9 x10 x11)
    (h171 : W main_v171 = val_main_v171 (F := F) x0 x1 x2 x4 x5 x6 x7 x8 x9 x10 x11 x12 x13)
    (a3 : W main_arg3 = x3) (a14 : W main_arg14 = x14) (a15 : W main_arg15 = x15) :
    after ops4 W main_v215 = val_main_v215 (F := F) x0 x1 x2 x3 x4 x5 x6 x7 x8 x9 x10 x11 x12 x13 x14 x15 := by
  after_results_simp
  rw [h192, h193, h188, h171, a3, a14, a15]
  rfl

/-! ## The stretches in a row

From the launch contents `V`, stretch after stretch: the arguments' buffers are never written, a stage once
computed stays in its buffer until the last stretch that reads it, and each stretch adds its own. -/

section Chain

variable (V : Valuation τ sig (Elt F))

/-- The result buffer after the 290 operations holds the last stage of the arguments' launch contents. -/
theorem value :
    after ops V main_v215
      = val_main_v215 (F := F) (V main_arg0) (V main_arg1) (V main_arg2) (V main_arg3) (V main_arg4) (V main_arg5)
          (V main_arg6) (V main_arg7) (V main_arg8) (V main_arg9) (V main_arg10) (V main_arg11) (V main_arg12)
          (V main_arg13) (V main_arg14) (V main_arg15) := by
  simp only [ops, win0, win1, win2, win3, after_append]
  -- the embedding lookups
  have k0a : Kept V (after ops0a V) := (Kept.refl V).step ops0a_wr (by decide)
  have v8 := s0a_v8 V rfl rfl
  have v17 := s0a_v17 V rfl rfl
  -- the input layer, the edge list's rows, the first layer's root term and bias
  have k0b := k0a.step ops0b_wr (by decide)
  have v23 := s0b_v23 _ v8 v17 (k0a main_arg6 (by decide)) (k0a main_arg7 (by decide))
  have v25 := s0b_v25 _ (k0a main_arg1 (by decide))
  have v27 := s0b_v27 _ (k0a main_arg1 (by decide))
  have v31 := s0b_v31 _ v8 v17 (k0a main_arg6 (by decide)) (k0a main_arg7 (by decide)) (k0a main_arg9 (by decide))
    (k0a main_arg10 (by decide))
  -- first layer, relation 0
  have k0c := k0b.step ops0c_wr (by decide)
  have v48 := s0c_v48 _ v23 v25 v27 (k0b main_arg2 (by decide)) (k0b main_arg8 (by decide))
  have v49 := s0c_v49 _ (k0b main_arg2 (by decide))
  have c7 := s0c_cst_7 (F := F) (after ops0b (after ops0a V))
  replace v23 := (after_of_writes_sub ops0c _ ops0c_wr (r := main_v23) (by decide)).trans v23
  replace v25 := (after_of_writes_sub ops0c _ ops0c_wr (r := main_v25) (by decide)).trans v25
  replace v27 := (after_of_writes_sub ops0c _ ops0c_wr (r := main_v27) (by decide)).trans v27
  replace v31 := (after_of_writes_sub ops0c _ ops0c_wr (r := main_v31) (by decide)).trans v31
  have k1a := k0c.step ops1a_wr (by decide)
  have v58 := s1a_v58 _ c7 v27 v49 v48 v31
  replace v23 := (after_of_writes_sub ops1a _ ops1a_wr (r := main_v23) (by decide)).trans v23
  replace v25 := (after_of_writes_sub ops1a _ ops1a_wr (r := main_v25) (by decide)).trans v25
  replace v27 := (after_of_writes_sub ops1a _ ops1a_wr (r := main_v27) (by decide)).trans v27
  -- first layer, relation 1
  have k1b := k1a.step ops1b_wr (by decide)
  have v85 := s1b_v85 _ v23 v25 v27 v58 (k1a main_arg2 (by decide)) (k1a main_arg8 (by decide))
  replace v23 := (after_of_writes_sub ops1b _ ops1b_wr (r := main_v23) (by decide)).trans v23
  replace v25 := (after_of_writes_sub ops1b _ ops1b_wr (r := main_v25) (by decide)).trans v25
  replace v27 := (after_of_writes_sub ops1b _ ops1b_wr (r := main_v27) (by decide)).trans v27
  -- first layer, relation 2
  have k1c := k1b.step ops1c_wr (by decide)
  have v87 := s1c_v87 _ (k1b main_arg2 (by decide))
  have v91 := s1c_v91 _ (k1b main_arg2 (by decide))
  have v98 := s1c_v98 _ v23 v25 (k1b main_arg8 (by decide))
  replace v25 := (after_of_writes_sub ops1c _ ops1c_wr (r := main_v25) (by decide)).trans v25
  replace v27 := (after_of_writes_sub ops1c _ ops1c_wr (r := main_v27) (by decide)).trans v27
  replace v85 := (after_of_writes_sub ops1c _ ops1c_wr (r := main_v85) (by decide)).trans v85
  have k2a := k1c.step ops2a_wr (by decide)
  have v113 := s2a_v113 _ v91 v98 v27 v87 v85
  have v117 := s2a_v117 _ v91 v98 v27 v87 v85 (k1c main_arg12 (by decide)) (k1c main_arg13 (by decide))
  replace v25 := (after_of_writes_sub ops2a _ ops2a_wr (r := main_v25) (by decide)).trans v25
  replace v27 := (after_of_writes_sub ops2a _ ops2a_wr (r := main_v27) (by decide)).trans v27
  -- second layer, relation 0
  have k2b := k2a.step ops2b_wr (by decide)
  have v144 := s2b_v144 _ v113 v25 v27 v117 (k2a main_arg2 (by decide)) (k2a main_arg11 (by decide))
  replace v25 := (after_of_writes_sub ops2b _ ops2b_wr (r := main_v25) (by decide)).trans v25
  replace v27 := (after_of_writes_sub ops2b _ ops2b_wr (r := main_v27) (by decide)).trans v27
  replace v113 := (after_of_writes_sub ops2b _ ops2b_wr (r := main_v113) (by decide)).trans v113
  -- second layer, relation 1
  have k2c := k2b.step ops2c_wr (by decide)
  have v146 := s2c_v146 _ (k2b main_arg2 (by decide))
  replace v25 := (after_of_writes_sub ops2c _ ops2c_wr (r := main_v25) (by decide)).trans v25
  replace v27 := (after_of_writes_sub ops2c _ ops2c_wr (r := main_v27) (by decide)).trans v27
  replace v113 := (after_of_writes_sub ops2c _ ops2c_wr (r := main_v113) (by decide)).trans v113
  replace v144 := (after_of_writes_sub ops2c _ ops2c_wr (r := main_v144) (by decide)).trans v144
  have k3a := k2c.step ops3a_wr (by decide)
  have v171 := s3a_v171 _ v113 v146 v25 v27 v144 (k2c main_arg11 (by decide))
  replace v25 := (after_of_writes_sub ops3a _ ops3a_wr (r := main_v25) (by decide)).trans v25
  replace v27 := (after_of_writes_sub ops3a _ ops3a_wr (r := main_v27) (by decide)).trans v27
  replace v113 := (after_of_writes_sub ops3a _ ops3a_wr (r := main_v113) (by decide)).trans v113
  -- second layer, relation 2
  have k3b := k3a.step ops3b_wr (by decide)
  have v188 := s3b_v188 _ v113 v25 v27 (k3a main_arg2 (by decide)) (k3a main_arg11 (by decide))
  have v192 := s3b_v192 _ v27 (k3a main_arg2 (by decide))
  have v193 := s3b_v193 (F := F) (after ops3a (after ops2c (after ops2b (after ops2a (after ops1c (after ops1b (after ops1a
    (after ops0c (after ops0b (after ops0a V))))))))))
  replace v171 := (after_of_writes_sub ops3b _ ops3b_wr (r := main_v171) (by decide)).trans v171
  -- the layer's output, the mean over each graph, the readout
  exact s4_v215 _ v192 v193 v188 v171 (k3b main_arg3 (by decide)) (k3b main_arg14 (by decide)) (k3b main_arg15 (by decide))

/-- The arguments' buffers after the 290 operations hold their launch contents. -/
theorem args_kept : Kept V (after ops V) := by
  simp only [ops, win0, win1, win2, win3, after_append]
  exact (((((((((((((Kept.refl V).step ops0a_wr (by decide)).step ops0b_wr (by decide)).step ops0c_wr
    (by decide)).step ops1a_wr (by decide)).step ops1b_wr (by decide)).step ops1c_wr (by decide)).step ops2a_wr
    (by decide)).step ops2b_wr (by decide)).step ops2c_wr (by decide)).step ops3a_wr (by decide)).step ops3b_wr
    (by decide)).step ops4_wr (by decide))

end Chain

/-! ## The run -/

/-- On every device, for any float values, from any memory with zero counters: every weakly fair execution of
    @main terminates with the result buffer at the last stage of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v215) = Cert.ReferenceIdeal.Read.val_main_v215 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c =>
    have k := args_kept (launchContents m c)
    ⟨(h c main_v215).trans (value (launchContents m c)),
      (h c main_arg0).trans (k main_arg0 (by decide)),
      (h c main_arg1).trans (k main_arg1 (by decide)),
      (h c main_arg2).trans (k main_arg2 (by decide)),
      (h c main_arg3).trans (k main_arg3 (by decide)),
      (h c main_arg4).trans (k main_arg4 (by decide)),
      (h c main_arg5).trans (k main_arg5 (by decide)),
      (h c main_arg6).trans (k main_arg6 (by decide)),
      (h c main_arg7).trans (k main_arg7 (by decide)),
      (h c main_arg8).trans (k main_arg8 (by decide)),
      (h c main_arg9).trans (k main_arg9 (by decide)),
      (h c main_arg10).trans (k main_arg10 (by decide)),
      (h c main_arg11).trans (k main_arg11 (by decide)),
      (h c main_arg12).trans (k main_arg12 (by decide)),
      (h c main_arg13).trans (k main_arg13 (by decide)),
      (h c main_arg14).trans (k main_arg14 (by decide)),
      (h c main_arg15).trans (k main_arg15 (by decide))⟩)
    (run_after m ρ)

end Cert.ReferenceIdeal.RefRun

end
-- ==== Proof.PreDecode.lean ====
/-
  The precondition, read back. The printed predicate is one truth value: the conjunction of fifteen "every
  entry passes" tests, each a reduction by `and` over a whole array of one-bit comparison words. Twelve of them
  compare |x| with +∞ entrywise on the twelve float arrays; three are signed two-sided range tests on the integer
  arrays: 0 ≤ · < 16 on the node table, 0 ≤ · < 100000 on row 1 of the edge table, 0 ≤ · < 3 on the edge types.

  From "the predicate is 1" this file derives the arithmetic facts themselves (`Decoded`):
  * an extended real x with max x (−x) < ⊤ is neither ⊤ nor ⊥, hence a real number (`real_of_abs_lt_top`);
  * a conjunction that is 1 has both conjuncts 1; a reduction by `and` to a single value that is 1 had a 1 at
    every entry (`fin_of_all`, `rng_of_all`);
  * a signed comparison word that is 1 states the order of its operands read as signed integers;
  * row 1 of a [2 × n] table, flattened to [n], reads at position e the table at (1, e) (`row1_apply`): the slice
    shifts the row coordinate by 1, and the flattening of a [1 × n] array matches position e with (0, e), both
    having row-major position e.
-/
import proofs.«428839_j88648124990070_3_alg».proof.Pre_finite_inputs
import proofs.«428839_j88648124990070_3_alg».proof.Proof.Gen.Pre_finite_inputs
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx
open Cert.Pre_finite_inputs

/-- The scalar shape has one index. -/
instance : Subsingleton S_.Idx := ⟨fun a b => funext fun d => d.elim0⟩

/-! ## The four bounds, read signed -/

theorem toInt_0 : (0#32 : BitVec 32).toInt = 0 := by decide
theorem toInt_3 : (3#32 : BitVec 32).toInt = 3 := by decide
theorem toInt_16 : (16#32 : BitVec 32).toInt = 16 := by decide
theorem toInt_100000 : (100000#32 : BitVec 32).toInt = 100000 := by decide

/-! ## One entry -/

/-- An extended real whose absolute value max x (−x) is strictly below +∞ (the word 0x7F800000) is a real number:
    at ⊥ and at ⊤ the absolute value is ⊤, which is not below itself. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  simp only [Ideal.cmp, StableHlo.Predicate.ofBool_eq_one_iff, decide_eq_true_eq] at h
  induction x using EReal.rec with
  | bot => simp at h
  | coe r => exact ⟨r, rfl⟩
  | top => simp at h

/-! ## One conjunct -/

/-- "Every |a i| is below +∞" as the predicate states it, for an array of any shape: every entry is a real. -/
theorem fin_of_all {s : Shape} {axes : List (Fin s.rank)} (hb : S_.BroadcastsInDim s (![] : Fin 0 → Fin s.rank))
    (hr : s.ReducesTo axes S_) (h0 : 0 < S_.numel) (a : FVec Ideal s .f32)
    (e : Host.reduce IntOp.andi
          (cmpf .olt (Host.absf a) (broadcastInDim s ![] hb (constant (F := Ideal) S_ .f32 0x7F800000#32)))
          (constantI S_ 1 1#1) hr h0 ix0 = 1#1) (i : s.Idx) : ∃ r : ℝ, a i = (r : EReal) :=
  real_of_abs_lt_top (a i) (Host.reduce_andi_all _ _ hr h0 ix0 e i)

/-- "Every x i is at least lo and below hi, signed" as the predicate states it, for an array of any shape. -/
theorem rng_of_all {s : Shape} {axes : List (Fin s.rank)} (hb : S_.BroadcastsInDim s (![] : Fin 0 → Fin s.rank))
    (hr : s.ReducesTo axes S_) (h0 : 0 < S_.numel) (x : IVec s 32) (lo hi : BitVec 32)
    (e : Host.reduce IntOp.andi
          (andi (cmpi .sge x (broadcastInDim s ![] hb (constantI S_ 32 lo)))
                (cmpi .slt x (broadcastInDim s ![] hb (constantI S_ 32 hi))))
          (constantI S_ 1 1#1) hr h0 ix0 = 1#1) (i : s.Idx) :
    lo.toInt ≤ (x i).toInt ∧ (x i).toInt < hi.toInt := by
  have h := Host.reduce_andi_all _ _ hr h0 ix0 e i
  change IntOp.andi (IntOp.cmpi .sge (x i) lo) (IntOp.cmpi .slt (x i) hi) = 1#1 at h
  obtain ⟨h1, h2⟩ := IntOp.andi_eq_one.1 h
  exact ⟨IntOp.cmpi_sge.1 h1, IntOp.cmpi_slt.1 h2⟩

/-- A conjunction of two truth values that is 1 has both 1. -/
theorem and_ix0 {x y : IVec S_ 1} (h : andi x y ix0 = 1#1) : x ix0 = 1#1 ∧ y ix0 = 1#1 :=
  IntOp.andi_eq_one.1 h

/-- Row 1 of the [2 × 1200000] table, flattened, reads at e the table at (1, e). -/
theorem row1_apply (hs : S2x1200000.Slices ![1, 0] S1x1200000) (hc : S1x1200000.ShapeCasts S1200000)
    (a1 : IVec S2x1200000 32) (e : Fin 1200000) :
    shapeCast S1200000 (extractStridedSlice S1x1200000 ![1, 0] a1 hs) hc (ix1 e) = a1 (ix2 (1 : Fin 2) e) := by
  -- position e of the flat array and (0, e) of the [1 × 1200000] one have the same row-major position
  have hk : Shape.reshapeEquiv hc (ix1 e) = (ix2 (0 : Fin 1) e : S1x1200000.Idx) :=
    Shape.reshapeEquiv_eq_of_rowMajor hc (by
      rw [Shape.rowMajor_val_two, Shape.rowMajor_val_one]
      show 0 * 1200000 + e.val = e.val
      omega)
  unfold shapeCast extractStridedSlice
  rw [hk]
  refine congrArg a1 (funext fun a => Fin.ext ?_)
  match a with
  | ⟨0, _⟩ => rfl
  | ⟨1, _⟩ => show 0 + e.val = e.val; omega

/-! ## The whole predicate -/

/-- What the precondition says of the inputs: every float entry is a real number, every node label is in [0, 16),
    every destination (row 1 of the edge table) is in [0, 100000), every edge type is in [0, 3). -/
structure Decoded (a0 : IVec S100000x2 32) (a1 : IVec S2x1200000 32) (a2 : IVec S1200000 32)
    (a4 : FVec Ideal S16x8 .f32) (a5 : FVec Ideal S16x8 .f32) (a6 : FVec Ideal S16x32 .f32) (a7 : FVec Ideal S32 .f32) (a8 : FVec Ideal S3x32x64 .f32) (a9 : FVec Ideal S32x64 .f32) (a10 : FVec Ideal S64 .f32) (a11 : FVec Ideal S3x64x64 .f32) (a12 : FVec Ideal S64x64 .f32) (a13 : FVec Ideal S64 .f32) (a14 : FVec Ideal S64x10 .f32) (a15 : FVec Ideal S10 .f32) : Prop where
  fin4 : ∀ i : S16x8.Idx, ∃ r : ℝ, a4 i = (r : EReal)
  fin5 : ∀ i : S16x8.Idx, ∃ r : ℝ, a5 i = (r : EReal)
  fin6 : ∀ i : S16x32.Idx, ∃ r : ℝ, a6 i = (r : EReal)
  fin7 : ∀ i : S32.Idx, ∃ r : ℝ, a7 i = (r : EReal)
  fin8 : ∀ i : S3x32x64.Idx, ∃ r : ℝ, a8 i = (r : EReal)
  fin9 : ∀ i : S32x64.Idx, ∃ r : ℝ, a9 i = (r : EReal)
  fin10 : ∀ i : S64.Idx, ∃ r : ℝ, a10 i = (r : EReal)
  fin11 : ∀ i : S3x64x64.Idx, ∃ r : ℝ, a11 i = (r : EReal)
  fin12 : ∀ i : S64x64.Idx, ∃ r : ℝ, a12 i = (r : EReal)
  fin13 : ∀ i : S64.Idx, ∃ r : ℝ, a13 i = (r : EReal)
  fin14 : ∀ i : S64x10.Idx, ∃ r : ℝ, a14 i = (r : EReal)
  fin15 : ∀ i : S10.Idx, ∃ r : ℝ, a15 i = (r : EReal)
  x_rng : ∀ i : S100000x2.Idx, 0 ≤ (a0 i).toInt ∧ (a0 i).toInt < 16
  dst_rng : ∀ e : Fin 1200000, 0 ≤ (a1 (ix2 (1 : Fin 2) e)).toInt ∧ (a1 (ix2 (1 : Fin 2) e)).toInt < 100000
  et_rng : ∀ i : S1200000.Idx, 0 ≤ (a2 i).toInt ∧ (a2 i).toInt < 3

/-- The predicate is a left-nested conjunction of its fifteen tests; peel them from the outside in. -/
theorem decoded_of_pre [Cert.Pre_finite_inputs.Facts] (a0 : IVec S100000x2 32) (a1 : IVec S2x1200000 32)
    (a2 : IVec S1200000 32) (a3 : IVec S100000 32)
    (a4 : FVec Ideal S16x8 .f32) (a5 : FVec Ideal S16x8 .f32) (a6 : FVec Ideal S16x32 .f32) (a7 : FVec Ideal S32 .f32) (a8 : FVec Ideal S3x32x64 .f32) (a9 : FVec Ideal S32x64 .f32) (a10 : FVec Ideal S64 .f32) (a11 : FVec Ideal S3x64x64 .f32) (a12 : FVec Ideal S64x64 .f32) (a13 : FVec Ideal S64 .f32) (a14 : FVec Ideal S64x10 .f32) (a15 : FVec Ideal S10 .f32)
    (h : Cert.Pre_finite_inputs.fn (F := Ideal) a0 a1 a2 a3 a4 a5 a6 a7 a8 a9 a10 a11 a12 a13 a14 a15 = (fun _ => 1#1)) :
    Decoded a0 a1 a2 a4 a5 a6 a7 a8 a9 a10 a11 a12 a13 a14 a15 := by
  have e := congrFun h ix0
  dsimp only [fn, fn_part1, fn_part2, fn_part3, fn_part4] at e
  obtain ⟨e, h_et⟩ := and_ix0 e
  obtain ⟨e, h_dst⟩ := and_ix0 e
  obtain ⟨e, h_x⟩ := and_ix0 e
  obtain ⟨e, h15⟩ := and_ix0 e
  obtain ⟨e, h14⟩ := and_ix0 e
  obtain ⟨e, h13⟩ := and_ix0 e
  obtain ⟨e, h12⟩ := and_ix0 e
  obtain ⟨e, h11⟩ := and_ix0 e
  obtain ⟨e, h10⟩ := and_ix0 e
  obtain ⟨e, h9⟩ := and_ix0 e
  obtain ⟨e, h8⟩ := and_ix0 e
  obtain ⟨e, h7⟩ := and_ix0 e
  obtain ⟨e, h6⟩ := and_ix0 e
  obtain ⟨h4, h5⟩ := and_ix0 e
  exact {
      fin4 := fin_of_all _ _ _ a4 h4
      fin5 := fin_of_all _ _ _ a5 h5
      fin6 := fin_of_all _ _ _ a6 h6
      fin7 := fin_of_all _ _ _ a7 h7
      fin8 := fin_of_all _ _ _ a8 h8
      fin9 := fin_of_all _ _ _ a9 h9
      fin10 := fin_of_all _ _ _ a10 h10
      fin11 := fin_of_all _ _ _ a11 h11
      fin12 := fin_of_all _ _ _ a12 h12
      fin13 := fin_of_all _ _ _ a13 h13
      fin14 := fin_of_all _ _ _ a14 h14
      fin15 := fin_of_all _ _ _ a15 h15
      x_rng := fun i => by
        have r := rng_of_all _ _ _ a0 _ _ h_x i
        rwa [toInt_0, toInt_16] at r
      dst_rng := fun j => by
        have r := rng_of_all _ _ _ _ _ _ h_dst (ix1 j)
        rwa [row1_apply, toInt_0, toInt_100000] at r
      et_rng := fun i => by
        have r := rng_of_all _ _ _ a2 _ _ h_et i
        rwa [toInt_0, toInt_3] at r }

end Cert.PreDecode

end
-- ==== Proof.lean ====
/-
  A graph network: two 16-row embedding tables looked up by node labels, a dense layer, two relational graph layers
  (per relation, the mean of the neighbours' transformed features), the mean over each graph's nodes, a last dense
  layer. The kernel program averages the neighbours' features FIRST and applies the relation matrices to the averages,
  all four matrices of a layer stacked into one product; the reference transforms first and averages after. Over the
  reals a mean commutes with a linear map, so the two are one function (`GnnSpec.dense_comb`); every float input
  being finite, every intermediate value is a real, and both programs' results are the coercion of that one real
  function (`GnnNet.out`): the kernel's by `kernel_value`, the reference's by `ref_value`.
  The labels index the 16-row tables, the edge destinations are segment ids below the node count and the relation ids
  labels below three: the precondition says so, and the kernel's one-hot lookup and fused (destination, relation)
  segment id agree with the reference's lookups and masks exactly there.
-/
import proofs.«428839_j88648124990070_3_alg».proof.Defs
import proofs.«428839_j88648124990070_3_alg».proof.Proof.Gen.Kernel
import proofs.«428839_j88648124990070_3_alg».proof.Proof.Gen.Kernel.Skeleton
import proofs.«428839_j88648124990070_3_alg».proof.Proof.Gen.Kernel.Launch
import proofs.«428839_j88648124990070_3_alg».proof.Proof.Gen.Kernel.Points
import proofs.«428839_j88648124990070_3_alg».proof.Proof.Gen.Kernel.Frame
import proofs.«428839_j88648124990070_3_alg».proof.Proof.Gen.KernelIdeal
import proofs.«428839_j88648124990070_3_alg».proof.Proof.Gen.KernelIdeal.Skeleton
import proofs.«428839_j88648124990070_3_alg».proof.Proof.Gen.KernelIdeal.Launch
import proofs.«428839_j88648124990070_3_alg».proof.Proof.Gen.KernelIdeal.Points
import proofs.«428839_j88648124990070_3_alg».proof.Proof.Gen.KernelIdeal.Frame
import proofs.«428839_j88648124990070_3_alg».proof.Proof.Gen.ReferenceIdeal
import proofs.«428839_j88648124990070_3_alg».proof.Proof.Gen.Pre_finite_inputs
import proofs.«428839_j88648124990070_3_alg».proof.Proof.KernelRun
import proofs.«428839_j88648124990070_3_alg».proof.Proof.KValue
import proofs.«428839_j88648124990070_3_alg».proof.Proof.RefValue
import proofs.«428839_j88648124990070_3_alg».proof.Proof.RefRun
import proofs.«428839_j88648124990070_3_alg».proof.Proof.PreDecode
import Idealize.ShloMosaic.Adequacy
import Idealize.ShloMosaic.Init

noncomputable section

namespace Cert.Proof

open Idealize.ShloMosaic Idealize.SL.Sem Idealize.ShloMosaic.ValueIdx

/-- Both idealized programs end at the network's real function of the decoded arguments. -/
theorem algebraic [hK : Cert.KernelIdeal.Facts] [hR : Cert.ReferenceIdeal.Facts] [hP : Cert.Pre_finite_inputs.Facts] :
    Cert.algebraic_KernelIdeal_ReferenceIdeal := by
  intro m ρ m' ρ' hpre hagree
  refine ⟨fun c => Cert.KernelIdeal.Gen.W10 m ρ c (Proc.devRef .tc Cert.KernelIdeal.main_v0),
    Cert.KernelIdeal.RunValue.run_value (F := Ideal) m ρ, ?_⟩
  refine (θ_run Cert.ReferenceIdeal.defs _ _).mono (fun _ h c => ⟨(h c).1.trans ?_, (h c).2⟩)
    (Cert.ReferenceIdeal.RefRun.run (F := Ideal) m' ρ')
  -- the precondition decoded at device c
  have hd := Cert.PreDecode.decoded_of_pre _ _ _ _ _ _ _ _ _ _ _ _ _ _ _ _ (hpre c)
  obtain ⟨A, hA⟩ := GnnNet.exists_reads (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
    hd.fin4 hd.fin5 hd.fin6 hd.fin7 hd.fin8 hd.fin9 hd.fin10 hd.fin11 hd.fin12 hd.fin13 hd.fin14 hd.fin15 hd.x_rng hd.dst_rng hd.et_rng
  have hA' : GnnNet.Reads (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) A := by
    obtain ⟨e0, e1, e2, e3, e4, e5, e6, e7, e8, e9, e10, e11, e12, e13, e14, e15⟩ := hagree c
    rw [e0, e1, e2, e3, e4, e5, e6, e7, e8, e9, e10, e11, e12, e13, e14, e15]
    exact hA
  funext i
  obtain ⟨g, q, rfl⟩ : ∃ (g : Fin 512) (q : Fin 10), i = ix2 g q := ⟨i 0, i 1, eq_ix2 i⟩
  exact (Cert.ReferenceIdeal.RV.ref_value _ _ _ _ _ _ _ _ _ _ _ _ _ _ _ _ A hA' g q).trans
    (Cert.KernelIdeal.KV.kernel_value m ρ c A hA g q).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RefRun.run (F := Ideal) m ρ),
  trivial,
  algebraic⟩

end Cert.Proof

end
